-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x240 : Shape := ⟨2, ![200000, 240]⟩
abbrev S200000 : Shape := ⟨1, ![200000]⟩
abbrev S112 : Shape := ⟨1, ![112]⟩
abbrev S64 : Shape := ⟨1, ![64]⟩
abbrev S_ : Shape := ⟨0, ![]⟩

class Facts : Prop where
  bcast_S_S200000x240 : S_.BroadcastsInDim S200000x240 (![] : Fin 0 → Fin S200000x240.rank)
  reducesTo_S200000x240_S_d0_1 : S200000x240.ReducesTo [0, 1] S_
  h_S_ : 0 < S_.numel
  bcast_S_S112 : S_.BroadcastsInDim S112 (![] : Fin 0 → Fin S112.rank)
  reducesTo_S112_S_d0 : S112.ReducesTo [0] S_
  bcast_S_S64 : S_.BroadcastsInDim S64 (![] : Fin 0 → Fin S64.rank)
  reducesTo_S64_S_d0 : S64.ReducesTo [0] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg1 : IVec S200000 32) (main_v13 : IVec S_ 1) (main_v15 : IVec S200000 1) (main_c_5 : IVec S_ 32) : IVec S_ 1 :=
  let main_v16 : IVec S200000 32 := broadcastInDim S200000 ![] bcast_S_S200000 main_c_5
  let main_v17 : IVec S200000 1 := cmpi .slt main_arg1 main_v16
  let main_v18 : IVec S200000 1 := andi main_v15 main_v17
  let main_c_6 : IVec S_ 1 := constantI S_ 1 1#1
  let main_v19 : IVec S_ 1 := (fun x v => Host.reduce IntOp.andi x v reducesTo_S200000_S_d0 h_S_) main_v18 main_c_6
  let main_v20 : IVec S_ 1 := andi main_v13 main_v19
  main_v20

def fn {F : FTy → Type} [FloatOps F] (main_arg0 : FVec F S200000x240 .f32) (main_arg1 : IVec S200000 32) (main_arg2 : FVec F S112 .f32) (main_arg3 : FVec F S64 .f32) : IVec S_ 1 :=
  let main_v0 : FVec F S200000x240 .f32 := Host.absf main_arg0
  let main_cst : FVec F S_ .f32 := constant S_ .f32 0x7F800000#32
  let main_v1 : FVec F S200000x240 .f32 := broadcastInDim S200000x240 ![] bcast_S_S200000x240 main_cst
  let main_v2 : IVec S200000x240 1 := cmpf .olt main_v0 main_v1
  let main_c : IVec S_ 1 := constantI S_ 1 1#1
  let main_v3 : IVec S_ 1 := (fun x v => Host.reduce IntOp.andi x v reducesTo_S200000x240_S_d0_1 h_S_) main_v2 main_c
  let main_v4 : FVec F S112 .f32 := Host.absf main_arg2
  let main_cst_0 : FVec F S_ .f32 := constant S_ .f32 0x7F800000#32
  let main_v5 : FVec F S112 .f32 := broadcastInDim S112 ![] bcast_S_S112 main_cst_0
  let main_v6 : IVec S112 1 := cmpf .olt main_v4 main_v5
  let main_c_1 : IVec S_ 1 := constantI S_ 1 1#1
  let main_v7 : IVec S_ 1 := (fun x v => Host.reduce IntOp.andi x v reducesTo_S112_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S200000 32 := broadcastInDim S200000 ![] bcast_S_S200000 main_c_4
  let main_v15 : IVec S200000 1 := cmpi .sge main_arg1 main_v14
  let main_c_5 : IVec S_ 32 := constantI S_ 32 64#32
  fn_part1 (F := F) main_arg1 main_v13 main_v15 main_c_5
-- ==== Kernel.lean ====
abbrev S200000x240 : Shape := ⟨2, ![200000, 240]⟩
abbrev S200000 : Shape := ⟨1, ![200000]⟩
abbrev S112 : Shape := ⟨1, ![112]⟩
abbrev S64 : Shape := ⟨1, ![64]⟩
abbrev S50x1x4000 : Shape := ⟨3, ![50, 1, 4000]⟩
abbrev S2x64x240 : Shape := ⟨3, ![2, 64, 240]⟩
abbrev S2x64x64 : Shape := ⟨3, ![2, 64, 64]⟩
abbrev S2x64x1 : Shape := ⟨3, ![2, 64, 1]⟩
abbrev S4000x240 : Shape := ⟨2, ![4000, 240]⟩
abbrev S1x1x4000 : Shape := ⟨3, ![1, 1, 4000]⟩
abbrev S1x64x240 : Shape := ⟨3, ![1, 64, 240]⟩
abbrev S1x64x64 : Shape := ⟨3, ![1, 64, 64]⟩
abbrev S1x64x1 : Shape := ⟨3, ![1, 64, 1]⟩
abbrev S64x240 : Shape := ⟨2, ![64, 240]⟩
abbrev S64x64 : Shape := ⟨2, ![64, 64]⟩
abbrev S64x1 : Shape := ⟨2, ![64, 1]⟩
abbrev S1x4000 : Shape := ⟨2, ![1, 4000]⟩
abbrev S64x4000 : Shape := ⟨2, ![64, 4000]⟩
abbrev S4000x64 : Shape := ⟨2, ![4000, 64]⟩
abbrev S_ : Shape := ⟨0, ![]⟩
abbrev S64x96 : Shape := ⟨2, ![64, 96]⟩
abbrev S64x32x3 : Shape := ⟨3, ![64, 32, 3]⟩
abbrev S64x3 : Shape := ⟨2, ![64, 3]⟩
abbrev S64x80 : Shape := ⟨2, ![64, 80]⟩
abbrev S64x16x5 : Shape := ⟨3, ![64, 16, 5]⟩
abbrev S64x5 : Shape := ⟨2, ![64, 5]⟩
abbrev S32 : Shape := ⟨1, ![32]⟩
abbrev S16 : Shape := ⟨1, ![16]⟩
abbrev S32x3 : Shape := ⟨2, ![32, 3]⟩
abbrev S96 : Shape := ⟨1, ![96]⟩
abbrev S16x5 : Shape := ⟨2, ![16, 5]⟩
abbrev S80 : Shape := ⟨1, ![80]⟩
abbrev S1x64x1x3 : Shape := ⟨4, ![1, 64, 1, 3]⟩
abbrev S1x64x32x3 : Shape := ⟨4, ![1, 64, 32, 3]⟩
abbrev S1x64x1x5 : Shape := ⟨4, ![1, 64, 1, 5]⟩
abbrev S1x64x16x5 : Shape := ⟨4, ![1, 64, 16, 5]⟩
abbrev S1x64 : Shape := ⟨2, ![1, 64]⟩
abbrev S1x96 : Shape := ⟨2, ![1, 96]⟩
abbrev S1x80 : Shape := ⟨2, ![1, 80]⟩
abbrev S64x16 : Shape := ⟨2, ![64, 16]⟩
abbrev S64x256 : Shape := ⟨2, ![64, 256]⟩
abbrev S64x512 : Shape := ⟨2, ![64, 512]⟩
abbrev S4000x512 : Shape := ⟨2, ![4000, 512]⟩

abbrev nBuf : Space → Nat
  | .hbm => 117
  | .vmem => 18
  | .smem => 0
  | _ => 0

abbrev bufTy : (tb : Table) → Fin (tcTables nBuf tb) → BufTy
  | .hbm, ⟨0, _⟩ => ⟨S200000x240, .f32⟩
  | .hbm, ⟨1, _⟩ => ⟨S200000, .i32⟩
  | .hbm, ⟨2, _⟩ => ⟨S112, .f32⟩
  | .hbm, ⟨3, _⟩ => ⟨S64, .f32⟩
  | .hbm, ⟨4, _⟩ => ⟨S50x1x4000, .i32⟩
  | .hbm, ⟨5, _⟩ => ⟨S2x64x240, .f32⟩
  | .hbm, ⟨6, _⟩ => ⟨S2x64x64, .f32⟩
  | .hbm, ⟨7, _⟩ => ⟨S2x64x1, .f32⟩
  | .hbm, ⟨8, _⟩ => ⟨S1x64x240, .f32⟩
  | .hbm, ⟨9, _⟩ => ⟨S64x240, .f32⟩
  | .hbm, ⟨10, _⟩ => ⟨S1x64x240, .f32⟩
  | .hbm, ⟨11, _⟩ => ⟨S64x240, .f32⟩
  | .hbm, ⟨12, _⟩ => ⟨S64x240, .f32⟩
  | .hbm, ⟨13, _⟩ => ⟨S1x64x64, .f32⟩
  | .hbm, ⟨14, _⟩ => ⟨S64x64, .f32⟩
  | .hbm, ⟨15, _⟩ => ⟨S1x64x64, .f32⟩
  | .hbm, ⟨16, _⟩ => ⟨S64x64, .f32⟩
  | .hbm, ⟨17, _⟩ => ⟨S64x64, .f32⟩
  | .hbm, ⟨18, _⟩ => ⟨S1x64x1, .f32⟩
  | .hbm, ⟨19, _⟩ => ⟨S64, .f32⟩
  | .hbm, ⟨20, _⟩ => ⟨S1x64x1, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64x1, .f32⟩
  | .hbm, ⟨27, _⟩ => ⟨S64x240, .f32⟩
  | .hbm, ⟨28, _⟩ => ⟨S64x240, .f32⟩
  | .hbm, ⟨29, _⟩ => ⟨S64x64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x96, .f32⟩
  | .hbm, ⟨36, _⟩ => ⟨S64x32x3, .f32⟩
  | .hbm, ⟨37, _⟩ => ⟨S_, .f32⟩
  | .hbm, ⟨38, _⟩ => ⟨S64x3, .f32⟩
  | .hbm, ⟨39, _⟩ => ⟨S_, .f32⟩
  | .hbm, ⟨40, _⟩ => ⟨S64x3, .f32⟩
  | .hbm, ⟨41, _⟩ => ⟨S64x3, .f32⟩
  | .hbm, ⟨42, _⟩ => ⟨S64x80, .f32⟩
  | .hbm, ⟨43, _⟩ => ⟨S64x16x5, .f32⟩
  | .hbm, ⟨44, _⟩ => ⟨S_, .f32⟩
  | .hbm, ⟨45, _⟩ => ⟨S64x5, .f32⟩
  | .hbm, ⟨46, _⟩ => ⟨S_, .f32⟩
  | .hbm, ⟨47, _⟩ => ⟨S64x5, .f32⟩
  | .hbm, ⟨48, _⟩ => ⟨S64x5, .f32⟩
  | .hbm, ⟨49, _⟩ => ⟨S64x1, .f32⟩
  | .hbm, ⟨50, _⟩ => ⟨S64x64, .f32⟩
  | .hbm, ⟨51, _⟩ => ⟨S64x64, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S32, .f32⟩
  | .hbm, ⟨71, _⟩ => ⟨S16, .f32⟩
  | .hbm, ⟨72, _⟩ => ⟨S32x3, .f32⟩
  | .hbm, ⟨73, _⟩ => ⟨S96, .f32⟩
  | .hbm, ⟨74, _⟩ => ⟨S16x5, .f32⟩
  | .hbm, ⟨75, _⟩ => ⟨S80, .f32⟩
  | .hbm, ⟨76, _⟩ => ⟨S1x64x1x3, .f32⟩
  | .hbm, ⟨77, _⟩ => ⟨S1x64x32x3, .f32⟩
  | .hbm, ⟨78, _⟩ => ⟨S64x96, .f32⟩
  | .hbm, ⟨79, _⟩ => ⟨S1x64x1x5, .f32⟩
  | .hbm, ⟨80, _⟩ => ⟨S1x64x16x5, .f32⟩
  | .hbm, ⟨81, _⟩ => ⟨S64x80, .f32⟩
  | .hbm, ⟨82, _⟩ => ⟨S64x1, .f32⟩
  | .hbm, ⟨83, _⟩ => ⟨S1x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S1x64, .f32⟩
  | .hbm, ⟨88, _⟩ => ⟨S64x1, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S1x96, .f32⟩
  | .hbm, ⟨94, _⟩ => ⟨S64x96, .f32⟩
  | .hbm, ⟨95, _⟩ => ⟨S64x96, .f32⟩
  | .hbm, ⟨96, _⟩ => ⟨S1x96, .f32⟩
  | .hbm, ⟨97, _⟩ => ⟨S64x96, .f32⟩
  | .hbm, ⟨98, _⟩ => ⟨S64x96, .f32⟩
  | .hbm, ⟨99, _⟩ => ⟨S1x80, .f32⟩
  | .hbm, ⟨100, _⟩ => ⟨S64x80, .f32⟩
  | .hbm, ⟨101, _⟩ => ⟨S64x80, .f32⟩
  | .hbm, ⟨102, _⟩ => ⟨S1x80, .f32⟩
  | .hbm, ⟨103, _⟩ => ⟨S64x80, .f32⟩
  | .hbm, ⟨104, _⟩ => ⟨S64x80, .f32⟩
  | .hbm, ⟨105, _⟩ => ⟨S64x240, .f32⟩
  | .hbm, ⟨106, _⟩ => ⟨S64x240, .f32⟩
  | .hbm, ⟨107, _⟩ => ⟨S_, .f32⟩
  | .hbm, ⟨108, _⟩ => ⟨S64x16, .f32⟩
  | .hbm, ⟨109, _⟩ => ⟨S64x256, .f32⟩
  | .hbm, ⟨110, _⟩ => ⟨S64x256, .f32⟩
  | .hbm, ⟨111, _⟩ => ⟨S64x512, .f32⟩
  | .hbm, ⟨112, _⟩ => ⟨S64x512, .bf16⟩
  | .hbm, ⟨113, _⟩ => ⟨S64x512, .f32⟩
  | .hbm, ⟨114, _⟩ => ⟨S64x512, .f32⟩
  | .hbm, ⟨115, _⟩ => ⟨S64x512, .bf16⟩
  | .hbm, ⟨116, _⟩ => ⟨S200000x240, .f32⟩
  | .local _ .vmem, ⟨0, _⟩ => ⟨S4000x240, .f32⟩
  | .local _ .vmem, ⟨1, _⟩ => ⟨S4000x240, .f32⟩
  | .local _ .vmem, ⟨2, _⟩ => ⟨S1x1x4000, .i32⟩
  | .local _ .vmem, ⟨3, _⟩ => ⟨S1x1x4000, .i32⟩
  | .local _ .vmem, ⟨4, _⟩ => ⟨S1x64x240, .f32⟩
  | .local _ .vmem, ⟨5, _⟩ => ⟨S1x64x240, .f32⟩
  | .local _ .vmem, ⟨6, _⟩ => ⟨S1x64x64, .f32⟩
  | .local _ .vmem, ⟨7, _⟩ => ⟨S1x64x64, .f32⟩
  | .local _ .vmem, ⟨8, _⟩ => ⟨S1x64x1, .f32⟩
  | .local _ .vmem, ⟨9, _⟩ => ⟨S1x64x1, .f32⟩
  | .local _ .vmem, ⟨10, _⟩ => ⟨S4000x240, .f32⟩
  | .local _ .vmem, ⟨11, _⟩ => ⟨S4000x240, .f32⟩
  | .local _ .vmem, ⟨12, _⟩ => ⟨S1x1x4000, .i32⟩
  | .local _ .vmem, ⟨13, _⟩ => ⟨S1x1x4000, .i32⟩
  | .local _ .vmem, ⟨14, _⟩ => ⟨S64x512, .bf16⟩
  | .local _ .vmem, ⟨15, _⟩ => ⟨S64x512, .bf16⟩
  | .local _ .vmem, ⟨16, _⟩ => ⟨S4000x240, .f32⟩
  | .local _ .vmem, ⟨17, _⟩ => ⟨S4000x240, .f32⟩
  | _, _ => ⟨S200000x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_11 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x240 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S200000_S50x1x4000 : S200000.ShapeCasts S50x1x4000
  inb_S1x64x240_S1x64x240_0_0_0 : ∀ a, (![0, 0, 0] : Fin 3 → Nat) a + S1x64x240.size a ≤ S1x64x240.size a
  h_S1x64x240 : 0 < S1x64x240.numel
  shapeCasts_S1x64x240_S64x240 : S1x64x240.ShapeCasts S64x240
  shapeCasts_S64x240_S1x64x240 : S64x240.ShapeCasts S1x64x240
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S4000x240_S4000x240_0_0 : ∀ a, (![0, 0] : Fin 2 → Nat) a + S4000x240.size a ≤ S4000x240.size a
  h_S4000x240 : 0 < S4000x240.numel
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  iota_S64x4000_d0_w32 : S64x4000.Iotas .tc 32 [0]
  broadcasts_S1x4000_S64x4000 : S1x4000.Broadcasts S64x4000
  natLt_1_32 : 1 < 32
  bitsLt_bf16_f32 : FTy.bits .bf16 < FTy.bits .f32
  slices_S4000x240_o0_0_S4000x64 : S4000x240.Slices ![0, 0] S4000x64
  reduces_S64x4000_S64 : S64x4000.Reduces [1] S64
  shapeCasts_S64_S64x1 : S64.ShapeCasts S64x1
  slices_S2x64x240_S1x64x240_0_0_0 : S2x64x240.Slices ![0, 0, 0] S1x64x240
  slices_S2x64x240_S1x64x240_1_0_0 : S2x64x240.Slices ![1, 0, 0] S1x64x240
  slices_S2x64x64_S1x64x64_0_0_0 : S2x64x64.Slices ![0, 0, 0] S1x64x64
  slices_S2x64x64_S1x64x64_1_0_0 : S2x64x64.Slices ![1, 0, 0] S1x64x64
  slices_S2x64x1_S1x64x1_0_0_0 : S2x64x1.Slices ![0, 0, 0] S1x64x1
  shapeCasts_S1x64x1_S64 : S1x64x1.ShapeCasts S64
  slices_S2x64x1_S1x64x1_1_0_0 : S2x64x1.Slices ![1, 0, 0] S1x64x1
  bcast_S_S64 : S_.BroadcastsInDim S64 (![] : Fin 0 → Fin S64.rank)
  bcast_S64_S64x1_0 : S64.BroadcastsInDim S64x1 (![0] : Fin 1 → Fin S64x1.rank)
  bcast_S64x1_S64x240_0_1 : S64x1.BroadcastsInDim S64x240 (![0, 1] : Fin 2 → Fin S64x240.rank)
  slices_S64x240_S64x64_0_0 : S64x240.Slices ![0, 0] S64x64
  reducesTo_S64x64_S64_d1 : S64x64.ReducesTo [1] S64
  h_S_ : 0 < S_.numel
  slices_S64x240_S64x96_0_64 : S64x240.Slices ![0, 64] S64x96
  shapeCasts_S64x96_S64x32x3 : S64x96.ShapeCasts S64x32x3
  reducesTo_S64x32x3_S64x3_d1 : S64x32x3.ReducesTo [1] S64x3
  bcast_S_S64x3 : S_.BroadcastsInDim S64x3 (![] : Fin 0 → Fin S64x3.rank)
  slices_S64x240_S64x80_0_160 : S64x240.Slices ![0, 160] S64x80
  shapeCasts_S64x80_S64x16x5 : S64x80.ShapeCasts S64x16x5
  reducesTo_S64x16x5_S64x5_d1 : S64x16x5.ReducesTo [1] S64x5
  bcast_S_S64x5 : S_.BroadcastsInDim S64x5 (![] : Fin 0 → Fin S64x5.rank)
  bcast_S64x1_S64x64_0_1 : S64x1.BroadcastsInDim S64x64 (![0, 1] : Fin 2 → Fin S64x64.rank)
  slices_S112_S64_0 : S112.Slices ![0] S64
  slices_S112_S32_64 : S112.Slices ![64] S32
  slices_S112_S16_96 : S112.Slices ![96] S16
  bcast_S32_S32x3_0 : S32.BroadcastsInDim S32x3 (![0] : Fin 1 → Fin S32x3.rank)
  shapeCasts_S32x3_S96 : S32x3.ShapeCasts S96
  bcast_S16_S16x5_0 : S16.BroadcastsInDim S16x5 (![0] : Fin 1 → Fin S16x5.rank)
  shapeCasts_S16x5_S80 : S16x5.ShapeCasts S80
  shapeCasts_S64x3_S1x64x1x3 : S64x3.ShapeCasts S1x64x1x3
  bcast_S1x64x1x3_S1x64x32x3_0_1_2_3 : S1x64x1x3.BroadcastsInDim S1x64x32x3 (![0, 1, 2, 3] : Fin 4 → Fin S1x64x32x3.rank)
  shapeCasts_S1x64x32x3_S64x96 : S1x64x32x3.ShapeCasts S64x96
  shapeCasts_S64x5_S1x64x1x5 : S64x5.ShapeCasts S1x64x1x5
  bcast_S1x64x1x5_S1x64x16x5_0_1_2_3 : S1x64x1x5.BroadcastsInDim S1x64x16x5 (![0, 1, 2, 3] : Fin 4 → Fin S1x64x16x5.rank)
  shapeCasts_S1x64x16x5_S64x80 : S1x64x16x5.ShapeCasts S64x80
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S96_S1x96_1 : S96.BroadcastsInDim S1x96 (![1] : Fin 1 → Fin S1x96.rank)
  bcast_S1x96_S64x96_0_1 : S1x96.BroadcastsInDim S64x96 (![0, 1] : Fin 2 → Fin S64x96.rank)
  bcast_S80_S1x80_1 : S80.BroadcastsInDim S1x80 (![1] : Fin 1 → Fin S1x80.rank)
  bcast_S1x80_S64x80_0_1 : S1x80.BroadcastsInDim S64x80 (![0, 1] : Fin 2 → Fin S64x80.rank)
  concatenates_S64x64_S64x96_S64x80_S64x240_d1 : Shape.Concatenates [S64x64, S64x96, S64x80] S64x240 1
  bcast_S_S64x16 : S_.BroadcastsInDim S64x16 (![] : Fin 0 → Fin S64x16.rank)
  concatenates_S64x240_S64x16_S64x256_d1 : Shape.Concatenates [S64x240, S64x16] S64x256 1
  concatenates_S64x256_S64x256_S64x512_d1 : Shape.Concatenates [S64x256, S64x256] S64x512 1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S4000x512_o0_0_S4000x240 : S4000x512.Slices ![0, 0] S4000x240
  slices_S4000x512_o0_256_S4000x240 : S4000x512.Slices ![0, 256] S4000x240
  dot_S64x4000_S4000x240_S64x240_1_0_0_1_n_n_wf : DotDims.WF S64x4000 S4000x240 S64x240 [1] [0] [0] [1] [] []
  dot_S64x4000_S4000x64_S64x64_1_0_0_1_n_n_wf : DotDims.WF S64x4000 S4000x64 S64x64 [1] [0] [0] [1] [] []
  dot_S64x4000_S64x512_S4000x512_0_0_1_1_n_n_wf : DotDims.WF S64x4000 S64x512 S4000x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x240.size a ≤ S200000x240.size a
  hwx0_0 : ∀ i : grid0.Coords, EltTy.bits .f32 = 32 ∨ (Rect.block (s := S200000x240) S4000x240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4000.size a ≤ S50x1x4000.size a
  hwx0_1 : ∀ i : grid0.Coords, EltTy.bits .i32 = 32 ∨ (Rect.block (s := S50x1x4000) S1x1x4000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x240.size a ≤ S2x64x240.size a
  hwx0_2 : ∀ i : grid0.Coords, EltTy.bits .f32 = 32 ∨ (Rect.block (s := S2x64x240) S1x64x240.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S2x64x64.size a
  hwx0_3 : ∀ i : grid0.Coords, EltTy.bits .f32 = 32 ∨ (Rect.block (s := S2x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x240.size a ≤ S200000x240.size a
  hwx1_0 : ∀ i : grid1.Coords, EltTy.bits .f32 = 32 ∨ (Rect.block (s := S200000x240) S4000x240.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4000.size a ≤ S50x1x4000.size a
  hwx1_1 : ∀ i : grid1.Coords, EltTy.bits .i32 = 32 ∨ (Rect.block (s := S50x1x4000) S1x1x4000.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x512.size a ≤ S64x512.size a
  hwx1_2 : ∀ i : grid1.Coords, EltTy.bits .bf16 = 32 ∨ (Rect.block (s := S64x512) S64x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x512.size a
  hwx1_3 : ∀ i : grid1.Coords, EltTy.bits .bf16 = 32 ∨ (Rect.block (s := S64x512) S64x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x240.size a ≤ S200000x240.size a
  hwx1_4 : ∀ i : grid1.Coords, EltTy.bits .f32 = 32 ∨ (Rect.block (s := S200000x240) S4000x240.size (cc1_transform_4 i) (hinb1_4 i)).WholeWords (EltTy.packing .f32)

variable [Facts₀]

def dot_S64x4000_S4000x240_S64x240_1_0_0_1_n_n : DotDims S64x4000 S4000x240 S64x240 where
  lhsContracting := [1]
  rhsContracting := [0]
  lhsNonContracting := [0]
  rhsNonContracting := [1]
  lhsBatch := []
  rhsBatch := []
  wf := dot_S64x4000_S4000x240_S64x240_1_0_0_1_n_n_wf
def dot_S64x4000_S4000x64_S64x64_1_0_0_1_n_n : DotDims S64x4000 S4000x64 S64x64 where
  lhsContracting := [1]
  rhsContracting := [0]
  lhsNonContracting := [0]
  rhsNonContracting := [1]
  lhsBatch := []
  rhsBatch := []
  wf := dot_S64x4000_S4000x64_S64x64_1_0_0_1_n_n_wf
def dot_S64x4000_S64x512_S4000x512_0_0_1_1_n_n : DotDims S64x4000 S64x512 S4000x512 where
  lhsContracting := [0]
  rhsContracting := [0]
  lhsNonContracting := [1]
  rhsNonContracting := [1]
  lhsBatch := []
  rhsBatch := []
  wf := dot_S64x4000_S64x512_S4000x512_0_0_1_1_n_n_wf

abbrev win0_0 : Pipeline.Window sig grid0 :=
  Pipeline.Window.ofSpec (Memref.whole main_arg0) S4000x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x240.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x4000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S64x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v96) S64x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S4000x240.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200000x240 : Shape := ⟨2, ![200000, 240]⟩
abbrev S200000 : Shape := ⟨1, ![200000]⟩
abbrev S112 : Shape := ⟨1, ![112]⟩
abbrev S64 : Shape := ⟨1, ![64]⟩
abbrev S_ : Shape := ⟨0, ![]⟩
abbrev S200000x1 : Shape := ⟨2, ![200000, 1]⟩
abbrev S200000x64 : Shape := ⟨2, ![200000, 64]⟩
abbrev S200000x64x1 : Shape := ⟨3, ![200000, 64, 1]⟩
abbrev S64x64x1 : Shape := ⟨3, ![64, 64, 1]⟩
abbrev S64x1x1 : Shape := ⟨3, ![64, 1, 1]⟩
abbrev S64x1 : Shape := ⟨2, ![64, 1]⟩
abbrev S200000x1x1 : Shape := ⟨3, ![200000, 1, 1]⟩
abbrev S1x64x1 : Shape := ⟨3, ![1, 64, 1]⟩
abbrev S200000x96 : Shape := ⟨2, ![200000, 96]⟩
abbrev S200000x32x3 : Shape := ⟨3, ![200000, 32, 3]⟩
abbrev S64x32x3 : Shape := ⟨3, ![64, 32, 3]⟩
abbrev S64x3 : Shape := ⟨2, ![64, 3]⟩
abbrev S64x1x3 : Shape := ⟨3, ![64, 1, 3]⟩
abbrev S200000x1x3 : Shape := ⟨3, ![200000, 1, 3]⟩
abbrev S32 : Shape := ⟨1, ![32]⟩
abbrev S1x32x1 : Shape := ⟨3, ![1, 32, 1]⟩
abbrev S200000x80 : Shape := ⟨2, ![200000, 80]⟩
abbrev S200000x16x5 : Shape := ⟨3, ![200000, 16, 5]⟩
abbrev S64x16x5 : Shape := ⟨3, ![64, 16, 5]⟩
abbrev S64x5 : Shape := ⟨2, ![64, 5]⟩
abbrev S64x1x5 : Shape := ⟨3, ![64, 1, 5]⟩
abbrev S200000x1x5 : Shape := ⟨3, ![200000, 1, 5]⟩
abbrev S16 : Shape := ⟨1, ![16]⟩
abbrev S1x16x1 : Shape := ⟨3, ![1, 16, 1]⟩

abbrev nBuf : Space → Nat
  | .hbm => 139
  | .vmem => 0
  | .smem => 0
  | _ => 0

abbrev hbmTy0_0 (i : Nat) : BufTy := match i % 128 with
  | 0 => ⟨S200000x240, .f32⟩
  | 1 => ⟨S200000, .i32⟩
  | 2 => ⟨S112, .f32⟩
  | 3 => ⟨S64, .f32⟩
  | 4 => ⟨S_, .f32⟩
  | 5 => ⟨S200000, .f32⟩
  | 6 => ⟨S_, .f32⟩
  | 7 => ⟨S64, .f32⟩
  | 8 => ⟨S200000x1, .i32⟩
  | 9 => ⟨S64, .f32⟩
  | 10 => ⟨S_, .f32⟩
  | 11 => ⟨S64, .f32⟩
  | 12 => ⟨S64, .f32⟩
  | 13 => ⟨S200000x64, .f32⟩
  | 14 => ⟨S200000x64x1, .f32⟩
  | 15 => ⟨S_, .f32⟩
  | 16 => ⟨S64x64x1, .f32⟩
  | 17 => ⟨S200000x1, .i32⟩
  | 18 => ⟨S64x64x1, .f32⟩
  | 19 => ⟨S64x1x1, .f32⟩
  | 20 => ⟨S64x64x1, .f32⟩
  | 21 => ⟨S64x64x1, .f32⟩
  | 22 => ⟨S_, .f32⟩
  | 23 => ⟨S64x1, .f32⟩
  | 24 => ⟨S64x1x1, .f32⟩
  | 25 => ⟨S_, .f32⟩
  | 26 => ⟨S64x1x1, .f32⟩
  | 27 => ⟨S64x1x1, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x1x1, .f32⟩
  | 37 => ⟨S200000x64x1, .f32⟩
  | 38 => ⟨S200000x64x1, .f32⟩
  | 39 => ⟨S200000x64x1, .f32⟩
  | 40 => ⟨S_, .f32⟩
  | 41 => ⟨S64x64x1, .f32⟩
  | 42 => ⟨S200000x1, .i32⟩
  | 43 => ⟨S64x64x1, .f32⟩
  | 44 => ⟨S64x1x1, .f32⟩
  | 45 => ⟨S64x64x1, .f32⟩
  | 46 => ⟨S64x64x1, .f32⟩
  | 47 => ⟨S_, .f32⟩
  | 48 => ⟨S64, .f32⟩
  | 49 => ⟨S64x1x1, .f32⟩
  | 50 => ⟨S_, .f32⟩
  | 51 => ⟨S64x1x1, .f32⟩
  | 52 => ⟨S64x1x1, .f32⟩
  | 53 => ⟨S64x1x1, .f32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x1x1, .f32⟩
  | 63 => ⟨S_, .f32⟩
  | 64 => ⟨S200000x1x1, .f32⟩
  | 65 => ⟨S200000x1x1, .f32⟩
  | 66 => ⟨S200000x64x1, .f32⟩
  | 67 => ⟨S200000x64x1, .f32⟩
  | 68 => ⟨S64, .f32⟩
  | 69 => ⟨S1x64x1, .f32⟩
  | 70 => ⟨S200000x64x1, .f32⟩
  | 71 => ⟨S200000x64x1, .f32⟩
  | 72 => ⟨S1x64x1, .f32⟩
  | 73 => ⟨S200000x64x1, .f32⟩
  | 74 => ⟨S200000x64x1, .f32⟩
  | 75 => ⟨S200000x64, .f32⟩
  | 76 => ⟨S200000x96, .f32⟩
  | 77 => ⟨S200000x32x3, .f32⟩
  | 78 => ⟨S_, .f32⟩
  | 79 => ⟨S64x32x3, .f32⟩
  | 80 => ⟨S200000x1, .i32⟩
  | 81 => ⟨S64x32x3, .f32⟩
  | 82 => ⟨S64x1x1, .f32⟩
  | 83 => ⟨S64x32x3, .f32⟩
  | 84 => ⟨S64x32x3, .f32⟩
  | 85 => ⟨S_, .f32⟩
  | 86 => ⟨S64x3, .f32⟩
  | 87 => ⟨S64x1x3, .f32⟩
  | 88 => ⟨S_, .f32⟩
  | 89 => ⟨S64x1x3, .f32⟩
  | 90 => ⟨S64x1x3, .f32⟩
  | 91 => ⟨S_, .i32⟩
  | 92 => ⟨S200000, .i32⟩
  | 93 => ⟨S200000, .i1⟩
  | 94 => ⟨S_, .i32⟩
  | 95 => ⟨S200000, .i32⟩
  | 96 => ⟨S200000, .i32⟩
  | 97 => ⟨S200000, .i32⟩
  | 98 => ⟨S200000x1, .i32⟩
  | 99 => ⟨S200000x1x3, .f32⟩
  | 100 => ⟨S200000x32x3, .f32⟩
  | 101 => ⟨S200000x32x3, .f32⟩
  | 102 => ⟨S32, .f32⟩
  | 103 => ⟨S1x32x1, .f32⟩
  | 104 => ⟨S200000x32x3, .f32⟩
  | 105 => ⟨S200000x32x3, .f32⟩
  | 106 => ⟨S200000x96, .f32⟩
  | 107 => ⟨S200000x80, .f32⟩
  | 108 => ⟨S200000x16x5, .f32⟩
  | 109 => ⟨S_, .f32⟩
  | 110 => ⟨S64x16x5, .f32⟩
  | 111 => ⟨S200000x1, .i32⟩
  | 112 => ⟨S64x16x5, .f32⟩
  | 113 => ⟨S64x1x1, .f32⟩
  | 114 => ⟨S64x16x5, .f32⟩
  | 115 => ⟨S64x16x5, .f32⟩
  | 116 => ⟨S_, .f32⟩
  | 117 => ⟨S64x5, .f32⟩
  | 118 => ⟨S64x1x5, .f32⟩
  | 119 => ⟨S_, .f32⟩
  | 120 => ⟨S64x1x5, .f32⟩
  | 121 => ⟨S64x1x5, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S200000x240, .f32⟩

abbrev hbmTy0_1 (i : Nat) : BufTy := match i % 128 with
  | 0 => ⟨S200000, .i32⟩
  | 1 => ⟨S200000x1, .i32⟩
  | 2 => ⟨S200000x1x5, .f32⟩
  | 3 => ⟨S200000x16x5, .f32⟩
  | 4 => ⟨S200000x16x5, .f32⟩
  | 5 => ⟨S16, .f32⟩
  | 6 => ⟨S1x16x1, .f32⟩
  | 7 => ⟨S200000x16x5, .f32⟩
  | 8 => ⟨S200000x16x5, .f32⟩
  | 9 => ⟨S200000x80, .f32⟩
  | 10 => ⟨S200000x240, .f32⟩
  | _ => ⟨S200000x240, .f32⟩

abbrev hbmTy (i : Nat) : BufTy := match i / 128 with
  | 0 => hbmTy0_0 i
  | 1 => hbmTy0_1 i
  | _ => ⟨S200000x240, .f32⟩

abbrev bufTy : (tb : Table) → Fin (tcTables nBuf tb) → BufTy
  | .hbm, ⟨i, _⟩ => hbmTy i
  | _, _ => ⟨S200000x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_c_15 : Ref sig .tc := ⟨.hbm, 91, rfl⟩
abbrev main_v70 : Ref sig .tc := ⟨.hbm, 92, rfl⟩
abbrev main_v71 : Ref sig .tc := ⟨.hbm, 93, rfl⟩
abbrev main_c_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_18 : Ref sig .tc := ⟨.hbm, 116, rfl⟩
abbrev main_v92 : Ref sig .tc := ⟨.hbm, 117, rfl⟩
abbrev main_v93 : Ref sig .tc := ⟨.hbm, 118, rfl⟩
abbrev main_cst_19 : Ref sig .tc := ⟨.hbm, 119, rfl⟩
abbrev main_v94 : Ref sig .tc := ⟨.hbm, 120, rfl⟩
abbrev main_v95 : Ref sig .tc := ⟨.hbm, 121, rfl⟩
abbrev main_c_20 : Ref sig .tc := ⟨.hbm, 122, rfl⟩
abbrev main_v96 : Ref sig .tc := ⟨.hbm, 123, rfl⟩
abbrev main_v97 : Ref sig .tc := ⟨.hbm, 124, rfl⟩
abbrev main_c_21 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S64 : S_.BroadcastsInDim S64 (![] : Fin 0 → Fin S64.rank)
  bcast_S200000_S200000x1_0 : S200000.BroadcastsInDim S200000x1 (![0] : Fin 1 → Fin S200000x1.rank)
  slices_S200000x240_S200000x64_0_0 : S200000x240.Slices ![0, 0] S200000x64
  shapeCasts_S200000x64_S200000x64x1 : S200000x64.ShapeCasts S200000x64x1
  bcast_S_S64x64x1 : S_.BroadcastsInDim S64x64x1 (![] : Fin 0 → Fin S64x64x1.rank)
  shapeCasts_S64_S64x1x1 : S64.ShapeCasts S64x1x1
  bcast_S64x1x1_S64x64x1_0_1_2 : S64x1x1.BroadcastsInDim S64x64x1 (![0, 1, 2] : Fin 3 → Fin S64x64x1.rank)
  reducesTo_S64x64x1_S64x1_d1 : S64x64x1.ReducesTo [1] S64x1
  h_S_ : 0 < S_.numel
  bcast_S64x1_S64x1x1_0_2 : S64x1.BroadcastsInDim S64x1x1 (![0, 2] : Fin 2 → Fin S64x1x1.rank)
  bcast_S_S64x1x1 : S_.BroadcastsInDim S64x1x1 (![] : Fin 0 → Fin S64x1x1.rank)
  bcast_S200000x1x1_S200000x64x1_0_1_2 : S200000x1x1.BroadcastsInDim S200000x64x1 (![0, 1, 2] : Fin 3 → Fin S200000x64x1.rank)
  reducesTo_S64x64x1_S64_d1_2 : S64x64x1.ReducesTo [1, 2] S64
  bcast_S64_S64x1x1_0 : S64.BroadcastsInDim S64x1x1 (![0] : Fin 1 → Fin S64x1x1.rank)
  bcast_S_S200000x1x1 : S_.BroadcastsInDim S200000x1x1 (![] : Fin 0 → Fin S200000x1x1.rank)
  slices_S112_S64_0 : S112.Slices ![0] S64
  bcast_S64_S1x64x1_1 : S64.BroadcastsInDim S1x64x1 (![1] : Fin 1 → Fin S1x64x1.rank)
  bcast_S1x64x1_S200000x64x1_0_1_2 : S1x64x1.BroadcastsInDim S200000x64x1 (![0, 1, 2] : Fin 3 → Fin S200000x64x1.rank)
  shapeCasts_S200000x64x1_S200000x64 : S200000x64x1.ShapeCasts S200000x64
  slices_S200000x240_S200000x96_0_64 : S200000x240.Slices ![0, 64] S200000x96
  shapeCasts_S200000x96_S200000x32x3 : S200000x96.ShapeCasts S200000x32x3
  bcast_S_S64x32x3 : S_.BroadcastsInDim S64x32x3 (![] : Fin 0 → Fin S64x32x3.rank)
  bcast_S64x1x1_S64x32x3_0_1_2 : S64x1x1.BroadcastsInDim S64x32x3 (![0, 1, 2] : Fin 3 → Fin S64x32x3.rank)
  reducesTo_S64x32x3_S64x3_d1 : S64x32x3.ReducesTo [1] S64x3
  bcast_S64x3_S64x1x3_0_2 : S64x3.BroadcastsInDim S64x1x3 (![0, 2] : Fin 2 → Fin S64x1x3.rank)
  bcast_S_S64x1x3 : S_.BroadcastsInDim S64x1x3 (![] : Fin 0 → Fin S64x1x3.rank)
  bcast_S200000x1x3_S200000x32x3_0_1_2 : S200000x1x3.BroadcastsInDim S200000x32x3 (![0, 1, 2] : Fin 3 → Fin S200000x32x3.rank)
  slices_S112_S32_64 : S112.Slices ![64] S32
  bcast_S32_S1x32x1_1 : S32.BroadcastsInDim S1x32x1 (![1] : Fin 1 → Fin S1x32x1.rank)
  bcast_S1x32x1_S200000x32x3_0_1_2 : S1x32x1.BroadcastsInDim S200000x32x3 (![0, 1, 2] : Fin 3 → Fin S200000x32x3.rank)
  shapeCasts_S200000x32x3_S200000x96 : S200000x32x3.ShapeCasts S200000x96
  slices_S200000x240_S200000x80_0_160 : S200000x240.Slices ![0, 160] S200000x80
  shapeCasts_S200000x80_S200000x16x5 : S200000x80.ShapeCasts S200000x16x5
  bcast_S_S64x16x5 : S_.BroadcastsInDim S64x16x5 (![] : Fin 0 → Fin S64x16x5.rank)
  bcast_S64x1x1_S64x16x5_0_1_2 : S64x1x1.BroadcastsInDim S64x16x5 (![0, 1, 2] : Fin 3 → Fin S64x16x5.rank)
  reducesTo_S64x16x5_S64x5_d1 : S64x16x5.ReducesTo [1] S64x5
  bcast_S64x5_S64x1x5_0_2 : S64x5.BroadcastsInDim S64x1x5 (![0, 2] : Fin 2 → Fin S64x1x5.rank)
  bcast_S_S64x1x5 : S_.BroadcastsInDim S64x1x5 (![] : Fin 0 → Fin S64x1x5.rank)
  bcast_S200000x1x5_S200000x16x5_0_1_2 : S200000x1x5.BroadcastsInDim S200000x16x5 (![0, 1, 2] : Fin 3 → Fin S200000x16x5.rank)
  slices_S112_S16_96 : S112.Slices ![96] S16
  bcast_S16_S1x16x1_1 : S16.BroadcastsInDim S1x16x1 (![1] : Fin 1 → Fin S1x16x1.rank)
  bcast_S1x16x1_S200000x16x5_0_1_2 : S1x16x1.BroadcastsInDim S200000x16x5 (![0, 1, 2] : Fin 3 → Fin S200000x16x5.rank)
  shapeCasts_S200000x16x5_S200000x80 : S200000x16x5.ShapeCasts S200000x80
  concatenates_S200000x64_S200000x96_S200000x80_S200000x240_d1 : Shape.Concatenates [S200000x64, S200000x96, S200000x80] S200000x240 1
  scatter_S64_S200000x1_S200000_n_0_0_1_wf : ScatterDims.WF S64 S200000x1 S200000 [] [0] [0] 1
  scatter_S64x64x1_S200000x1_S200000x64x1_12_0_0_1_wf : ScatterDims.WF S64x64x1 S200000x1 S200000x64x1 [1, 2] [0] [0] 1
  gather_S64x1x1_S200000x1_S200000x1x1_12_0_n_n_0_1_111_wf : GatherDims.WF S64x1x1 S200000x1 S200000x1x1 [1, 2] [0] [] [0] [] 1 ![1, 1, 1]
  scatter_S64x32x3_S200000x1_S200000x32x3_12_0_0_1_wf : ScatterDims.WF S64x32x3 S200000x1 S200000x32x3 [1, 2] [0] [0] 1
  gather_S64x1x3_S200000x1_S200000x1x3_12_0_n_n_0_1_113_wf : GatherDims.WF S64x1x3 S200000x1 S200000x1x3 [1, 2] [0] [] [0] [] 1 ![1, 1, 3]
  scatter_S64x16x5_S200000x1_S200000x16x5_12_0_0_1_wf : ScatterDims.WF S64x16x5 S200000x1 S200000x16x5 [1, 2] [0] [0] 1
  gather_S64x1x5_S200000x1_S200000x1x5_12_0_n_n_0_1_115_wf : GatherDims.WF S64x1x5 S200000x1 S200000x1x5 [1, 2] [0] [] [0] [] 1 ![1, 1, 5]

variable [Facts₀]

def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def scatter_S64x64x1_S200000x1_S200000x64x1_12_0_0_1 : ScatterDims S64x64x1 S200000x1 S200000x64x1 where
  updateWindowDims := [1, 2]
  insertedWindowDims := [0]
  scatterDimsToOperandDims := [0]
  indexVectorDim := 1
  wf := scatter_S64x64x1_S200000x1_S200000x64x1_12_0_0_1_wf
def gather_S64x1x1_S200000x1_S200000x1x1_12_0_n_n_0_1_111 : GatherDims S64x1x1 S200000x1 S200000x1x1 where
  offsetDims := [1, 2]
  collapsedSliceDims := [0]
  operandBatchingDims := []
  startIndicesBatchingDims := []
  startIndexMap := [0]
  indexVectorDim := 1
  sliceSizes := ![1, 1, 1]
  wf := gather_S64x1x1_S200000x1_S200000x1x1_12_0_n_n_0_1_111_wf
def scatter_S64x32x3_S200000x1_S200000x32x3_12_0_0_1 : ScatterDims S64x32x3 S200000x1 S200000x32x3 where
  updateWindowDims := [1, 2]
  insertedWindowDims := [0]
  scatterDimsToOperandDims := [0]
  indexVectorDim := 1
  wf := scatter_S64x32x3_S200000x1_S200000x32x3_12_0_0_1_wf
def gather_S64x1x3_S200000x1_S200000x1x3_12_0_n_n_0_1_113 : GatherDims S64x1x3 S200000x1 S200000x1x3 where
  offsetDims := [1, 2]
  collapsedSliceDims := [0]
  operandBatchingDims := []
  startIndicesBatchingDims := []
  startIndexMap := [0]
  indexVectorDim := 1
  sliceSizes := ![1, 1, 3]
  wf := gather_S64x1x3_S200000x1_S200000x1x3_12_0_n_n_0_1_113_wf
def scatter_S64x16x5_S200000x1_S200000x16x5_12_0_0_1 : ScatterDims S64x16x5 S200000x1 S200000x16x5 where
  updateWindowDims := [1, 2]
  insertedWindowDims := [0]
  scatterDimsToOperandDims := [0]
  indexVectorDim := 1
  wf := scatter_S64x16x5_S200000x1_S200000x16x5_12_0_0_1_wf
def gather_S64x1x5_S200000x1_S200000x1x5_12_0_n_n_0_1_115 : GatherDims S64x1x5 S200000x1 S200000x1x5 where
  offsetDims := [1, 2]
  collapsedSliceDims := [0]
  operandBatchingDims := []
  startIndicesBatchingDims := []
  startIndexMap := [0]
  indexVectorDim := 1
  sliceSizes := ![1, 1, 5]
  wf := gather_S64x1x5_S200000x1_S200000x1x5_12_0_n_n_0_1_115_wf

class Facts : Prop extends Facts₀ where

variable [Facts]
-- ==== Proof.KRegion0.lean ====
/- Region 0 (the reduction kernel) at an entry valuation V: what each staging buffer holds after every grid point,
   and the body's Hoare triple at every point. -/
import proofs.«402630_j9972914061338_3_alg».proof.Proof.Gen.Kernel.Launch
import proofs.«402630_j9972914061338_3_alg».proof.Proof.Gen.Kernel.Skeleton
import proofs.«402630_j9972914061338_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running per-core sum of one-hot(batch) · x after point n (reset at the points ≡ 0 mod 25). -/
def accS (c : Dev nD) : (n : ℕ) → n < cfg0.N → Vec F S1x64x240 .f32
  | 0, hn => k0_pay7 (iblk0 V c 0 ⟨0, hn⟩) (iblk0 V c 1 ⟨0, hn⟩) k0_pay2
  | n + 1, hn =>
    if (n + 1) % 25 = 0 then k0_pay7 (iblk0 V c 0 ⟨n + 1, hn⟩) (iblk0 V c 1 ⟨n + 1, hn⟩) k0_pay2
    else k0_pay7 (iblk0 V c 0 ⟨n + 1, hn⟩) (iblk0 V c 1 ⟨n + 1, hn⟩) (accS c n (Nat.lt_of_succ_lt hn))

/-- The running per-core sum of one-hot(batch) · x² over the first 64 columns. -/
def accS2 (c : Dev nD) : (n : ℕ) → n < cfg0.N → Vec F S1x64x64 .f32
  | 0, hn => k0_pay8 (iblk0 V c 0 ⟨0, hn⟩) (iblk0 V c 1 ⟨0, hn⟩) k0_pay3
  | n + 1, hn =>
    if (n + 1) % 25 = 0 then k0_pay8 (iblk0 V c 0 ⟨n + 1, hn⟩) (iblk0 V c 1 ⟨n + 1, hn⟩) k0_pay3
    else k0_pay8 (iblk0 V c 0 ⟨n + 1, hn⟩) (iblk0 V c 1 ⟨n + 1, hn⟩) (accS2 c n (Nat.lt_of_succ_lt hn))

/-- The running per-core count of rows of each graph. -/
def accC (c : Dev nD) : (n : ℕ) → n < cfg0.N → Vec F S1x64x1 .f32
  | 0, hn => k0_pay1 (k0_pay9 (iblk0 V c 1 ⟨0, hn⟩)) k0_pay4
  | n + 1, hn =>
    if (n + 1) % 25 = 0 then k0_pay1 (k0_pay9 (iblk0 V c 1 ⟨n + 1, hn⟩)) k0_pay4
    else k0_pay1 (k0_pay9 (iblk0 V c 1 ⟨n + 1, hn⟩)) (accC c n (Nat.lt_of_succ_lt hn))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accS V c t.val t.isLt
    | ⟨3, _⟩ => accS2 V c t.val t.isLt
    | ⟨4, _⟩ => accC V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## The body on any whole staging memrefs: the two control cases -/

/-- The body's branch condition (the second grid coordinate is zero), from the grid coordinates. -/
abbrev cond0 (i : grid0.Coords) : Prop := (Scalar.cmpi .ne (Scalar.extui (Scalar.cmpi .eq (BitVec.ofNat 32 (i 1).val) 0#32)) 0#32) = 1#1
/-- It holds exactly at the first point of each core-row: decided over the grid. -/
theorem hcond0 : ∀ t : Fin cfg0.N, cond0 (grid0.coords t) ↔ t.val % 25 = 0 :=
  (by decide +kernel : ∀ t : Fin grid0.N, cond0 (grid0.coords t) ↔ t.val % 25 = 0)

theorem r0_hz2 : (![0, 0] : Fin 2 → Nat) = fun _ => 0 := funext fun a => by fin_cases a <;> rfl
theorem r0_hz3 : (![0, 0, 0] : Fin 3 → Nat) = fun _ => 0 := funext fun a => by fin_cases a <;> rfl

set_option maxHeartbeats 1000000 in
/-- RESET: at a point whose second coordinate is zero the body first zeroes the three accumulators, so whatever they
    held, it leaves each at its update of the zero block by the point's x and batch blocks. -/
theorem run_reset0 (c : Dev nD) (i : grid0.Coords)
    (arg2 : Memref sig .tc .vmem S4000x240 .f32) (harg2 : arg2.IsWhole) (arg3 : Memref sig .tc .vmem S1x1x4000 .i32) (harg3 : arg3.IsWhole)
    (arg4 : Memref sig .tc .vmem S1x64x240 .f32) (harg4 : arg4.IsWhole) (arg5 : Memref sig .tc .vmem S1x64x64 .f32) (harg5 : arg5.IsWhole)
    (arg6 : Memref sig .tc .vmem S1x64x1 .f32) (harg6 : arg6.IsWhole) (hc0 : cond0 i)
    (x : Vec F S4000x240 .f32) (b : Vec F S1x1x4000 .i32) (E : Set ℕ) (K : PUnit → sProp 𝕄) :
    iprop(owns (c : Thread nD τ) arg2 fullShare x ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x ∗ owns (c : Thread nD τ) arg3 fullShare b
            ∗ owns (c : Thread nD τ) arg4 fullShare (k0_pay7 x b k0_pay2)
            ∗ owns (c : Thread nD τ) arg5 fullShare (k0_pay8 x b k0_pay3)
            ∗ owns (c : Thread nD τ) arg6 fullShare (k0_pay1 (k0_pay9 b) k0_pay4)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, Hk⟩
  obtain rfl := harg2.eq_unread hf2; obtain rfl := harg3.eq_unread hf3
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_cons_self, View.mem_set_unit_zero r0_hz3 inb_S1x64x240_S1x64x240_0_0_0 y⟩),
      View.canon_cons_unit_zero (S := S1x64x240) r0_hz3]
    sl_unfold_words
    simp only [View.readAt_eq_ld, harg2.read_unread, harg3.read_unread, View.ld_unit_zero (S := S4000x240) r0_hz2,
      View.ld_unit_zero (S := S1x1x4000) r0_hz3, View.readCov_unit_zero (S := S1x64x240) _ r0_hz3]
  isplitl [H5]
  · iexists _; isplitr
    swap; · iexact H5
    ipureintro
    rw [View.read_writes_eq_canon _ _ _ (fun y => ⟨_, List.mem_cons_self, View.mem_set_unit_zero r0_hz3 inb_S1x64x64_S1x64x64_0_0_0 y⟩),
      View.canon_cons_unit_zero (S := S1x64x64) r0_hz3]
    sl_unfold_words
    simp only [View.readAt_eq_ld, harg2.read_unread, harg3.read_unread, View.ld_unit_zero (S := S4000x240) r0_hz2,
      View.ld_unit_zero (S := S1x1x4000) r0_hz3, View.readCov_unit_zero (S := S1x64x64) _ r0_hz3]
  · iexists _; isplitr
    swap; · iexact H6
    ipureintro
    rw [View.read_writes_eq_canon _ _ _ (fun y => ⟨_, List.mem_cons_self, View.mem_set_unit_zero r0_hz3 inb_S1x64x1_S1x64x1_0_0_0 y⟩),
      View.canon_cons_unit_zero (S := S1x64x1) r0_hz3]
    sl_unfold_words
    simp only [View.readAt_eq_ld, harg3.read_unread,
      View.ld_unit_zero (S := S1x1x4000) r0_hz3, View.readCov_unit_zero (S := S1x64x1) _ r0_hz3]

set_option maxHeartbeats 1000000 in
/-- CARRY: at any other point the body adds the point's contribution to what the three accumulators hold. -/
theorem run_carry0 (c : Dev nD) (i : grid0.Coords)
    (arg2 : Memref sig .tc .vmem S4000x240 .f32) (harg2 : arg2.IsWhole) (arg3 : Memref sig .tc .vmem S1x1x4000 .i32) (harg3 : arg3.IsWhole)
    (arg4 : Memref sig .tc .vmem S1x64x240 .f32) (harg4 : arg4.IsWhole) (arg5 : Memref sig .tc .vmem S1x64x64 .f32) (harg5 : arg5.IsWhole)
    (arg6 : Memref sig .tc .vmem S1x64x1 .f32) (harg6 : arg6.IsWhole) (hc0 : ¬cond0 i)
    (x : Vec F S4000x240 .f32) (b : Vec F S1x1x4000 .i32)
    (s : Vec F S1x64x240 .f32) (s2 : Vec F S1x64x64 .f32) (n : Vec F S1x64x1 .f32) (E : Set ℕ) (K : PUnit → sProp 𝕄) :
    iprop(owns (c : Thread nD τ) arg2 fullShare x ∗ owns (c : Thread nD τ) arg3 fullShare b
        ∗ owns (c : Thread nD τ) arg4 fullShare s ∗ owns (c : Thread nD τ) arg5 fullShare s2 ∗ owns (c : Thread nD τ) arg6 fullShare n
        ∗ (iprop(owns (c : Thread nD τ) arg2 fullShare x ∗ owns (c : Thread nD τ) arg3 fullShare b
            ∗ owns (c : Thread nD τ) arg4 fullShare (k0_pay7 x b s)
            ∗ owns (c : Thread nD τ) arg5 fullShare (k0_pay8 x b s2)
            ∗ owns (c : Thread nD τ) arg6 fullShare (k0_pay1 (k0_pay9 b) n)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_cons_self, View.mem_set_unit_zero r0_hz3 inb_S1x64x240_S1x64x240_0_0_0 y⟩),
      View.canon_cons_unit_zero (S := S1x64x240) r0_hz3]
    simp only [View.readAt_eq_ld, harg2.read_unread, harg3.read_unread, harg4.read_unread, View.ld_unit_zero (S := S4000x240) r0_hz2,
      View.ld_unit_zero (S := S1x1x4000) r0_hz3, View.ld_unit_zero (S := S1x64x240) r0_hz3]
  isplitl [H5]
  · iexists _; isplitr
    swap; · iexact H5
    ipureintro
    rw [View.read_writes_eq_canon _ _ _ (fun y => ⟨_, List.mem_cons_self, View.mem_set_unit_zero r0_hz3 inb_S1x64x64_S1x64x64_0_0_0 y⟩),
      View.canon_cons_unit_zero (S := S1x64x64) r0_hz3]
    simp only [View.readAt_eq_ld, harg2.read_unread, harg3.read_unread, harg5.read_unread, View.ld_unit_zero (S := S4000x240) r0_hz2,
      View.ld_unit_zero (S := S1x1x4000) r0_hz3, View.ld_unit_zero (S := S1x64x64) r0_hz3]
  · iexists _; isplitr
    swap; · iexact H6
    ipureintro
    rw [View.read_writes_eq_canon _ _ _ (fun y => ⟨_, List.mem_cons_self, View.mem_set_unit_zero r0_hz3 inb_S1x64x1_S1x64x1_0_0_0 y⟩),
      View.canon_cons_unit_zero (S := S1x64x1) r0_hz3]
    simp only [View.readAt_eq_ld, harg3.read_unread, harg6.read_unread,
      View.ld_unit_zero (S := S1x1x4000) r0_hz3, View.ld_unit_zero (S := S1x64x1) r0_hz3]

/-! ## The accumulators point by point: the two control cases -/

theorem accS_reset (c : Dev nD) (t : Fin cfg0.N) (h0 : t.val % 25 = 0) :
    accS V c t.val t.isLt = k0_pay7 (iblk0 V c 0 t) (iblk0 V c 1 t) k0_pay2 := by
  obtain ⟨n, hn⟩ := t
  cases n with
  | zero => exact rfl
  | succ n => exact (if_pos h0).trans rfl

theorem accS_carry (c : Dev nD) (t : Fin cfg0.N) (h0 : ¬t.val % 25 = 0) :
    accS V c t.val t.isLt = k0_pay7 (iblk0 V c 0 t) (iblk0 V c 1 t) (accS V c (t.val - 1) (Nat.lt_of_le_of_lt (Nat.sub_le _ _) t.isLt)) := by
  obtain ⟨n, hn⟩ := t
  cases n with
  | zero => exact absurd (Nat.zero_mod _) h0
  | succ n => exact (if_neg h0).trans rfl

theorem accS2_reset (c : Dev nD) (t : Fin cfg0.N) (h0 : t.val % 25 = 0) :
    accS2 V c t.val t.isLt = k0_pay8 (iblk0 V c 0 t) (iblk0 V c 1 t) k0_pay3 := by
  obtain ⟨n, hn⟩ := t
  cases n with
  | zero => exact rfl
  | succ n => exact (if_pos h0).trans rfl

theorem accS2_carry (c : Dev nD) (t : Fin cfg0.N) (h0 : ¬t.val % 25 = 0) :
    accS2 V c t.val t.isLt = k0_pay8 (iblk0 V c 0 t) (iblk0 V c 1 t) (accS2 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem accC_reset (c : Dev nD) (t : Fin cfg0.N) (h0 : t.val % 25 = 0) :
    accC V c t.val t.isLt = k0_pay1 (k0_pay9 (iblk0 V c 1 t)) k0_pay4 := by
  obtain ⟨n, hn⟩ := t
  cases n with
  | zero => exact rfl
  | succ n => exact (if_pos h0).trans rfl

theorem accC_carry (c : Dev nD) (t : Fin cfg0.N) (h0 : ¬t.val % 25 = 0) :
    accC V c t.val t.isLt = k0_pay1 (k0_pay9 (iblk0 V c 1 t)) (accC V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## What each staging buffer holds when the body is called -/

/-- Each window's current staging memref at point t, as the pipeline passes it to the body, and its wholeness. -/
abbrev ms0_0 (t : Fin cfg0.N) : Memref sig .tc .vmem S4000x240 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x240 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accS V c t.val t.isLt := by dsimp only [dat0]
theorem after0_3 (c : Dev nD) (t : Fin cfg0.N) : (dat0 V c).after 3 t = accS2 V c t.val t.isLt := by dsimp only [dat0]
theorem after0_4 (c : Dev nD) (t : Fin cfg0.N) : (dat0 V c).after 4 t = accC V c t.val t.isLt := by dsimp only [dat0]

/-- The x window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The batch window's current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Away from the first point of a core-row an accumulator's staging buffer holds what the point before left: the
    buffer is written back only at the last point of a core-row, and the point before is not one. -/
theorem before0_2_carry (c : Dev nD) (t : Fin cfg0.N) (h0 : ¬t.val % 25 = 0) (d) :
    (dat0 V c).before 2 t d = accS V c (t.val - 1) (Nat.lt_of_le_of_lt (Nat.sub_le _ _) t.isLt) := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dat0]

theorem before0_3_carry (c : Dev nD) (t : Fin cfg0.N) (h0 : ¬t.val % 25 = 0) (d) :
    (dat0 V c).before 3 t d = accS2 V c (t.val - 1) (Nat.lt_of_le_of_lt (Nat.sub_le _ _) t.isLt) := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]

theorem before0_4_carry (c : Dev nD) (t : Fin cfg0.N) (h0 : ¬t.val % 25 = 0) (d) :
    (dat0 V c).before 4 t d = accC V c (t.val - 1) (Nat.lt_of_le_of_lt (Nat.sub_le _ _) t.isLt) := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t: the invariant, nothing owed, and the five current staging buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point. The two input buffers hold the point's x and batch blocks. At the first point of a core-row
    the body zeroes the accumulators itself, so their prior contents do not matter; at any other point they hold what
    the point before left, the buffers not having been written back in between. Either way each accumulator is left at
    its update by the point's blocks, which is the recursion of the running sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 25 = 0
  · rw [accS_reset V c t h0, accS2_reset V c t h0, accC_reset V c t h0]
    iintro ⟨HΦ, Ho, ⟨%d0, H0⟩, ⟨%d1, H1⟩, ⟨%d2, H2⟩, ⟨%d3, H3⟩, ⟨%d4, H4⟩⟩
    iapply (run_reset0 c (grid0.coords t) _ _ _ _ _ _ _ _ _ _ ((hcond0 t).mpr h0) (iblk0 V c 0 t) (iblk0 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accS_carry V c t h0, accS2_carry V c t h0, accC_carry V c t h0]
    simp only [before0_2_carry V c t h0, before0_3_carry V c t h0, before0_4_carry V c t h0]
    iintro ⟨HΦ, Ho, ⟨%d0, H0⟩, ⟨%d1, H1⟩, ⟨%d2, H2⟩, ⟨%d3, H3⟩, ⟨%d4, H4⟩⟩
    iapply (run_carry0 c (grid0.coords t) _ _ _ _ _ _ _ _ _ _ (fun h => h0 ((hcond0 t).mp h)) (iblk0 V c 0 t) (iblk0 V c 1 t)
      (accS V c (t.val - 1) (Nat.lt_of_le_of_lt (Nat.sub_le _ _) t.isLt))
      (accS2 V c (t.val - 1) (Nat.lt_of_le_of_lt (Nat.sub_le _ _) t.isLt))
      (accC V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- Region 1 (the apply kernel) at an entry valuation V: what the output staging buffer holds after every grid point,
   and the body's Hoare triple at every point. -/
import proofs.«402630_j9972914061338_3_alg».proof.Proof.Gen.Kernel.Launch
import proofs.«402630_j9972914061338_3_alg».proof.Proof.Gen.Kernel.Skeleton
import proofs.«402630_j9972914061338_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block from the four input blocks: x · scale + shift, scale and shift gathered by the one-hot product. -/
def out1_4 (x0 : Vec F S4000x240 .f32) (x1 : Vec F S1x1x4000 .i32) (x2 x3 : Vec F S64x512 .bf16) : Vec F S4000x240 .f32 :=
  k1_pay1 x0 x1 x2 x3

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! ## What the body leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What the body finds in each input window's buffer

An input window's buffer holds its block at every point. Where the window is fetched this is what the fetch put
there; where it is not (the two tables after the first point) the block index has not moved since the point before,
and the body left the buffer as it found it. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- The zero offsets of a rank-2 whole-buffer access, as a constant function. -/
theorem zeroOff2 : (![0, 0] : Fin 2 → Nat) = fun _ => 0 := funext fun a => by fin_cases a <;> rfl

/-- The same for a rank-3 access. -/
theorem zeroOff3 : (![0, 0, 0] : Fin 3 → Nat) = fun _ => 0 := funext fun a => by fin_cases a <;> rfl

/-- The rectangle of the kernel's one store: the whole output buffer. -/
abbrev wholeOut : Rect S4000x240 := Rect.unit (s := S4000x240) ![0, 0] S4000x240.size inb_S4000x240_S4000x240_0_0

/-- Every index of the output buffer lies in it, -/
theorem mem_wholeOut (y : S4000x240.Idx) : y ∈ wholeOut.set :=
  View.mem_set_unit_zero (S := S4000x240) zeroOff2 inb_S4000x240_S4000x240_0_0 y

/-- so the one store covers the buffer, -/
theorem wholeOut_covers (p : Vec F S4000x240 .f32) (y : S4000x240.Idx) :
    ∃ pc ∈ ([⟨wholeOut, p⟩] : List (View.Piece (Elt F) S4000x240 .f32)), y ∈ pc.1.set :=
  ⟨⟨wholeOut, p⟩, List.mem_singleton_self _, mem_wholeOut y⟩

/-- and what it leaves there is its payload. -/
theorem canon_wholeOut (p : Vec F S4000x240 .f32) :
    View.canon ([⟨wholeOut, p⟩] : List (View.Piece (Elt F) S4000x240 .f32)) = p :=
  View.canon_unit_zero (S := S4000x240) zeroOff2 inb_S4000x240_S4000x240_0_0 p

set_option maxHeartbeats 1000000 in
/-- The apply kernel on whole buffers: with the four inputs reading x0 … x3 and the output buffer at anything, it
    runs to the continuation with the inputs untouched and the output buffer reading the payload of the four
    inputs — its single store overwrites the whole buffer, so nothing of the earlier contents (nor of the unused
    load of them) survives. -/
theorem apply_kernel_triple (c : Dev nD) (E : Set ℕ) (i : grid1.Coords)
    (a0 : Memref sig .tc .vmem S4000x240 .f32) (h0 : a0.IsWhole) (a1 : Memref sig .tc .vmem S1x1x4000 .i32) (h1 : a1.IsWhole)
    (a2 : Memref sig .tc .vmem S64x512 .bf16) (h2 : a2.IsWhole) (a3 : Memref sig .tc .vmem S64x512 .bf16) (h3 : a3.IsWhole)
    (a4 : Memref sig .tc .vmem S4000x240 .f32) (h4 : a4.IsWhole)
    (x0 : Vec F S4000x240 .f32) (x1 : Vec F S1x1x4000 .i32) (x2 x3 : Vec F S64x512 .bf16) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out1_4 x0 x1 x2 x3)) -∗ K ⟨⟩))
      ⊢ wp frame (wpE (defs₀ (F := F)) Variants.none c none) E (cc1__apply_kernel i a0 h0 a1 h1 a2 h2 a3 h3 a4 h4) K := by
  simp only [cc1__apply_kernel_eq_skeleton]; unfold cc1__apply_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0; subst e1; subst e2; subst e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (wholeOut_covers _), canon_wholeOut]
  unfold out1_4
  simp only [View.readAt_eq_ld]
  rw [View.ld_unit_zero zeroOff2, View.ld_unit_zero zeroOff3, View.ld_unit_zero zeroOff2, View.ld_unit_zero zeroOff2]

/-! ## The body obligation at a point -/

/-- What the body is handed at point t: the invariant, what the core owes, and every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same, every buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the kernel's triple applies at those
    blocks; the invariant and what the core owes are not touched and do not change from one point to the next. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (apply_kernel_triple c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/- The run of the printed program: two kernel regions among host operations. The buffer contents at every boundary
   between segments (a fold from the launch memory), each argument read back through that fold to its launch contents,
   both regions as segments over the state "every unscoped buffer at the boundary's contents", and the whole-program
   statement: the program terminates without fault and every unscoped buffer ends at the last boundary's contents. -/
import proofs.«402630_j9972914061338_3_alg».proof.Proof.Gen.Kernel.Launch
import proofs.«402630_j9972914061338_3_alg».proof.Proof.Gen.Kernel.Skeleton
import proofs.«402630_j9972914061338_3_alg».proof.Proof.Gen.Kernel.Points
import proofs.«402630_j9972914061338_3_alg».proof.Proof.KRegion0
import proofs.«402630_j9972914061338_3_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of a core's buffers at the five boundaries

The program is: one reshape, the statistics kernel, 108 host operations, the apply kernel. A host stretch takes the
contents to what its operations leave; a kernel region rewrites exactly its own arrays (an input array keeps what it
held, an output array holds its write-backs folded over all grid points) and leaves every other buffer alone. -/

/-- At launch: the given memory. -/
abbrev W0 : Dev nD → Valuation τ sig (Elt F) := fun c b => (s₀ m ρ).mem ((c : Dev nD), b)
/-- After the reshape of the index argument: where the statistics kernel starts. -/
abbrev W1 : Dev nD → Valuation τ sig (Elt F) := fun c => StableHlo.after hostOps0 (W0 m ρ c)
/-- `W1` read at the TensorCore's own references. -/
abbrev V1 : (c : Dev nD) → (b : Ref sig .tc) → Buf (Elt F) ((c : Thread nD τ).loc b) := fun c b => W1 m ρ c b
/-- After the statistics kernel: its five arrays at what the pipeline leaves, the rest as at `W1`. -/
def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2
  exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2
  exact Pipeline.withArrays_of_ne spec0 c _ _ b hb

/-- `W2` read at the TensorCore's own references. -/
abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b := by
  intro b hb
  refine W2_of_ne m ρ c b fun w e => hb ?_
  exact Finset.mem_image.mpr ⟨w, Finset.mem_univ _, e⟩

/-- After the 108 host operations (the per-group moments turned into the two gather tables): where the apply kernel starts. -/
abbrev W3 : Dev nD → Valuation τ sig (Elt F) := fun c => StableHlo.after hostOps1 (W2 m ρ c)
/-- `W3` read at the TensorCore's own references. -/
abbrev V3 : (c : Dev nD) → (b : Ref sig .tc) → Buf (Elt F) ((c : Thread nD τ).loc b) := fun c b => W3 m ρ c b
/-- After the apply kernel: its five arrays at what the pipeline leaves, the rest as at `W3`. The program returns here. -/
def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4
  exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4
  exact Pipeline.withArrays_of_ne spec1 c _ _ b hb

/-- `W4` read at the TensorCore's own references. -/
abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b := by
  intro b hb
  refine W4_of_ne m ρ c b fun w e => hb ?_
  exact Finset.mem_image.mpr ⟨w, Finset.mem_univ _, e⟩

/-! ## The proof data of both pipelines, each at the contents its region is entered with -/

/-- Neither pipeline prefetches a table. -/
abbrev adm : (p : Fin 2) → (pcfgs (F := F) p).Adm := fun p => (cfgs p).toPCfg_adm

/-- Pipeline 0 at `V1`, pipeline 1 at `V3`: a literal match on the pipeline's number. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

/-! ## The four arguments end as launched

No host operation writes an argument. Argument 0 is window 0 of both kernels, an input window, whose array the
pipeline leaves as it found it; arguments 1, 2, 3 are no window's array. So reading the last contents at an argument
walks back, boundary by boundary, to the launch memory. -/

/-- The reshape writes its own result only. -/
theorem hostOps0_keeps (b : Ref sig .tc) (hb : b ≠ main_v0) :
    ∀ op ∈ (hostOps0 : List (HloOp τ sig (Elt F))), (Proc.devRef .tc b : DevRef τ sig) ∉ op.writes := by
  refine List.forall_iff_forall_mem.mp ?_
  simp only [hostOps0, List.Forall, StableHlo.reshape_writes, Finset.mem_singleton]
  exact StableHlo.devRef_ne_of_ne hb

set_option maxHeartbeats 4000000 in
/-- None of the 108 operations writes an argument: each writes one fresh intermediate. -/
theorem hostOps1_keeps (b : Ref sig .tc) (hb : b = main_arg0 ∨ b = main_arg1 ∨ b = main_arg2 ∨ b = main_arg3) :
    ∀ op ∈ (hostOps1 : List (HloOp τ sig (Elt F))), (Proc.devRef .tc b : DevRef τ sig) ∉ op.writes := by
  refine List.forall_iff_forall_mem.mp ?_
  simp only [hostOps1, List.Forall, StableHlo.nullary_writes, StableHlo.unary_writes, StableHlo.binary_writes,
    StableHlo.reshape_writes, StableHlo.nary_writes, Finset.mem_singleton]
  rcases hb with rfl | rfl | rfl | rfl
  all_goals
    repeat' apply And.intro
    all_goals exact StableHlo.devRef_ne_of_ne (by decide)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
          (W4_arr m ρ c 0).trans (((dat1 (V3 m ρ) c).arrAt_in 0 rfl _).trans (A_eq1 (V3 m ρ) c 0))
    _ = W2 m ρ c (Proc.devRef .tc main_arg0) :=
          StableHlo.after_of_forall_not_mem (b := Proc.devRef .tc main_arg0) _ _ (hostOps1_keeps main_arg0 (Or.inl rfl))
    _ = W1 m ρ c (Proc.devRef .tc main_arg0) :=
          (W2_arr m ρ c 0).trans (((dat0 (V1 m ρ) c).arrAt_in 0 rfl _).trans (A_eq0 (V1 m ρ) c 0))
    _ = W0 m ρ c (Proc.devRef .tc main_arg0) :=
          StableHlo.after_of_forall_not_mem (b := Proc.devRef .tc main_arg0) _ _ (hostOps0_keeps main_arg0 (by decide))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) :=
          StableHlo.after_of_forall_not_mem (b := Proc.devRef .tc main_arg1) _ _ (hostOps1_keeps main_arg1 (Or.inr (Or.inl rfl)))
    _ = W1 m ρ c (Proc.devRef .tc main_arg1) := W2_of_ne m ρ c main_arg1 (by decide)
    _ = W0 m ρ c (Proc.devRef .tc main_arg1) :=
          StableHlo.after_of_forall_not_mem (b := Proc.devRef .tc main_arg1) _ _ (hostOps0_keeps main_arg1 (by decide))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) :=
          StableHlo.after_of_forall_not_mem (b := Proc.devRef .tc main_arg2) _ _ (hostOps1_keeps main_arg2 (Or.inr (Or.inr (Or.inl rfl))))
    _ = W1 m ρ c (Proc.devRef .tc main_arg2) := W2_of_ne m ρ c main_arg2 (by decide)
    _ = W0 m ρ c (Proc.devRef .tc main_arg2) :=
          StableHlo.after_of_forall_not_mem (b := Proc.devRef .tc main_arg2) _ _ (hostOps0_keeps main_arg2 (by decide))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) :=
          StableHlo.after_of_forall_not_mem (b := Proc.devRef .tc main_arg3) _ _ (hostOps1_keeps main_arg3 (Or.inr (Or.inr (Or.inr rfl))))
    _ = W1 m ρ c (Proc.devRef .tc main_arg3) := W2_of_ne m ρ c main_arg3 (by decide)
    _ = W0 m ρ c (Proc.devRef .tc main_arg3) :=
          StableHlo.after_of_forall_not_mem (b := Proc.devRef .tc main_arg3) _ _ (hostOps0_keeps main_arg3 (by decide))
    _ = m ((c : Thread nD τ).loc main_arg3) := rfl

/-! ## The state carried through the segments

On every core: every unscoped buffer whole at the current boundary's contents, beside the generator register at some
state and the core owing nothing to any other. No pair of cores is assigned a level. -/

abbrev 𝒱₀ : Variants := Variants.none
abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

/-- A stretch of host operations as a segment over the unscoped buffers at contents `W`: it ends with them at
    `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates nothing. -/
theorem hostOps0_fresh : (hostOps0 : List (HloOp τ sig (Elt F))).Forall fun op => op.fresh = ∅ := by
  simp only [List.Forall]
  rfl

set_option maxHeartbeats 4000000 in
/-- None of the 108 operations allocates a buffer. -/
theorem hostOps1_fresh : (hostOps1 : List (HloOp τ sig (Elt F))).Forall fun op => op.fresh = ∅ := by
  simp only [List.Forall]
  repeat' constructor

/-- An unscoped TensorCore reference is one of the buffers the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state at the return, without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- The statistics kernel as a segment: entered with every unscoped buffer at `W1`, left with them at `W2`.
    Entry: the five arrays are split off the unscoped buffers, at the contents the proof data start from; there is no
    prefetched table and no semaphore of the kernel's own; the register goes into the region invariant, the untouched
    buffers bypass the region. Exit: the arrays, now at the folded write-backs, rejoin the untouched buffers, which is
    the unscoped buffers at `W2`; the register comes back out; nothing was owed, nothing is. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers at the entry contents are the arrays (at what the proof data start from) and the rest
    have split := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at split
    rw [Pipeline.ownSems0_none]
    iintro ⟨⟨Hbufs, Hreg, Howes⟩, -, -⟩
    ihave Hsp := split $$ Hbufs
    icases Hsp with ⟨Harr, Hoff⟩
    imodintro
    isplitl [Harr]
    · iexact Harr
    isplitr
    · -- no table is prefetched: an empty product
      unfold Pipeline.prefHeld
      rw [show (Finset.univ : Finset (Fin 0)) = ∅ from rfl, BI.bigSep_empty]
      iempintro
    isplitl [Howes]
    · -- nothing owed is within any bound
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hoff
  hin c := by
    rw [show (pdats m ρ 0 c).Φ 0 = Pipeline.ΦA spec0 c from rfl]
    unfold Pipeline.ΦA
    iintro ⟨Hreg, -, Hscr⟩
    isplitl [Hscr]
    · iexact Hscr
    iexact Hreg
  hout c := by
    rw [Pipeline.ownSems0_none, show (pdats m ρ 0 c).Φ (Fin.last _) = Pipeline.ΦA spec0 c from rfl]
    unfold Pipeline.ΦA
    iintro ⟨Hscr, Hreg⟩
    isplitl [Hreg]
    · iexact Hreg
    isplitr
    · iempintro
    iexact Hscr
  hexit c := by
    -- the arrays at their last contents and the rest at the entry contents are the unscoped buffers at the exit contents
    have join := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at join
    iintro ⟨Harr, Howes, Hreg, Hoff⟩
    imodintro
    isplitl [Harr Hoff]
    · iapply join
      isplitl [Harr] <;> iassumption
    isplitl [Hreg]
    · iexact Hreg
    unfold Pipeline.Dat.owesAt Pipeline.owesWithin
    icases Howes with ⟨%W, -, Howes⟩
    iexists W
    iexact Howes

set_option backward.isDefEq.respectTransparency.types false in
/-- The apply kernel as a segment: entered with every unscoped buffer at `W3`, left with them at `W4`.
    Entry: the five arrays are split off the unscoped buffers, at the contents the proof data start from; there is no
    prefetched table and no semaphore of the kernel's own; the register goes into the region invariant, the untouched
    buffers bypass the region. Exit: the arrays, now at the folded write-backs, rejoin the untouched buffers, which is
    the unscoped buffers at `W4`; the register comes back out; nothing was owed, nothing is. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers at the entry contents are the arrays (at what the proof data start from) and the rest
    have split := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at split
    rw [Pipeline.ownSems0_none]
    iintro ⟨⟨Hbufs, Hreg, Howes⟩, -, -⟩
    ihave Hsp := split $$ Hbufs
    icases Hsp with ⟨Harr, Hoff⟩
    imodintro
    isplitl [Harr]
    · iexact Harr
    isplitr
    · -- no table is prefetched: an empty product
      unfold Pipeline.prefHeld
      rw [show (Finset.univ : Finset (Fin 0)) = ∅ from rfl, BI.bigSep_empty]
      iempintro
    isplitl [Howes]
    · -- nothing owed is within any bound
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hoff
  hin c := by
    rw [show (pdats m ρ 1 c).Φ 0 = Pipeline.ΦA spec1 c from rfl]
    unfold Pipeline.ΦA
    iintro ⟨Hreg, -, Hscr⟩
    isplitl [Hscr]
    · iexact Hscr
    iexact Hreg
  hout c := by
    rw [Pipeline.ownSems0_none, show (pdats m ρ 1 c).Φ (Fin.last _) = Pipeline.ΦA spec1 c from rfl]
    unfold Pipeline.ΦA
    iintro ⟨Hscr, Hreg⟩
    isplitl [Hreg]
    · iexact Hreg
    isplitr
    · iempintro
    iexact Hscr
  hexit c := by
    -- the arrays at their last contents and the rest at the entry contents are the unscoped buffers at the exit contents
    have join := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at join
    iintro ⟨Harr, Howes, Hreg, Hoff⟩
    imodintro
    isplitl [Harr Hoff Hreg]
    · isplitl [Harr Hoff]
      · iapply join
        isplitl [Harr] <;> iassumption
      iexact Hreg
    unfold Pipeline.Dat.owesAt Pipeline.owesWithin
    icases Howes with ⟨%W, -, Howes⟩
    iexists W
    iexact Howes

/-! ## The program as four segments, and its run -/

/-- Reshape, statistics kernel, the 108 operations, apply kernel: each host stretch from its boundary's contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The printed program is the run of those segments: both are the same chain of four items. -/
theorem main_run (c : Dev nD) : main (F := F) c = Pipeline.Seg.run (segs m ρ) := (main_chain c).trans (by chain_rfl)

set_option backward.isDefEq.respectTransparency.types false in
/-- From any memory with every counter at zero, every weakly fair execution of the program on the TensorCores
    terminates without fault, and at the end every unscoped buffer of every core holds the last boundary's contents `W4`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no further ghost state per core
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- what the launch deals each core: its unscoped buffers at the launch memory, its register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      iexists ∅; iexact Howes)
    (QY := fun c s => ∀ b ∈ Pipeline.ucRefs τ sig, s.mem (((c : Thread nD τ)).1, b) = W4 m ρ c b)
    (hfin := fun c s' => by
      -- holding every unscoped buffer whole at `W4` beside a final state reads that state's memory
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-- The arguments end as launched: the run's final memory at each argument is `W4` there, which is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.Kernel.Hand

end
-- ==== Proof.KIRegion0.lean ====
/- Region 0 (the reduction kernel) at an entry valuation V: what each staging buffer holds after every grid point,
   and the body's Hoare triple at every point. -/
import proofs.«402630_j9972914061338_3_alg».proof.Proof.Gen.KernelIdeal.Launch
import proofs.«402630_j9972914061338_3_alg».proof.Proof.Gen.KernelIdeal.Skeleton
import proofs.«402630_j9972914061338_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running per-core sum of one-hot(batch) · x after point n (reset at the points ≡ 0 mod 25). -/
def accS (c : Dev nD) : (n : ℕ) → n < cfg0.N → Vec F S1x64x240 .f32
  | 0, hn => k0_pay7 (iblk0 V c 0 ⟨0, hn⟩) (iblk0 V c 1 ⟨0, hn⟩) k0_pay2
  | n + 1, hn =>
    if (n + 1) % 25 = 0 then k0_pay7 (iblk0 V c 0 ⟨n + 1, hn⟩) (iblk0 V c 1 ⟨n + 1, hn⟩) k0_pay2
    else k0_pay7 (iblk0 V c 0 ⟨n + 1, hn⟩) (iblk0 V c 1 ⟨n + 1, hn⟩) (accS c n (Nat.lt_of_succ_lt hn))

/-- The running per-core sum of one-hot(batch) · x² over the first 64 columns. -/
def accS2 (c : Dev nD) : (n : ℕ) → n < cfg0.N → Vec F S1x64x64 .f32
  | 0, hn => k0_pay8 (iblk0 V c 0 ⟨0, hn⟩) (iblk0 V c 1 ⟨0, hn⟩) k0_pay3
  | n + 1, hn =>
    if (n + 1) % 25 = 0 then k0_pay8 (iblk0 V c 0 ⟨n + 1, hn⟩) (iblk0 V c 1 ⟨n + 1, hn⟩) k0_pay3
    else k0_pay8 (iblk0 V c 0 ⟨n + 1, hn⟩) (iblk0 V c 1 ⟨n + 1, hn⟩) (accS2 c n (Nat.lt_of_succ_lt hn))

/-- The running per-core count of rows of each graph. -/
def accC (c : Dev nD) : (n : ℕ) → n < cfg0.N → Vec F S1x64x1 .f32
  | 0, hn => k0_pay1 (k0_pay9 (iblk0 V c 1 ⟨0, hn⟩)) k0_pay4
  | n + 1, hn =>
    if (n + 1) % 25 = 0 then k0_pay1 (k0_pay9 (iblk0 V c 1 ⟨n + 1, hn⟩)) k0_pay4
    else k0_pay1 (k0_pay9 (iblk0 V c 1 ⟨n + 1, hn⟩)) (accC c n (Nat.lt_of_succ_lt hn))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accS V c t.val t.isLt
    | ⟨3, _⟩ => accS2 V c t.val t.isLt
    | ⟨4, _⟩ => accC V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## The body on any whole staging memrefs: the two control cases -/

/-- The body's branch condition (the second grid coordinate is zero), from the grid coordinates. -/
abbrev cond0 (i : grid0.Coords) : Prop := (Scalar.cmpi .ne (Scalar.extui (Scalar.cmpi .eq (BitVec.ofNat 32 (i 1).val) 0#32)) 0#32) = 1#1
/-- It holds exactly at the first point of each core-row: decided over the grid. -/
theorem hcond0 : ∀ t : Fin cfg0.N, cond0 (grid0.coords t) ↔ t.val % 25 = 0 :=
  (by decide +kernel : ∀ t : Fin grid0.N, cond0 (grid0.coords t) ↔ t.val % 25 = 0)

theorem r0_hz2 : (![0, 0] : Fin 2 → Nat) = fun _ => 0 := funext fun a => by fin_cases a <;> rfl
theorem r0_hz3 : (![0, 0, 0] : Fin 3 → Nat) = fun _ => 0 := funext fun a => by fin_cases a <;> rfl

set_option maxHeartbeats 1000000 in
/-- RESET: at a point whose second coordinate is zero the body first zeroes the three accumulators, so whatever they
    held, it leaves each at its update of the zero block by the point's x and batch blocks. -/
theorem run_reset0 (c : Dev nD) (i : grid0.Coords)
    (arg2 : Memref sig .tc .vmem S4000x240 .f32) (harg2 : arg2.IsWhole) (arg3 : Memref sig .tc .vmem S1x1x4000 .i32) (harg3 : arg3.IsWhole)
    (arg4 : Memref sig .tc .vmem S1x64x240 .f32) (harg4 : arg4.IsWhole) (arg5 : Memref sig .tc .vmem S1x64x64 .f32) (harg5 : arg5.IsWhole)
    (arg6 : Memref sig .tc .vmem S1x64x1 .f32) (harg6 : arg6.IsWhole) (hc0 : cond0 i)
    (x : Vec F S4000x240 .f32) (b : Vec F S1x1x4000 .i32) (E : Set ℕ) (K : PUnit → sProp 𝕄) :
    iprop(owns (c : Thread nD τ) arg2 fullShare x ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x ∗ owns (c : Thread nD τ) arg3 fullShare b
            ∗ owns (c : Thread nD τ) arg4 fullShare (k0_pay7 x b k0_pay2)
            ∗ owns (c : Thread nD τ) arg5 fullShare (k0_pay8 x b k0_pay3)
            ∗ owns (c : Thread nD τ) arg6 fullShare (k0_pay1 (k0_pay9 b) k0_pay4)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, Hk⟩
  obtain rfl := harg2.eq_unread hf2; obtain rfl := harg3.eq_unread hf3
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_cons_self, View.mem_set_unit_zero r0_hz3 inb_S1x64x240_S1x64x240_0_0_0 y⟩),
      View.canon_cons_unit_zero (S := S1x64x240) r0_hz3]
    sl_unfold_words
    simp only [View.readAt_eq_ld, harg2.read_unread, harg3.read_unread, View.ld_unit_zero (S := S4000x240) r0_hz2,
      View.ld_unit_zero (S := S1x1x4000) r0_hz3, View.readCov_unit_zero (S := S1x64x240) _ r0_hz3]
  isplitl [H5]
  · iexists _; isplitr
    swap; · iexact H5
    ipureintro
    rw [View.read_writes_eq_canon _ _ _ (fun y => ⟨_, List.mem_cons_self, View.mem_set_unit_zero r0_hz3 inb_S1x64x64_S1x64x64_0_0_0 y⟩),
      View.canon_cons_unit_zero (S := S1x64x64) r0_hz3]
    sl_unfold_words
    simp only [View.readAt_eq_ld, harg2.read_unread, harg3.read_unread, View.ld_unit_zero (S := S4000x240) r0_hz2,
      View.ld_unit_zero (S := S1x1x4000) r0_hz3, View.readCov_unit_zero (S := S1x64x64) _ r0_hz3]
  · iexists _; isplitr
    swap; · iexact H6
    ipureintro
    rw [View.read_writes_eq_canon _ _ _ (fun y => ⟨_, List.mem_cons_self, View.mem_set_unit_zero r0_hz3 inb_S1x64x1_S1x64x1_0_0_0 y⟩),
      View.canon_cons_unit_zero (S := S1x64x1) r0_hz3]
    sl_unfold_words
    simp only [View.readAt_eq_ld, harg3.read_unread,
      View.ld_unit_zero (S := S1x1x4000) r0_hz3, View.readCov_unit_zero (S := S1x64x1) _ r0_hz3]

set_option maxHeartbeats 1000000 in
/-- CARRY: at any other point the body adds the point's contribution to what the three accumulators hold. -/
theorem run_carry0 (c : Dev nD) (i : grid0.Coords)
    (arg2 : Memref sig .tc .vmem S4000x240 .f32) (harg2 : arg2.IsWhole) (arg3 : Memref sig .tc .vmem S1x1x4000 .i32) (harg3 : arg3.IsWhole)
    (arg4 : Memref sig .tc .vmem S1x64x240 .f32) (harg4 : arg4.IsWhole) (arg5 : Memref sig .tc .vmem S1x64x64 .f32) (harg5 : arg5.IsWhole)
    (arg6 : Memref sig .tc .vmem S1x64x1 .f32) (harg6 : arg6.IsWhole) (hc0 : ¬cond0 i)
    (x : Vec F S4000x240 .f32) (b : Vec F S1x1x4000 .i32)
    (s : Vec F S1x64x240 .f32) (s2 : Vec F S1x64x64 .f32) (n : Vec F S1x64x1 .f32) (E : Set ℕ) (K : PUnit → sProp 𝕄) :
    iprop(owns (c : Thread nD τ) arg2 fullShare x ∗ owns (c : Thread nD τ) arg3 fullShare b
        ∗ owns (c : Thread nD τ) arg4 fullShare s ∗ owns (c : Thread nD τ) arg5 fullShare s2 ∗ owns (c : Thread nD τ) arg6 fullShare n
        ∗ (iprop(owns (c : Thread nD τ) arg2 fullShare x ∗ owns (c : Thread nD τ) arg3 fullShare b
            ∗ owns (c : Thread nD τ) arg4 fullShare (k0_pay7 x b s)
            ∗ owns (c : Thread nD τ) arg5 fullShare (k0_pay8 x b s2)
            ∗ owns (c : Thread nD τ) arg6 fullShare (k0_pay1 (k0_pay9 b) n)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_cons_self, View.mem_set_unit_zero r0_hz3 inb_S1x64x240_S1x64x240_0_0_0 y⟩),
      View.canon_cons_unit_zero (S := S1x64x240) r0_hz3]
    simp only [View.readAt_eq_ld, harg2.read_unread, harg3.read_unread, harg4.read_unread, View.ld_unit_zero (S := S4000x240) r0_hz2,
      View.ld_unit_zero (S := S1x1x4000) r0_hz3, View.ld_unit_zero (S := S1x64x240) r0_hz3]
  isplitl [H5]
  · iexists _; isplitr
    swap; · iexact H5
    ipureintro
    rw [View.read_writes_eq_canon _ _ _ (fun y => ⟨_, List.mem_cons_self, View.mem_set_unit_zero r0_hz3 inb_S1x64x64_S1x64x64_0_0_0 y⟩),
      View.canon_cons_unit_zero (S := S1x64x64) r0_hz3]
    simp only [View.readAt_eq_ld, harg2.read_unread, harg3.read_unread, harg5.read_unread, View.ld_unit_zero (S := S4000x240) r0_hz2,
      View.ld_unit_zero (S := S1x1x4000) r0_hz3, View.ld_unit_zero (S := S1x64x64) r0_hz3]
  · iexists _; isplitr
    swap; · iexact H6
    ipureintro
    rw [View.read_writes_eq_canon _ _ _ (fun y => ⟨_, List.mem_cons_self, View.mem_set_unit_zero r0_hz3 inb_S1x64x1_S1x64x1_0_0_0 y⟩),
      View.canon_cons_unit_zero (S := S1x64x1) r0_hz3]
    simp only [View.readAt_eq_ld, harg3.read_unread, harg6.read_unread,
      View.ld_unit_zero (S := S1x1x4000) r0_hz3, View.ld_unit_zero (S := S1x64x1) r0_hz3]

/-! ## The accumulators point by point: the two control cases -/

theorem accS_reset (c : Dev nD) (t : Fin cfg0.N) (h0 : t.val % 25 = 0) :
    accS V c t.val t.isLt = k0_pay7 (iblk0 V c 0 t) (iblk0 V c 1 t) k0_pay2 := by
  obtain ⟨n, hn⟩ := t
  cases n with
  | zero => exact rfl
  | succ n => exact (if_pos h0).trans rfl

theorem accS_carry (c : Dev nD) (t : Fin cfg0.N) (h0 : ¬t.val % 25 = 0) :
    accS V c t.val t.isLt = k0_pay7 (iblk0 V c 0 t) (iblk0 V c 1 t) (accS V c (t.val - 1) (Nat.lt_of_le_of_lt (Nat.sub_le _ _) t.isLt)) := by
  obtain ⟨n, hn⟩ := t
  cases n with
  | zero => exact absurd (Nat.zero_mod _) h0
  | succ n => exact (if_neg h0).trans rfl

theorem accS2_reset (c : Dev nD) (t : Fin cfg0.N) (h0 : t.val % 25 = 0) :
    accS2 V c t.val t.isLt = k0_pay8 (iblk0 V c 0 t) (iblk0 V c 1 t) k0_pay3 := by
  obtain ⟨n, hn⟩ := t
  cases n with
  | zero => exact rfl
  | succ n => exact (if_pos h0).trans rfl

theorem accS2_carry (c : Dev nD) (t : Fin cfg0.N) (h0 : ¬t.val % 25 = 0) :
    accS2 V c t.val t.isLt = k0_pay8 (iblk0 V c 0 t) (iblk0 V c 1 t) (accS2 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem accC_reset (c : Dev nD) (t : Fin cfg0.N) (h0 : t.val % 25 = 0) :
    accC V c t.val t.isLt = k0_pay1 (k0_pay9 (iblk0 V c 1 t)) k0_pay4 := by
  obtain ⟨n, hn⟩ := t
  cases n with
  | zero => exact rfl
  | succ n => exact (if_pos h0).trans rfl

theorem accC_carry (c : Dev nD) (t : Fin cfg0.N) (h0 : ¬t.val % 25 = 0) :
    accC V c t.val t.isLt = k0_pay1 (k0_pay9 (iblk0 V c 1 t)) (accC V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## What each staging buffer holds when the body is called -/

/-- Each window's current staging memref at point t, as the pipeline passes it to the body, and its wholeness. -/
abbrev ms0_0 (t : Fin cfg0.N) : Memref sig .tc .vmem S4000x240 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x240 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accS V c t.val t.isLt := by dsimp only [dat0]
theorem after0_3 (c : Dev nD) (t : Fin cfg0.N) : (dat0 V c).after 3 t = accS2 V c t.val t.isLt := by dsimp only [dat0]
theorem after0_4 (c : Dev nD) (t : Fin cfg0.N) : (dat0 V c).after 4 t = accC V c t.val t.isLt := by dsimp only [dat0]

/-- The x window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The batch window's current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Away from the first point of a core-row an accumulator's staging buffer holds what the point before left: the
    buffer is written back only at the last point of a core-row, and the point before is not one. -/
theorem before0_2_carry (c : Dev nD) (t : Fin cfg0.N) (h0 : ¬t.val % 25 = 0) (d) :
    (dat0 V c).before 2 t d = accS V c (t.val - 1) (Nat.lt_of_le_of_lt (Nat.sub_le _ _) t.isLt) := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dat0]

theorem before0_3_carry (c : Dev nD) (t : Fin cfg0.N) (h0 : ¬t.val % 25 = 0) (d) :
    (dat0 V c).before 3 t d = accS2 V c (t.val - 1) (Nat.lt_of_le_of_lt (Nat.sub_le _ _) t.isLt) := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]

theorem before0_4_carry (c : Dev nD) (t : Fin cfg0.N) (h0 : ¬t.val % 25 = 0) (d) :
    (dat0 V c).before 4 t d = accC V c (t.val - 1) (Nat.lt_of_le_of_lt (Nat.sub_le _ _) t.isLt) := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point t: the invariant, nothing owed, and the five current staging buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point. The two input buffers hold the point's x and batch blocks. At the first point of a core-row
    the body zeroes the accumulators itself, so their prior contents do not matter; at any other point they hold what
    the point before left, the buffers not having been written back in between. Either way each accumulator is left at
    its update by the point's blocks, which is the recursion of the running sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 25 = 0
  · rw [accS_reset V c t h0, accS2_reset V c t h0, accC_reset V c t h0]
    iintro ⟨HΦ, Ho, ⟨%d0, H0⟩, ⟨%d1, H1⟩, ⟨%d2, H2⟩, ⟨%d3, H3⟩, ⟨%d4, H4⟩⟩
    iapply (run_reset0 c (grid0.coords t) _ _ _ _ _ _ _ _ _ _ ((hcond0 t).mpr h0) (iblk0 V c 0 t) (iblk0 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accS_carry V c t h0, accS2_carry V c t h0, accC_carry V c t h0]
    simp only [before0_2_carry V c t h0, before0_3_carry V c t h0, before0_4_carry V c t h0]
    iintro ⟨HΦ, Ho, ⟨%d0, H0⟩, ⟨%d1, H1⟩, ⟨%d2, H2⟩, ⟨%d3, H3⟩, ⟨%d4, H4⟩⟩
    iapply (run_carry0 c (grid0.coords t) _ _ _ _ _ _ _ _ _ _ (fun h => h0 ((hcond0 t).mp h)) (iblk0 V c 0 t) (iblk0 V c 1 t)
      (accS V c (t.val - 1) (Nat.lt_of_le_of_lt (Nat.sub_le _ _) t.isLt))
      (accS2 V c (t.val - 1) (Nat.lt_of_le_of_lt (Nat.sub_le _ _) t.isLt))
      (accC V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/- Region 1 (the apply kernel) at an entry valuation V: what the output staging buffer holds after every grid point,
   and the body's Hoare triple at every point. -/
import proofs.«402630_j9972914061338_3_alg».proof.Proof.Gen.KernelIdeal.Launch
import proofs.«402630_j9972914061338_3_alg».proof.Proof.Gen.KernelIdeal.Skeleton
import proofs.«402630_j9972914061338_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block from the four input blocks: x · scale + shift, scale and shift gathered by the one-hot product. -/
def out1_4 (x0 : Vec F S4000x240 .f32) (x1 : Vec F S1x1x4000 .i32) (x2 x3 : Vec F S64x512 .bf16) : Vec F S4000x240 .f32 :=
  k1_pay1 x0 x1 x2 x3

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! ## What the body leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What the body finds in each input window's buffer

An input window's buffer holds its block at every point. Where the window is fetched this is what the fetch put
there; where it is not (the two tables after the first point) the block index has not moved since the point before,
and the body left the buffer as it found it. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's triple -/

/-- The zero offsets of a rank-2 whole-buffer access, as a constant function. -/
theorem zeroOff2 : (![0, 0] : Fin 2 → Nat) = fun _ => 0 := funext fun a => by fin_cases a <;> rfl

/-- The same for a rank-3 access. -/
theorem zeroOff3 : (![0, 0, 0] : Fin 3 → Nat) = fun _ => 0 := funext fun a => by fin_cases a <;> rfl

/-- The rectangle of the kernel's one store: the whole output buffer. -/
abbrev wholeOut : Rect S4000x240 := Rect.unit (s := S4000x240) ![0, 0] S4000x240.size inb_S4000x240_S4000x240_0_0

/-- Every index of the output buffer lies in it, -/
theorem mem_wholeOut (y : S4000x240.Idx) : y ∈ wholeOut.set :=
  View.mem_set_unit_zero (S := S4000x240) zeroOff2 inb_S4000x240_S4000x240_0_0 y

/-- so the one store covers the buffer, -/
theorem wholeOut_covers (p : Vec F S4000x240 .f32) (y : S4000x240.Idx) :
    ∃ pc ∈ ([⟨wholeOut, p⟩] : List (View.Piece (Elt F) S4000x240 .f32)), y ∈ pc.1.set :=
  ⟨⟨wholeOut, p⟩, List.mem_singleton_self _, mem_wholeOut y⟩

/-- and what it leaves there is its payload. -/
theorem canon_wholeOut (p : Vec F S4000x240 .f32) :
    View.canon ([⟨wholeOut, p⟩] : List (View.Piece (Elt F) S4000x240 .f32)) = p :=
  View.canon_unit_zero (S := S4000x240) zeroOff2 inb_S4000x240_S4000x240_0_0 p

set_option maxHeartbeats 1000000 in
/-- The apply kernel on whole buffers: with the four inputs reading x0 … x3 and the output buffer at anything, it
    runs to the continuation with the inputs untouched and the output buffer reading the payload of the four
    inputs — its single store overwrites the whole buffer, so nothing of the earlier contents (nor of the unused
    load of them) survives. -/
theorem apply_kernel_triple (c : Dev nD) (E : Set ℕ) (i : grid1.Coords)
    (a0 : Memref sig .tc .vmem S4000x240 .f32) (h0 : a0.IsWhole) (a1 : Memref sig .tc .vmem S1x1x4000 .i32) (h1 : a1.IsWhole)
    (a2 : Memref sig .tc .vmem S64x512 .bf16) (h2 : a2.IsWhole) (a3 : Memref sig .tc .vmem S64x512 .bf16) (h3 : a3.IsWhole)
    (a4 : Memref sig .tc .vmem S4000x240 .f32) (h4 : a4.IsWhole)
    (x0 : Vec F S4000x240 .f32) (x1 : Vec F S1x1x4000 .i32) (x2 x3 : Vec F S64x512 .bf16) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out1_4 x0 x1 x2 x3)) -∗ K ⟨⟩))
      ⊢ wp frame (wpE (defs₀ (F := F)) Variants.none c none) E (cc1__apply_kernel i a0 h0 a1 h1 a2 h2 a3 h3 a4 h4) K := by
  simp only [cc1__apply_kernel_eq_skeleton]; unfold cc1__apply_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0; subst e1; subst e2; subst e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (wholeOut_covers _), canon_wholeOut]
  unfold out1_4
  simp only [View.readAt_eq_ld]
  rw [View.ld_unit_zero zeroOff2, View.ld_unit_zero zeroOff3, View.ld_unit_zero zeroOff2, View.ld_unit_zero zeroOff2]

/-! ## The body obligation at a point -/

/-- What the body is handed at point t: the invariant, what the core owes, and every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same, every buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the kernel's triple applies at those
    blocks; the invariant and what the core owes are not touched and do not change from one point to the next. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (apply_kernel_triple c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/- The run of the printed program: two kernel regions among host operations. The buffer contents at every boundary
   between segments (a fold from the launch memory), each argument read back through that fold to its launch contents,
   both regions as segments over the state "every unscoped buffer at the boundary's contents", and the whole-program
   statement: the program terminates without fault and every unscoped buffer ends at the last boundary's contents. -/
import proofs.«402630_j9972914061338_3_alg».proof.Proof.Gen.KernelIdeal.Launch
import proofs.«402630_j9972914061338_3_alg».proof.Proof.Gen.KernelIdeal.Skeleton
import proofs.«402630_j9972914061338_3_alg».proof.Proof.Gen.KernelIdeal.Points
import proofs.«402630_j9972914061338_3_alg».proof.Proof.KIRegion0
import proofs.«402630_j9972914061338_3_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of a core's buffers at the five boundaries

The program is: one reshape, the statistics kernel, 108 host operations, the apply kernel. A host stretch takes the
contents to what its operations leave; a kernel region rewrites exactly its own arrays (an input array keeps what it
held, an output array holds its write-backs folded over all grid points) and leaves every other buffer alone. -/

/-- At launch: the given memory. -/
abbrev W0 : Dev nD → Valuation τ sig (Elt F) := fun c b => (s₀ m ρ).mem ((c : Dev nD), b)
/-- After the reshape of the index argument: where the statistics kernel starts. -/
abbrev W1 : Dev nD → Valuation τ sig (Elt F) := fun c => StableHlo.after hostOps0 (W0 m ρ c)
/-- `W1` read at the TensorCore's own references. -/
abbrev V1 : (c : Dev nD) → (b : Ref sig .tc) → Buf (Elt F) ((c : Thread nD τ).loc b) := fun c b => W1 m ρ c b
/-- After the statistics kernel: its five arrays at what the pipeline leaves, the rest as at `W1`. -/
def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2
  exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2
  exact Pipeline.withArrays_of_ne spec0 c _ _ b hb

/-- `W2` read at the TensorCore's own references. -/
abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b := by
  intro b hb
  refine W2_of_ne m ρ c b fun w e => hb ?_
  exact Finset.mem_image.mpr ⟨w, Finset.mem_univ _, e⟩

/-- After the 108 host operations (the per-group moments turned into the two gather tables): where the apply kernel starts. -/
abbrev W3 : Dev nD → Valuation τ sig (Elt F) := fun c => StableHlo.after hostOps1 (W2 m ρ c)
/-- `W3` read at the TensorCore's own references. -/
abbrev V3 : (c : Dev nD) → (b : Ref sig .tc) → Buf (Elt F) ((c : Thread nD τ).loc b) := fun c b => W3 m ρ c b
/-- After the apply kernel: its five arrays at what the pipeline leaves, the rest as at `W3`. The program returns here. -/
def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4
  exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4
  exact Pipeline.withArrays_of_ne spec1 c _ _ b hb

/-- `W4` read at the TensorCore's own references. -/
abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b := by
  intro b hb
  refine W4_of_ne m ρ c b fun w e => hb ?_
  exact Finset.mem_image.mpr ⟨w, Finset.mem_univ _, e⟩

/-! ## The proof data of both pipelines, each at the contents its region is entered with -/

/-- Neither pipeline prefetches a table. -/
abbrev adm : (p : Fin 2) → (pcfgs (F := F) p).Adm := fun p => (cfgs p).toPCfg_adm

/-- Pipeline 0 at `V1`, pipeline 1 at `V3`: a literal match on the pipeline's number. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

/-! ## The four arguments end as launched

No host operation writes an argument. Argument 0 is window 0 of both kernels, an input window, whose array the
pipeline leaves as it found it; arguments 1, 2, 3 are no window's array. So reading the last contents at an argument
walks back, boundary by boundary, to the launch memory. -/

/-- The reshape writes its own result only. -/
theorem hostOps0_keeps (b : Ref sig .tc) (hb : b ≠ main_v0) :
    ∀ op ∈ (hostOps0 : List (HloOp τ sig (Elt F))), (Proc.devRef .tc b : DevRef τ sig) ∉ op.writes := by
  refine List.forall_iff_forall_mem.mp ?_
  simp only [hostOps0, List.Forall, StableHlo.reshape_writes, Finset.mem_singleton]
  exact StableHlo.devRef_ne_of_ne hb

set_option maxHeartbeats 4000000 in
/-- None of the 108 operations writes an argument: each writes one fresh intermediate. -/
theorem hostOps1_keeps (b : Ref sig .tc) (hb : b = main_arg0 ∨ b = main_arg1 ∨ b = main_arg2 ∨ b = main_arg3) :
    ∀ op ∈ (hostOps1 : List (HloOp τ sig (Elt F))), (Proc.devRef .tc b : DevRef τ sig) ∉ op.writes := by
  refine List.forall_iff_forall_mem.mp ?_
  simp only [hostOps1, List.Forall, StableHlo.nullary_writes, StableHlo.unary_writes, StableHlo.binary_writes,
    StableHlo.reshape_writes, StableHlo.nary_writes, Finset.mem_singleton]
  rcases hb with rfl | rfl | rfl | rfl
  all_goals
    repeat' apply And.intro
    all_goals exact StableHlo.devRef_ne_of_ne (by decide)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
          (W4_arr m ρ c 0).trans (((dat1 (V3 m ρ) c).arrAt_in 0 rfl _).trans (A_eq1 (V3 m ρ) c 0))
    _ = W2 m ρ c (Proc.devRef .tc main_arg0) :=
          StableHlo.after_of_forall_not_mem (b := Proc.devRef .tc main_arg0) _ _ (hostOps1_keeps main_arg0 (Or.inl rfl))
    _ = W1 m ρ c (Proc.devRef .tc main_arg0) :=
          (W2_arr m ρ c 0).trans (((dat0 (V1 m ρ) c).arrAt_in 0 rfl _).trans (A_eq0 (V1 m ρ) c 0))
    _ = W0 m ρ c (Proc.devRef .tc main_arg0) :=
          StableHlo.after_of_forall_not_mem (b := Proc.devRef .tc main_arg0) _ _ (hostOps0_keeps main_arg0 (by decide))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) :=
          StableHlo.after_of_forall_not_mem (b := Proc.devRef .tc main_arg1) _ _ (hostOps1_keeps main_arg1 (Or.inr (Or.inl rfl)))
    _ = W1 m ρ c (Proc.devRef .tc main_arg1) := W2_of_ne m ρ c main_arg1 (by decide)
    _ = W0 m ρ c (Proc.devRef .tc main_arg1) :=
          StableHlo.after_of_forall_not_mem (b := Proc.devRef .tc main_arg1) _ _ (hostOps0_keeps main_arg1 (by decide))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) :=
          StableHlo.after_of_forall_not_mem (b := Proc.devRef .tc main_arg2) _ _ (hostOps1_keeps main_arg2 (Or.inr (Or.inr (Or.inl rfl))))
    _ = W1 m ρ c (Proc.devRef .tc main_arg2) := W2_of_ne m ρ c main_arg2 (by decide)
    _ = W0 m ρ c (Proc.devRef .tc main_arg2) :=
          StableHlo.after_of_forall_not_mem (b := Proc.devRef .tc main_arg2) _ _ (hostOps0_keeps main_arg2 (by decide))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) :=
          StableHlo.after_of_forall_not_mem (b := Proc.devRef .tc main_arg3) _ _ (hostOps1_keeps main_arg3 (Or.inr (Or.inr (Or.inr rfl))))
    _ = W1 m ρ c (Proc.devRef .tc main_arg3) := W2_of_ne m ρ c main_arg3 (by decide)
    _ = W0 m ρ c (Proc.devRef .tc main_arg3) :=
          StableHlo.after_of_forall_not_mem (b := Proc.devRef .tc main_arg3) _ _ (hostOps0_keeps main_arg3 (by decide))
    _ = m ((c : Thread nD τ).loc main_arg3) := rfl

/-! ## The state carried through the segments

On every core: every unscoped buffer whole at the current boundary's contents, beside the generator register at some
state and the core owing nothing to any other. No pair of cores is assigned a level. -/

abbrev 𝒱₀ : Variants := Variants.none
abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

/-- A stretch of host operations as a segment over the unscoped buffers at contents `W`: it ends with them at
    `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates nothing. -/
theorem hostOps0_fresh : (hostOps0 : List (HloOp τ sig (Elt F))).Forall fun op => op.fresh = ∅ := by
  simp only [List.Forall]
  rfl

set_option maxHeartbeats 4000000 in
/-- None of the 108 operations allocates a buffer. -/
theorem hostOps1_fresh : (hostOps1 : List (HloOp τ sig (Elt F))).Forall fun op => op.fresh = ∅ := by
  simp only [List.Forall]
  repeat' constructor

/-- An unscoped TensorCore reference is one of the buffers the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state at the return, without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- The statistics kernel as a segment: entered with every unscoped buffer at `W1`, left with them at `W2`.
    Entry: the five arrays are split off the unscoped buffers, at the contents the proof data start from; there is no
    prefetched table and no semaphore of the kernel's own; the register goes into the region invariant, the untouched
    buffers bypass the region. Exit: the arrays, now at the folded write-backs, rejoin the untouched buffers, which is
    the unscoped buffers at `W2`; the register comes back out; nothing was owed, nothing is. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers at the entry contents are the arrays (at what the proof data start from) and the rest
    have split := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at split
    rw [Pipeline.ownSems0_none]
    iintro ⟨⟨Hbufs, Hreg, Howes⟩, -, -⟩
    ihave Hsp := split $$ Hbufs
    icases Hsp with ⟨Harr, Hoff⟩
    imodintro
    isplitl [Harr]
    · iexact Harr
    isplitr
    · -- no table is prefetched: an empty product
      unfold Pipeline.prefHeld
      rw [show (Finset.univ : Finset (Fin 0)) = ∅ from rfl, BI.bigSep_empty]
      iempintro
    isplitl [Howes]
    · -- nothing owed is within any bound
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hoff
  hin c := by
    rw [show (pdats m ρ 0 c).Φ 0 = Pipeline.ΦA spec0 c from rfl]
    unfold Pipeline.ΦA
    iintro ⟨Hreg, -, Hscr⟩
    isplitl [Hscr]
    · iexact Hscr
    iexact Hreg
  hout c := by
    rw [Pipeline.ownSems0_none, show (pdats m ρ 0 c).Φ (Fin.last _) = Pipeline.ΦA spec0 c from rfl]
    unfold Pipeline.ΦA
    iintro ⟨Hscr, Hreg⟩
    isplitl [Hreg]
    · iexact Hreg
    isplitr
    · iempintro
    iexact Hscr
  hexit c := by
    -- the arrays at their last contents and the rest at the entry contents are the unscoped buffers at the exit contents
    have join := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at join
    iintro ⟨Harr, Howes, Hreg, Hoff⟩
    imodintro
    isplitl [Harr Hoff]
    · iapply join
      isplitl [Harr] <;> iassumption
    isplitl [Hreg]
    · iexact Hreg
    unfold Pipeline.Dat.owesAt Pipeline.owesWithin
    icases Howes with ⟨%W, -, Howes⟩
    iexists W
    iexact Howes

set_option backward.isDefEq.respectTransparency.types false in
/-- The apply kernel as a segment: entered with every unscoped buffer at `W3`, left with them at `W4`.
    Entry: the five arrays are split off the unscoped buffers, at the contents the proof data start from; there is no
    prefetched table and no semaphore of the kernel's own; the register goes into the region invariant, the untouched
    buffers bypass the region. Exit: the arrays, now at the folded write-backs, rejoin the untouched buffers, which is
    the unscoped buffers at `W4`; the register comes back out; nothing was owed, nothing is. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers at the entry contents are the arrays (at what the proof data start from) and the rest
    have split := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at split
    rw [Pipeline.ownSems0_none]
    iintro ⟨⟨Hbufs, Hreg, Howes⟩, -, -⟩
    ihave Hsp := split $$ Hbufs
    icases Hsp with ⟨Harr, Hoff⟩
    imodintro
    isplitl [Harr]
    · iexact Harr
    isplitr
    · -- no table is prefetched: an empty product
      unfold Pipeline.prefHeld
      rw [show (Finset.univ : Finset (Fin 0)) = ∅ from rfl, BI.bigSep_empty]
      iempintro
    isplitl [Howes]
    · -- nothing owed is within any bound
      unfold Pipeline.Dat.owesAt Pipeline.owesWithin
      icases Howes with ⟨%W, Howes⟩
      iexists W
      isplitr
      · ipureintro; exact fun _ _ => Or.inl trivial
      iexact Howes
    isplitl [Hreg]
    · iexact Hreg
    iexact Hoff
  hin c := by
    rw [show (pdats m ρ 1 c).Φ 0 = Pipeline.ΦA spec1 c from rfl]
    unfold Pipeline.ΦA
    iintro ⟨Hreg, -, Hscr⟩
    isplitl [Hscr]
    · iexact Hscr
    iexact Hreg
  hout c := by
    rw [Pipeline.ownSems0_none, show (pdats m ρ 1 c).Φ (Fin.last _) = Pipeline.ΦA spec1 c from rfl]
    unfold Pipeline.ΦA
    iintro ⟨Hscr, Hreg⟩
    isplitl [Hreg]
    · iexact Hreg
    isplitr
    · iempintro
    iexact Hscr
  hexit c := by
    -- the arrays at their last contents and the rest at the entry contents are the unscoped buffers at the exit contents
    have join := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at join
    iintro ⟨Harr, Howes, Hreg, Hoff⟩
    imodintro
    isplitl [Harr Hoff Hreg]
    · isplitl [Harr Hoff]
      · iapply join
        isplitl [Harr] <;> iassumption
      iexact Hreg
    unfold Pipeline.Dat.owesAt Pipeline.owesWithin
    icases Howes with ⟨%W, -, Howes⟩
    iexists W
    iexact Howes

/-! ## The program as four segments, and its run -/

/-- Reshape, statistics kernel, the 108 operations, apply kernel: each host stretch from its boundary's contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- The printed program is the run of those segments: both are the same chain of four items. -/
theorem main_run (c : Dev nD) : main (F := F) c = Pipeline.Seg.run (segs m ρ) := (main_chain c).trans (by chain_rfl)

set_option backward.isDefEq.respectTransparency.types false in
/-- From any memory with every counter at zero, every weakly fair execution of the program on the TensorCores
    terminates without fault, and at the end every unscoped buffer of every core holds the last boundary's contents `W4`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no further ghost state per core
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- what the launch deals each core: its unscoped buffers at the launch memory, its register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      iexists ∅; iexact Howes)
    (QY := fun c s => ∀ b ∈ Pipeline.ucRefs τ sig, s.mem (((c : Thread nD τ)).1, b) = W4 m ρ c b)
    (hfin := fun c s' => by
      -- holding every unscoped buffer whole at `W4` beside a final state reads that state's memory
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

/-- The arguments end as launched: the run's final memory at each argument is `W4` there, which is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.KIReads.lean ====
/- What the two kernels and the host stretch between them read, traced back to the launch memory: argument 0 reaches
   both kernels unchanged, the reshaped index argument reaches both as the flat argument re-indexed row-major, and
   arguments 2 and 3 reach the host stretch unchanged. -/
import proofs.«402630_j9972914061338_3_alg».proof.Proof.KIRun
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the statistics kernel is entered with -/

/-- The reshape leaves argument 0 alone. -/
theorem V1_main_arg0 (c : Dev nD) : V1 m ρ c main_arg0 = m ((c : Thread nD τ).loc main_arg0) :=
  StableHlo.after_of_forall_not_mem (b := Proc.devRef .tc main_arg0) _ _ (hostOps0_keeps main_arg0 (by decide))

/-- The reshaped index array as a whole: the flat argument cast to 50 × 1 × 4000. -/
theorem V1_main_v0_eq (c : Dev nD) :
    (V1 m ρ c main_v0 : S50x1x4000.Idx → Elt F .i32)
      = shapeCast S50x1x4000 (m ((c : Thread nD τ).loc main_arg1) : S200000.Idx → Elt F .i32) shapeCasts_S200000_S50x1x4000 := by
  show StableHlo.after hostOps0 (W0 m ρ c) (Proc.devRef .tc main_v0) = _
  after_results
  rfl

/-- Entry (t, 0, r) of the reshaped index array is entry 4000·t + r of the flat argument: the two have the same
    row-major position. -/
theorem V1_main_v0 (c : Dev nD) (t : Fin 50) (r : Fin 4000) :
    (V1 m ρ c main_v0 : S50x1x4000.Idx → Elt F .i32) (ValueIdx.ix3 t 0 r)
      = (m ((c : Thread nD τ).loc main_arg1) : S200000.Idx → Elt F .i32) (ValueIdx.ix1 ⟨4000 * t.val + r.val, by omega⟩) := by
  rw [V1_main_v0_eq]
  refine shapeCast_apply (s := S200000) (t := S50x1x4000) _ shapeCasts_S200000_S50x1x4000 (ValueIdx.ix3 t 0 r)
    (ValueIdx.ix1 ⟨4000 * t.val + r.val, by omega⟩) ?_
  rw [Shape.rowMajor_val_three, Shape.rowMajor_val_one]
  show 4000 * t.val + r.val = (t.val * 1 + 0) * 4000 + r.val
  omega

/-! ## What the statistics kernel leaves of what it was entered with

It reads arguments 0 (window 0) and the reshaped index array (window 1) and writes neither; arguments 2 and 3 are
none of its arrays. -/

theorem W2_main_arg0 (c : Dev nD) : W2 m ρ c (Proc.devRef .tc main_arg0) = m ((c : Thread nD τ).loc main_arg0) :=
  calc W2 m ρ c (Proc.devRef .tc main_arg0)
    _ = V1 m ρ c main_arg0 := (W2_arr m ρ c 0).trans (((dat0 (V1 m ρ) c).arrAt_in 0 rfl _).trans (A_eq0 (V1 m ρ) c 0))
    _ = m ((c : Thread nD τ).loc main_arg0) := V1_main_arg0 m ρ c

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) :=
          StableHlo.after_of_forall_not_mem (b := Proc.devRef .tc main_arg2) _ _ (hostOps0_keeps main_arg2 (by decide))

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) :=
          StableHlo.after_of_forall_not_mem (b := Proc.devRef .tc main_arg3) _ _ (hostOps0_keeps main_arg3 (by decide))

theorem W2_main_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))

/-! ## What the apply kernel is entered with -/

set_option maxHeartbeats 4000000 in
/-- None of the 108 operations writes the reshaped index array. -/
theorem hostOps1_keeps_v0 :
    ∀ op ∈ (hostOps1 : List (HloOp τ sig (Elt F))), (Proc.devRef .tc main_v0 : DevRef τ sig) ∉ op.writes := by
  refine List.forall_iff_forall_mem.mp ?_
  simp only [hostOps1, List.Forall, StableHlo.nullary_writes, StableHlo.unary_writes, StableHlo.binary_writes,
    StableHlo.reshape_writes, StableHlo.nary_writes, Finset.mem_singleton]
  repeat' apply And.intro
  all_goals exact StableHlo.devRef_ne_of_ne (by decide)

theorem V3_main_arg0 (c : Dev nD) : V3 m ρ c main_arg0 = m ((c : Thread nD τ).loc main_arg0) :=
  calc V3 m ρ c main_arg0
    _ = W2 m ρ c (Proc.devRef .tc main_arg0) :=
          StableHlo.after_of_forall_not_mem (b := Proc.devRef .tc main_arg0) _ _ (hostOps1_keeps main_arg0 (Or.inl rfl))
    _ = m ((c : Thread nD τ).loc main_arg0) := W2_main_arg0 m ρ c

theorem V3_main_v0 (c : Dev nD) : V3 m ρ c main_v0 = V1 m ρ c main_v0 :=
  calc V3 m ρ c main_v0
    _ = W2 m ρ c (Proc.devRef .tc main_v0) :=
          StableHlo.after_of_forall_not_mem (b := Proc.devRef .tc main_v0) _ _ hostOps1_keeps_v0
    _ = V1 m ρ c main_v0 := W2_main_v0 m ρ c

end Cert.KernelIdeal.Hand

end
-- ==== Proof.KIValue0.lean ====
/-
  The value of the reduction region at the ideal instance.

  The grid has 50 points in two core rows of 25. Point t = 25 p + i reads rows 4000 t … 4000 t + 3999 of the node features
  X (f32[200000,240]) and row t of the batch ids (i32[50,1,4000]), and adds into block p of three accumulators: the one-hot
  of the batch ids times x ([64,240]), the one-hot times x² on the first 64 columns ([64,64]), and the one-hot's row sums
  ([64,1]). Each accumulator is zeroed at i = 0 and written back at i = 24.

  Over the extended reals a change of float format is the identity, entry (g, r) of the one-hot is 1 exactly when row r's
  batch id is the 32-bit word of g and 0 otherwise, and a product into a zero block is a plain sum over the 4000 rows. So one
  point adds, to entry (g, ·), the sum over the rows of its block that belong to graph g; by induction on i the accumulator
  after point 25 p + i holds the sum of the addends of points 25 p … 25 p + i; the block written back at i = 24 is block p of
  the result array, and the two written blocks cover it. Hence entry (p, g, ·) of each result array is the double sum over the
  25 row blocks of core row p and the 4000 rows of each block, restricted to the rows of graph g (final0_2, final0_3, final0_4).
-/
import proofs.«402630_j9972914061338_3_alg».proof.Proof.KIRegion0
import Idealize.ShloMosaic.Lib.Pipeline.Value
import Idealize.ShloMosaic.Lib.ValueIdx
import Idealize.ShloMosaic.PureOps.Ideal.Laws

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## One point's arithmetic at an index -/

/-- The comparison word of the one-hot at row g, lane r. -/
theorem onehot_bit (b : Vec Ideal S1x1x4000 .i32) (g : Fin 64) (r : Fin 4000) :
    k0_pay5 (F := Ideal) b (ix2 g r) = IntOp.cmpi .eq (b (ix3 0 0 r)) (BitVec.ofNat 32 g.val) := by
  unfold k0_pay5
  show IntOp.cmpi .eq (broadcastTo S64x4000 (shapeCast S1x4000 b shapeCasts_S1x1x4000_S1x4000) broadcasts_S1x4000_S64x4000 (ix2 g r))
      (iota .tc S64x4000 32 [0] iota_S64x4000_d0_w32 (ix2 g r)) = _
  rw [iota_single_apply, broadcastTo_apply _ _ (ix2 g r) (ix2 (0 : Fin 1) r) (fun a => by
      match a with
      | ⟨0, _⟩ => rfl
      | ⟨1, _⟩ => rfl),
    shapeCast_apply _ _ (ix2 (0 : Fin 1) r) (ix3 (0 : Fin 1) (0 : Fin 1) r) (by
      rw [Shape.rowMajor_val_three, Shape.rowMajor_val_two]; rfl)]

/-- A one-bit comparison word widened to 32 bits and converted is the real 1 or 0. -/
theorem bit_to_real (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  unfold IntOp.cmpi
  by_cases h : x = y
  · subst h; simp
  · rw [if_neg h]
    have : (x == y) = false := by simpa using h
    simp [this]

/-- The one-hot entry at row g, lane r, as an extended real. -/
theorem onehot_apply (b : Vec Ideal S1x1x4000 .i32) (g : Fin 64) (r : Fin 4000) :
    k0_pay6 (F := Ideal) b (ix2 g r) = if b (ix3 0 0 r) = BitVec.ofNat 32 g.val then (1 : EReal) else 0 := by
  unfold k0_pay6
  show FloatOps.sitofp (F := Ideal) .f32 ((k0_pay5 (F := Ideal) b (ix2 g r)).setWidth 32) = _
  rw [onehot_bit, bit_to_real]

/-! ### The two one-hot products: the operand indices of the contraction, axis by axis -/

theorem lhsA_0 (j : S64x240.Idx) (q : dot_S64x4000_S4000x240_S64x240_1_0_0_1_n_n.contr.Idx) :
    (dot_S64x4000_S4000x240_S64x240_1_0_0_1_n_n.lhsIdx j q 0).val = (j 0).val := by
  unfold DotDims.lhsIdx
  rw [dif_neg (show ¬(0 : Fin S64x4000.rank) ∈ dot_S64x4000_S4000x240_S64x240_1_0_0_1_n_n.lhsBatch by decide),
    dif_pos (show (0 : Fin S64x4000.rank) ∈ dot_S64x4000_S4000x240_S64x240_1_0_0_1_n_n.lhsNonContracting by decide)]
  rfl

theorem lhsA_1 (j : S64x240.Idx) (q : dot_S64x4000_S4000x240_S64x240_1_0_0_1_n_n.contr.Idx) :
    (dot_S64x4000_S4000x240_S64x240_1_0_0_1_n_n.lhsIdx j q 1).val = (q ⟨0, by decide⟩).val :=
  DotDims.lhsIdx_val_of_single _ (cl := 1) rfl j q

theorem rhsA_0 (j : S64x240.Idx) (q : dot_S64x4000_S4000x240_S64x240_1_0_0_1_n_n.contr.Idx) :
    (dot_S64x4000_S4000x240_S64x240_1_0_0_1_n_n.rhsIdx j q 0).val = (q ⟨0, by decide⟩).val :=
  DotDims.rhsIdx_val_of_single _ (cr := 0) rfl j q

theorem rhsA_1 (j : S64x240.Idx) (q : dot_S64x4000_S4000x240_S64x240_1_0_0_1_n_n.contr.Idx) :
    (dot_S64x4000_S4000x240_S64x240_1_0_0_1_n_n.rhsIdx j q 1).val = (j 1).val := by
  unfold DotDims.rhsIdx
  rw [dif_neg (show ¬(1 : Fin S4000x240.rank) ∈ dot_S64x4000_S4000x240_S64x240_1_0_0_1_n_n.rhsBatch by decide),
    dif_pos (show (1 : Fin S4000x240.rank) ∈ dot_S64x4000_S4000x240_S64x240_1_0_0_1_n_n.rhsNonContracting by decide)]
  rfl

/-- The [64,4000] × [4000,240] product into the zero block, at (g, k): the sum over the 4000 lanes. -/
theorem dotA_apply (A : FVec Ideal S64x4000 .bf16) (B : FVec Ideal S4000x240 .bf16) (g : Fin 64) (k : Fin 240) :
    matmul dot_S64x4000_S4000x240_S64x240_1_0_0_1_n_n none A B (constant S64x240 .f32 0x00000000#32) (ix2 g k)
      = ∑ r : Fin 4000, A (ix2 g r) * B (ix2 r k) := by
  simp only [matmul]
  rw [Ideal.matmul_constant_zero_apply,
    ← Equiv.sum_comp (contrEquiv1 dot_S64x4000_S4000x240_S64x240_1_0_0_1_n_n 4000 rfl rfl).symm]
  refine Finset.sum_congr rfl fun r _ => ?_
  have hq := contrEquiv1_symm_val dot_S64x4000_S4000x240_S64x240_1_0_0_1_n_n 4000 rfl rfl r
  have eL : dot_S64x4000_S4000x240_S64x240_1_0_0_1_n_n.lhsIdx (ix2 g k)
      ((contrEquiv1 dot_S64x4000_S4000x240_S64x240_1_0_0_1_n_n 4000 rfl rfl).symm r) = ix2 g r :=
    funext fun a => Fin.ext (by
      match a with
      | ⟨0, _⟩ => exact lhsA_0 _ _
      | ⟨1, _⟩ => exact (lhsA_1 _ _).trans hq)
  have eR : dot_S64x4000_S4000x240_S64x240_1_0_0_1_n_n.rhsIdx (ix2 g k)
      ((contrEquiv1 dot_S64x4000_S4000x240_S64x240_1_0_0_1_n_n 4000 rfl rfl).symm r) = ix2 r k :=
    funext fun a => Fin.ext (by
      match a with
      | ⟨0, _⟩ => exact (rhsA_0 _ _).trans hq
      | ⟨1, _⟩ => exact rhsA_1 _ _)
  rw [eL, eR]

/-- The reset blocks are zero. -/
theorem zero2 (i : S1x64x240.Idx) : k0_pay2 (F := Ideal) i = 0 := by
  unfold k0_pay2
  show Ideal.ofBits .f32 0x00000000#32 = 0
  exact Ideal.ofBits_zero_f32

/-- One point's update of the running sum, at (0, g, k): the previous contents plus the one-hot's row g times column k of
    the row block. -/
theorem pay7_apply (x : Vec Ideal S4000x240 .f32) (b : Vec Ideal S1x1x4000 .i32) (prev : Vec Ideal S1x64x240 .f32)
    (g : Fin 64) (k : Fin 240) :
    k0_pay7 (F := Ideal) x b prev (ix3 0 g k)
      = prev (ix3 0 g k) + ∑ r : Fin 4000, (if b (ix3 0 0 r) = BitVec.ofNat 32 g.val then x (ix2 r k) else 0) := by
  unfold k0_pay7
  refine (shapeCast_apply _ _ (ix3 (0 : Fin 1) g k) (ix2 g k) (by
    rw [Shape.rowMajor_val_two, Shape.rowMajor_val_three]
    show g.val * 240 + k.val = ((0 : ℕ) * 64 + g.val) * 240 + k.val
    omega)).trans ?_
  show shapeCast S64x240 prev shapeCasts_S1x64x240_S64x240 (ix2 g k)
      + matmul dot_S64x4000_S4000x240_S64x240_1_0_0_1_n_n none (k0_pay6 (F := Ideal) b) (truncf .bf16 x bitsLt_bf16_f32)
          (constant S64x240 .f32 0x00000000#32) (ix2 g k) = _
  rw [dotA_apply, shapeCast_apply prev _ (ix2 g k) (ix3 (0 : Fin 1) g k) (by
    rw [Shape.rowMajor_val_two, Shape.rowMajor_val_three]
    show ((0 : ℕ) * 64 + g.val) * 240 + k.val = g.val * 240 + k.val
    omega)]
  congr 1
  refine Finset.sum_congr rfl fun r _ => ?_
  rw [onehot_apply]
  show (if b (ix3 0 0 r) = BitVec.ofNat 32 g.val then (1 : EReal) else 0) * x (ix2 r k) = _
  split <;> simp

theorem lhsB_0 (j : S64x64.Idx) (q : dot_S64x4000_S4000x64_S64x64_1_0_0_1_n_n.contr.Idx) :
    (dot_S64x4000_S4000x64_S64x64_1_0_0_1_n_n.lhsIdx j q 0).val = (j 0).val := by
  unfold DotDims.lhsIdx
  rw [dif_neg (show ¬(0 : Fin S64x4000.rank) ∈ dot_S64x4000_S4000x64_S64x64_1_0_0_1_n_n.lhsBatch by decide),
    dif_pos (show (0 : Fin S64x4000.rank) ∈ dot_S64x4000_S4000x64_S64x64_1_0_0_1_n_n.lhsNonContracting by decide)]
  rfl

theorem lhsB_1 (j : S64x64.Idx) (q : dot_S64x4000_S4000x64_S64x64_1_0_0_1_n_n.contr.Idx) :
    (dot_S64x4000_S4000x64_S64x64_1_0_0_1_n_n.lhsIdx j q 1).val = (q ⟨0, by decide⟩).val :=
  DotDims.lhsIdx_val_of_single _ (cl := 1) rfl j q

theorem rhsB_0 (j : S64x64.Idx) (q : dot_S64x4000_S4000x64_S64x64_1_0_0_1_n_n.contr.Idx) :
    (dot_S64x4000_S4000x64_S64x64_1_0_0_1_n_n.rhsIdx j q 0).val = (q ⟨0, by decide⟩).val :=
  DotDims.rhsIdx_val_of_single _ (cr := 0) rfl j q

theorem rhsB_1 (j : S64x64.Idx) (q : dot_S64x4000_S4000x64_S64x64_1_0_0_1_n_n.contr.Idx) :
    (dot_S64x4000_S4000x64_S64x64_1_0_0_1_n_n.rhsIdx j q 1).val = (j 1).val := by
  unfold DotDims.rhsIdx
  rw [dif_neg (show ¬(1 : Fin S4000x64.rank) ∈ dot_S64x4000_S4000x64_S64x64_1_0_0_1_n_n.rhsBatch by decide),
    dif_pos (show (1 : Fin S4000x64.rank) ∈ dot_S64x4000_S4000x64_S64x64_1_0_0_1_n_n.rhsNonContracting by decide)]
  rfl

/-- The [64,4000] × [4000,64] product into the zero block, at (g, j): the sum over the 4000 lanes. -/
theorem dotB_apply (A : FVec Ideal S64x4000 .bf16) (B : FVec Ideal S4000x64 .bf16) (g : Fin 64) (j : Fin 64) :
    matmul dot_S64x4000_S4000x64_S64x64_1_0_0_1_n_n none A B (constant S64x64 .f32 0x00000000#32) (ix2 g j)
      = ∑ r : Fin 4000, A (ix2 g r) * B (ix2 r j) := by
  simp only [matmul]
  rw [Ideal.matmul_constant_zero_apply,
    ← Equiv.sum_comp (contrEquiv1 dot_S64x4000_S4000x64_S64x64_1_0_0_1_n_n 4000 rfl rfl).symm]
  refine Finset.sum_congr rfl fun r _ => ?_
  have hq := contrEquiv1_symm_val dot_S64x4000_S4000x64_S64x64_1_0_0_1_n_n 4000 rfl rfl r
  have eL : dot_S64x4000_S4000x64_S64x64_1_0_0_1_n_n.lhsIdx (ix2 g j)
      ((contrEquiv1 dot_S64x4000_S4000x64_S64x64_1_0_0_1_n_n 4000 rfl rfl).symm r) = ix2 g r :=
    funext fun a => Fin.ext (by
      match a with
      | ⟨0, _⟩ => exact lhsB_0 _ _
      | ⟨1, _⟩ => exact (lhsB_1 _ _).trans hq)
  have eR : dot_S64x4000_S4000x64_S64x64_1_0_0_1_n_n.rhsIdx (ix2 g j)
      ((contrEquiv1 dot_S64x4000_S4000x64_S64x64_1_0_0_1_n_n 4000 rfl rfl).symm r) = ix2 r j :=
    funext fun a => Fin.ext (by
      match a with
      | ⟨0, _⟩ => exact (rhsB_0 _ _).trans hq
      | ⟨1, _⟩ => exact rhsB_1 _ _)
  rw [eL, eR]

theorem zero3 (i : S1x64x64.Idx) : k0_pay3 (F := Ideal) i = 0 := by
  unfold k0_pay3
  show Ideal.ofBits .f32 0x00000000#32 = 0
  exact Ideal.ofBits_zero_f32

theorem zero4 (i : S1x64x1.Idx) : k0_pay4 (F := Ideal) i = 0 := by
  unfold k0_pay4
  show Ideal.ofBits .f32 0x00000000#32 = 0
  exact Ideal.ofBits_zero_f32

/-- One point's update of the running sum of squares, at (0, g, j): the previous contents plus the one-hot's row g times
    column j of the squared first 64 columns of the row block. -/
theorem pay8_apply (x : Vec Ideal S4000x240 .f32) (b : Vec Ideal S1x1x4000 .i32) (prev : Vec Ideal S1x64x64 .f32)
    (g : Fin 64) (j : Fin 64) :
    k0_pay8 (F := Ideal) x b prev (ix3 0 g j)
      = prev (ix3 0 g j) + ∑ r : Fin 4000, (if b (ix3 0 0 r) = BitVec.ofNat 32 g.val
          then x (ix2 r (Fin.castLE (by decide) j)) * x (ix2 r (Fin.castLE (by decide) j)) else 0) := by
  unfold k0_pay8
  refine (shapeCast_apply _ _ (ix3 (0 : Fin 1) g j) (ix2 g j) (by
    rw [Shape.rowMajor_val_two, Shape.rowMajor_val_three]
    show g.val * 64 + j.val = ((0 : ℕ) * 64 + g.val) * 64 + j.val
    omega)).trans ?_
  show shapeCast S64x64 prev shapeCasts_S1x64x64_S64x64 (ix2 g j)
      + matmul dot_S64x4000_S4000x64_S64x64_1_0_0_1_n_n none (k0_pay6 (F := Ideal) b)
          (truncf .bf16 (mulf (extractStridedSlice S4000x64 ![0, 0] x slices_S4000x240_o0_0_S4000x64)
            (extractStridedSlice S4000x64 ![0, 0] x slices_S4000x240_o0_0_S4000x64)) bitsLt_bf16_f32)
          (constant S64x64 .f32 0x00000000#32) (ix2 g j) = _
  rw [dotB_apply, shapeCast_apply prev _ (ix2 g j) (ix3 (0 : Fin 1) g j) (by
    rw [Shape.rowMajor_val_two, Shape.rowMajor_val_three]
    show ((0 : ℕ) * 64 + g.val) * 64 + j.val = g.val * 64 + j.val
    omega)]
  congr 1
  refine Finset.sum_congr rfl fun r _ => ?_
  rw [onehot_apply]
  show (if b (ix3 0 0 r) = BitVec.ofNat 32 g.val then (1 : EReal) else 0)
      * (extractStridedSlice S4000x64 ![0, 0] x slices_S4000x240_o0_0_S4000x64 (ix2 r j)
        * extractStridedSlice S4000x64 ![0, 0] x slices_S4000x240_o0_0_S4000x64 (ix2 r j)) = _
  rw [extractStridedSlice_apply ![0, 0] x _ (ix2 r j) (ix2 r (Fin.castLE (by decide) j)) (fun a => by
    match a with
    | ⟨0, _⟩ => show r.val = 0 + r.val; omega
    | ⟨1, _⟩ => show j.val = 0 + j.val; omega)]
  split <;> simp

/-- The one-hot's row sums, at g: how many of the point's 4000 rows belong to graph g. -/
theorem pay9_apply (b : Vec Ideal S1x1x4000 .i32) (g : Fin 64) :
    k0_pay9 (F := Ideal) b (ix1 g) = ∑ r : Fin 4000, (if b (ix3 0 0 r) = BitVec.ofNat 32 g.val then (1 : EReal) else 0) := by
  unfold k0_pay9
  refine (Ideal.multiReduction_add_single _ _ reduces_S64x4000_S64 _ _ (ix1 g)).trans ?_
  show ∑ r : Fin 4000, _ = _
  refine Finset.sum_congr rfl fun r _ => ?_
  have e : reduces_S64x4000_S64.lift (ix1 g) r = ix2 g r := funext fun a => Fin.ext (by
    match a with
    | ⟨0, _⟩ => rfl
    | ⟨1, _⟩ => rfl)
  rw [e]
  show FloatOps.sitofp (F := Ideal) .f32 ((k0_pay5 (F := Ideal) b (ix2 g r)).setWidth 32) = _
  rw [onehot_bit, bit_to_real]

/-- One point's update of the running count, at (0, g, 0): the previous contents plus a row-sum vector's entry g. -/
theorem pay1_apply (s : FVec Ideal S64 .f32) (prev : Vec Ideal S1x64x1 .f32) (g : Fin 64) :
    k0_pay1 (F := Ideal) s prev (ix3 0 g 0) = prev (ix3 0 g 0) + s (ix1 g) := by
  unfold k0_pay1
  refine (shapeCast_apply _ _ (ix3 (0 : Fin 1) g (0 : Fin 1)) (ix2 g (0 : Fin 1)) (by
    rw [Shape.rowMajor_val_two, Shape.rowMajor_val_three]
    show g.val * 1 + 0 = ((0 : ℕ) * 64 + g.val) * 1 + 0
    omega)).trans ?_
  show shapeCast S64x1 prev shapeCasts_S1x64x1_S64x1 (ix2 g (0 : Fin 1))
      + shapeCast S64x1 s shapeCasts_S64_S64x1 (ix2 g (0 : Fin 1)) = _
  rw [shapeCast_apply prev _ (ix2 g (0 : Fin 1)) (ix3 (0 : Fin 1) g (0 : Fin 1)) (by
      rw [Shape.rowMajor_val_two, Shape.rowMajor_val_three]
      show ((0 : ℕ) * 64 + g.val) * 1 + 0 = g.val * 1 + 0
      omega),
    shapeCast_apply s _ (ix2 g (0 : Fin 1)) (ix1 g) (by
      rw [Shape.rowMajor_val_two, Shape.rowMajor_val_one]
      show g.val = g.val * 1 + 0
      omega)]

/-! ## The arrays as the region finds them, the blocks of a point, and the printed index maps -/

variable (V : (c : Dev nD) → (b : Ref sig .tc) → Buf (Elt Ideal) ((c : Thread nD τ).loc b))

/-- The node features f32[200000,240]. -/
abbrev X (c : Dev nD) : Vec Ideal S200000x240 .f32 := V c main_arg0
/-- The batch ids, 50 rows of 4000. -/
abbrev BV (c : Dev nD) : Vec Ideal S50x1x4000 .i32 := V c main_v0
/-- Point t's row block of the features, and its row of batch ids. -/
abbrev xblk (c : Dev nD) (t : Fin cfg0.N) : Vec Ideal S4000x240 .f32 := iblk0 V c 0 t
abbrev bblk (c : Dev nD) (t : Fin cfg0.N) : Vec Ideal S1x1x4000 .i32 := iblk0 V c 1 t

/-- The index maps over the grid: the inputs' block index is the point's number, the results' is the point's core row. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val / 25 ∧ win0_2.index t (1 : Fin 3) = 0 ∧ win0_2.index t (2 : Fin 3) = 0
    ∧ win0_3.index t (0 : Fin 3) = t.val / 25 ∧ win0_3.index t (1 : Fin 3) = 0 ∧ win0_3.index t (2 : Fin 3) = 0
    ∧ win0_4.index t (0 : Fin 3) = t.val / 25 ∧ win0_4.index t (1 : Fin 3) = 0 ∧ win0_4.index t (2 : Fin 3) = 0 :=
  (by decide +kernel : ∀ t : Fin grid0.N, _)

theorem lt50 (t : Fin cfg0.N) : t.val < 50 := lt_of_lt_of_eq t.isLt (show cfg0.N = 50 from N_0)

/-- Row r of point t's feature block is row 4000 t + r of the features. -/
theorem xblk_apply (c : Dev nD) (t : Fin cfg0.N) (r : Fin 4000) (k : Fin 240) :
    xblk V c t (ix2 r k) = X V c (ix2 ⟨t.val * 4000 + r.val, by have := lt50 t; have := r.isLt; omega⟩ k) := by
  obtain ⟨e0, e1, -⟩ := idx_facts t
  show iblk0 V c 0 t (ix2 r k) = _
  unfold iblk0
  rw [View.read_apply]
  show V c main_arg0 _ = V c main_arg0 _
  congr 1
  funext a
  apply Fin.ext
  match a with
  | ⟨0, _⟩ => show win0_0.index t 0 * 4000 + 1 * r.val = t.val * 4000 + r.val; rw [e0]; omega
  | ⟨1, _⟩ => show win0_0.index t 1 * 240 + 1 * k.val = k.val; rw [e1]; omega

/-- Point t's batch block is row t of the batch ids. -/
theorem bblk_apply (c : Dev nD) (t : Fin cfg0.N) (r : Fin 4000) :
    bblk V c t (ix3 0 0 r) = BV V c (ix3 ⟨t.val, lt50 t⟩ 0 r) := by
  obtain ⟨-, -, e0, e1, e2, -⟩ := idx_facts t
  show iblk0 V c 1 t (ix3 0 0 r) = _
  unfold iblk0
  rw [View.read_apply]
  show V c main_v0 _ = V c main_v0 _
  congr 1
  funext a
  apply Fin.ext
  match a with
  | ⟨0, _⟩ => show win0_1.index t 0 * 1 + 1 * 0 = t.val; rw [e0]; omega
  | ⟨1, _⟩ => show win0_1.index t 1 * 1 + 1 * 0 = 0; rw [e1]
  | ⟨2, _⟩ => show win0_1.index t 2 * 4000 + 1 * r.val = r.val; rw [e2]; omega

/-! ## The running sums by induction on the point -/

/-- Point n's addend to entry (g, k) of the feature sums: the rows of block n that belong to graph g, column k. -/
def addS (c : Dev nD) (g : Fin 64) (k : Fin 240) (n : ℕ) : EReal :=
  if h : n < 50 then ∑ r : Fin 4000, (if BV V c (ix3 ⟨n, h⟩ 0 r) = BitVec.ofNat 32 g.val
    then X V c (ix2 ⟨n * 4000 + r.val, by have := r.isLt; omega⟩ k) else 0) else 0

theorem pointS (c : Dev nD) (t : Fin cfg0.N) (prev : Vec Ideal S1x64x240 .f32) (g : Fin 64) (k : Fin 240) :
    k0_pay7 (F := Ideal) (xblk V c t) (bblk V c t) prev (ix3 0 g k) = prev (ix3 0 g k) + addS V c g k t.val := by
  refine (pay7_apply (xblk V c t) (bblk V c t) prev g k).trans ?_
  unfold addS
  rw [dif_pos (lt50 t)]
  congr 1
  refine Finset.sum_congr rfl fun r _ => ?_
  rw [xblk_apply, bblk_apply]

theorem accS_congr (c : Dev nD) (n n' : ℕ) (hn : n < cfg0.N) (hn' : n' < cfg0.N) (e : n = n') :
    accS V c n hn = accS V c n' hn' := by subst e; rfl

/-- After point 25 p + i the feature accumulator holds the sum of the addends of points 25 p … 25 p + i. -/
theorem accS_eq (c : Dev nD) (g : Fin 64) (k : Fin 240) (p : ℕ) : ∀ (i : ℕ) (hi : i < 25) (h : 25 * p + i < cfg0.N),
    accS V c (25 * p + i) h (ix3 0 g k) = ∑ s ∈ Finset.range (i + 1), addS V c g k (25 * p + s)
  | 0, _, h => by
    have e := accS_reset V c ⟨25 * p + 0, h⟩ (by show (25 * p + 0) % 25 = 0; omega)
    refine (congrFun e (ix3 0 g k)).trans ?_
    refine (pointS V c ⟨25 * p + 0, h⟩ (k0_pay2 (F := Ideal)) g k).trans ?_
    rw [zero2, zero_add, Finset.sum_range_one]
  | i + 1, hi, h => by
    have e := accS_carry V c ⟨25 * p + (i + 1), h⟩ (by show ¬(25 * p + (i + 1)) % 25 = 0; omega)
    refine (congrFun e (ix3 0 g k)).trans ?_
    refine (pointS V c ⟨25 * p + (i + 1), h⟩ _ g k).trans ?_
    rw [accS_congr V c _ (25 * p + i) _ (by omega) (by show 25 * p + (i + 1) - 1 = 25 * p + i; omega),
      accS_eq c g k p i (by omega) (by omega), Finset.sum_range_succ _ (i + 1)]

/-! ## From the blocks to the arrays -/

/-- Entry (p, g, k) of the feature sums: over the 25 row blocks of core row p, the rows of graph g, column k. -/
def sumS (c : Dev nD) (p : Fin 2) (g : Fin 64) (k : Fin 240) : EReal :=
  ∑ i : Fin 25, ∑ r : Fin 4000, (if BV V c (ix3 ⟨25 * p.val + i.val, by have := p.isLt; have := i.isLt; omega⟩ 0 r) = BitVec.ofNat 32 g.val
    then X V c (ix2 ⟨(25 * p.val + i.val) * 4000 + r.val, by have := p.isLt; have := i.isLt; have := r.isLt; omega⟩ k) else 0)

theorem sum_addS (c : Dev nD) (p : Fin 2) (g : Fin 64) (k : Fin 240) :
    ∑ s ∈ Finset.range 25, addS V c g k (25 * p.val + s) = sumS V c p g k := by
  unfold sumS
  rw [Finset.sum_range]
  refine Finset.sum_congr rfl fun i _ => ?_
  unfold addS
  rw [dif_pos (by have := p.isLt; have := i.isLt; omega)]

/-- The whole result array of the feature sums. -/
def arrS (c : Dev nD) : Vec Ideal S2x64x240 .f32 := fun j => sumS V c (j 0) (j 1) (j 2)

/-- What the last point of a core row leaves in the accumulator, entry by entry. -/
theorem lastS (c : Dev nD) (t : Fin cfg0.N) (h24 : t.val % 25 = 24) (g : Fin 64) (k : Fin 240) :
    accS V c t.val t.isLt (ix3 0 g k) = sumS V c ⟨t.val / 25, by have := lt50 t; omega⟩ g k := by
  have hN : cfg0.N = 50 := N_0
  have ht := lt50 t
  rw [accS_congr V c t.val (25 * (t.val / 25) + 24) t.isLt (by omega) (by omega),
    accS_eq V c g k (t.val / 25) 24 (by omega) (by omega)]
  exact sum_addS V c ⟨t.val / 25, by omega⟩ g k

/-- What a writing point writes back is its block of the array of sums. -/
theorem flushedS (c : Dev nD) (t : Fin cfg0.N) (hf : (cfg0.win 2).flush t = true) :
    (dat0 V c).flushed 2 t = ((cfg0.win 2).blk t).view.read (Elt Ideal) (arrS V c) := by
  have h24 : t.val % 25 = 24 := (flush0_2 t).mp hf
  have ht := lt50 t
  obtain ⟨-, -, -, -, -, e0, e1, e2, -⟩ := idx_facts t
  show (cfg0.win 2).cut (grid0.coords t) ((dat0 V c).after 2 t) = _
  rw [after0_2]
  show (fun y : S1x64x240.Idx => accS V c t.val t.isLt y) = fun y : S1x64x240.Idx => arrS V c (((cfg0.win 2).blk t).view.emb y)
  funext y
  obtain ⟨a, g, k, rfl⟩ : ∃ (a : Fin 1) (g : Fin 64) (k : Fin 240), y = ix3 a g k := ⟨y 0, y 1, y 2, eq_ix3 y⟩
  obtain rfl : a = 0 := Subsingleton.elim _ _
  rw [lastS V c t h24 g k]
  show arrS V c (ix3 ⟨t.val / 25, by omega⟩ g k) = _
  congr 1
  funext a
  apply Fin.ext
  match a with
  | ⟨0, _⟩ => show t.val / 25 = win0_2.index t 0 * 1 + 1 * 0; rw [e0]; omega
  | ⟨1, _⟩ => show g.val = win0_2.index t 1 * 64 + 1 * g.val; rw [e1]; omega
  | ⟨2, _⟩ => show k.val = win0_2.index t 2 * 240 + 1 * k.val; rw [e2]; omega

theorem mem_blkS (t : Fin cfg0.N) (i : S2x64x240.Idx) :
    i ∈ ((cfg0.win 2).blk t).view.set ↔ ∀ a : Fin 3, win0_2.index t a * S1x64x240.size a ≤ (i a).val
      ∧ (i a).val < win0_2.index t a * S1x64x240.size a + S1x64x240.size a := by
  show i ∈ ((View.whole main_v1_0).slice (win0_2.rect t)).set ↔ _
  rw [View.set_slice_whole, Rect.mem_set_unit]
  exact Iff.rfl

/-- The two writing points' blocks cover the array, so it ends holding the sums. -/
theorem arrS_eq (c : Dev nD) : (dat0 V c).arrAt 2 cfg0.N = arrS V c :=
  (dat0 V c).arrAt_eq_of_cover 2 (arrS V c) (flushedS V c) fun i => by
    have hN : cfg0.N = 50 := N_0
    have h0 : (i 0).val < 2 := (i 0).isLt
    have h1 : (i 1).val < 64 := (i 1).isLt
    have h2 : (i 2).val < 240 := (i 2).isLt
    have hlt : 25 * (i 0).val + 24 < cfg0.N := by omega
    obtain ⟨-, -, -, -, -, e0, e1, e2, -⟩ := idx_facts ⟨25 * (i 0).val + 24, hlt⟩
    have e0' : win0_2.index ⟨25 * (i 0).val + 24, hlt⟩ 0 = (25 * (i 0).val + 24) / 25 := e0
    refine ⟨⟨25 * (i 0).val + 24, hlt⟩, (flush0_2 _).mpr (by show (25 * (i 0).val + 24) % 25 = 24; omega), ?_⟩
    rw [mem_blkS]
    intro a
    match a with
    | ⟨0, _⟩ =>
      show win0_2.index ⟨25 * (i 0).val + 24, hlt⟩ 0 * 1 ≤ (i 0).val ∧ (i 0).val < win0_2.index ⟨25 * (i 0).val + 24, hlt⟩ 0 * 1 + 1
      rw [e0']; omega
    | ⟨1, _⟩ =>
      show win0_2.index ⟨25 * (i 0).val + 24, hlt⟩ 1 * 64 ≤ (i 1).val ∧ (i 1).val < win0_2.index ⟨25 * (i 0).val + 24, hlt⟩ 1 * 64 + 64
      rw [e1]; omega
    | ⟨2, _⟩ =>
      show win0_2.index ⟨25 * (i 0).val + 24, hlt⟩ 2 * 240 ≤ (i 2).val ∧ (i 2).val < win0_2.index ⟨25 * (i 0).val + 24, hlt⟩ 2 * 240 + 240
      rw [e2]; omega

/-- The feature sums after the region. -/
theorem final0_2 (c : Dev nD) (p : Fin 2) (g : Fin 64) (k : Fin 240) :
    ((dat0 V c).arrAt 2 cfg0.N : S2x64x240.Idx → EReal) (ix3 p g k)
      = ∑ i : Fin 25, ∑ r : Fin 4000, (if BV V c (ix3 ⟨25 * p.val + i.val, by have := p.isLt; have := i.isLt; omega⟩ 0 r) = BitVec.ofNat 32 g.val
          then X V c (ix2 ⟨(25 * p.val + i.val) * 4000 + r.val, by have := p.isLt; have := i.isLt; have := r.isLt; omega⟩ k) else 0) := by
  rw [arrS_eq]
  rfl

/-! ## The same for the sums of squares (window 3) -/

/-- Point n's addend to entry (g, j) of the sums of squares. -/
def addQ (c : Dev nD) (g : Fin 64) (j : Fin 64) (n : ℕ) : EReal :=
  if h : n < 50 then ∑ r : Fin 4000, (if BV V c (ix3 ⟨n, h⟩ 0 r) = BitVec.ofNat 32 g.val
    then X V c (ix2 ⟨n * 4000 + r.val, by have := r.isLt; omega⟩ (Fin.castLE (by decide) j))
      * X V c (ix2 ⟨n * 4000 + r.val, by have := r.isLt; omega⟩ (Fin.castLE (by decide) j)) else 0) else 0

theorem pointQ (c : Dev nD) (t : Fin cfg0.N) (prev : Vec Ideal S1x64x64 .f32) (g : Fin 64) (j : Fin 64) :
    k0_pay8 (F := Ideal) (xblk V c t) (bblk V c t) prev (ix3 0 g j) = prev (ix3 0 g j) + addQ V c g j t.val := by
  refine (pay8_apply (xblk V c t) (bblk V c t) prev g j).trans ?_
  unfold addQ
  rw [dif_pos (lt50 t)]
  congr 1
  refine Finset.sum_congr rfl fun r _ => ?_
  rw [xblk_apply, bblk_apply]

theorem accS2_congr (c : Dev nD) (n n' : ℕ) (hn : n < cfg0.N) (hn' : n' < cfg0.N) (e : n = n') :
    accS2 V c n hn = accS2 V c n' hn' := by subst e; rfl

theorem accS2_eq (c : Dev nD) (g : Fin 64) (j : Fin 64) (p : ℕ) : ∀ (i : ℕ) (hi : i < 25) (h : 25 * p + i < cfg0.N),
    accS2 V c (25 * p + i) h (ix3 0 g j) = ∑ s ∈ Finset.range (i + 1), addQ V c g j (25 * p + s)
  | 0, _, h => by
    have e := accS2_reset V c ⟨25 * p + 0, h⟩ (by show (25 * p + 0) % 25 = 0; omega)
    refine (congrFun e (ix3 0 g j)).trans ?_
    refine (pointQ V c ⟨25 * p + 0, h⟩ (k0_pay3 (F := Ideal)) g j).trans ?_
    rw [zero3, zero_add, Finset.sum_range_one]
  | i + 1, hi, h => by
    have e := accS2_carry V c ⟨25 * p + (i + 1), h⟩ (by show ¬(25 * p + (i + 1)) % 25 = 0; omega)
    refine (congrFun e (ix3 0 g j)).trans ?_
    refine (pointQ V c ⟨25 * p + (i + 1), h⟩ _ g j).trans ?_
    rw [accS2_congr V c _ (25 * p + i) _ (by omega) (by show 25 * p + (i + 1) - 1 = 25 * p + i; omega),
      accS2_eq c g j p i (by omega) (by omega), Finset.sum_range_succ _ (i + 1)]

def sumQ (c : Dev nD) (p : Fin 2) (g : Fin 64) (j : Fin 64) : EReal :=
  ∑ i : Fin 25, ∑ r : Fin 4000, (if BV V c (ix3 ⟨25 * p.val + i.val, by have := p.isLt; have := i.isLt; omega⟩ 0 r) = BitVec.ofNat 32 g.val
    then X V c (ix2 ⟨(25 * p.val + i.val) * 4000 + r.val, by have := p.isLt; have := i.isLt; have := r.isLt; omega⟩ (Fin.castLE (by decide) j))
      * X V c (ix2 ⟨(25 * p.val + i.val) * 4000 + r.val, by have := p.isLt; have := i.isLt; have := r.isLt; omega⟩ (Fin.castLE (by decide) j)) else 0)

theorem sum_addQ (c : Dev nD) (p : Fin 2) (g : Fin 64) (j : Fin 64) :
    ∑ s ∈ Finset.range 25, addQ V c g j (25 * p.val + s) = sumQ V c p g j := by
  unfold sumQ
  rw [Finset.sum_range]
  refine Finset.sum_congr rfl fun i _ => ?_
  unfold addQ
  rw [dif_pos (by have := p.isLt; have := i.isLt; omega)]

def arrQ (c : Dev nD) : Vec Ideal S2x64x64 .f32 := fun j => sumQ V c (j 0) (j 1) (j 2)

theorem lastQ (c : Dev nD) (t : Fin cfg0.N) (h24 : t.val % 25 = 24) (g : Fin 64) (j : Fin 64) :
    accS2 V c t.val t.isLt (ix3 0 g j) = sumQ V c ⟨t.val / 25, by have := lt50 t; omega⟩ g j := by
  have hN : cfg0.N = 50 := N_0
  have ht := lt50 t
  rw [accS2_congr V c t.val (25 * (t.val / 25) + 24) t.isLt (by omega) (by omega),
    accS2_eq V c g j (t.val / 25) 24 (by omega) (by omega)]
  exact sum_addQ V c ⟨t.val / 25, by omega⟩ g j

theorem flushedQ (c : Dev nD) (t : Fin cfg0.N) (hf : (cfg0.win 3).flush t = true) :
    (dat0 V c).flushed 3 t = ((cfg0.win 3).blk t).view.read (Elt Ideal) (arrQ V c) := by
  have h24 : t.val % 25 = 24 := (flush0_3 t).mp hf
  have ht := lt50 t
  obtain ⟨-, -, -, -, -, -, -, -, e0, e1, e2, -⟩ := idx_facts t
  show (cfg0.win 3).cut (grid0.coords t) ((dat0 V c).after 3 t) = _
  rw [after0_3]
  show (fun y : S1x64x64.Idx => accS2 V c t.val t.isLt y) = fun y : S1x64x64.Idx => arrQ V c (((cfg0.win 3).blk t).view.emb y)
  funext y
  obtain ⟨a, g, j, rfl⟩ : ∃ (a : Fin 1) (g : Fin 64) (j : Fin 64), y = ix3 a g j := ⟨y 0, y 1, y 2, eq_ix3 y⟩
  obtain rfl : a = 0 := Subsingleton.elim _ _
  rw [lastQ V c t h24 g j]
  show arrQ V c (ix3 ⟨t.val / 25, by omega⟩ g j) = _
  congr 1
  funext a
  apply Fin.ext
  match a with
  | ⟨0, _⟩ => show t.val / 25 = win0_3.index t 0 * 1 + 1 * 0; rw [e0]; omega
  | ⟨1, _⟩ => show g.val = win0_3.index t 1 * 64 + 1 * g.val; rw [e1]; omega
  | ⟨2, _⟩ => show j.val = win0_3.index t 2 * 64 + 1 * j.val; rw [e2]; omega

theorem mem_blkQ (t : Fin cfg0.N) (i : S2x64x64.Idx) :
    i ∈ ((cfg0.win 3).blk t).view.set ↔ ∀ a : Fin 3, win0_3.index t a * S1x64x64.size a ≤ (i a).val
      ∧ (i a).val < win0_3.index t a * S1x64x64.size a + S1x64x64.size a := by
  show i ∈ ((View.whole main_v1_1).slice (win0_3.rect t)).set ↔ _
  rw [View.set_slice_whole, Rect.mem_set_unit]
  exact Iff.rfl

theorem arrQ_eq (c : Dev nD) : (dat0 V c).arrAt 3 cfg0.N = arrQ V c :=
  (dat0 V c).arrAt_eq_of_cover 3 (arrQ V c) (flushedQ V c) fun i => by
    have hN : cfg0.N = 50 := N_0
    have h0 : (i 0).val < 2 := (i 0).isLt
    have h1 : (i 1).val < 64 := (i 1).isLt
    have h2 : (i 2).val < 64 := (i 2).isLt
    have hlt : 25 * (i 0).val + 24 < cfg0.N := by omega
    obtain ⟨-, -, -, -, -, -, -, -, e0, e1, e2, -⟩ := idx_facts ⟨25 * (i 0).val + 24, hlt⟩
    have e0' : win0_3.index ⟨25 * (i 0).val + 24, hlt⟩ 0 = (25 * (i 0).val + 24) / 25 := e0
    refine ⟨⟨25 * (i 0).val + 24, hlt⟩, (flush0_3 _).mpr (by show (25 * (i 0).val + 24) % 25 = 24; omega), ?_⟩
    rw [mem_blkQ]
    intro a
    match a with
    | ⟨0, _⟩ =>
      show win0_3.index ⟨25 * (i 0).val + 24, hlt⟩ 0 * 1 ≤ (i 0).val ∧ (i 0).val < win0_3.index ⟨25 * (i 0).val + 24, hlt⟩ 0 * 1 + 1
      rw [e0']; omega
    | ⟨1, _⟩ =>
      show win0_3.index ⟨25 * (i 0).val + 24, hlt⟩ 1 * 64 ≤ (i 1).val ∧ (i 1).val < win0_3.index ⟨25 * (i 0).val + 24, hlt⟩ 1 * 64 + 64
      rw [e1]; omega
    | ⟨2, _⟩ =>
      show win0_3.index ⟨25 * (i 0).val + 24, hlt⟩ 2 * 64 ≤ (i 2).val ∧ (i 2).val < win0_3.index ⟨25 * (i 0).val + 24, hlt⟩ 2 * 64 + 64
      rw [e2]; omega

/-- The sums of squares after the region. -/
theorem final0_3 (c : Dev nD) (p : Fin 2) (g : Fin 64) (j : Fin 64) :
    ((dat0 V c).arrAt 3 cfg0.N : S2x64x64.Idx → EReal) (ix3 p g j)
      = ∑ i : Fin 25, ∑ r : Fin 4000, (if BV V c (ix3 ⟨25 * p.val + i.val, by have := p.isLt; have := i.isLt; omega⟩ 0 r) = BitVec.ofNat 32 g.val
          then X V c (ix2 ⟨(25 * p.val + i.val) * 4000 + r.val, by have := p.isLt; have := i.isLt; have := r.isLt; omega⟩ (Fin.castLE (by decide) j))
            * X V c (ix2 ⟨(25 * p.val + i.val) * 4000 + r.val, by have := p.isLt; have := i.isLt; have := r.isLt; omega⟩ (Fin.castLE (by decide) j)) else 0) := by
  rw [arrQ_eq]
  rfl

/-! ## The same for the counts (window 4) -/

/-- Point n's addend to the count of graph g: how many rows of block n belong to it. -/
def addC (c : Dev nD) (g : Fin 64) (n : ℕ) : EReal :=
  if h : n < 50 then ∑ r : Fin 4000, (if BV V c (ix3 ⟨n, h⟩ 0 r) = BitVec.ofNat 32 g.val then (1 : EReal) else 0) else 0

theorem pointC (c : Dev nD) (t : Fin cfg0.N) (prev : Vec Ideal S1x64x1 .f32) (g : Fin 64) :
    k0_pay1 (F := Ideal) (k0_pay9 (F := Ideal) (bblk V c t)) prev (ix3 0 g 0) = prev (ix3 0 g 0) + addC V c g t.val := by
  refine (pay1_apply (k0_pay9 (F := Ideal) (bblk V c t)) prev g).trans ?_
  unfold addC
  rw [dif_pos (lt50 t), pay9_apply]
  congr 1
  refine Finset.sum_congr rfl fun r _ => ?_
  rw [bblk_apply]

theorem accC_congr (c : Dev nD) (n n' : ℕ) (hn : n < cfg0.N) (hn' : n' < cfg0.N) (e : n = n') :
    accC V c n hn = accC V c n' hn' := by subst e; rfl

theorem accC_eq (c : Dev nD) (g : Fin 64) (p : ℕ) : ∀ (i : ℕ) (hi : i < 25) (h : 25 * p + i < cfg0.N),
    accC V c (25 * p + i) h (ix3 0 g 0) = ∑ s ∈ Finset.range (i + 1), addC V c g (25 * p + s)
  | 0, _, h => by
    have e := accC_reset V c ⟨25 * p + 0, h⟩ (by show (25 * p + 0) % 25 = 0; omega)
    refine (congrFun e (ix3 0 g 0)).trans ?_
    refine (pointC V c ⟨25 * p + 0, h⟩ (k0_pay4 (F := Ideal)) g).trans ?_
    rw [zero4, zero_add, Finset.sum_range_one]
  | i + 1, hi, h => by
    have e := accC_carry V c ⟨25 * p + (i + 1), h⟩ (by show ¬(25 * p + (i + 1)) % 25 = 0; omega)
    refine (congrFun e (ix3 0 g 0)).trans ?_
    refine (pointC V c ⟨25 * p + (i + 1), h⟩ _ g).trans ?_
    rw [accC_congr V c _ (25 * p + i) _ (by omega) (by show 25 * p + (i + 1) - 1 = 25 * p + i; omega),
      accC_eq c g p i (by omega) (by omega), Finset.sum_range_succ _ (i + 1)]

def sumC (c : Dev nD) (p : Fin 2) (g : Fin 64) : EReal :=
  ∑ i : Fin 25, ∑ r : Fin 4000, (if BV V c (ix3 ⟨25 * p.val + i.val, by have := p.isLt; have := i.isLt; omega⟩ 0 r) = BitVec.ofNat 32 g.val
    then (1 : EReal) else 0)

theorem sum_addC (c : Dev nD) (p : Fin 2) (g : Fin 64) :
    ∑ s ∈ Finset.range 25, addC V c g (25 * p.val + s) = sumC V c p g := by
  unfold sumC
  rw [Finset.sum_range]
  refine Finset.sum_congr rfl fun i _ => ?_
  unfold addC
  rw [dif_pos (by have := p.isLt; have := i.isLt; omega)]

def arrC (c : Dev nD) : Vec Ideal S2x64x1 .f32 := fun j => sumC V c (j 0) (j 1)

theorem lastC (c : Dev nD) (t : Fin cfg0.N) (h24 : t.val % 25 = 24) (g : Fin 64) :
    accC V c t.val t.isLt (ix3 0 g 0) = sumC V c ⟨t.val / 25, by have := lt50 t; omega⟩ g := by
  have hN : cfg0.N = 50 := N_0
  have ht := lt50 t
  rw [accC_congr V c t.val (25 * (t.val / 25) + 24) t.isLt (by omega) (by omega),
    accC_eq V c g (t.val / 25) 24 (by omega) (by omega)]
  exact sum_addC V c ⟨t.val / 25, by omega⟩ g

theorem flushedC (c : Dev nD) (t : Fin cfg0.N) (hf : (cfg0.win 4).flush t = true) :
    (dat0 V c).flushed 4 t = ((cfg0.win 4).blk t).view.read (Elt Ideal) (arrC V c) := by
  have h24 : t.val % 25 = 24 := (flush0_4 t).mp hf
  have ht := lt50 t
  obtain ⟨-, -, -, -, -, -, -, -, -, -, -, e0, e1, e2⟩ := idx_facts t
  show (cfg0.win 4).cut (grid0.coords t) ((dat0 V c).after 4 t) = _
  rw [after0_4]
  show (fun y : S1x64x1.Idx => accC V c t.val t.isLt y) = fun y : S1x64x1.Idx => arrC V c (((cfg0.win 4).blk t).view.emb y)
  funext y
  obtain ⟨a, g, z, rfl⟩ : ∃ (a : Fin 1) (g : Fin 64) (z : Fin 1), y = ix3 a g z := ⟨y 0, y 1, y 2, eq_ix3 y⟩
  obtain rfl : a = 0 := Subsingleton.elim _ _
  obtain rfl : z = 0 := Subsingleton.elim _ _
  rw [lastC V c t h24 g]
  show arrC V c (ix3 ⟨t.val / 25, by omega⟩ g (0 : Fin 1)) = _
  congr 1
  funext a
  apply Fin.ext
  match a with
  | ⟨0, _⟩ => show t.val / 25 = win0_4.index t 0 * 1 + 1 * 0; rw [e0]; omega
  | ⟨1, _⟩ => show g.val = win0_4.index t 1 * 64 + 1 * g.val; rw [e1]; omega
  | ⟨2, _⟩ => show 0 = win0_4.index t 2 * 1 + 1 * 0; rw [e2]

theorem mem_blkC (t : Fin cfg0.N) (i : S2x64x1.Idx) :
    i ∈ ((cfg0.win 4).blk t).view.set ↔ ∀ a : Fin 3, win0_4.index t a * S1x64x1.size a ≤ (i a).val
      ∧ (i a).val < win0_4.index t a * S1x64x1.size a + S1x64x1.size a := by
  show i ∈ ((View.whole main_v1_2).slice (win0_4.rect t)).set ↔ _
  rw [View.set_slice_whole, Rect.mem_set_unit]
  exact Iff.rfl

theorem arrC_eq (c : Dev nD) : (dat0 V c).arrAt 4 cfg0.N = arrC V c :=
  (dat0 V c).arrAt_eq_of_cover 4 (arrC V c) (flushedC V c) fun i => by
    have hN : cfg0.N = 50 := N_0
    have h0 : (i 0).val < 2 := (i 0).isLt
    have h1 : (i 1).val < 64 := (i 1).isLt
    have h2 : (i 2).val < 1 := (i 2).isLt
    have hlt : 25 * (i 0).val + 24 < cfg0.N := by omega
    obtain ⟨-, -, -, -, -, -, -, -, -, -, -, e0, e1, e2⟩ := idx_facts ⟨25 * (i 0).val + 24, hlt⟩
    have e0' : win0_4.index ⟨25 * (i 0).val + 24, hlt⟩ 0 = (25 * (i 0).val + 24) / 25 := e0
    refine ⟨⟨25 * (i 0).val + 24, hlt⟩, (flush0_4 _).mpr (by show (25 * (i 0).val + 24) % 25 = 24; omega), ?_⟩
    rw [mem_blkC]
    intro a
    match a with
    | ⟨0, _⟩ =>
      show win0_4.index ⟨25 * (i 0).val + 24, hlt⟩ 0 * 1 ≤ (i 0).val ∧ (i 0).val < win0_4.index ⟨25 * (i 0).val + 24, hlt⟩ 0 * 1 + 1
      rw [e0']; omega
    | ⟨1, _⟩ =>
      show win0_4.index ⟨25 * (i 0).val + 24, hlt⟩ 1 * 64 ≤ (i 1).val ∧ (i 1).val < win0_4.index ⟨25 * (i 0).val + 24, hlt⟩ 1 * 64 + 64
      rw [e1]; omega
    | ⟨2, _⟩ =>
      show win0_4.index ⟨25 * (i 0).val + 24, hlt⟩ 2 * 1 ≤ (i 2).val ∧ (i 2).val < win0_4.index ⟨25 * (i 0).val + 24, hlt⟩ 2 * 1 + 1
      rw [e2]; omega

/-- The counts after the region. -/
theorem final0_4 (c : Dev nD) (p : Fin 2) (g : Fin 64) :
    ((dat0 V c).arrAt 4 cfg0.N : S2x64x1.Idx → EReal) (ix3 p g 0)
      = ∑ i : Fin 25, ∑ r : Fin 4000, (if BV V c (ix3 ⟨25 * p.val + i.val, by have := p.isLt; have := i.isLt; omega⟩ 0 r) = BitVec.ofNat 32 g.val
          then (1 : EReal) else 0) := by
  rw [arrC_eq]
  rfl

end Cert.KernelIdeal.Value0

end
-- ==== Proof.KIValue1.lean ====
/- The value of the second region (the apply kernel) at the ideal instance: after the grid, its result array holds, at row n
   and column k, the row's entry times a scale plus a shift, where scale and shift are the entries k and 256 + k of the sum of the
   two tables' rows selected by the batch id of row n (a one-hot product over the 64 graph rows). Three steps: the body's payload
   read at an index of its block; each input block read as rows of its argument array; the write-backs of the 50 points tile the
   array, so the array is one function of the arguments. -/
import proofs.«402630_j9972914061338_3_alg».proof.Proof.KIRegion1
import Idealize.ShloMosaic.Lib.Pipeline.Value
import Idealize.ShloMosaic.Lib.ValueIdx
import Idealize.ShloMosaic.PureOps.Ideal.Laws

noncomputable section

namespace Cert.KernelIdeal.Value1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-- The 0/1 word of an integer comparison, widened and converted, is the real 1 or 0. -/
theorem onehot_word (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := by simp [h]
    simp [IntOp.cmpi, FloatOps.sitofp, hb, h]

theorem lhs_D_0 (i : S4000x512.Idx) (q : dot_S64x4000_S64x512_S4000x512_0_0_1_1_n_n.contr.Idx) :
    (dot_S64x4000_S64x512_S4000x512_0_0_1_1_n_n.lhsIdx i q 0).val = (q ⟨0, by decide⟩).val :=
  dot_S64x4000_S64x512_S4000x512_0_0_1_1_n_n.lhsIdx_val_of_single rfl i q

theorem lhs_D_1 (i : S4000x512.Idx) (q : dot_S64x4000_S64x512_S4000x512_0_0_1_1_n_n.contr.Idx) :
    (dot_S64x4000_S64x512_S4000x512_0_0_1_1_n_n.lhsIdx i q 1).val = (i 0).val := by
  unfold DotDims.lhsIdx
  rw [dif_neg (show ¬(1 : Fin S64x4000.rank) ∈ dot_S64x4000_S64x512_S4000x512_0_0_1_1_n_n.lhsBatch by decide), dif_pos (show (1 : Fin S64x4000.rank) ∈ dot_S64x4000_S64x512_S4000x512_0_0_1_1_n_n.lhsNonContracting by decide)]
  rfl

theorem rhs_D_0 (i : S4000x512.Idx) (q : dot_S64x4000_S64x512_S4000x512_0_0_1_1_n_n.contr.Idx) :
    (dot_S64x4000_S64x512_S4000x512_0_0_1_1_n_n.rhsIdx i q 0).val = (q ⟨0, by decide⟩).val :=
  dot_S64x4000_S64x512_S4000x512_0_0_1_1_n_n.rhsIdx_val_of_single rfl i q

theorem rhs_D_1 (i : S4000x512.Idx) (q : dot_S64x4000_S64x512_S4000x512_0_0_1_1_n_n.contr.Idx) :
    (dot_S64x4000_S64x512_S4000x512_0_0_1_1_n_n.rhsIdx i q 1).val = (i 1).val := by
  unfold DotDims.rhsIdx
  rw [dif_neg (show ¬(1 : Fin S64x512.rank) ∈ dot_S64x4000_S64x512_S4000x512_0_0_1_1_n_n.rhsBatch by decide), dif_pos (show (1 : Fin S64x512.rank) ∈ dot_S64x4000_S64x512_S4000x512_0_0_1_1_n_n.rhsNonContracting by decide)]
  rfl

/-- A product contracting the 64 rows of both operands, into the zero accumulator, at an index: the sum over the rows. -/
theorem matmul_rows_apply (a : FVec Ideal S64x4000 .bf16) (t : FVec Ideal S64x512 .bf16) (r : Fin 4000) (q : Fin 512) :
    matmul dot_S64x4000_S64x512_S4000x512_0_0_1_1_n_n none a t (constant (F := Ideal) S4000x512 .f32 0x00000000#32) (ix2 r q)
      = ∑ g : Fin 64, a (ix2 g r) * t (ix2 g q) := by
  simp only [matmul]
  rw [Ideal.matmul_constant_zero_apply, ← Equiv.sum_comp (contrEquiv1 dot_S64x4000_S64x512_S4000x512_0_0_1_1_n_n 64 rfl rfl).symm]
  refine Finset.sum_congr rfl fun g _ => ?_
  have hk := contrEquiv1_symm_val dot_S64x4000_S64x512_S4000x512_0_0_1_1_n_n 64 rfl rfl g
  have el : dot_S64x4000_S64x512_S4000x512_0_0_1_1_n_n.lhsIdx (ix2 r q) ((contrEquiv1 dot_S64x4000_S64x512_S4000x512_0_0_1_1_n_n 64 rfl rfl).symm g) = ix2 g r := funext fun a => Fin.ext (by
    match a with
    | ⟨0, _⟩ => exact (lhs_D_0 _ _).trans hk
    | ⟨1, _⟩ => exact lhs_D_1 _ _)
  have er : dot_S64x4000_S64x512_S4000x512_0_0_1_1_n_n.rhsIdx (ix2 r q) ((contrEquiv1 dot_S64x4000_S64x512_S4000x512_0_0_1_1_n_n 64 rfl rfl).symm g) = ix2 g q := funext fun a => Fin.ext (by
    match a with
    | ⟨0, _⟩ => exact (rhs_D_0 _ _).trans hk
    | ⟨1, _⟩ => exact rhs_D_1 _ _)
  rw [el, er]

/-- The one-hot entry: 1 at graph row g and lane r exactly when the batch word of lane r is g. -/
theorem onehot_apply (b : Vec Ideal S1x1x4000 .i32) (g : Fin 64) (r : Fin 4000) :
    (truncf .bf16 (sitofp (F := Ideal) .f32 (extui 32 (cmpi .eq (broadcastTo S64x4000 (shapeCast S1x4000 b shapeCasts_S1x1x4000_S1x4000) broadcasts_S1x4000_S64x4000) (iota .tc S64x4000 32 [0] iota_S64x4000_d0_w32)) natLt_1_32)) bitsLt_bf16_f32 : FVec Ideal S64x4000 .bf16) (ix2 g r)
      = if b (ix3 0 0 r) = BitVec.ofNat 32 g.val then 1 else 0 := by
  show FloatOps.sitofp (F := Ideal) .f32 ((IntOp.cmpi .eq (broadcastTo S64x4000 (shapeCast S1x4000 b shapeCasts_S1x1x4000_S1x4000) broadcasts_S1x4000_S64x4000 (ix2 g r)) (iota .tc S64x4000 32 [0] iota_S64x4000_d0_w32 (ix2 g r))).setWidth 32) = _
  rw [onehot_word, iota_single_apply]
  rw [broadcastTo_apply _ _ (ix2 g r) (ix2 (0 : Fin 1) r) (fun a => by
    match a with
    | ⟨0, _⟩ => rfl
    | ⟨1, _⟩ => rfl)]
  rw [shapeCast_apply b _ (ix2 (0 : Fin 1) r) (ix3 (0 : Fin 1) (0 : Fin 1) r) (by
    rw [Shape.rowMajor_val_three, Shape.rowMajor_val_two]; rfl)]

/-- The columns 0 … 239 of a 512-wide block. -/
theorem slice0_apply (v : FVec Ideal S4000x512 .f32) (r : Fin 4000) (k : Fin 240) :
    extractStridedSlice S4000x240 ![0, 0] v slices_S4000x512_o0_0_S4000x240 (ix2 r k) = v (ix2 r ⟨k.val, by omega⟩) :=
  extractStridedSlice_apply _ _ _ _ _ fun a => by
    match a with
    | ⟨0, _⟩ => show r.val = 0 + r.val; omega
    | ⟨1, _⟩ => show k.val = 0 + k.val; omega

/-- The columns 256 … 495 of a 512-wide block. -/
theorem slice256_apply (v : FVec Ideal S4000x512 .f32) (r : Fin 4000) (k : Fin 240) :
    extractStridedSlice S4000x240 ![0, 256] v slices_S4000x512_o0_256_S4000x240 (ix2 r k) = v (ix2 r ⟨256 + k.val, by omega⟩) :=
  extractStridedSlice_apply _ _ _ _ _ fun a => by
    match a with
    | ⟨0, _⟩ => show r.val = 0 + r.val; omega
    | ⟨1, _⟩ => show 256 + k.val = 256 + k.val; rfl

/-- The one-hot weight of graph row g for lane r of a batch-id block. -/
def oh (b : Vec Ideal S1x1x4000 .i32) (r : Fin 4000) (g : Fin 64) : EReal :=
  if b (ix3 0 0 r) = BitVec.ofNat 32 g.val then 1 else 0

/-- THE PAYLOAD AT AN INDEX: x · scale + shift, scale and shift the one-hot gathers of the two tables' sum. -/
theorem pay1_apply (x : Vec Ideal S4000x240 .f32) (b : Vec Ideal S1x1x4000 .i32) (hi lo : Vec Ideal S64x512 .bf16)
    (r : Fin 4000) (k : Fin 240) :
    k1_pay1 x b hi lo (ix2 r k)
      = x (ix2 r k) * ((∑ g : Fin 64, oh b r g * hi (ix2 g ⟨k.val, by omega⟩)) + (∑ g : Fin 64, oh b r g * lo (ix2 g ⟨k.val, by omega⟩)))
        + ((∑ g : Fin 64, oh b r g * hi (ix2 g ⟨256 + k.val, by omega⟩)) + (∑ g : Fin 64, oh b r g * lo (ix2 g ⟨256 + k.val, by omega⟩))) := by
  unfold k1_pay1
  simp only [addf_apply, mulf_apply, slice0_apply, slice256_apply, shapeCast_self, matmul_rows_apply]
  unfold oh
  refine congrArg₂ (· + ·) (congrArg₂ (· * ·) rfl (congrArg₂ (· + ·) ?_ ?_)) (congrArg₂ (· + ·) ?_ ?_) <;>
    exact Finset.sum_congr rfl fun g _ => congrArg (· * _) (onehot_apply b g r)

variable (V : (c : Dev nD) → (b : Ref sig .tc) → Buf (Elt Ideal) ((c : Thread nD τ).loc b))

/-- The region's four argument arrays at their literal types: the rows, the batch ids as 50 rows of 4000, the two tables. -/
abbrev Xa (c : Dev nD) : Vec Ideal S200000x240 .f32 := V c main_arg0
abbrev BVa (c : Dev nD) : Vec Ideal S50x1x4000 .i32 := V c main_v0
abbrev HIa (c : Dev nD) : Vec Ideal S64x512 .bf16 := V c main_v93
abbrev LOa (c : Dev nD) : Vec Ideal S64x512 .bf16 := V c main_v96

/-- The four input blocks of point t at their literal types. -/
abbrev xblk (c : Dev nD) (t : Fin cfg1.N) : Vec Ideal S4000x240 .f32 := iblk1 V c 0 t
abbrev bblk (c : Dev nD) (t : Fin cfg1.N) : Vec Ideal S1x1x4000 .i32 := iblk1 V c 1 t
abbrev hblk (c : Dev nD) (t : Fin cfg1.N) : Vec Ideal S64x512 .bf16 := iblk1 V c 2 t
abbrev lblk (c : Dev nD) (t : Fin cfg1.N) : Vec Ideal S64x512 .bf16 := iblk1 V c 3 t

/-- The block index maps over the grid: the row windows move with the point, the tables stay. -/
theorem idx_facts1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_N1 (t : Fin cfg1.N) : t.val < 50 := lt_of_lt_of_eq t.isLt N_1

/-- Row r of point t's row block is row 4000 t + r of the array. -/
theorem xblk_apply (c : Dev nD) (t : Fin cfg1.N) (r : Fin 4000) (k : Fin 240) (n : Fin 200000)
    (hn : n.val = 4000 * t.val + r.val) : xblk V c t (ix2 r k) = Xa V c (ix2 n k) := by
  obtain ⟨e0, e1, -⟩ := idx_facts1 t
  show V c main_arg0 (((cfg1.win 0).blk t).view.emb (ix2 r k)) = V c main_arg0 (ix2 n k)
  refine congrArg _ (funext fun a => Fin.ext ?_)
  match a with
  | ⟨0, _⟩ => show win1_0.index t (0 : Fin 2) * 4000 + 1 * r.val = n.val; omega
  | ⟨1, _⟩ => show win1_0.index t (1 : Fin 2) * 240 + 1 * k.val = k.val; omega

/-- Lane r of point t's batch-id block is lane r of row t of the batch ids. -/
theorem bblk_apply (c : Dev nD) (t : Fin cfg1.N) (r : Fin 4000) (t' : Fin 50) (ht : t'.val = t.val) :
    bblk V c t (ix3 0 0 r) = BVa V c (ix3 t' 0 r) := by
  obtain ⟨-, -, e2, e3, e4, -⟩ := idx_facts1 t
  show V c main_v0 (((cfg1.win 1).blk t).view.emb (ix3 0 0 r)) = V c main_v0 (ix3 t' 0 r)
  refine congrArg _ (funext fun a => Fin.ext ?_)
  match a with
  | ⟨0, _⟩ => show win1_1.index t (0 : Fin 3) * 1 + 1 * 0 = t'.val; omega
  | ⟨1, _⟩ => show win1_1.index t (1 : Fin 3) * 1 + 1 * 0 = 0; omega
  | ⟨2, _⟩ => show win1_1.index t (2 : Fin 3) * 4000 + 1 * r.val = r.val; omega

/-- Each table's block is the whole table, at every point. -/
theorem hblk_eq (c : Dev nD) (t : Fin cfg1.N) : hblk V c t = HIa V c := by
  obtain ⟨-, -, -, -, -, e5, e6, -⟩ := idx_facts1 t
  funext j
  show V c main_v93 (((cfg1.win 2).blk t).view.emb j) = V c main_v93 j
  refine congrArg _ (funext fun a => Fin.ext ?_)
  match a with
  | ⟨0, _⟩ => show win1_2.index t (0 : Fin 2) * 64 + 1 * (j 0).val = (j 0).val; omega
  | ⟨1, _⟩ => show win1_2.index t (1 : Fin 2) * 512 + 1 * (j 1).val = (j 1).val; omega

theorem lblk_eq (c : Dev nD) (t : Fin cfg1.N) : lblk V c t = LOa V c := by
  obtain ⟨-, -, -, -, -, -, -, e7, e8, -⟩ := idx_facts1 t
  funext j
  show V c main_v96 (((cfg1.win 3).blk t).view.emb j) = V c main_v96 j
  refine congrArg _ (funext fun a => Fin.ext ?_)
  match a with
  | ⟨0, _⟩ => show win1_3.index t (0 : Fin 2) * 64 + 1 * (j 0).val = (j 0).val; omega
  | ⟨1, _⟩ => show win1_3.index t (1 : Fin 2) * 512 + 1 * (j 1).val = (j 1).val; omega

/-- The weight of graph row g for array row n: 1 when the batch id of row n is g. -/
def ohA (c : Dev nD) (n : Fin 200000) (g : Fin 64) : EReal :=
  if BVa V c (ix3 ⟨n.val / 4000, by omega⟩ 0 ⟨n.val % 4000, Nat.mod_lt _ (by decide)⟩) = BitVec.ofNat 32 g.val then 1 else 0

/-- The result at row n and column k: the row's entry scaled and shifted by its graph's table rows. -/
def Gat (c : Dev nD) (n : Fin 200000) (k : Fin 240) : EReal :=
  Xa V c (ix2 n k) * ((∑ g : Fin 64, ohA V c n g * HIa V c (ix2 g ⟨k.val, by omega⟩)) + (∑ g : Fin 64, ohA V c n g * LOa V c (ix2 g ⟨k.val, by omega⟩)))
    + ((∑ g : Fin 64, ohA V c n g * HIa V c (ix2 g ⟨256 + k.val, by omega⟩)) + (∑ g : Fin 64, ohA V c n g * LOa V c (ix2 g ⟨256 + k.val, by omega⟩)))

/-- The whole result array as one function of the argument arrays. -/
def G (c : Dev nD) : Vec Ideal S200000x240 .f32 := fun i => Gat V c (i 0) (i 1)

/-- What point t computes at row r of its block is the result at row 4000 t + r. -/
theorem pay_row (c : Dev nD) (t : Fin cfg1.N) (r : Fin 4000) (k : Fin 240) (n : Fin 200000) (k' : Fin 240)
    (hn : n.val = 4000 * t.val + r.val) (hk : k'.val = k.val) :
    k1_pay1 (xblk V c t) (bblk V c t) (hblk V c t) (lblk V c t) (ix2 r k) = Gat V c n k' := by
  obtain rfl : k' = k := Fin.ext hk
  refine (pay1_apply (xblk V c t) (bblk V c t) (hblk V c t) (lblk V c t) r k').trans ?_
  have ht := lt_N1 t
  have eoh : ∀ g : Fin 64, oh (bblk V c t) r g = ohA V c n g := fun g => by
    unfold oh ohA
    rw [bblk_apply V c t r ⟨n.val / 4000, by omega⟩ (by show n.val / 4000 = t.val; omega)]
    have er : (⟨n.val % 4000, Nat.mod_lt _ (by decide)⟩ : Fin 4000) = r := Fin.ext (by show n.val % 4000 = r.val; omega)
    rw [er]
  unfold Gat
  rw [xblk_apply V c t r k' n hn, hblk_eq V c t, lblk_eq V c t]
  simp only [eoh]

/-- WHAT POINT t WRITES BACK is block t of the result array. -/
theorem flushed4_eq (c : Dev nD) (t : Fin cfg1.N) :
    (dat1 V c).flushed 4 t = ((cfg1.win 4).blk t).view.read (Elt Ideal) (G V c) := by
  obtain ⟨-, -, -, -, -, -, -, -, -, e9, e10⟩ := idx_facts1 t
  funext j
  obtain ⟨r, k, rfl⟩ : ∃ (r : Fin 4000) (k : Fin 240), j = ix2 r k := ⟨j 0, j 1, eq_ix2 j⟩
  show k1_pay1 (xblk V c t) (bblk V c t) (hblk V c t) (lblk V c t) (ix2 r k)
    = Gat V c (((cfg1.win 4).blk t).view.emb (ix2 r k) 0) (((cfg1.win 4).blk t).view.emb (ix2 r k) 1)
  exact pay_row V c t r k _ _
    (by show win1_4.index t (0 : Fin 2) * 4000 + 1 * r.val = 4000 * t.val + r.val; omega)
    (by show win1_4.index t (1 : Fin 2) * 240 + 1 * k.val = k.val; omega)

/-- An index of the array is in point t's block iff each coordinate is in the block's range on its axis. -/
theorem mem_blk4 (t : Fin cfg1.N) (i : S200000x240.Idx) :
    i ∈ ((cfg1.win 4).blk t).view.set ↔ ∀ a : Fin 2, win1_4.index t a * S4000x240.size a ≤ (i a).val ∧ (i a).val < win1_4.index t a * S4000x240.size a + S4000x240.size a := by
  show i ∈ ((View.whole main_v97).slice (win1_4.rect t)).set ↔ _
  rw [View.set_slice_whole, Rect.mem_set_unit]
  exact Iff.rfl

/-- Row n lies in the block of point n / 4000. -/
theorem cover4 (i : S200000x240.Idx) : ∃ t : Fin cfg1.N, (cfg1.win 4).flush t = true ∧ i ∈ ((cfg1.win 4).blk t).view.set := by
  have hi0 : (i 0).val < 200000 := (i 0).isLt
  have hi1 : (i 1).val < 240 := (i 1).isLt
  have hN : cfg1.N = 50 := N_1
  obtain ⟨t, ht⟩ : ∃ t : Fin cfg1.N, t.val = (i 0).val / 4000 := ⟨⟨(i 0).val / 4000, by rw [hN]; omega⟩, rfl⟩
  obtain ⟨-, -, -, -, -, -, -, -, -, e9, e10⟩ := idx_facts1 t
  refine ⟨t, flush1_4 t, ?_⟩
  rw [mem_blk4]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 240 ≤ (i 1).val ∧ (i 1).val < win1_4.index t (1 : Fin 2) * 240 + 240; omega

/-- THE RESULT ARRAY after the grid is that function of the argument arrays. -/
theorem arr4_eq (c : Dev nD) : (dat1 V c).arrAt 4 cfg1.N = G V c :=
  (dat1 V c).arrAt_eq_of_cover 4 (G V c) (fun t _ => flushed4_eq V c t) cover4

/-- THE VALUE OF THE APPLY KERNEL at row n and column k. -/
theorem final1 (c : Dev nD) (n : Fin 200000) (k : Fin 240) :
    (dat1 V c).arrAt 4 cfg1.N (ix2 n k)
      = Xa V c (ix2 n k)
          * ((∑ g : Fin 64, (if BVa V c (ix3 ⟨n.val / 4000, by omega⟩ 0 ⟨n.val % 4000, Nat.mod_lt _ (by decide)⟩) = BitVec.ofNat 32 g.val then (1 : EReal) else 0) * HIa V c (ix2 g ⟨k.val, by omega⟩))
            + (∑ g : Fin 64, (if BVa V c (ix3 ⟨n.val / 4000, by omega⟩ 0 ⟨n.val % 4000, Nat.mod_lt _ (by decide)⟩) = BitVec.ofNat 32 g.val then (1 : EReal) else 0) * LOa V c (ix2 g ⟨k.val, by omega⟩)))
        + ((∑ g : Fin 64, (if BVa V c (ix3 ⟨n.val / 4000, by omega⟩ 0 ⟨n.val % 4000, Nat.mod_lt _ (by decide)⟩) = BitVec.ofNat 32 g.val then (1 : EReal) else 0) * HIa V c (ix2 g ⟨256 + k.val, by omega⟩))
            + (∑ g : Fin 64, (if BVa V c (ix3 ⟨n.val / 4000, by omega⟩ 0 ⟨n.val % 4000, Nat.mod_lt _ (by decide)⟩) = BitVec.ofNat 32 g.val then (1 : EReal) else 0) * LOa V c (ix2 g ⟨256 + k.val, by omega⟩))) := by
  rw [arr4_eq]
  rfl

end Cert.KernelIdeal.Value1

end
-- ==== Proof.KIHostAfter.lean ====
/- The value a straight line of host operations leaves at a reference that one of them writes, when every reference
   is written at most once: the writing operation's function of the values the WHOLE line leaves at its operands.
   Then, for the 108 host operations between the kernel program's two calls, that equation operation by operation. -/
import Idealize.ShloMosaic.Lib.StableHlo.Run
import Idealize.ShloMosaic.Lib.Pipeline.Frame
import proofs.«402630_j9972914061338_3_alg».proof.Proof.Gen.KernelIdeal.Launch

noncomputable section

namespace Cert.KernelIdeal.HostAfter

open Idealize.ShloMosaic Idealize.ShloMosaic.StableHlo Idealize.ShloMosaic.TcCoe Idealize.SL.Sem

variable {τ : Topo} {sig : RefSig} {Val : EltTy → Type}

/-- The line writes, operation by operation, exactly the references of the list. -/
def Writes (ops : List (HloOp τ sig Val)) (ws : List (Ref sig .tc)) : Prop :=
  List.Forall₂ (fun op r => op.writes = {Proc.devRef (τ := τ) .tc r}) ops ws

theorem Writes.drop {ops : List (HloOp τ sig Val)} {ws : List (Ref sig .tc)} (h : Writes ops ws) :
    ∀ i : Nat, Writes (ops.drop i) (ws.drop i) := by
  induction h with
  | nil => intro i; simp only [List.drop_nil]; exact List.Forall₂.nil
  | @cons op r ops ws hop hrest ih =>
    intro i
    cases i with
    | zero => exact List.Forall₂.cons hop hrest
    | succ i => exact ih i

/-- A reference outside the list is written by no operation of the line. -/
theorem Writes.not_mem {ops : List (HloOp τ sig Val)} {ws : List (Ref sig .tc)} (h : Writes ops ws) {r : Ref sig .tc}
    (hr : r ∉ ws) : ∀ op ∈ ops, Proc.devRef (τ := τ) .tc r ∉ op.writes := by
  induction h with
  | nil => intro op hop; exact absurd hop List.not_mem_nil
  | @cons op' r' ops ws hop' _ ih =>
    intro op hop
    rcases List.mem_cons.mp hop with rfl | hop
    · rw [hop', Finset.mem_singleton]
      exact devRef_ne_of_ne fun e => hr (e ▸ List.mem_cons_self)
    · exact ih (fun hm => hr (List.mem_cons_of_mem _ hm)) op hop

/-- A reference the line never writes keeps its contents. -/
theorem after_unwritten {ops : List (HloOp τ sig Val)} {ws : List (Ref sig .tc)} (h : Writes ops ws) {r : Ref sig .tc}
    (hr : r ∉ ws) (V : Valuation τ sig Val) : after ops V (Proc.devRef .tc r) = V (Proc.devRef .tc r) :=
  after_of_forall_not_mem ops V (h.not_mem hr)

/-- A reference not written from position i on holds at the end what it held after the first i operations. -/
theorem after_take {ops : List (HloOp τ sig Val)} {ws : List (Ref sig .tc)} (h : Writes ops ws) (i : Nat) {r : Ref sig .tc}
    (hr : r ∉ ws.drop i) (V : Valuation τ sig Val) :
    after ops V (Proc.devRef .tc r) = after (ops.take i) V (Proc.devRef .tc r) := by
  conv_lhs => rw [← List.take_append_drop i ops]
  rw [after_append]
  exact after_of_forall_not_mem _ _ ((h.drop i).not_mem hr)

/-- At the reference operation i writes (and no later one does), the line leaves that operation's result over the
    contents after the first i operations. -/
theorem after_at {ops : List (HloOp τ sig Val)} {ws : List (Ref sig .tc)} (h : Writes ops ws) (i : Nat) (op : HloOp τ sig Val)
    (hop : ops[i]? = some op) {y : Ref sig .tc} (hy : y ∉ ws.drop (i + 1)) (V : Valuation τ sig Val) :
    after ops V (Proc.devRef .tc y) = op.result (after (ops.take i) V) (Proc.devRef .tc y) := by
  rw [after_take h (i + 1) hy, List.take_succ, hop, Option.toList_some, after_append, after_cons, after_nil]

section Builders
variable {ops : List (HloOp τ sig Val)} {ws : List (Ref sig .tc)} (h : Writes ops ws) (i : Nat)
include h

/-- A constant. -/
theorem after_nullary {y : Ref sig .tc} {v : y.ty.Contents Val} {hy}
    (hop : ops[i]? = some (nullary (τ := τ) y v hy)) (hyw : y ∉ ws.drop (i + 1)) (V : Valuation τ sig Val) :
    after ops V (Proc.devRef .tc y) = v := by
  rw [after_at h i _ hop hyw, nullary_result]

/-- An operation of one operand: its function of what the line leaves at the operand. -/
theorem after_unary {x y : Ref sig .tc} {f : x.ty.Contents Val → y.ty.Contents Val} {hx hy}
    (hop : ops[i]? = some (unary (τ := τ) x y f hx hy)) (hyw : y ∉ ws.drop (i + 1)) (hxw : x ∉ ws.drop i)
    (V : Valuation τ sig Val) :
    after ops V (Proc.devRef .tc y) = f (after ops V (Proc.devRef .tc x)) := by
  rw [after_at h i _ hop hyw, unary_result, after_take h i hxw]

/-- An operation of two operands. -/
theorem after_binary {a b y : Ref sig .tc} {f : a.ty.Contents Val → b.ty.Contents Val → y.ty.Contents Val} {ha hb hy}
    (hop : ops[i]? = some (binary (τ := τ) a b y f ha hb hy)) (hyw : y ∉ ws.drop (i + 1)) (haw : a ∉ ws.drop i)
    (hbw : b ∉ ws.drop i) (V : Valuation τ sig Val) :
    after ops V (Proc.devRef .tc y) = f (after ops V (Proc.devRef .tc a)) (after ops V (Proc.devRef .tc b)) := by
  rw [after_at h i _ hop hyw, binary_result, after_take h i haw, after_take h i hbw]

/-- A reshape. -/
theorem after_reshape {x y : Ref sig .tc} {he : x.ty.elt = y.ty.elt} {hn : x.ty.shape.ShapeCasts y.ty.shape} {hx hy}
    (hop : ops[i]? = some (reshape (τ := τ) (Val := Val) x y he hn hx hy)) (hyw : y ∉ ws.drop (i + 1)) (hxw : x ∉ ws.drop i)
    (V : Valuation τ sig Val) :
    after ops V (Proc.devRef .tc y) = fun j => he ▸ shapeCast y.ty.shape (after ops V (Proc.devRef .tc x)) hn j := by
  rw [after_at h i _ hop hyw, reshape_result, after_take h i hxw]

/-- An operation of a family of operands. -/
theorem after_nary {n : Nat} {xs : Fin n → Ref sig .tc} {y : Ref sig .tc}
    {f : ((k : Fin n) → (xs k).ty.Contents Val) → y.ty.Contents Val} {hxs hy}
    (hop : ops[i]? = some (nary (τ := τ) xs y f hxs hy)) (hyw : y ∉ ws.drop (i + 1)) (hxw : ∀ k, xs k ∉ ws.drop i)
    (V : Valuation τ sig Val) :
    after ops V (Proc.devRef .tc y) = f (fun k => after ops V (Proc.devRef .tc (xs k))) := by
  rw [after_at h i _ hop hyw, nary_result]
  exact congrArg f (funext fun k => (after_take h i (hxw k) V).symm)

end Builders

end Cert.KernelIdeal.HostAfter

/-! ## The kernel program's host stretch between its two calls -/

namespace Cert.KernelIdeal.HostAfter

open Cert.KernelIdeal Cert.KernelIdeal.Gen
open Idealize.ShloMosaic Idealize.ShloMosaic.StableHlo Idealize.ShloMosaic.TcCoe Idealize.SL.Sem

set_option maxRecDepth 16384

variable {F : FTy → Type} [FloatOps F]

/-- The references the 108 operations write, in order (every one written once). -/
abbrev ws1 : List (Ref sig .tc) :=
  [main_v2, main_v3, main_v4, main_v5, main_v6, main_v7, main_v8, main_v9, main_v10, main_v11, main_v12, main_v13, main_v14, main_v15, main_v16, main_cst, main_v17, main_v18, main_v19, main_v20, main_v21, main_v22, main_cst_0, main_v23, main_cst_1, main_v24, main_v25, main_v26, main_v27, main_cst_2, main_v28, main_cst_3, main_v29, main_v30, main_v31, main_v32, main_cst_4, main_v33, main_cst_5, main_v34, main_v35, main_v36, main_v37, main_v38, main_cst_6, main_v39, main_cst_7, main_v40, main_v41, main_v42, main_v43, main_cst_8, main_v44, main_v45, main_v46, main_cst_9, main_v47, main_v48, main_cst_10, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_cst_11, main_v89, main_v90, main_v91, main_v92, main_v93, main_v94, main_v95, main_v96]

theorem writes1 : Writes (hostOps1 (F := F)) ws1 := by
  unfold Writes
  repeat (first | exact List.Forall₂.nil | refine List.Forall₂.cons rfl ?_)

section Equations
variable (W : Valuation τ sig (Elt F))

/-! The stretch's inputs keep their contents. -/
theorem e_main_v1_0 : (after (hostOps1 (F := F)) W (Proc.devRef .tc main_v1_0)) = W (Proc.devRef .tc main_v1_0) :=
  after_unwritten writes1 (by decide) W
theorem e_main_v1_1 : (after (hostOps1 (F := F)) W (Proc.devRef .tc main_v1_1)) = W (Proc.devRef .tc main_v1_1) :=
  after_unwritten writes1 (by decide) W
theorem e_main_v1_2 : (after (hostOps1 (F := F)) W (Proc.devRef .tc main_v1_2)) = W (Proc.devRef .tc main_v1_2) :=
  after_unwritten writes1 (by decide) W
theorem e_main_arg2 : (after (hostOps1 (F := F)) W (Proc.devRef .tc main_arg2)) = W (Proc.devRef .tc main_arg2) :=
  after_unwritten writes1 (by decide) W
theorem e_main_arg3 : (after (hostOps1 (F := F)) W (Proc.devRef .tc main_arg3)) = W (Proc.devRef .tc main_arg3) :=
  after_unwritten writes1 (by decide) W

/-! One equation per operation, in program order: what the stretch leaves at the operation's result is the operation's
    function of what the stretch leaves at its operands. -/
theorem e_main_v2 : (after (hostOps1 (F := F)) W (Proc.devRef .tc main_v2)) = (extractStridedSlice S1x64x240 ![0, 0, 0] ((after (hostOps1 (F := F)) W (Proc.devRef .tc main_v1_0)) : (⟨S2x64x240, .f32⟩ : BufTy).Contents (Elt F)) slices_S2x64x240_S1x64x240_0_0_0 : (⟨S1x64x240, .f32⟩ : BufTy).Contents (Elt F)) :=
  after_unary writes1 0 rfl (by decide) (by decide) W
theorem e_main_v3 : (after (hostOps1 (F := F)) W (Proc.devRef .tc main_v3)) = (shapeCast S64x240 ((after (hostOps1 (F := F)) W (Proc.devRef .tc main_v2)) : (⟨S1x64x240, .f32⟩ : BufTy).Contents (Elt F)) shapeCasts_S1x64x240_S64x240 : (⟨S64x240, .f32⟩ : BufTy).Contents (Elt F)) :=
  after_reshape writes1 1 rfl (by decide) (by decide) W
theorem e_main_v4 : (after (hostOps1 (F := F)) W (Proc.devRef .tc main_v4)) = (extractStridedSlice S1x64x240 ![1, 0, 0] ((after (hostOps1 (F := F)) W (Proc.devRef .tc main_v1_0)) : (⟨S2x64x240, .f32⟩ : BufTy).Contents (Elt F)) slices_S2x64x240_S1x64x240_1_0_0 : (⟨S1x64x240, .f32⟩ : BufTy).Contents (Elt F)) :=
  after_unary writes1 2 rfl (by decide) (by decide) W
theorem e_main_v5 : (after (hostOps1 (F := F)) W (Proc.devRef .tc main_v5)) = (shapeCast S64x240 ((after (hostOps1 (F := F)) W (Proc.devRef .tc main_v4)) : (⟨S1x64x240, .f32⟩ : BufTy).Contents (Elt F)) shapeCasts_S1x64x240_S64x240 : (⟨S64x240, .f32⟩ : BufTy).Contents (Elt F)) :=
  after_reshape writes1 3 rfl (by decide) (by decide) W
theorem e_main_v6 : (after (hostOps1 (F := F)) W (Proc.devRef .tc main_v6)) = (addf : (⟨S64x240, .f32⟩ : BufTy).Contents (Elt F) → (⟨S64x240, .f32⟩ : BufTy).Contents (Elt F) → (⟨S64x240, .f32⟩ : BufTy).Contents (Elt F)) (after (hostOps1 (F := F)) W (Proc.devRef .tc main_v3)) (after (hostOps1 (F := F)) W (Proc.devRef .tc main_v5)) :=
  after_binary writes1 4 rfl (by decide) (by decide) (by decide) W
theorem e_main_v7 : (after (hostOps1 (F := F)) W (Proc.devRef .tc main_v7)) = (extractStridedSlice S1x64x64 ![0, 0, 0] ((after (hostOps1 (F := F)) W (Proc.devRef .tc main_v1_1)) : (⟨S2x64x64, .f32⟩ : BufTy).Contents (Elt F)) slices_S2x64x64_S1x64x64_0_0_0 : (⟨S1x64x64, .f32⟩ : BufTy).Contents (Elt F)) :=
  after_unary writes1 5 rfl (by decide) (by decide) W
theorem e_main_v8 : (after (hostOps1 (F := F)) W (Proc.devRef .tc main_v8)) = (shapeCast S64x64 ((after (hostOps1 (F := F)) W (Proc.devRef .tc main_v7)) : (⟨S1x64x64, .f32⟩ : BufTy).Contents (Elt F)) shapeCasts_S1x64x64_S64x64 : (⟨S64x64, .f32⟩ : BufTy).Contents (Elt F)) :=
  after_reshape writes1 6 rfl (by decide) (by decide) W
theorem e_main_v9 : (after (hostOps1 (F := F)) W (Proc.devRef .tc main_v9)) = (extractStridedSlice S1x64x64 ![1, 0, 0] ((after (hostOps1 (F := F)) W (Proc.devRef .tc main_v1_1)) : (⟨S2x64x64, .f32⟩ : BufTy).Contents (Elt F)) slices_S2x64x64_S1x64x64_1_0_0 : (⟨S1x64x64, .f32⟩ : BufTy).Contents (Elt F)) :=
  after_unary writes1 7 rfl (by decide) (by decide) W
theorem e_main_v10 : (after (hostOps1 (F := F)) W (Proc.devRef .tc main_v10)) = (shapeCast S64x64 ((after (hostOps1 (F := F)) W (Proc.devRef .tc main_v9)) : (⟨S1x64x64, .f32⟩ : BufTy).Contents (Elt F)) shapeCasts_S1x64x64_S64x64 : (⟨S64x64, .f32⟩ : BufTy).Contents (Elt F)) :=
  after_reshape writes1 8 rfl (by decide) (by decide) W
theorem e_main_v11 : (after (hostOps1 (F := F)) W (Proc.devRef .tc main_v11)) = (addf : (⟨S64x64, .f32⟩ : BufTy).Contents (Elt F) → (⟨S64x64, .f32⟩ : BufTy).Contents (Elt F) → (⟨S64x64, .f32⟩ : BufTy).Contents (Elt F)) (after (hostOps1 (F := F)) W (Proc.devRef .tc main_v8)) (after (hostOps1 (F := F)) W (Proc.devRef .tc main_v10)) :=
  after_binary writes1 9 rfl (by decide) (by decide) (by decide) W
theorem e_main_v12 : (after (hostOps1 (F := F)) W (Proc.devRef .tc main_v12)) = (extractStridedSlice S1x64x1 ![0, 0, 0] ((after (hostOps1 (F := F)) W (Proc.devRef .tc main_v1_2)) : (⟨S2x64x1, .f32⟩ : BufTy).Contents (Elt F)) slices_S2x64x1_S1x64x1_0_0_0 : (⟨S1x64x1, .f32⟩ : BufTy).Contents (Elt F)) :=
  after_unary writes1 10 rfl (by decide) (by decide) W
theorem e_main_v13 : (after (hostOps1 (F := F)) W (Proc.devRef .tc main_v13)) = (shapeCast S64 ((after (hostOps1 (F := F)) W (Proc.devRef .tc main_v12)) : (⟨S1x64x1, .f32⟩ : BufTy).Contents (Elt F)) shapeCasts_S1x64x1_S64 : (⟨S64, .f32⟩ : BufTy).Contents (Elt F)) :=
  after_reshape writes1 11 rfl (by decide) (by decide) W
theorem e_main_v14 : (after (hostOps1 (F := F)) W (Proc.devRef .tc main_v14)) = (extractStridedSlice S1x64x1 ![1, 0, 0] ((after (hostOps1 (F := F)) W (Proc.devRef .tc main_v1_2)) : (⟨S2x64x1, .f32⟩ : BufTy).Contents (Elt F)) slices_S2x64x1_S1x64x1_1_0_0 : (⟨S1x64x1, .f32⟩ : BufTy).Contents (Elt F)) :=
  after_unary writes1 12 rfl (by decide) (by decide) W
theorem e_main_v15 : (after (hostOps1 (F := F)) W (Proc.devRef .tc main_v15)) = (shapeCast S64 ((after (hostOps1 (F := F)) W (Proc.devRef .tc main_v14)) : (⟨S1x64x1, .f32⟩ : BufTy).Contents (Elt F)) shapeCasts_S1x64x1_S64 : (⟨S64, .f32⟩ : BufTy).Contents (Elt F)) :=
  after_reshape writes1 13 rfl (by decide) (by decide) W
theorem e_main_v16 : (after (hostOps1 (F := F)) W (Proc.devRef .tc main_v16)) = (addf : (⟨S64, .f32⟩ : BufTy).Contents (Elt F) → (⟨S64, .f32⟩ : BufTy).Contents (Elt F) → (⟨S64, .f32⟩ : BufTy).Contents (Elt F)) (after (hostOps1 (F := F)) W (Proc.devRef .tc main_v13)) (after (hostOps1 (F := F)) W (Proc.devRef .tc main_v15)) :=
  after_binary writes1 14 rfl (by decide) (by decide) (by decide) W
theorem e_main_cst : (after (hostOps1 (F := F)) W (Proc.devRef .tc main_cst)) = (constant (F := F) S_ .f32 0x3F800000#32) :=
  after_nullary writes1 15 rfl (by decide) W
theorem e_main_v17 : (after (hostOps1 (F := F)) W (Proc.devRef .tc main_v17)) = (broadcastInDim S64 ![] bcast_S_S64 : (⟨S_, .f32⟩ : BufTy).Contents (Elt F) → (⟨S64, .f32⟩ : BufTy).Contents (Elt F)) (after (hostOps1 (F := F)) W (Proc.devRef .tc main_cst)) :=
  after_unary writes1 16 rfl (by decide) (by decide) W
theorem e_main_v18 : (after (hostOps1 (F := F)) W (Proc.devRef .tc main_v18)) = (maximumf : (⟨S64, .f32⟩ : BufTy).Contents (Elt F) → (⟨S64, .f32⟩ : BufTy).Contents (Elt F) → (⟨S64, .f32⟩ : BufTy).Contents (Elt F)) (after (hostOps1 (F := F)) W (Proc.devRef .tc main_v16)) (after (hostOps1 (F := F)) W (Proc.devRef .tc main_v17)) :=
  after_binary writes1 17 rfl (by decide) (by decide) (by decide) W
theorem e_main_v19 : (after (hostOps1 (F := F)) W (Proc.devRef .tc main_v19)) = (broadcastInDim S64x1 ![0] bcast_S64_S64x1_0 : (⟨S64, .f32⟩ : BufTy).Contents (Elt F) → (⟨S64x1, .f32⟩ : BufTy).Contents (Elt F)) (after (hostOps1 (F := F)) W (Proc.devRef .tc main_v18)) :=
  after_unary writes1 18 rfl (by decide) (by decide) W
theorem e_main_v20 : (after (hostOps1 (F := F)) W (Proc.devRef .tc main_v20)) = (broadcastInDim S64x240 ![0, 1] bcast_S64x1_S64x240_0_1 : (⟨S64x1, .f32⟩ : BufTy).Contents (Elt F) → (⟨S64x240, .f32⟩ : BufTy).Contents (Elt F)) (after (hostOps1 (F := F)) W (Proc.devRef .tc main_v19)) :=
  after_unary writes1 19 rfl (by decide) (by decide) W
theorem e_main_v21 : (after (hostOps1 (F := F)) W (Proc.devRef .tc main_v21)) = (Host.divf : (⟨S64x240, .f32⟩ : BufTy).Contents (Elt F) → (⟨S64x240, .f32⟩ : BufTy).Contents (Elt F) → (⟨S64x240, .f32⟩ : BufTy).Contents (Elt F)) (after (hostOps1 (F := F)) W (Proc.devRef .tc main_v6)) (after (hostOps1 (F := F)) W (Proc.devRef .tc main_v20)) :=
  after_binary writes1 20 rfl (by decide) (by decide) (by decide) W
theorem e_main_v22 : (after (hostOps1 (F := F)) W (Proc.devRef .tc main_v22)) = (extractStridedSlice S64x64 ![0, 0] ((after (hostOps1 (F := F)) W (Proc.devRef .tc main_v21)) : (⟨S64x240, .f32⟩ : BufTy).Contents (Elt F)) slices_S64x240_S64x64_0_0 : (⟨S64x64, .f32⟩ : BufTy).Contents (Elt F)) :=
  after_unary writes1 21 rfl (by decide) (by decide) W
theorem e_main_cst_0 : (after (hostOps1 (F := F)) W (Proc.devRef .tc main_cst_0)) = (constant (F := F) S_ .f32 0x00000000#32) :=
  after_nullary writes1 22 rfl (by decide) W
theorem e_main_v23 : (after (hostOps1 (F := F)) W (Proc.devRef .tc main_v23)) = (Host.reduceAdd ((after (hostOps1 (F := F)) W (Proc.devRef .tc main_v22)) : (⟨S64x64, .f32⟩ : BufTy).Contents (Elt F)) ((after (hostOps1 (F := F)) W (Proc.devRef .tc main_cst_0)) : (⟨S_, .f32⟩ : BufTy).Contents (Elt F)) reducesTo_S64x64_S64_d1 h_S_ : (⟨S64, .f32⟩ : BufTy).Contents (Elt F)) :=
  after_binary writes1 23 rfl (by decide) (by decide) (by decide) W
theorem e_main_cst_1 : (after (hostOps1 (F := F)) W (Proc.devRef .tc main_cst_1)) = (constant (F := F) S_ .f32 0x42800000#32) :=
  after_nullary writes1 24 rfl (by decide) W
theorem e_main_v24 : (after (hostOps1 (F := F)) W (Proc.devRef .tc main_v24)) = (broadcastInDim S64 ![] bcast_S_S64 : (⟨S_, .f32⟩ : BufTy).Contents (Elt F) → (⟨S64, .f32⟩ : BufTy).Contents (Elt F)) (after (hostOps1 (F := F)) W (Proc.devRef .tc main_cst_1)) :=
  after_unary writes1 25 rfl (by decide) (by decide) W
theorem e_main_v25 : (after (hostOps1 (F := F)) W (Proc.devRef .tc main_v25)) = (Host.divf : (⟨S64, .f32⟩ : BufTy).Contents (Elt F) → (⟨S64, .f32⟩ : BufTy).Contents (Elt F) → (⟨S64, .f32⟩ : BufTy).Contents (Elt F)) (after (hostOps1 (F := F)) W (Proc.devRef .tc main_v23)) (after (hostOps1 (F := F)) W (Proc.devRef .tc main_v24)) :=
  after_binary writes1 26 rfl (by decide) (by decide) (by decide) W
theorem e_main_v26 : (after (hostOps1 (F := F)) W (Proc.devRef .tc main_v26)) = (extractStridedSlice S64x96 ![0, 64] ((after (hostOps1 (F := F)) W (Proc.devRef .tc main_v21)) : (⟨S64x240, .f32⟩ : BufTy).Contents (Elt F)) slices_S64x240_S64x96_0_64 : (⟨S64x96, .f32⟩ : BufTy).Contents (Elt F)) :=
  after_unary writes1 27 rfl (by decide) (by decide) W
theorem e_main_v27 : (after (hostOps1 (F := F)) W (Proc.devRef .tc main_v27)) = (shapeCast S64x32x3 ((after (hostOps1 (F := F)) W (Proc.devRef .tc main_v26)) : (⟨S64x96, .f32⟩ : BufTy).Contents (Elt F)) shapeCasts_S64x96_S64x32x3 : (⟨S64x32x3, .f32⟩ : BufTy).Contents (Elt F)) :=
  after_reshape writes1 28 rfl (by decide) (by decide) W
theorem e_main_cst_2 : (after (hostOps1 (F := F)) W (Proc.devRef .tc main_cst_2)) = (constant (F := F) S_ .f32 0x00000000#32) :=
  after_nullary writes1 29 rfl (by decide) W
theorem e_main_v28 : (after (hostOps1 (F := F)) W (Proc.devRef .tc main_v28)) = (Host.reduceAdd ((after (hostOps1 (F := F)) W (Proc.devRef .tc main_v27)) : (⟨S64x32x3, .f32⟩ : BufTy).Contents (Elt F)) ((after (hostOps1 (F := F)) W (Proc.devRef .tc main_cst_2)) : (⟨S_, .f32⟩ : BufTy).Contents (Elt F)) reducesTo_S64x32x3_S64x3_d1 h_S_ : (⟨S64x3, .f32⟩ : BufTy).Contents (Elt F)) :=
  after_binary writes1 30 rfl (by decide) (by decide) (by decide) W
theorem e_main_cst_3 : (after (hostOps1 (F := F)) W (Proc.devRef .tc main_cst_3)) = (constant (F := F) S_ .f32 0x42000000#32) :=
  after_nullary writes1 31 rfl (by decide) W
theorem e_main_v29 : (after (hostOps1 (F := F)) W (Proc.devRef .tc main_v29)) = (broadcastInDim S64x3 ![] bcast_S_S64x3 : (⟨S_, .f32⟩ : BufTy).Contents (Elt F) → (⟨S64x3, .f32⟩ : BufTy).Contents (Elt F)) (after (hostOps1 (F := F)) W (Proc.devRef .tc main_cst_3)) :=
  after_unary writes1 32 rfl (by decide) (by decide) W
theorem e_main_v30 : (after (hostOps1 (F := F)) W (Proc.devRef .tc main_v30)) = (Host.divf : (⟨S64x3, .f32⟩ : BufTy).Contents (Elt F) → (⟨S64x3, .f32⟩ : BufTy).Contents (Elt F) → (⟨S64x3, .f32⟩ : BufTy).Contents (Elt F)) (after (hostOps1 (F := F)) W (Proc.devRef .tc main_v28)) (after (hostOps1 (F := F)) W (Proc.devRef .tc main_v29)) :=
  after_binary writes1 33 rfl (by decide) (by decide) (by decide) W
theorem e_main_v31 : (after (hostOps1 (F := F)) W (Proc.devRef .tc main_v31)) = (extractStridedSlice S64x80 ![0, 160] ((after (hostOps1 (F := F)) W (Proc.devRef .tc main_v21)) : (⟨S64x240, .f32⟩ : BufTy).Contents (Elt F)) slices_S64x240_S64x80_0_160 : (⟨S64x80, .f32⟩ : BufTy).Contents (Elt F)) :=
  after_unary writes1 34 rfl (by decide) (by decide) W
theorem e_main_v32 : (after (hostOps1 (F := F)) W (Proc.devRef .tc main_v32)) = (shapeCast S64x16x5 ((after (hostOps1 (F := F)) W (Proc.devRef .tc main_v31)) : (⟨S64x80, .f32⟩ : BufTy).Contents (Elt F)) shapeCasts_S64x80_S64x16x5 : (⟨S64x16x5, .f32⟩ : BufTy).Contents (Elt F)) :=
  after_reshape writes1 35 rfl (by decide) (by decide) W
theorem e_main_cst_4 : (after (hostOps1 (F := F)) W (Proc.devRef .tc main_cst_4)) = (constant (F := F) S_ .f32 0x00000000#32) :=
  after_nullary writes1 36 rfl (by decide) W
theorem e_main_v33 : (after (hostOps1 (F := F)) W (Proc.devRef .tc main_v33)) = (Host.reduceAdd ((after (hostOps1 (F := F)) W (Proc.devRef .tc main_v32)) : (⟨S64x16x5, .f32⟩ : BufTy).Contents (Elt F)) ((after (hostOps1 (F := F)) W (Proc.devRef .tc main_cst_4)) : (⟨S_, .f32⟩ : BufTy).Contents (Elt F)) reducesTo_S64x16x5_S64x5_d1 h_S_ : (⟨S64x5, .f32⟩ : BufTy).Contents (Elt F)) :=
  after_binary writes1 37 rfl (by decide) (by decide) (by decide) W
theorem e_main_cst_5 : (after (hostOps1 (F := F)) W (Proc.devRef .tc main_cst_5)) = (constant (F := F) S_ .f32 0x41800000#32) :=
  after_nullary writes1 38 rfl (by decide) W
theorem e_main_v34 : (after (hostOps1 (F := F)) W (Proc.devRef .tc main_v34)) = (broadcastInDim S64x5 ![] bcast_S_S64x5 : (⟨S_, .f32⟩ : BufTy).Contents (Elt F) → (⟨S64x5, .f32⟩ : BufTy).Contents (Elt F)) (after (hostOps1 (F := F)) W (Proc.devRef .tc main_cst_5)) :=
  after_unary writes1 39 rfl (by decide) (by decide) W
theorem e_main_v35 : (after (hostOps1 (F := F)) W (Proc.devRef .tc main_v35)) = (Host.divf : (⟨S64x5, .f32⟩ : BufTy).Contents (Elt F) → (⟨S64x5, .f32⟩ : BufTy).Contents (Elt F) → (⟨S64x5, .f32⟩ : BufTy).Contents (Elt F)) (after (hostOps1 (F := F)) W (Proc.devRef .tc main_v33)) (after (hostOps1 (F := F)) W (Proc.devRef .tc main_v34)) :=
  after_binary writes1 40 rfl (by decide) (by decide) (by decide) W
theorem e_main_v36 : (after (hostOps1 (F := F)) W (Proc.devRef .tc main_v36)) = (broadcastInDim S64x1 ![0] bcast_S64_S64x1_0 : (⟨S64, .f32⟩ : BufTy).Contents (Elt F) → (⟨S64x1, .f32⟩ : BufTy).Contents (Elt F)) (after (hostOps1 (F := F)) W (Proc.devRef .tc main_v18)) :=
  after_unary writes1 41 rfl (by decide) (by decide) W
theorem e_main_v37 : (after (hostOps1 (F := F)) W (Proc.devRef .tc main_v37)) = (broadcastInDim S64x64 ![0, 1] bcast_S64x1_S64x64_0_1 : (⟨S64x1, .f32⟩ : BufTy).Contents (Elt F) → (⟨S64x64, .f32⟩ : BufTy).Contents (Elt F)) (after (hostOps1 (F := F)) W (Proc.devRef .tc main_v36)) :=
  after_unary writes1 42 rfl (by decide) (by decide) W
theorem e_main_v38 : (after (hostOps1 (F := F)) W (Proc.devRef .tc main_v38)) = (Host.divf : (⟨S64x64, .f32⟩ : BufTy).Contents (Elt F) → (⟨S64x64, .f32⟩ : BufTy).Contents (Elt F) → (⟨S64x64, .f32⟩ : BufTy).Contents (Elt F)) (after (hostOps1 (F := F)) W (Proc.devRef .tc main_v11)) (after (hostOps1 (F := F)) W (Proc.devRef .tc main_v37)) :=
  after_binary writes1 43 rfl (by decide) (by decide) (by decide) W
theorem e_main_cst_6 : (after (hostOps1 (F := F)) W (Proc.devRef .tc main_cst_6)) = (constant (F := F) S_ .f32 0x00000000#32) :=
  after_nullary writes1 44 rfl (by decide) W
theorem e_main_v39 : (after (hostOps1 (F := F)) W (Proc.devRef .tc main_v39)) = (Host.reduceAdd ((after (hostOps1 (F := F)) W (Proc.devRef .tc main_v38)) : (⟨S64x64, .f32⟩ : BufTy).Contents (Elt F)) ((after (hostOps1 (F := F)) W (Proc.devRef .tc main_cst_6)) : (⟨S_, .f32⟩ : BufTy).Contents (Elt F)) reducesTo_S64x64_S64_d1 h_S_ : (⟨S64, .f32⟩ : BufTy).Contents (Elt F)) :=
  after_binary writes1 45 rfl (by decide) (by decide) (by decide) W
theorem e_main_cst_7 : (after (hostOps1 (F := F)) W (Proc.devRef .tc main_cst_7)) = (constant (F := F) S_ .f32 0x42800000#32) :=
  after_nullary writes1 46 rfl (by decide) W
theorem e_main_v40 : (after (hostOps1 (F := F)) W (Proc.devRef .tc main_v40)) = (broadcastInDim S64 ![] bcast_S_S64 : (⟨S_, .f32⟩ : BufTy).Contents (Elt F) → (⟨S64, .f32⟩ : BufTy).Contents (Elt F)) (after (hostOps1 (F := F)) W (Proc.devRef .tc main_cst_7)) :=
  after_unary writes1 47 rfl (by decide) (by decide) W
theorem e_main_v41 : (after (hostOps1 (F := F)) W (Proc.devRef .tc main_v41)) = (Host.divf : (⟨S64, .f32⟩ : BufTy).Contents (Elt F) → (⟨S64, .f32⟩ : BufTy).Contents (Elt F) → (⟨S64, .f32⟩ : BufTy).Contents (Elt F)) (after (hostOps1 (F := F)) W (Proc.devRef .tc main_v39)) (after (hostOps1 (F := F)) W (Proc.devRef .tc main_v40)) :=
  after_binary writes1 48 rfl (by decide) (by decide) (by decide) W
theorem e_main_v42 : (after (hostOps1 (F := F)) W (Proc.devRef .tc main_v42)) = (mulf : (⟨S64, .f32⟩ : BufTy).Contents (Elt F) → (⟨S64, .f32⟩ : BufTy).Contents (Elt F) → (⟨S64, .f32⟩ : BufTy).Contents (Elt F)) (after (hostOps1 (F := F)) W (Proc.devRef .tc main_v25)) (after (hostOps1 (F := F)) W (Proc.devRef .tc main_v25)) :=
  after_binary writes1 49 rfl (by decide) (by decide) (by decide) W
theorem e_main_v43 : (after (hostOps1 (F := F)) W (Proc.devRef .tc main_v43)) = (subf : (⟨S64, .f32⟩ : BufTy).Contents (Elt F) → (⟨S64, .f32⟩ : BufTy).Contents (Elt F) → (⟨S64, .f32⟩ : BufTy).Contents (Elt F)) (after (hostOps1 (F := F)) W (Proc.devRef .tc main_v41)) (after (hostOps1 (F := F)) W (Proc.devRef .tc main_v42)) :=
  after_binary writes1 50 rfl (by decide) (by decide) (by decide) W
theorem e_main_cst_8 : (after (hostOps1 (F := F)) W (Proc.devRef .tc main_cst_8)) = (constant (F := F) S_ .f32 0x00000000#32) :=
  after_nullary writes1 51 rfl (by decide) W
theorem e_main_v44 : (after (hostOps1 (F := F)) W (Proc.devRef .tc main_v44)) = (broadcastInDim S64 ![] bcast_S_S64 : (⟨S_, .f32⟩ : BufTy).Contents (Elt F) → (⟨S64, .f32⟩ : BufTy).Contents (Elt F)) (after (hostOps1 (F := F)) W (Proc.devRef .tc main_cst_8)) :=
  after_unary writes1 52 rfl (by decide) (by decide) W
theorem e_main_v45 : (after (hostOps1 (F := F)) W (Proc.devRef .tc main_v45)) = (maximumf : (⟨S64, .f32⟩ : BufTy).Contents (Elt F) → (⟨S64, .f32⟩ : BufTy).Contents (Elt F) → (⟨S64, .f32⟩ : BufTy).Contents (Elt F)) (after (hostOps1 (F := F)) W (Proc.devRef .tc main_v43)) (after (hostOps1 (F := F)) W (Proc.devRef .tc main_v44)) :=
  after_binary writes1 53 rfl (by decide) (by decide) (by decide) W
theorem e_main_v46 : (after (hostOps1 (F := F)) W (Proc.devRef .tc main_v46)) = (Host.sqrt : (⟨S64, .f32⟩ : BufTy).Contents (Elt F) → (⟨S64, .f32⟩ : BufTy).Contents (Elt F)) (after (hostOps1 (F := F)) W (Proc.devRef .tc main_v45)) :=
  after_unary writes1 54 rfl (by decide) (by decide) W
theorem e_main_cst_9 : (after (hostOps1 (F := F)) W (Proc.devRef .tc main_cst_9)) = (constant (F := F) S_ .f32 0x3727C5AC#32) :=
  after_nullary writes1 55 rfl (by decide) W
theorem e_main_v47 : (after (hostOps1 (F := F)) W (Proc.devRef .tc main_v47)) = (broadcastInDim S64 ![] bcast_S_S64 : (⟨S_, .f32⟩ : BufTy).Contents (Elt F) → (⟨S64, .f32⟩ : BufTy).Contents (Elt F)) (after (hostOps1 (F := F)) W (Proc.devRef .tc main_cst_9)) :=
  after_unary writes1 56 rfl (by decide) (by decide) W
theorem e_main_v48 : (after (hostOps1 (F := F)) W (Proc.devRef .tc main_v48)) = (addf : (⟨S64, .f32⟩ : BufTy).Contents (Elt F) → (⟨S64, .f32⟩ : BufTy).Contents (Elt F) → (⟨S64, .f32⟩ : BufTy).Contents (Elt F)) (after (hostOps1 (F := F)) W (Proc.devRef .tc main_v46)) (after (hostOps1 (F := F)) W (Proc.devRef .tc main_v47)) :=
  after_binary writes1 57 rfl (by decide) (by decide) (by decide) W
theorem e_main_cst_10 : (after (hostOps1 (F := F)) W (Proc.devRef .tc main_cst_10)) = (constant (F := F) S_ .f32 0x3F800000#32) :=
  after_nullary writes1 58 rfl (by decide) W
theorem e_main_v49 : (after (hostOps1 (F := F)) W (Proc.devRef .tc main_v49)) = (broadcastInDim S64 ![] bcast_S_S64 : (⟨S_, .f32⟩ : BufTy).Contents (Elt F) → (⟨S64, .f32⟩ : BufTy).Contents (Elt F)) (after (hostOps1 (F := F)) W (Proc.devRef .tc main_cst_10)) :=
  after_unary writes1 59 rfl (by decide) (by decide) W
theorem e_main_v50 : (after (hostOps1 (F := F)) W (Proc.devRef .tc main_v50)) = (Host.divf : (⟨S64, .f32⟩ : BufTy).Contents (Elt F) → (⟨S64, .f32⟩ : BufTy).Contents (Elt F) → (⟨S64, .f32⟩ : BufTy).Contents (Elt F)) (after (hostOps1 (F := F)) W (Proc.devRef .tc main_v49)) (after (hostOps1 (F := F)) W (Proc.devRef .tc main_v48)) :=
  after_binary writes1 60 rfl (by decide) (by decide) (by decide) W
theorem e_main_v51 : (after (hostOps1 (F := F)) W (Proc.devRef .tc main_v51)) = (extractStridedSlice S64 ![0] ((after (hostOps1 (F := F)) W (Proc.devRef .tc main_arg2)) : (⟨S112, .f32⟩ : BufTy).Contents (Elt F)) slices_S112_S64_0 : (⟨S64, .f32⟩ : BufTy).Contents (Elt F)) :=
  after_unary writes1 61 rfl (by decide) (by decide) W
theorem e_main_v52 : (after (hostOps1 (F := F)) W (Proc.devRef .tc main_v52)) = (extractStridedSlice S32 ![64] ((after (hostOps1 (F := F)) W (Proc.devRef .tc main_arg2)) : (⟨S112, .f32⟩ : BufTy).Contents (Elt F)) slices_S112_S32_64 : (⟨S32, .f32⟩ : BufTy).Contents (Elt F)) :=
  after_unary writes1 62 rfl (by decide) (by decide) W
theorem e_main_v53 : (after (hostOps1 (F := F)) W (Proc.devRef .tc main_v53)) = (extractStridedSlice S16 ![96] ((after (hostOps1 (F := F)) W (Proc.devRef .tc main_arg2)) : (⟨S112, .f32⟩ : BufTy).Contents (Elt F)) slices_S112_S16_96 : (⟨S16, .f32⟩ : BufTy).Contents (Elt F)) :=
  after_unary writes1 63 rfl (by decide) (by decide) W
theorem e_main_v54 : (after (hostOps1 (F := F)) W (Proc.devRef .tc main_v54)) = (broadcastInDim S32x3 ![0] bcast_S32_S32x3_0 : (⟨S32, .f32⟩ : BufTy).Contents (Elt F) → (⟨S32x3, .f32⟩ : BufTy).Contents (Elt F)) (after (hostOps1 (F := F)) W (Proc.devRef .tc main_v52)) :=
  after_unary writes1 64 rfl (by decide) (by decide) W
theorem e_main_v55 : (after (hostOps1 (F := F)) W (Proc.devRef .tc main_v55)) = (shapeCast S96 ((after (hostOps1 (F := F)) W (Proc.devRef .tc main_v54)) : (⟨S32x3, .f32⟩ : BufTy).Contents (Elt F)) shapeCasts_S32x3_S96 : (⟨S96, .f32⟩ : BufTy).Contents (Elt F)) :=
  after_reshape writes1 65 rfl (by decide) (by decide) W
theorem e_main_v56 : (after (hostOps1 (F := F)) W (Proc.devRef .tc main_v56)) = (broadcastInDim S16x5 ![0] bcast_S16_S16x5_0 : (⟨S16, .f32⟩ : BufTy).Contents (Elt F) → (⟨S16x5, .f32⟩ : BufTy).Contents (Elt F)) (after (hostOps1 (F := F)) W (Proc.devRef .tc main_v53)) :=
  after_unary writes1 66 rfl (by decide) (by decide) W
theorem e_main_v57 : (after (hostOps1 (F := F)) W (Proc.devRef .tc main_v57)) = (shapeCast S80 ((after (hostOps1 (F := F)) W (Proc.devRef .tc main_v56)) : (⟨S16x5, .f32⟩ : BufTy).Contents (Elt F)) shapeCasts_S16x5_S80 : (⟨S80, .f32⟩ : BufTy).Contents (Elt F)) :=
  after_reshape writes1 67 rfl (by decide) (by decide) W
theorem e_main_v58 : (after (hostOps1 (F := F)) W (Proc.devRef .tc main_v58)) = (shapeCast S1x64x1x3 ((after (hostOps1 (F := F)) W (Proc.devRef .tc main_v30)) : (⟨S64x3, .f32⟩ : BufTy).Contents (Elt F)) shapeCasts_S64x3_S1x64x1x3 : (⟨S1x64x1x3, .f32⟩ : BufTy).Contents (Elt F)) :=
  after_reshape writes1 68 rfl (by decide) (by decide) W
theorem e_main_v59 : (after (hostOps1 (F := F)) W (Proc.devRef .tc main_v59)) = (broadcastInDim S1x64x32x3 ![0, 1, 2, 3] bcast_S1x64x1x3_S1x64x32x3_0_1_2_3 : (⟨S1x64x1x3, .f32⟩ : BufTy).Contents (Elt F) → (⟨S1x64x32x3, .f32⟩ : BufTy).Contents (Elt F)) (after (hostOps1 (F := F)) W (Proc.devRef .tc main_v58)) :=
  after_unary writes1 69 rfl (by decide) (by decide) W
theorem e_main_v60 : (after (hostOps1 (F := F)) W (Proc.devRef .tc main_v60)) = (shapeCast S64x96 ((after (hostOps1 (F := F)) W (Proc.devRef .tc main_v59)) : (⟨S1x64x32x3, .f32⟩ : BufTy).Contents (Elt F)) shapeCasts_S1x64x32x3_S64x96 : (⟨S64x96, .f32⟩ : BufTy).Contents (Elt F)) :=
  after_reshape writes1 70 rfl (by decide) (by decide) W
theorem e_main_v61 : (after (hostOps1 (F := F)) W (Proc.devRef .tc main_v61)) = (shapeCast S1x64x1x5 ((after (hostOps1 (F := F)) W (Proc.devRef .tc main_v35)) : (⟨S64x5, .f32⟩ : BufTy).Contents (Elt F)) shapeCasts_S64x5_S1x64x1x5 : (⟨S1x64x1x5, .f32⟩ : BufTy).Contents (Elt F)) :=
  after_reshape writes1 71 rfl (by decide) (by decide) W
theorem e_main_v62 : (after (hostOps1 (F := F)) W (Proc.devRef .tc main_v62)) = (broadcastInDim S1x64x16x5 ![0, 1, 2, 3] bcast_S1x64x1x5_S1x64x16x5_0_1_2_3 : (⟨S1x64x1x5, .f32⟩ : BufTy).Contents (Elt F) → (⟨S1x64x16x5, .f32⟩ : BufTy).Contents (Elt F)) (after (hostOps1 (F := F)) W (Proc.devRef .tc main_v61)) :=
  after_unary writes1 72 rfl (by decide) (by decide) W
theorem e_main_v63 : (after (hostOps1 (F := F)) W (Proc.devRef .tc main_v63)) = (shapeCast S64x80 ((after (hostOps1 (F := F)) W (Proc.devRef .tc main_v62)) : (⟨S1x64x16x5, .f32⟩ : BufTy).Contents (Elt F)) shapeCasts_S1x64x16x5_S64x80 : (⟨S64x80, .f32⟩ : BufTy).Contents (Elt F)) :=
  after_reshape writes1 73 rfl (by decide) (by decide) W
theorem e_main_v64 : (after (hostOps1 (F := F)) W (Proc.devRef .tc main_v64)) = (broadcastInDim S64x1 ![0] bcast_S64_S64x1_0 : (⟨S64, .f32⟩ : BufTy).Contents (Elt F) → (⟨S64x1, .f32⟩ : BufTy).Contents (Elt F)) (after (hostOps1 (F := F)) W (Proc.devRef .tc main_v50)) :=
  after_unary writes1 74 rfl (by decide) (by decide) W
theorem e_main_v65 : (after (hostOps1 (F := F)) W (Proc.devRef .tc main_v65)) = (broadcastInDim S1x64 ![1] bcast_S64_S1x64_1 : (⟨S64, .f32⟩ : BufTy).Contents (Elt F) → (⟨S1x64, .f32⟩ : BufTy).Contents (Elt F)) (after (hostOps1 (F := F)) W (Proc.devRef .tc main_v51)) :=
  after_unary writes1 75 rfl (by decide) (by decide) W
theorem e_main_v66 : (after (hostOps1 (F := F)) W (Proc.devRef .tc main_v66)) = (broadcastInDim S64x64 ![0, 1] bcast_S64x1_S64x64_0_1 : (⟨S64x1, .f32⟩ : BufTy).Contents (Elt F) → (⟨S64x64, .f32⟩ : BufTy).Contents (Elt F)) (after (hostOps1 (F := F)) W (Proc.devRef .tc main_v64)) :=
  after_unary writes1 76 rfl (by decide) (by decide) W
theorem e_main_v67 : (after (hostOps1 (F := F)) W (Proc.devRef .tc main_v67)) = (broadcastInDim S64x64 ![0, 1] bcast_S1x64_S64x64_0_1 : (⟨S1x64, .f32⟩ : BufTy).Contents (Elt F) → (⟨S64x64, .f32⟩ : BufTy).Contents (Elt F)) (after (hostOps1 (F := F)) W (Proc.devRef .tc main_v65)) :=
  after_unary writes1 77 rfl (by decide) (by decide) W
theorem e_main_v68 : (after (hostOps1 (F := F)) W (Proc.devRef .tc main_v68)) = (mulf : (⟨S64x64, .f32⟩ : BufTy).Contents (Elt F) → (⟨S64x64, .f32⟩ : BufTy).Contents (Elt F) → (⟨S64x64, .f32⟩ : BufTy).Contents (Elt F)) (after (hostOps1 (F := F)) W (Proc.devRef .tc main_v66)) (after (hostOps1 (F := F)) W (Proc.devRef .tc main_v67)) :=
  after_binary writes1 78 rfl (by decide) (by decide) (by decide) W
theorem e_main_v69 : (after (hostOps1 (F := F)) W (Proc.devRef .tc main_v69)) = (broadcastInDim S1x64 ![1] bcast_S64_S1x64_1 : (⟨S64, .f32⟩ : BufTy).Contents (Elt F) → (⟨S1x64, .f32⟩ : BufTy).Contents (Elt F)) (after (hostOps1 (F := F)) W (Proc.devRef .tc main_arg3)) :=
  after_unary writes1 79 rfl (by decide) (by decide) W
theorem e_main_v70 : (after (hostOps1 (F := F)) W (Proc.devRef .tc main_v70)) = (broadcastInDim S64x1 ![0] bcast_S64_S64x1_0 : (⟨S64, .f32⟩ : BufTy).Contents (Elt F) → (⟨S64x1, .f32⟩ : BufTy).Contents (Elt F)) (after (hostOps1 (F := F)) W (Proc.devRef .tc main_v25)) :=
  after_unary writes1 80 rfl (by decide) (by decide) W
theorem e_main_v71 : (after (hostOps1 (F := F)) W (Proc.devRef .tc main_v71)) = (broadcastInDim S64x64 ![0, 1] bcast_S64x1_S64x64_0_1 : (⟨S64x1, .f32⟩ : BufTy).Contents (Elt F) → (⟨S64x64, .f32⟩ : BufTy).Contents (Elt F)) (after (hostOps1 (F := F)) W (Proc.devRef .tc main_v70)) :=
  after_unary writes1 81 rfl (by decide) (by decide) W
theorem e_main_v72 : (after (hostOps1 (F := F)) W (Proc.devRef .tc main_v72)) = (mulf : (⟨S64x64, .f32⟩ : BufTy).Contents (Elt F) → (⟨S64x64, .f32⟩ : BufTy).Contents (Elt F) → (⟨S64x64, .f32⟩ : BufTy).Contents (Elt F)) (after (hostOps1 (F := F)) W (Proc.devRef .tc main_v71)) (after (hostOps1 (F := F)) W (Proc.devRef .tc main_v68)) :=
  after_binary writes1 82 rfl (by decide) (by decide) (by decide) W
theorem e_main_v73 : (after (hostOps1 (F := F)) W (Proc.devRef .tc main_v73)) = (broadcastInDim S64x64 ![0, 1] bcast_S1x64_S64x64_0_1 : (⟨S1x64, .f32⟩ : BufTy).Contents (Elt F) → (⟨S64x64, .f32⟩ : BufTy).Contents (Elt F)) (after (hostOps1 (F := F)) W (Proc.devRef .tc main_v69)) :=
  after_unary writes1 83 rfl (by decide) (by decide) W
theorem e_main_v74 : (after (hostOps1 (F := F)) W (Proc.devRef .tc main_v74)) = (subf : (⟨S64x64, .f32⟩ : BufTy).Contents (Elt F) → (⟨S64x64, .f32⟩ : BufTy).Contents (Elt F) → (⟨S64x64, .f32⟩ : BufTy).Contents (Elt F)) (after (hostOps1 (F := F)) W (Proc.devRef .tc main_v73)) (after (hostOps1 (F := F)) W (Proc.devRef .tc main_v72)) :=
  after_binary writes1 84 rfl (by decide) (by decide) (by decide) W
theorem e_main_v75 : (after (hostOps1 (F := F)) W (Proc.devRef .tc main_v75)) = (broadcastInDim S1x96 ![1] bcast_S96_S1x96_1 : (⟨S96, .f32⟩ : BufTy).Contents (Elt F) → (⟨S1x96, .f32⟩ : BufTy).Contents (Elt F)) (after (hostOps1 (F := F)) W (Proc.devRef .tc main_v55)) :=
  after_unary writes1 85 rfl (by decide) (by decide) W
theorem e_main_v76 : (after (hostOps1 (F := F)) W (Proc.devRef .tc main_v76)) = (broadcastInDim S64x96 ![0, 1] bcast_S1x96_S64x96_0_1 : (⟨S1x96, .f32⟩ : BufTy).Contents (Elt F) → (⟨S64x96, .f32⟩ : BufTy).Contents (Elt F)) (after (hostOps1 (F := F)) W (Proc.devRef .tc main_v75)) :=
  after_unary writes1 86 rfl (by decide) (by decide) W
theorem e_main_v77 : (after (hostOps1 (F := F)) W (Proc.devRef .tc main_v77)) = (Host.negf : (⟨S64x96, .f32⟩ : BufTy).Contents (Elt F) → (⟨S64x96, .f32⟩ : BufTy).Contents (Elt F)) (after (hostOps1 (F := F)) W (Proc.devRef .tc main_v60)) :=
  after_unary writes1 87 rfl (by decide) (by decide) W
theorem e_main_v78 : (after (hostOps1 (F := F)) W (Proc.devRef .tc main_v78)) = (broadcastInDim S1x96 ![1] bcast_S96_S1x96_1 : (⟨S96, .f32⟩ : BufTy).Contents (Elt F) → (⟨S1x96, .f32⟩ : BufTy).Contents (Elt F)) (after (hostOps1 (F := F)) W (Proc.devRef .tc main_v55)) :=
  after_unary writes1 88 rfl (by decide) (by decide) W
theorem e_main_v79 : (after (hostOps1 (F := F)) W (Proc.devRef .tc main_v79)) = (broadcastInDim S64x96 ![0, 1] bcast_S1x96_S64x96_0_1 : (⟨S1x96, .f32⟩ : BufTy).Contents (Elt F) → (⟨S64x96, .f32⟩ : BufTy).Contents (Elt F)) (after (hostOps1 (F := F)) W (Proc.devRef .tc main_v78)) :=
  after_unary writes1 89 rfl (by decide) (by decide) W
theorem e_main_v80 : (after (hostOps1 (F := F)) W (Proc.devRef .tc main_v80)) = (mulf : (⟨S64x96, .f32⟩ : BufTy).Contents (Elt F) → (⟨S64x96, .f32⟩ : BufTy).Contents (Elt F) → (⟨S64x96, .f32⟩ : BufTy).Contents (Elt F)) (after (hostOps1 (F := F)) W (Proc.devRef .tc main_v77)) (after (hostOps1 (F := F)) W (Proc.devRef .tc main_v79)) :=
  after_binary writes1 90 rfl (by decide) (by decide) (by decide) W
theorem e_main_v81 : (after (hostOps1 (F := F)) W (Proc.devRef .tc main_v81)) = (broadcastInDim S1x80 ![1] bcast_S80_S1x80_1 : (⟨S80, .f32⟩ : BufTy).Contents (Elt F) → (⟨S1x80, .f32⟩ : BufTy).Contents (Elt F)) (after (hostOps1 (F := F)) W (Proc.devRef .tc main_v57)) :=
  after_unary writes1 91 rfl (by decide) (by decide) W
theorem e_main_v82 : (after (hostOps1 (F := F)) W (Proc.devRef .tc main_v82)) = (broadcastInDim S64x80 ![0, 1] bcast_S1x80_S64x80_0_1 : (⟨S1x80, .f32⟩ : BufTy).Contents (Elt F) → (⟨S64x80, .f32⟩ : BufTy).Contents (Elt F)) (after (hostOps1 (F := F)) W (Proc.devRef .tc main_v81)) :=
  after_unary writes1 92 rfl (by decide) (by decide) W
theorem e_main_v83 : (after (hostOps1 (F := F)) W (Proc.devRef .tc main_v83)) = (Host.negf : (⟨S64x80, .f32⟩ : BufTy).Contents (Elt F) → (⟨S64x80, .f32⟩ : BufTy).Contents (Elt F)) (after (hostOps1 (F := F)) W (Proc.devRef .tc main_v63)) :=
  after_unary writes1 93 rfl (by decide) (by decide) W
theorem e_main_v84 : (after (hostOps1 (F := F)) W (Proc.devRef .tc main_v84)) = (broadcastInDim S1x80 ![1] bcast_S80_S1x80_1 : (⟨S80, .f32⟩ : BufTy).Contents (Elt F) → (⟨S1x80, .f32⟩ : BufTy).Contents (Elt F)) (after (hostOps1 (F := F)) W (Proc.devRef .tc main_v57)) :=
  after_unary writes1 94 rfl (by decide) (by decide) W
theorem e_main_v85 : (after (hostOps1 (F := F)) W (Proc.devRef .tc main_v85)) = (broadcastInDim S64x80 ![0, 1] bcast_S1x80_S64x80_0_1 : (⟨S1x80, .f32⟩ : BufTy).Contents (Elt F) → (⟨S64x80, .f32⟩ : BufTy).Contents (Elt F)) (after (hostOps1 (F := F)) W (Proc.devRef .tc main_v84)) :=
  after_unary writes1 95 rfl (by decide) (by decide) W
theorem e_main_v86 : (after (hostOps1 (F := F)) W (Proc.devRef .tc main_v86)) = (mulf : (⟨S64x80, .f32⟩ : BufTy).Contents (Elt F) → (⟨S64x80, .f32⟩ : BufTy).Contents (Elt F) → (⟨S64x80, .f32⟩ : BufTy).Contents (Elt F)) (after (hostOps1 (F := F)) W (Proc.devRef .tc main_v83)) (after (hostOps1 (F := F)) W (Proc.devRef .tc main_v85)) :=
  after_binary writes1 96 rfl (by decide) (by decide) (by decide) W
theorem e_main_v87 : (after (hostOps1 (F := F)) W (Proc.devRef .tc main_v87)) = concatenate S64x240 1 [⟨S64x64, (after (hostOps1 (F := F)) W (Proc.devRef .tc main_v68))⟩, ⟨S64x96, (after (hostOps1 (F := F)) W (Proc.devRef .tc main_v76))⟩, ⟨S64x80, (after (hostOps1 (F := F)) W (Proc.devRef .tc main_v82))⟩] concatenates_S64x64_S64x96_S64x80_S64x240_d1 :=
  (after_nary writes1 97 rfl (by decide) (by decide) W).trans rfl
theorem e_main_v88 : (after (hostOps1 (F := F)) W (Proc.devRef .tc main_v88)) = concatenate S64x240 1 [⟨S64x64, (after (hostOps1 (F := F)) W (Proc.devRef .tc main_v74))⟩, ⟨S64x96, (after (hostOps1 (F := F)) W (Proc.devRef .tc main_v80))⟩, ⟨S64x80, (after (hostOps1 (F := F)) W (Proc.devRef .tc main_v86))⟩] concatenates_S64x64_S64x96_S64x80_S64x240_d1 :=
  (after_nary writes1 98 rfl (by decide) (by decide) W).trans rfl
theorem e_main_cst_11 : (after (hostOps1 (F := F)) W (Proc.devRef .tc main_cst_11)) = (constant (F := F) S_ .f32 0x00000000#32) :=
  after_nullary writes1 99 rfl (by decide) W
theorem e_main_v89 : (after (hostOps1 (F := F)) W (Proc.devRef .tc main_v89)) = (broadcastInDim S64x16 ![] bcast_S_S64x16 : (⟨S_, .f32⟩ : BufTy).Contents (Elt F) → (⟨S64x16, .f32⟩ : BufTy).Contents (Elt F)) (after (hostOps1 (F := F)) W (Proc.devRef .tc main_cst_11)) :=
  after_unary writes1 100 rfl (by decide) (by decide) W
theorem e_main_v90 : (after (hostOps1 (F := F)) W (Proc.devRef .tc main_v90)) = (concatenate S64x256 1 [⟨S64x240, ((after (hostOps1 (F := F)) W (Proc.devRef .tc main_v87)) : (⟨S64x240, .f32⟩ : BufTy).Contents (Elt F))⟩, ⟨S64x16, ((after (hostOps1 (F := F)) W (Proc.devRef .tc main_v89)) : (⟨S64x16, .f32⟩ : BufTy).Contents (Elt F))⟩] concatenates_S64x240_S64x16_S64x256_d1 : (⟨S64x256, .f32⟩ : BufTy).Contents (Elt F)) :=
  after_binary writes1 101 rfl (by decide) (by decide) (by decide) W
theorem e_main_v91 : (after (hostOps1 (F := F)) W (Proc.devRef .tc main_v91)) = (concatenate S64x256 1 [⟨S64x240, ((after (hostOps1 (F := F)) W (Proc.devRef .tc main_v88)) : (⟨S64x240, .f32⟩ : BufTy).Contents (Elt F))⟩, ⟨S64x16, ((after (hostOps1 (F := F)) W (Proc.devRef .tc main_v89)) : (⟨S64x16, .f32⟩ : BufTy).Contents (Elt F))⟩] concatenates_S64x240_S64x16_S64x256_d1 : (⟨S64x256, .f32⟩ : BufTy).Contents (Elt F)) :=
  after_binary writes1 102 rfl (by decide) (by decide) (by decide) W
theorem e_main_v92 : (after (hostOps1 (F := F)) W (Proc.devRef .tc main_v92)) = (concatenate S64x512 1 [⟨S64x256, ((after (hostOps1 (F := F)) W (Proc.devRef .tc main_v90)) : (⟨S64x256, .f32⟩ : BufTy).Contents (Elt F))⟩, ⟨S64x256, ((after (hostOps1 (F := F)) W (Proc.devRef .tc main_v91)) : (⟨S64x256, .f32⟩ : BufTy).Contents (Elt F))⟩] concatenates_S64x256_S64x256_S64x512_d1 : (⟨S64x512, .f32⟩ : BufTy).Contents (Elt F)) :=
  after_binary writes1 103 rfl (by decide) (by decide) (by decide) W
theorem e_main_v93 : (after (hostOps1 (F := F)) W (Proc.devRef .tc main_v93)) = (truncf .bf16 ((after (hostOps1 (F := F)) W (Proc.devRef .tc main_v92)) : (⟨S64x512, .f32⟩ : BufTy).Contents (Elt F)) bitsLt_bf16_f32 : (⟨S64x512, .bf16⟩ : BufTy).Contents (Elt F)) :=
  after_unary writes1 104 rfl (by decide) (by decide) W
theorem e_main_v94 : (after (hostOps1 (F := F)) W (Proc.devRef .tc main_v94)) = (extf .f32 ((after (hostOps1 (F := F)) W (Proc.devRef .tc main_v93)) : (⟨S64x512, .bf16⟩ : BufTy).Contents (Elt F)) bitsLt_bf16_f32 : (⟨S64x512, .f32⟩ : BufTy).Contents (Elt F)) :=
  after_unary writes1 105 rfl (by decide) (by decide) W
theorem e_main_v95 : (after (hostOps1 (F := F)) W (Proc.devRef .tc main_v95)) = (subf : (⟨S64x512, .f32⟩ : BufTy).Contents (Elt F) → (⟨S64x512, .f32⟩ : BufTy).Contents (Elt F) → (⟨S64x512, .f32⟩ : BufTy).Contents (Elt F)) (after (hostOps1 (F := F)) W (Proc.devRef .tc main_v92)) (after (hostOps1 (F := F)) W (Proc.devRef .tc main_v94)) :=
  after_binary writes1 106 rfl (by decide) (by decide) (by decide) W
theorem e_main_v96 : (after (hostOps1 (F := F)) W (Proc.devRef .tc main_v96)) = (truncf .bf16 ((after (hostOps1 (F := F)) W (Proc.devRef .tc main_v95)) : (⟨S64x512, .f32⟩ : BufTy).Contents (Elt F)) bitsLt_bf16_f32 : (⟨S64x512, .bf16⟩ : BufTy).Contents (Elt F)) :=
  after_unary writes1 107 rfl (by decide) (by decide) W

end Equations

end Cert.KernelIdeal.HostAfter

end
-- ==== Proof.Spec.lean ====
/- The mathematics both programs compute, over plain index types: per-graph sums of the rows, their means per
   irreducible block, the variance of the scalar block, and the affine map applied to every row.
   x : the node features (200000 rows of 64·1 + 32·3 + 16·5 = 240 columns), b : each row's graph id (an i32 word),
   w : one weight per multiplicity (64 + 32 + 16), bias : one bias per scalar channel. -/
import Idealize.ShloMosaic.PureOps.Ideal
import Mathlib.Algebra.BigOperators.Fin

noncomputable section

namespace Cert.Spec

open Idealize.ShloMosaic

/-- The f32 word of 1e-5 (the same word in both programs), read at the extended reals. -/
abbrev eps : EReal := Ideal.ofBits .f32 0x3727C5AC#32

section Stats
variable (x : Fin 200000 → Fin 240 → EReal) (b : Fin 200000 → BitVec 32)

/-- Sum over the rows of graph g of column k. -/
def S (g : Fin 64) (k : Fin 240) : EReal := ∑ n : Fin 200000, if b n = BitVec.ofNat 32 g.val then x n k else 0
/-- Sum over the rows of graph g of the square of scalar column j. -/
def S2 (g : Fin 64) (j : Fin 64) : EReal :=
  ∑ n : Fin 200000, if b n = BitVec.ofNat 32 g.val then x n (Fin.castLE (by decide) j) * x n (Fin.castLE (by decide) j) else 0
/-- The number of rows of graph g. -/
def C (g : Fin 64) : EReal := ∑ n : Fin 200000, if b n = BitVec.ofNat 32 g.val then (1 : EReal) else 0
end Stats

section Tables
/- Everything below is a function of the three statistics (sS, sS2, sC) and of w, bias: the kernel's host code
   computes exactly these from the reduction kernel's results. -/
variable (sS : Fin 64 → Fin 240 → EReal) (sS2 : Fin 64 → Fin 64 → EReal) (sC : Fin 64 → EReal)
  (w : Fin 112 → EReal) (bias : Fin 64 → EReal)

/-- The divisor: the count, at least one. -/
def cnt (g : Fin 64) : EReal := max (sC g) 1
/-- The per-graph mean of column k. -/
def mf (g : Fin 64) (k : Fin 240) : EReal := Ideal.div (sS g k) (cnt sC g)
/-- Mean of the scalar block: over the graph's rows, then over the 64 channels. -/
def mean0 (g : Fin 64) : EReal := Ideal.div (∑ j : Fin 64, mf sS sC g (Fin.castLE (by decide) j)) ((64 : ℝ) : EReal)
/-- Mean of the l = 1 block, per component d: over rows, then over the 32 multiplicities. -/
def mean1 (g : Fin 64) (d : Fin 3) : EReal :=
  Ideal.div (∑ u : Fin 32, mf sS sC g ⟨64 + 3 * u.val + d.val, by omega⟩) ((32 : ℝ) : EReal)
/-- Mean of the l = 2 block, per component d: over rows, then over the 16 multiplicities. -/
def mean2 (g : Fin 64) (d : Fin 5) : EReal :=
  Ideal.div (∑ u : Fin 16, mf sS sC g ⟨160 + 5 * u.val + d.val, by omega⟩) ((16 : ℝ) : EReal)
/-- Mean of the squares of the scalar block. -/
def s2avg (g : Fin 64) : EReal := Ideal.div (∑ j : Fin 64, Ideal.div (sS2 g j) (cnt sC g)) ((64 : ℝ) : EReal)
/-- The scalar block's variance as E[x²] − mean², clamped at zero. -/
def var0 (g : Fin 64) : EReal := max (s2avg sS2 sC g - mean0 sS sC g * mean0 sS sC g) 0
/-- 1 / (std + eps). -/
def invstd0 (g : Fin 64) : EReal := Ideal.div 1 (Ideal.sqrt (var0 sS sS2 sC g) + eps)

/-- The multiplier of column k for graph g. -/
def scale (g : Fin 64) (k : Fin 240) : EReal :=
  if h : k.val < 64 then invstd0 sS sS2 sC g * w ⟨k.val, by omega⟩
  else if h2 : k.val < 160 then w ⟨64 + (k.val - 64) / 3, by omega⟩
  else w ⟨96 + (k.val - 160) / 5, by omega⟩

/-- The offset of column k for graph g. -/
def shift (g : Fin 64) (k : Fin 240) : EReal :=
  if h : k.val < 64 then bias ⟨k.val, h⟩ - mean0 sS sC g * (invstd0 sS sS2 sC g * w ⟨k.val, by omega⟩)
  else if h2 : k.val < 160 then (-(mean1 sS sC g ⟨(k.val - 64) % 3, Nat.mod_lt _ (by decide)⟩)) * w ⟨64 + (k.val - 64) / 3, by omega⟩
  else (-(mean2 sS sC g ⟨(k.val - 160) % 5, Nat.mod_lt _ (by decide)⟩)) * w ⟨96 + (k.val - 160) / 5, by omega⟩

/-- The 64 × 512 table the second kernel gathers from: scale in columns [0, 240), shift in [256, 496), zero elsewhere. -/
def table (g : Fin 64) (j : Fin 512) : EReal :=
  if h : j.val < 240 then scale sS sS2 sC w g ⟨j.val, h⟩
  else if h2 : j.val < 256 then 0
  else if h3 : j.val < 496 then shift sS sS2 sC w bias g ⟨j.val - 256, by omega⟩
  else 0
end Tables

section Result
variable (x : Fin 200000 → Fin 240 → EReal) (b : Fin 200000 → BitVec 32) (w : Fin 112 → EReal) (bias : Fin 64 → EReal)

/-- Row n's graph, as an index (meaningful where 0 ≤ b n < 64). -/
def gid (n : Fin 200000) : Fin 64 := ⟨(b n).toNat % 64, Nat.mod_lt _ (by decide)⟩

/-- THE RESULT in the form the kernel computes it: x · scale + shift, scale and shift those of the row's graph. -/
def G (n : Fin 200000) (k : Fin 240) : EReal :=
  x n k * scale (S x b) (S2 x b) (C b) w (gid b n) k + shift (S x b) (S2 x b) (C b) w bias (gid b n) k

/-- The scalar block's variance in the form the reference computes it: the mean over rows and channels of the
    squared deviation from the mean. -/
def norm (g : Fin 64) : EReal :=
  Ideal.div (∑ j : Fin 64, Ideal.div
    (∑ n : Fin 200000, if b n = BitVec.ofNat 32 g.val then
        (x n (Fin.castLE (by decide) j) - mean0 (S x b) (C b) (gid b n)) * (x n (Fin.castLE (by decide) j) - mean0 (S x b) (C b) (gid b n)) else 0)
    (cnt (C b) g)) ((64 : ℝ) : EReal)

/-- THE RESULT in the form the reference computes it: centre, normalise the scalar block, weight, add the bias. -/
def R (n : Fin 200000) (k : Fin 240) : EReal :=
  if h : k.val < 64 then
    Ideal.div (x n k - mean0 (S x b) (C b) (gid b n)) (Ideal.sqrt (norm x b (gid b n)) + eps) * w ⟨k.val, by omega⟩ + bias ⟨k.val, h⟩
  else if h2 : k.val < 160 then
    (x n k - mean1 (S x b) (C b) (gid b n) ⟨(k.val - 64) % 3, Nat.mod_lt _ (by decide)⟩) * w ⟨64 + (k.val - 64) / 3, by omega⟩
  else
    (x n k - mean2 (S x b) (C b) (gid b n) ⟨(k.val - 160) % 5, Nat.mod_lt _ (by decide)⟩) * w ⟨96 + (k.val - 160) / 5, by omega⟩

end Result

end Cert.Spec

end
-- ==== Proof.KIHostStats.lean ====
/- The first half of the host stretch between the kernel program's two calls, read at the extended reals: from the
   reduction call's per-core partial sums it forms the three statistics, the clamped count, the per-graph means of every
   column, the block means, the clamped variance of the scalar block and 1 / (sqrt(var) + eps). -/
import proofs.«402630_j9972914061338_3_alg».proof.Proof.KIHostAfter
import proofs.«402630_j9972914061338_3_alg».proof.Proof.Spec
import Idealize.ShloMosaic.Lib.ValueIdx
import Idealize.ShloMosaic.Lib.Pipeline.Value
import Idealize.ShloMosaic.PureOps.Ideal.Laws

noncomputable section

namespace Cert.KernelIdeal.HostStats

open Cert.KernelIdeal Cert.KernelIdeal.Gen Cert.KernelIdeal.HostAfter
open Idealize.ShloMosaic Idealize.ShloMosaic.StableHlo Idealize.ShloMosaic.TcCoe Idealize.SL.Sem Idealize.ShloMosaic.ValueIdx

set_option maxRecDepth 16384

/-! ## The float words of the stretch's constants -/

theorem word_zero : Ideal.ofBits .f32 0x00000000#32 = (0 : EReal) := Ideal.ofBits_zero_f32
theorem word_one : Ideal.ofBits .f32 0x3F800000#32 = (1 : EReal) := by
  simp [Ideal.ofBits, Ideal.ieee]
  norm_cast
  norm_num
theorem word_64 : Ideal.ofBits .f32 0x42800000#32 = ((64 : ℝ) : EReal) := by
  simp [Ideal.ofBits, Ideal.ieee]
  norm_cast
  norm_num
theorem word_32 : Ideal.ofBits .f32 0x42000000#32 = ((32 : ℝ) : EReal) := by
  simp [Ideal.ofBits, Ideal.ieee]
  norm_cast
  norm_num
theorem word_16 : Ideal.ofBits .f32 0x41800000#32 = ((16 : ℝ) : EReal) := by
  simp [Ideal.ofBits, Ideal.ieee]
  norm_cast
  norm_num

/-! ## The host's quotient and square root at an index -/

theorem hostDiv_at {s : Shape} (a b : FVec Ideal s .f32) (i : s.Idx) : Host.divf a b i = Ideal.div (a i) (b i) := rfl
theorem hostSqrt_at {s : Shape} (a : FVec Ideal s .f32) (i : s.Idx) : Host.sqrt a i = Ideal.sqrt (a i) := rfl

variable (W : Valuation τ sig (Elt Ideal))

/-! ## The statistics: the two cores' partial sums added -/

/-- The reduction call's three results before the stretch, by coordinates (core, graph, column). -/
abbrev part0 (c : Fin 2) (g : Fin 64) (k : Fin 240) : EReal := W (Proc.devRef .tc main_v1_0) (ix3 c g k)
abbrev part1 (c : Fin 2) (g : Fin 64) (j : Fin 64) : EReal := W (Proc.devRef .tc main_v1_1) (ix3 c g j)
abbrev part2 (c : Fin 2) (g : Fin 64) : EReal := W (Proc.devRef .tc main_v1_2) (ix3 c g (0 : Fin 1))
/-- The sum of column k over graph g's rows. -/
abbrev sS (g : Fin 64) (k : Fin 240) : EReal := part0 W 0 g k + part0 W 1 g k
/-- The sum of the square of scalar column j over graph g's rows. -/
abbrev sS2 (g : Fin 64) (j : Fin 64) : EReal := part1 W 0 g j + part1 W 1 g j
/-- The number of graph g's rows. -/
abbrev sC (g : Fin 64) : EReal := part2 W 0 g + part2 W 1 g
/-- The weights and the biases. -/
abbrev w (i : Fin 112) : EReal := W (Proc.devRef .tc main_arg2) (ix1 i)
abbrev bias (i : Fin 64) : EReal := W (Proc.devRef .tc main_arg3) (ix1 i)

/-! ## The partial sums, core by core -/

theorem v3_at (g : Fin 64) (k : Fin 240) : ((after (hostOps1 (F := Ideal)) W (Proc.devRef .tc main_v3)) : S64x240.Idx → EReal) (ix2 g k) = part0 W 0 g k := by
  rw [e_main_v3 W]
  refine (shapeCast_apply _ shapeCasts_S1x64x240_S64x240 (ix2 g k) (ix3 (0 : Fin 1) g k) ?_).trans ?_
  · rw [Shape.rowMajor_val_three, Shape.rowMajor_val_two]
    simp
  · rw [e_main_v2 W]
    refine (extractStridedSlice_apply ![0, 0, 0] _ slices_S2x64x240_S1x64x240_0_0_0 (ix3 (0 : Fin 1) g k) (ix3 (0 : Fin 2) g k) ?_).trans ?_
    · intro a
      match a with
      | ⟨0, _⟩ => rfl
      | ⟨1, _⟩ => exact (Nat.zero_add _).symm
      | ⟨2, _⟩ => exact (Nat.zero_add _).symm
    · rw [e_main_v1_0 W]

theorem v5_at (g : Fin 64) (k : Fin 240) : ((after (hostOps1 (F := Ideal)) W (Proc.devRef .tc main_v5)) : S64x240.Idx → EReal) (ix2 g k) = part0 W 1 g k := by
  rw [e_main_v5 W]
  refine (shapeCast_apply _ shapeCasts_S1x64x240_S64x240 (ix2 g k) (ix3 (0 : Fin 1) g k) ?_).trans ?_
  · rw [Shape.rowMajor_val_three, Shape.rowMajor_val_two]
    simp
  · rw [e_main_v4 W]
    refine (extractStridedSlice_apply ![1, 0, 0] _ slices_S2x64x240_S1x64x240_1_0_0 (ix3 (0 : Fin 1) g k) (ix3 (1 : Fin 2) g k) ?_).trans ?_
    · intro a
      match a with
      | ⟨0, _⟩ => rfl
      | ⟨1, _⟩ => exact (Nat.zero_add _).symm
      | ⟨2, _⟩ => exact (Nat.zero_add _).symm
    · rw [e_main_v1_0 W]

theorem v8_at (g : Fin 64) (k : Fin 64) : ((after (hostOps1 (F := Ideal)) W (Proc.devRef .tc main_v8)) : S64x64.Idx → EReal) (ix2 g k) = part1 W 0 g k := by
  rw [e_main_v8 W]
  refine (shapeCast_apply _ shapeCasts_S1x64x64_S64x64 (ix2 g k) (ix3 (0 : Fin 1) g k) ?_).trans ?_
  · rw [Shape.rowMajor_val_three, Shape.rowMajor_val_two]
    simp
  · rw [e_main_v7 W]
    refine (extractStridedSlice_apply ![0, 0, 0] _ slices_S2x64x64_S1x64x64_0_0_0 (ix3 (0 : Fin 1) g k) (ix3 (0 : Fin 2) g k) ?_).trans ?_
    · intro a
      match a with
      | ⟨0, _⟩ => rfl
      | ⟨1, _⟩ => exact (Nat.zero_add _).symm
      | ⟨2, _⟩ => exact (Nat.zero_add _).symm
    · rw [e_main_v1_1 W]

theorem v10_at (g : Fin 64) (k : Fin 64) : ((after (hostOps1 (F := Ideal)) W (Proc.devRef .tc main_v10)) : S64x64.Idx → EReal) (ix2 g k) = part1 W 1 g k := by
  rw [e_main_v10 W]
  refine (shapeCast_apply _ shapeCasts_S1x64x64_S64x64 (ix2 g k) (ix3 (0 : Fin 1) g k) ?_).trans ?_
  · rw [Shape.rowMajor_val_three, Shape.rowMajor_val_two]
    simp
  · rw [e_main_v9 W]
    refine (extractStridedSlice_apply ![1, 0, 0] _ slices_S2x64x64_S1x64x64_1_0_0 (ix3 (0 : Fin 1) g k) (ix3 (1 : Fin 2) g k) ?_).trans ?_
    · intro a
      match a with
      | ⟨0, _⟩ => rfl
      | ⟨1, _⟩ => exact (Nat.zero_add _).symm
      | ⟨2, _⟩ => exact (Nat.zero_add _).symm
    · rw [e_main_v1_1 W]

theorem v13_at (g : Fin 64) : ((after (hostOps1 (F := Ideal)) W (Proc.devRef .tc main_v13)) : S64.Idx → EReal) (ix1 g) = part2 W 0 g := by
  rw [e_main_v13 W]
  refine (shapeCast_apply _ shapeCasts_S1x64x1_S64 (ix1 g) (ix3 (0 : Fin 1) g (0 : Fin 1)) ?_).trans ?_
  · rw [Shape.rowMajor_val_three, Shape.rowMajor_val_one]
    simp
  · rw [e_main_v12 W]
    refine (extractStridedSlice_apply ![0, 0, 0] _ slices_S2x64x1_S1x64x1_0_0_0 (ix3 (0 : Fin 1) g (0 : Fin 1)) (ix3 (0 : Fin 2) g (0 : Fin 1)) ?_).trans ?_
    · intro a
      match a with
      | ⟨0, _⟩ => rfl
      | ⟨1, _⟩ => exact (Nat.zero_add _).symm
      | ⟨2, _⟩ => exact (Nat.zero_add _).symm
    · rw [e_main_v1_2 W]

theorem v15_at (g : Fin 64) : ((after (hostOps1 (F := Ideal)) W (Proc.devRef .tc main_v15)) : S64.Idx → EReal) (ix1 g) = part2 W 1 g := by
  rw [e_main_v15 W]
  refine (shapeCast_apply _ shapeCasts_S1x64x1_S64 (ix1 g) (ix3 (0 : Fin 1) g (0 : Fin 1)) ?_).trans ?_
  · rw [Shape.rowMajor_val_three, Shape.rowMajor_val_one]
    simp
  · rw [e_main_v14 W]
    refine (extractStridedSlice_apply ![1, 0, 0] _ slices_S2x64x1_S1x64x1_1_0_0 (ix3 (0 : Fin 1) g (0 : Fin 1)) (ix3 (1 : Fin 2) g (0 : Fin 1)) ?_).trans ?_
    · intro a
      match a with
      | ⟨0, _⟩ => rfl
      | ⟨1, _⟩ => exact (Nat.zero_add _).symm
      | ⟨2, _⟩ => exact (Nat.zero_add _).symm
    · rw [e_main_v1_2 W]

/-- The two cores' sums added: the three statistics. -/
theorem v6_at (g : Fin 64) (k : Fin 240) : ((after (hostOps1 (F := Ideal)) W (Proc.devRef .tc main_v6)) : S64x240.Idx → EReal) (ix2 g k) = sS W g k := by
  rw [e_main_v6 W, addf_apply, v3_at, v5_at]
theorem v11_at (g : Fin 64) (j : Fin 64) : ((after (hostOps1 (F := Ideal)) W (Proc.devRef .tc main_v11)) : S64x64.Idx → EReal) (ix2 g j) = sS2 W g j := by
  rw [e_main_v11 W, addf_apply, v8_at, v10_at]
theorem v16_at (g : Fin 64) : ((after (hostOps1 (F := Ideal)) W (Proc.devRef .tc main_v16)) : S64.Idx → EReal) (ix1 g) = sC W g := by
  rw [e_main_v16 W, addf_apply, v13_at, v15_at]

/-- The count clamped at one. -/
theorem v17_at (g : Fin 64) : ((after (hostOps1 (F := Ideal)) W (Proc.devRef .tc main_v17)) : S64.Idx → EReal) (ix1 g) = (1 : EReal) := by
  rw [e_main_v17 W]
  refine (broadcastInDim_apply _ bcast_S_S64 _ (ix1 g) ix0 (fun a => a.elim0)).trans ?_
  rw [e_main_cst W]
  exact word_one
theorem v18_at (g : Fin 64) : ((after (hostOps1 (F := Ideal)) W (Proc.devRef .tc main_v18)) : S64.Idx → EReal) (ix1 g) = Cert.Spec.cnt (sC W) g := by
  rw [e_main_v18 W, maximumf_apply, v16_at, v17_at]
  rfl

/-! ## The per-graph means of every column -/

/-- The clamped count laid along the 240 columns. -/
theorem v20_at (g : Fin 64) (k : Fin 240) : ((after (hostOps1 (F := Ideal)) W (Proc.devRef .tc main_v20)) : S64x240.Idx → EReal) (ix2 g k) = Cert.Spec.cnt (sC W) g := by
  rw [e_main_v20 W]
  refine (broadcastInDim_apply _ bcast_S64x1_S64x240_0_1 _ (ix2 g k) (ix2 g (0 : Fin 1)) ?_).trans ?_
  · intro a
    match a with
    | ⟨0, _⟩ => exact (if_neg (show ¬ (64 : Nat) = 1 by decide)).symm
    | ⟨1, _⟩ => exact (if_pos rfl).symm
  · rw [e_main_v19 W]
    refine (broadcastInDim_apply _ bcast_S64_S64x1_0 _ (ix2 g (0 : Fin 1)) (ix1 g) ?_).trans (v18_at W g)
    intro a
    match a with
    | ⟨0, _⟩ => exact (if_neg (show ¬ (64 : Nat) = 1 by decide)).symm

/-- Column k's sum over the clamped count. -/
theorem v21_at (g : Fin 64) (k : Fin 240) : ((after (hostOps1 (F := Ideal)) W (Proc.devRef .tc main_v21)) : S64x240.Idx → EReal) (ix2 g k) = Cert.Spec.mf (sS W) (sC W) g k := by
  rw [e_main_v21 W, hostDiv_at, v6_at, v20_at]
  rfl

/-! ## The scalar block's mean -/

theorem v22_at (g : Fin 64) (j : Fin 64) :
    ((after (hostOps1 (F := Ideal)) W (Proc.devRef .tc main_v22)) : S64x64.Idx → EReal) (ix2 g j) = Cert.Spec.mf (sS W) (sC W) g (Fin.castLE (by decide) j) := by
  rw [e_main_v22 W]
  refine (extractStridedSlice_apply ![0, 0] _ slices_S64x240_S64x64_0_0 (ix2 g j) (ix2 g (Fin.castLE (by decide) j)) ?_).trans ?_
  · intro a
    match a with
    | ⟨0, _⟩ => exact (Nat.zero_add _).symm
    | ⟨1, _⟩ => exact (Nat.zero_add _).symm
  · exact v21_at W g _

theorem v23_at (g : Fin 64) :
    ((after (hostOps1 (F := Ideal)) W (Proc.devRef .tc main_v23)) : S64.Idx → EReal) (ix1 g) = ∑ j : Fin 64, Cert.Spec.mf (sS W) (sC W) g (Fin.castLE (by decide) j) := by
  rw [e_main_v23 W]
  simp only [Host.reduceAdd, Ideal.hostReduceAdd_def]
  rw [Ideal.hostReduceAdd_single reducesTo_S64x64_S64_d1 (by decide), e_main_cst_0 W, constant_apply, word_zero, zero_add]
  refine Finset.sum_congr (M := EReal) rfl fun j _ => ?_
  refine Eq.trans (congrArg _ (funext fun a => Fin.ext ?_)) (v22_at W g j)
  match a with
  | ⟨0, _⟩ => rfl
  | ⟨1, _⟩ => rfl

theorem v24_at (g : Fin 64) : ((after (hostOps1 (F := Ideal)) W (Proc.devRef .tc main_v24)) : S64.Idx → EReal) (ix1 g) = ((64 : ℝ) : EReal) := by
  rw [e_main_v24 W]
  refine (broadcastInDim_apply _ bcast_S_S64 _ (ix1 g) ix0 (fun a => a.elim0)).trans ?_
  rw [e_main_cst_1 W]
  exact word_64

/-- THE SCALAR BLOCK'S MEAN. -/
theorem v25_eq (g : Fin 64) : ((after (hostOps1 (F := Ideal)) W (Proc.devRef .tc main_v25)) : S64.Idx → EReal) (ix1 g) = Cert.Spec.mean0 (sS W) (sC W) g := by
  rw [e_main_v25 W, hostDiv_at, v23_at, v24_at]
  rfl

/-! ## The l = 1 block's means -/

theorem v27_at (g : Fin 64) (u : Fin 32) (d : Fin 3) :
    ((after (hostOps1 (F := Ideal)) W (Proc.devRef .tc main_v27)) : S64x32x3.Idx → EReal) (ix3 g u d) = Cert.Spec.mf (sS W) (sC W) g ⟨64 + 3 * u.val + d.val, by omega⟩ := by
  rw [e_main_v27 W]
  refine (shapeCast_apply _ shapeCasts_S64x96_S64x32x3 (ix3 g u d) (ix2 g (⟨3 * u.val + d.val, by omega⟩ : Fin 96)) ?_).trans ?_
  · rw [Shape.rowMajor_val_two, Shape.rowMajor_val_three]
    show g.val * 96 + (3 * u.val + d.val) = (g.val * 32 + u.val) * 3 + d.val
    omega
  · rw [e_main_v26 W]
    refine (extractStridedSlice_apply ![0, 64] _ slices_S64x240_S64x96_0_64 (ix2 g _)
      (ix2 g (⟨64 + 3 * u.val + d.val, by omega⟩ : Fin 240)) ?_).trans ?_
    · intro a
      match a with
      | ⟨0, _⟩ => exact (Nat.zero_add _).symm
      | ⟨1, _⟩ => exact Nat.add_assoc 64 (3 * u.val) d.val
    · exact v21_at W g _

theorem v28_at (g : Fin 64) (d : Fin 3) :
    ((after (hostOps1 (F := Ideal)) W (Proc.devRef .tc main_v28)) : S64x3.Idx → EReal) (ix2 g d) = ∑ u : Fin 32, Cert.Spec.mf (sS W) (sC W) g ⟨64 + 3 * u.val + d.val, by omega⟩ := by
  rw [e_main_v28 W]
  simp only [Host.reduceAdd, Ideal.hostReduceAdd_def]
  rw [Ideal.hostReduceAdd_single reducesTo_S64x32x3_S64x3_d1 (by decide), e_main_cst_2 W, constant_apply, word_zero, zero_add]
  refine Finset.sum_congr (M := EReal) rfl fun u _ => ?_
  refine Eq.trans (congrArg _ (funext fun a => Fin.ext ?_)) (v27_at W g u d)
  match a with
  | ⟨0, _⟩ => rfl
  | ⟨1, _⟩ => rfl
  | ⟨2, _⟩ => rfl

theorem v29_at (g : Fin 64) (d : Fin 3) : ((after (hostOps1 (F := Ideal)) W (Proc.devRef .tc main_v29)) : S64x3.Idx → EReal) (ix2 g d) = ((32 : ℝ) : EReal) := by
  rw [e_main_v29 W]
  refine (broadcastInDim_apply _ bcast_S_S64x3 _ (ix2 g d) ix0 (fun a => a.elim0)).trans ?_
  rw [e_main_cst_3 W]
  exact word_32

/-- THE l = 1 BLOCK'S MEANS. -/
theorem v30_eq (g : Fin 64) (d : Fin 3) :
    ((after (hostOps1 (F := Ideal)) W (Proc.devRef .tc main_v30)) : S64x3.Idx → EReal) (ix2 g d) = Cert.Spec.mean1 (sS W) (sC W) g d := by
  rw [e_main_v30 W, hostDiv_at, v28_at, v29_at]
  rfl

/-! ## The l = 2 block's means -/

theorem v32_at (g : Fin 64) (u : Fin 16) (d : Fin 5) :
    ((after (hostOps1 (F := Ideal)) W (Proc.devRef .tc main_v32)) : S64x16x5.Idx → EReal) (ix3 g u d) = Cert.Spec.mf (sS W) (sC W) g ⟨160 + 5 * u.val + d.val, by omega⟩ := by
  rw [e_main_v32 W]
  refine (shapeCast_apply _ shapeCasts_S64x80_S64x16x5 (ix3 g u d) (ix2 g (⟨5 * u.val + d.val, by omega⟩ : Fin 80)) ?_).trans ?_
  · rw [Shape.rowMajor_val_two, Shape.rowMajor_val_three]
    show g.val * 80 + (5 * u.val + d.val) = (g.val * 16 + u.val) * 5 + d.val
    omega
  · rw [e_main_v31 W]
    refine (extractStridedSlice_apply ![0, 160] _ slices_S64x240_S64x80_0_160 (ix2 g _)
      (ix2 g (⟨160 + 5 * u.val + d.val, by omega⟩ : Fin 240)) ?_).trans ?_
    · intro a
      match a with
      | ⟨0, _⟩ => exact (Nat.zero_add _).symm
      | ⟨1, _⟩ => exact Nat.add_assoc 160 (5 * u.val) d.val
    · exact v21_at W g _

theorem v33_at (g : Fin 64) (d : Fin 5) :
    ((after (hostOps1 (F := Ideal)) W (Proc.devRef .tc main_v33)) : S64x5.Idx → EReal) (ix2 g d) = ∑ u : Fin 16, Cert.Spec.mf (sS W) (sC W) g ⟨160 + 5 * u.val + d.val, by omega⟩ := by
  rw [e_main_v33 W]
  simp only [Host.reduceAdd, Ideal.hostReduceAdd_def]
  rw [Ideal.hostReduceAdd_single reducesTo_S64x16x5_S64x5_d1 (by decide), e_main_cst_4 W, constant_apply, word_zero, zero_add]
  refine Finset.sum_congr (M := EReal) rfl fun u _ => ?_
  refine Eq.trans (congrArg _ (funext fun a => Fin.ext ?_)) (v32_at W g u d)
  match a with
  | ⟨0, _⟩ => rfl
  | ⟨1, _⟩ => rfl
  | ⟨2, _⟩ => rfl

theorem v34_at (g : Fin 64) (d : Fin 5) : ((after (hostOps1 (F := Ideal)) W (Proc.devRef .tc main_v34)) : S64x5.Idx → EReal) (ix2 g d) = ((16 : ℝ) : EReal) := by
  rw [e_main_v34 W]
  refine (broadcastInDim_apply _ bcast_S_S64x5 _ (ix2 g d) ix0 (fun a => a.elim0)).trans ?_
  rw [e_main_cst_5 W]
  exact word_16

/-- THE l = 2 BLOCK'S MEANS. -/
theorem v35_eq (g : Fin 64) (d : Fin 5) :
    ((after (hostOps1 (F := Ideal)) W (Proc.devRef .tc main_v35)) : S64x5.Idx → EReal) (ix2 g d) = Cert.Spec.mean2 (sS W) (sC W) g d := by
  rw [e_main_v35 W, hostDiv_at, v33_at, v34_at]
  rfl

/-! ## The mean of the scalar block's squares -/

theorem v37_at (g : Fin 64) (j : Fin 64) : ((after (hostOps1 (F := Ideal)) W (Proc.devRef .tc main_v37)) : S64x64.Idx → EReal) (ix2 g j) = Cert.Spec.cnt (sC W) g := by
  rw [e_main_v37 W]
  refine (broadcastInDim_apply _ bcast_S64x1_S64x64_0_1 _ (ix2 g j) (ix2 g (0 : Fin 1)) ?_).trans ?_
  · intro a
    match a with
    | ⟨0, _⟩ => exact (if_neg (show ¬ (64 : Nat) = 1 by decide)).symm
    | ⟨1, _⟩ => exact (if_pos rfl).symm
  · rw [e_main_v36 W]
    refine (broadcastInDim_apply _ bcast_S64_S64x1_0 _ (ix2 g (0 : Fin 1)) (ix1 g) ?_).trans (v18_at W g)
    intro a
    match a with
    | ⟨0, _⟩ => exact (if_neg (show ¬ (64 : Nat) = 1 by decide)).symm

theorem v38_at (g : Fin 64) (j : Fin 64) :
    ((after (hostOps1 (F := Ideal)) W (Proc.devRef .tc main_v38)) : S64x64.Idx → EReal) (ix2 g j) = Ideal.div (sS2 W g j) (Cert.Spec.cnt (sC W) g) := by
  rw [e_main_v38 W, hostDiv_at, v11_at, v37_at]

theorem v39_at (g : Fin 64) :
    ((after (hostOps1 (F := Ideal)) W (Proc.devRef .tc main_v39)) : S64.Idx → EReal) (ix1 g) = ∑ j : Fin 64, Ideal.div (sS2 W g j) (Cert.Spec.cnt (sC W) g) := by
  rw [e_main_v39 W]
  simp only [Host.reduceAdd, Ideal.hostReduceAdd_def]
  rw [Ideal.hostReduceAdd_single reducesTo_S64x64_S64_d1 (by decide), e_main_cst_6 W, constant_apply, word_zero, zero_add]
  refine Finset.sum_congr (M := EReal) rfl fun j _ => ?_
  refine Eq.trans (congrArg _ (funext fun a => Fin.ext ?_)) (v38_at W g j)
  match a with
  | ⟨0, _⟩ => rfl
  | ⟨1, _⟩ => rfl

theorem v40_at (g : Fin 64) : ((after (hostOps1 (F := Ideal)) W (Proc.devRef .tc main_v40)) : S64.Idx → EReal) (ix1 g) = ((64 : ℝ) : EReal) := by
  rw [e_main_v40 W]
  refine (broadcastInDim_apply _ bcast_S_S64 _ (ix1 g) ix0 (fun a => a.elim0)).trans ?_
  rw [e_main_cst_7 W]
  exact word_64

theorem v41_at (g : Fin 64) : ((after (hostOps1 (F := Ideal)) W (Proc.devRef .tc main_v41)) : S64.Idx → EReal) (ix1 g) = Cert.Spec.s2avg (sS2 W) (sC W) g := by
  rw [e_main_v41 W, hostDiv_at, v39_at, v40_at]
  rfl

/-! ## The clamped variance and 1 / (sqrt(var) + eps) -/

theorem v44_at (g : Fin 64) : ((after (hostOps1 (F := Ideal)) W (Proc.devRef .tc main_v44)) : S64.Idx → EReal) (ix1 g) = (0 : EReal) := by
  rw [e_main_v44 W]
  refine (broadcastInDim_apply _ bcast_S_S64 _ (ix1 g) ix0 (fun a => a.elim0)).trans ?_
  rw [e_main_cst_8 W]
  exact word_zero

theorem v45_at (g : Fin 64) : ((after (hostOps1 (F := Ideal)) W (Proc.devRef .tc main_v45)) : S64.Idx → EReal) (ix1 g) = Cert.Spec.var0 (sS W) (sS2 W) (sC W) g := by
  rw [e_main_v45 W, maximumf_apply, e_main_v43 W, subf_apply, e_main_v42 W, mulf_apply, v41_at, v25_eq, v44_at]
  rfl

theorem v47_at (g : Fin 64) : ((after (hostOps1 (F := Ideal)) W (Proc.devRef .tc main_v47)) : S64.Idx → EReal) (ix1 g) = Cert.Spec.eps := by
  rw [e_main_v47 W]
  refine (broadcastInDim_apply _ bcast_S_S64 _ (ix1 g) ix0 (fun a => a.elim0)).trans ?_
  rw [e_main_cst_9 W]
  rfl

theorem v49_at (g : Fin 64) : ((after (hostOps1 (F := Ideal)) W (Proc.devRef .tc main_v49)) : S64.Idx → EReal) (ix1 g) = (1 : EReal) := by
  rw [e_main_v49 W]
  refine (broadcastInDim_apply _ bcast_S_S64 _ (ix1 g) ix0 (fun a => a.elim0)).trans ?_
  rw [e_main_cst_10 W]
  exact word_one

/-- 1 / (sqrt(var) + eps). -/
theorem v50_eq (g : Fin 64) : ((after (hostOps1 (F := Ideal)) W (Proc.devRef .tc main_v50)) : S64.Idx → EReal) (ix1 g) = Cert.Spec.invstd0 (sS W) (sS2 W) (sC W) g := by
  rw [e_main_v50 W, hostDiv_at, v49_at, e_main_v48 W, addf_apply, e_main_v46 W, hostSqrt_at, v45_at, v47_at]
  rfl

end Cert.KernelIdeal.HostStats

end
-- ==== Proof.KIHostTable.lean ====
/- The second half of the host stretch between the two calls, at the ideal instance. From the block means and the
   inverse standard deviation of the scalar block, and from the weight and the bias, the host builds the 64 × 512
   table: per graph, the 240 multipliers in columns [0, 240), the 240 offsets in columns [256, 496), zero elsewhere;
   then its low-precision copy and the difference of the two. Every operation is read at an index given by its
   coordinates, from the values the whole stretch leaves at its operands; the joins are read block by block. -/
import proofs.«402630_j9972914061338_3_alg».proof.Proof.Gen.KernelIdeal.Launch
import proofs.«402630_j9972914061338_3_alg».proof.Proof.Spec
import proofs.«402630_j9972914061338_3_alg».proof.Proof.KIHostAfter
import Idealize.ShloMosaic.Lib.Pipeline.Value
import Idealize.ShloMosaic.Lib.ValueIdx

noncomputable section

namespace Cert.KernelIdeal.HostTable

open Idealize.ShloMosaic Idealize.ShloMosaic.StableHlo Idealize.ShloMosaic.TcCoe Idealize.ShloMosaic.ValueIdx
open Cert.KernelIdeal Cert.KernelIdeal.Gen

/-! ## The layout operations of the stretch, each read at an index given by its coordinates -/

section Layout

/-- The first 64 entries of the weight. -/
theorem slice_w0 (x : (⟨S112, .f32⟩ : BufTy).Contents (Elt Ideal)) (i : Fin 64) :
    extractStridedSlice S64 ![0] x slices_S112_S64_0 (ix1 i) = x (ix1 ⟨i.val, by omega⟩) :=
  extractStridedSlice_apply ![0] x slices_S112_S64_0 (ix1 i) (ix1 ⟨i.val, by omega⟩) (fun a => match a with
    | ⟨0, _⟩ => by show i.val = 0 + i.val; omega)

/-- Entries 64 … 95 of the weight. -/
theorem slice_w1 (x : (⟨S112, .f32⟩ : BufTy).Contents (Elt Ideal)) (i : Fin 32) :
    extractStridedSlice S32 ![64] x slices_S112_S32_64 (ix1 i) = x (ix1 ⟨64 + i.val, by omega⟩) :=
  extractStridedSlice_apply ![64] x slices_S112_S32_64 (ix1 i) (ix1 ⟨64 + i.val, by omega⟩) (fun a => match a with
    | ⟨0, _⟩ => by show 64 + i.val = 64 + i.val; rfl)

/-- Entries 96 … 111 of the weight. -/
theorem slice_w2 (x : (⟨S112, .f32⟩ : BufTy).Contents (Elt Ideal)) (i : Fin 16) :
    extractStridedSlice S16 ![96] x slices_S112_S16_96 (ix1 i) = x (ix1 ⟨96 + i.val, by omega⟩) :=
  extractStridedSlice_apply ![96] x slices_S112_S16_96 (ix1 i) (ix1 ⟨96 + i.val, by omega⟩) (fun a => match a with
    | ⟨0, _⟩ => by show 96 + i.val = 96 + i.val; rfl)

/-- Each l = 1 weight repeated over the three components. -/
theorem rep3 (x : (⟨S32, .f32⟩ : BufTy).Contents (Elt Ideal)) (u : Fin 32) (d : Fin 3) :
    broadcastInDim S32x3 ![0] bcast_S32_S32x3_0 x (ix2 u d) = x (ix1 u) :=
  broadcastInDim_apply _ bcast_S32_S32x3_0 x (ix2 u d) (ix1 u) (fun a => match a with
    | ⟨0, _⟩ => by show u.val = if (32 : Nat) = 1 then 0 else u.val; rw [if_neg (by decide)])

/-- … and laid out flat: column c holds multiplicity c / 3, component c % 3. -/
theorem flat96 (x : (⟨S32x3, .f32⟩ : BufTy).Contents (Elt Ideal)) (c : Fin 96) :
    shapeCast S96 x shapeCasts_S32x3_S96 (ix1 c) = x (ix2 ⟨c.val / 3, by omega⟩ ⟨c.val % 3, by omega⟩) :=
  shapeCast_apply x shapeCasts_S32x3_S96 (ix1 c) (ix2 ⟨c.val / 3, by omega⟩ ⟨c.val % 3, by omega⟩)
    (by rw [Shape.rowMajor_val_two, Shape.rowMajor_val_one]; show c.val / 3 * 3 + c.val % 3 = c.val; omega)

/-- Each l = 2 weight repeated over the five components. -/
theorem rep5 (x : (⟨S16, .f32⟩ : BufTy).Contents (Elt Ideal)) (u : Fin 16) (d : Fin 5) :
    broadcastInDim S16x5 ![0] bcast_S16_S16x5_0 x (ix2 u d) = x (ix1 u) :=
  broadcastInDim_apply _ bcast_S16_S16x5_0 x (ix2 u d) (ix1 u) (fun a => match a with
    | ⟨0, _⟩ => by show u.val = if (16 : Nat) = 1 then 0 else u.val; rw [if_neg (by decide)])

theorem flat80 (x : (⟨S16x5, .f32⟩ : BufTy).Contents (Elt Ideal)) (c : Fin 80) :
    shapeCast S80 x shapeCasts_S16x5_S80 (ix1 c) = x (ix2 ⟨c.val / 5, by omega⟩ ⟨c.val % 5, by omega⟩) :=
  shapeCast_apply x shapeCasts_S16x5_S80 (ix1 c) (ix2 ⟨c.val / 5, by omega⟩ ⟨c.val % 5, by omega⟩)
    (by rw [Shape.rowMajor_val_two, Shape.rowMajor_val_one]; show c.val / 5 * 5 + c.val % 5 = c.val; omega)

end Layout

section Layout2

/-- The l = 1 means as a 1 × 64 × 1 × 3 array. -/
theorem lift3 (x : (⟨S64x3, .f32⟩ : BufTy).Contents (Elt Ideal)) (g : Fin 64) (d : Fin 3) :
    shapeCast S1x64x1x3 x shapeCasts_S64x3_S1x64x1x3 (ix4 0 g 0 d) = x (ix2 g d) :=
  shapeCast_apply x shapeCasts_S64x3_S1x64x1x3 (ix4 0 g 0 d) (ix2 g d)
    (by rw [Shape.rowMajor_val_two, Shape.rowMajor_val_four]; show g.val * 3 + d.val = ((0 * 64 + g.val) * 1 + 0) * 3 + d.val; omega)

/-- … repeated over the 32 multiplicities … -/
theorem tile3 (x : (⟨S1x64x1x3, .f32⟩ : BufTy).Contents (Elt Ideal)) (g : Fin 64) (u : Fin 32) (d : Fin 3) :
    broadcastInDim S1x64x32x3 ![0, 1, 2, 3] bcast_S1x64x1x3_S1x64x32x3_0_1_2_3 x (ix4 0 g u d) = x (ix4 0 g 0 d) :=
  broadcastInDim_apply _ bcast_S1x64x1x3_S1x64x32x3_0_1_2_3 x (ix4 0 g u d) (ix4 0 g 0 d) (fun a => match a with
    | ⟨0, _⟩ => by show 0 = if (1 : Nat) = 1 then 0 else 0; rw [if_pos rfl]
    | ⟨1, _⟩ => by show g.val = if (64 : Nat) = 1 then 0 else g.val; rw [if_neg (by decide)]
    | ⟨2, _⟩ => by show 0 = if (1 : Nat) = 1 then 0 else u.val; rw [if_pos rfl]
    | ⟨3, _⟩ => by show d.val = if (3 : Nat) = 1 then 0 else d.val; rw [if_neg (by decide)])

/-- … and laid out as 64 rows of 96 columns: column c holds component c % 3. -/
theorem rows96 (x : (⟨S1x64x32x3, .f32⟩ : BufTy).Contents (Elt Ideal)) (g : Fin 64) (c : Fin 96) :
    shapeCast S64x96 x shapeCasts_S1x64x32x3_S64x96 (ix2 g c) = x (ix4 0 g ⟨c.val / 3, by omega⟩ ⟨c.val % 3, by omega⟩) :=
  shapeCast_apply x shapeCasts_S1x64x32x3_S64x96 (ix2 g c) (ix4 0 g ⟨c.val / 3, by omega⟩ ⟨c.val % 3, by omega⟩)
    (by rw [Shape.rowMajor_val_four, Shape.rowMajor_val_two]
        show ((0 * 64 + g.val) * 32 + c.val / 3) * 3 + c.val % 3 = g.val * 96 + c.val; omega)

/-- The l = 2 means as a 1 × 64 × 1 × 5 array. -/
theorem lift5 (x : (⟨S64x5, .f32⟩ : BufTy).Contents (Elt Ideal)) (g : Fin 64) (d : Fin 5) :
    shapeCast S1x64x1x5 x shapeCasts_S64x5_S1x64x1x5 (ix4 0 g 0 d) = x (ix2 g d) :=
  shapeCast_apply x shapeCasts_S64x5_S1x64x1x5 (ix4 0 g 0 d) (ix2 g d)
    (by rw [Shape.rowMajor_val_two, Shape.rowMajor_val_four]; show g.val * 5 + d.val = ((0 * 64 + g.val) * 1 + 0) * 5 + d.val; omega)

theorem tile5 (x : (⟨S1x64x1x5, .f32⟩ : BufTy).Contents (Elt Ideal)) (g : Fin 64) (u : Fin 16) (d : Fin 5) :
    broadcastInDim S1x64x16x5 ![0, 1, 2, 3] bcast_S1x64x1x5_S1x64x16x5_0_1_2_3 x (ix4 0 g u d) = x (ix4 0 g 0 d) :=
  broadcastInDim_apply _ bcast_S1x64x1x5_S1x64x16x5_0_1_2_3 x (ix4 0 g u d) (ix4 0 g 0 d) (fun a => match a with
    | ⟨0, _⟩ => by show 0 = if (1 : Nat) = 1 then 0 else 0; rw [if_pos rfl]
    | ⟨1, _⟩ => by show g.val = if (64 : Nat) = 1 then 0 else g.val; rw [if_neg (by decide)]
    | ⟨2, _⟩ => by show 0 = if (1 : Nat) = 1 then 0 else u.val; rw [if_pos rfl]
    | ⟨3, _⟩ => by show d.val = if (5 : Nat) = 1 then 0 else d.val; rw [if_neg (by decide)])

theorem rows80 (x : (⟨S1x64x16x5, .f32⟩ : BufTy).Contents (Elt Ideal)) (g : Fin 64) (c : Fin 80) :
    shapeCast S64x80 x shapeCasts_S1x64x16x5_S64x80 (ix2 g c) = x (ix4 0 g ⟨c.val / 5, by omega⟩ ⟨c.val % 5, by omega⟩) :=
  shapeCast_apply x shapeCasts_S1x64x16x5_S64x80 (ix2 g c) (ix4 0 g ⟨c.val / 5, by omega⟩ ⟨c.val % 5, by omega⟩)
    (by rw [Shape.rowMajor_val_four, Shape.rowMajor_val_two]
        show ((0 * 64 + g.val) * 16 + c.val / 5) * 5 + c.val % 5 = g.val * 80 + c.val; omega)

/-- A per-graph vector as a column. -/
theorem col (x : (⟨S64, .f32⟩ : BufTy).Contents (Elt Ideal)) (g : Fin 64) :
    broadcastInDim S64x1 ![0] bcast_S64_S64x1_0 x (ix2 g 0) = x (ix1 g) :=
  broadcastInDim_apply _ bcast_S64_S64x1_0 x (ix2 g 0) (ix1 g) (fun a => match a with
    | ⟨0, _⟩ => by show g.val = if (64 : Nat) = 1 then 0 else g.val; rw [if_neg (by decide)])

/-- A per-channel vector as a row. -/
theorem row64 (x : (⟨S64, .f32⟩ : BufTy).Contents (Elt Ideal)) (j : Fin 64) :
    broadcastInDim S1x64 ![1] bcast_S64_S1x64_1 x (ix2 0 j) = x (ix1 j) :=
  broadcastInDim_apply _ bcast_S64_S1x64_1 x (ix2 0 j) (ix1 j) (fun a => match a with
    | ⟨0, _⟩ => by show j.val = if (64 : Nat) = 1 then 0 else j.val; rw [if_neg (by decide)])

/-- A column repeated along the 64 channels. -/
theorem across64 (x : (⟨S64x1, .f32⟩ : BufTy).Contents (Elt Ideal)) (g j : Fin 64) :
    broadcastInDim S64x64 ![0, 1] bcast_S64x1_S64x64_0_1 x (ix2 g j) = x (ix2 g 0) :=
  broadcastInDim_apply _ bcast_S64x1_S64x64_0_1 x (ix2 g j) (ix2 g 0) (fun a => match a with
    | ⟨0, _⟩ => by show g.val = if (64 : Nat) = 1 then 0 else g.val; rw [if_neg (by decide)]
    | ⟨1, _⟩ => by show 0 = if (1 : Nat) = 1 then 0 else j.val; rw [if_pos rfl])

/-- A row repeated down the 64 graphs. -/
theorem down64 (x : (⟨S1x64, .f32⟩ : BufTy).Contents (Elt Ideal)) (g j : Fin 64) :
    broadcastInDim S64x64 ![0, 1] bcast_S1x64_S64x64_0_1 x (ix2 g j) = x (ix2 0 j) :=
  broadcastInDim_apply _ bcast_S1x64_S64x64_0_1 x (ix2 g j) (ix2 0 j) (fun a => match a with
    | ⟨0, _⟩ => by show 0 = if (1 : Nat) = 1 then 0 else g.val; rw [if_pos rfl]
    | ⟨1, _⟩ => by show j.val = if (64 : Nat) = 1 then 0 else j.val; rw [if_neg (by decide)])

theorem row96 (x : (⟨S96, .f32⟩ : BufTy).Contents (Elt Ideal)) (c : Fin 96) :
    broadcastInDim S1x96 ![1] bcast_S96_S1x96_1 x (ix2 0 c) = x (ix1 c) :=
  broadcastInDim_apply _ bcast_S96_S1x96_1 x (ix2 0 c) (ix1 c) (fun a => match a with
    | ⟨0, _⟩ => by show c.val = if (96 : Nat) = 1 then 0 else c.val; rw [if_neg (by decide)])

theorem down96 (x : (⟨S1x96, .f32⟩ : BufTy).Contents (Elt Ideal)) (g : Fin 64) (c : Fin 96) :
    broadcastInDim S64x96 ![0, 1] bcast_S1x96_S64x96_0_1 x (ix2 g c) = x (ix2 0 c) :=
  broadcastInDim_apply _ bcast_S1x96_S64x96_0_1 x (ix2 g c) (ix2 0 c) (fun a => match a with
    | ⟨0, _⟩ => by show 0 = if (1 : Nat) = 1 then 0 else g.val; rw [if_pos rfl]
    | ⟨1, _⟩ => by show c.val = if (96 : Nat) = 1 then 0 else c.val; rw [if_neg (by decide)])

theorem row80 (x : (⟨S80, .f32⟩ : BufTy).Contents (Elt Ideal)) (c : Fin 80) :
    broadcastInDim S1x80 ![1] bcast_S80_S1x80_1 x (ix2 0 c) = x (ix1 c) :=
  broadcastInDim_apply _ bcast_S80_S1x80_1 x (ix2 0 c) (ix1 c) (fun a => match a with
    | ⟨0, _⟩ => by show c.val = if (80 : Nat) = 1 then 0 else c.val; rw [if_neg (by decide)])

theorem down80 (x : (⟨S1x80, .f32⟩ : BufTy).Contents (Elt Ideal)) (g : Fin 64) (c : Fin 80) :
    broadcastInDim S64x80 ![0, 1] bcast_S1x80_S64x80_0_1 x (ix2 g c) = x (ix2 0 c) :=
  broadcastInDim_apply _ bcast_S1x80_S64x80_0_1 x (ix2 g c) (ix2 0 c) (fun a => match a with
    | ⟨0, _⟩ => by show 0 = if (1 : Nat) = 1 then 0 else g.val; rw [if_pos rfl]
    | ⟨1, _⟩ => by show c.val = if (80 : Nat) = 1 then 0 else c.val; rw [if_neg (by decide)])

/-- A scalar spread over 64 × 16. -/
theorem fill16 (x : (⟨S_, .f32⟩ : BufTy).Contents (Elt Ideal)) (g : Fin 64) (c : Fin 16) :
    broadcastInDim S64x16 ![] bcast_S_S64x16 x (ix2 g c) = x ix0 :=
  broadcastInDim_apply _ bcast_S_S64x16 x (ix2 g c) ix0 (fun a => a.elim0)

end Layout2

section Joins

/-- The three blocks side by side, read in the scalar block. -/
theorem join3_0 (x1 : (⟨S64x64, .f32⟩ : BufTy).Contents (Elt Ideal)) (x2 : (⟨S64x96, .f32⟩ : BufTy).Contents (Elt Ideal)) (x3 : (⟨S64x80, .f32⟩ : BufTy).Contents (Elt Ideal)) (g : Fin 64) (j : Fin 240)
    (h : j.val < 64) :
    concatenate S64x240 1 [⟨S64x64, x1⟩, ⟨S64x96, x2⟩, ⟨S64x80, x3⟩] concatenates_S64x64_S64x96_S64x80_S64x240_d1 (ix2 g j)
      = x1 (ix2 g ⟨j.val, h⟩) :=
  concatenate_apply_piece 1 ([⟨S64x64, x1⟩, ⟨S64x96, x2⟩, ⟨S64x80, x3⟩] : List ((s : Shape) × (s.Idx → EReal))) concatenates_S64x64_S64x96_S64x80_S64x240_d1 (ix2 g j) 0 (by show 0 < 3; decide) S64x64 x1 rfl rfl 0 rfl
    (ix2 g ⟨j.val, h⟩)
    (fun b hb => match b, hb with
      | ⟨0, _⟩, _ => rfl
      | ⟨1, _⟩, hb => absurd (Fin.ext rfl) hb)
    (by show 0 + j.val = j.val; omega)

/-- … in the l = 1 block … -/
theorem join3_1 (x1 : (⟨S64x64, .f32⟩ : BufTy).Contents (Elt Ideal)) (x2 : (⟨S64x96, .f32⟩ : BufTy).Contents (Elt Ideal)) (x3 : (⟨S64x80, .f32⟩ : BufTy).Contents (Elt Ideal)) (g : Fin 64) (j : Fin 240)
    (h1 : 64 ≤ j.val) (h2 : j.val < 160) :
    concatenate S64x240 1 [⟨S64x64, x1⟩, ⟨S64x96, x2⟩, ⟨S64x80, x3⟩] concatenates_S64x64_S64x96_S64x80_S64x240_d1 (ix2 g j)
      = x2 (ix2 g ⟨j.val - 64, by omega⟩) :=
  concatenate_apply_piece 1 ([⟨S64x64, x1⟩, ⟨S64x96, x2⟩, ⟨S64x80, x3⟩] : List ((s : Shape) × (s.Idx → EReal))) concatenates_S64x64_S64x96_S64x80_S64x240_d1 (ix2 g j) 1 (by show 1 < 3; decide) S64x96 x2 rfl rfl 64 rfl
    (ix2 g ⟨j.val - 64, by omega⟩)
    (fun b hb => match b, hb with
      | ⟨0, _⟩, _ => rfl
      | ⟨1, _⟩, hb => absurd (Fin.ext rfl) hb)
    (by show 64 + (j.val - 64) = j.val; omega)

/-- … and in the l = 2 block. -/
theorem join3_2 (x1 : (⟨S64x64, .f32⟩ : BufTy).Contents (Elt Ideal)) (x2 : (⟨S64x96, .f32⟩ : BufTy).Contents (Elt Ideal)) (x3 : (⟨S64x80, .f32⟩ : BufTy).Contents (Elt Ideal)) (g : Fin 64) (j : Fin 240)
    (h : 160 ≤ j.val) :
    concatenate S64x240 1 [⟨S64x64, x1⟩, ⟨S64x96, x2⟩, ⟨S64x80, x3⟩] concatenates_S64x64_S64x96_S64x80_S64x240_d1 (ix2 g j)
      = x3 (ix2 g ⟨j.val - 160, by omega⟩) :=
  concatenate_apply_piece 1 ([⟨S64x64, x1⟩, ⟨S64x96, x2⟩, ⟨S64x80, x3⟩] : List ((s : Shape) × (s.Idx → EReal))) concatenates_S64x64_S64x96_S64x80_S64x240_d1 (ix2 g j) 2 (by show 2 < 3; decide) S64x80 x3 rfl rfl 160 rfl
    (ix2 g ⟨j.val - 160, by omega⟩)
    (fun b hb => match b, hb with
      | ⟨0, _⟩, _ => rfl
      | ⟨1, _⟩, hb => absurd (Fin.ext rfl) hb)
    (by show 160 + (j.val - 160) = j.val; omega)

/-- The 240 columns padded to 256. -/
theorem pad_l (x1 : (⟨S64x240, .f32⟩ : BufTy).Contents (Elt Ideal)) (x2 : (⟨S64x16, .f32⟩ : BufTy).Contents (Elt Ideal)) (g : Fin 64) (j : Fin 256) (h : j.val < 240) :
    concatenate S64x256 1 [⟨S64x240, x1⟩, ⟨S64x16, x2⟩] concatenates_S64x240_S64x16_S64x256_d1 (ix2 g j) = x1 (ix2 g ⟨j.val, h⟩) :=
  concatenate_pair_apply_left 1 x1 x2 concatenates_S64x240_S64x16_S64x256_d1 (ix2 g j) rfl (ix2 g ⟨j.val, h⟩)
    (fun b => match b with
      | ⟨0, _⟩ => rfl
      | ⟨1, _⟩ => rfl)

theorem pad_r (x1 : (⟨S64x240, .f32⟩ : BufTy).Contents (Elt Ideal)) (x2 : (⟨S64x16, .f32⟩ : BufTy).Contents (Elt Ideal)) (g : Fin 64) (j : Fin 256) (h : 240 ≤ j.val) :
    concatenate S64x256 1 [⟨S64x240, x1⟩, ⟨S64x16, x2⟩] concatenates_S64x240_S64x16_S64x256_d1 (ix2 g j)
      = x2 (ix2 g ⟨j.val - 240, by omega⟩) :=
  concatenate_pair_apply_right 1 x1 x2 concatenates_S64x240_S64x16_S64x256_d1 (ix2 g j) rfl rfl (ix2 g ⟨j.val - 240, by omega⟩)
    (fun b hb => match b, hb with
      | ⟨0, _⟩, _ => rfl
      | ⟨1, _⟩, hb => absurd (Fin.ext rfl) hb)
    (by show (j.val - 240) + 240 = j.val; omega)

/-- The two padded halves side by side. -/
theorem halves_l (x1 x2 : (⟨S64x256, .f32⟩ : BufTy).Contents (Elt Ideal)) (g : Fin 64) (j : Fin 512) (h : j.val < 256) :
    concatenate S64x512 1 [⟨S64x256, x1⟩, ⟨S64x256, x2⟩] concatenates_S64x256_S64x256_S64x512_d1 (ix2 g j) = x1 (ix2 g ⟨j.val, h⟩) :=
  concatenate_pair_apply_left 1 x1 x2 concatenates_S64x256_S64x256_S64x512_d1 (ix2 g j) rfl (ix2 g ⟨j.val, h⟩)
    (fun b => match b with
      | ⟨0, _⟩ => rfl
      | ⟨1, _⟩ => rfl)

theorem halves_r (x1 x2 : (⟨S64x256, .f32⟩ : BufTy).Contents (Elt Ideal)) (g : Fin 64) (j : Fin 512) (h : 256 ≤ j.val) :
    concatenate S64x512 1 [⟨S64x256, x1⟩, ⟨S64x256, x2⟩] concatenates_S64x256_S64x256_S64x512_d1 (ix2 g j)
      = x2 (ix2 g ⟨j.val - 256, by omega⟩) :=
  concatenate_pair_apply_right 1 x1 x2 concatenates_S64x256_S64x256_S64x512_d1 (ix2 g j) rfl rfl (ix2 g ⟨j.val - 256, by omega⟩)
    (fun b hb => match b, hb with
      | ⟨0, _⟩, _ => rfl
      | ⟨1, _⟩, hb => absurd (Fin.ext rfl) hb)
    (by show (j.val - 256) + 256 = j.val; omega)

end Joins

/-! ## The stretch, reference by reference -/

open Cert.KernelIdeal.HostAfter

theorem hostNegf_at {s : Shape} {φ : FTy} (x : FVec Ideal s φ) (i : s.Idx) : Host.negf x i = -(x i) := rfl

/-- The f32 word of zero is the real zero. -/
theorem zero_word : Ideal.ofBits .f32 0x00000000#32 = (0 : EReal) := by
  simp [Ideal.ofBits, Ideal.ieee]

/-- What the second half takes over: the weight and the bias as the stretch finds them, and the first half's four
    results (the block means and the inverse standard deviation) as functions of the three statistics. -/
structure Inputs (W : Valuation τ sig (Elt Ideal)) (sS : Fin 64 → Fin 240 → EReal) (sS2 : Fin 64 → Fin 64 → EReal)
    (sC : Fin 64 → EReal) (w : Fin 112 → EReal) (bias : Fin 64 → EReal) : Prop where
  hw : ∀ i : Fin 112, W (Proc.devRef .tc main_arg2) (ix1 i) = w i
  hb : ∀ i : Fin 64, W (Proc.devRef .tc main_arg3) (ix1 i) = bias i
  h25 : ∀ g : Fin 64, StableHlo.after (hostOps1 (F := Ideal)) W (Proc.devRef .tc main_v25) (ix1 g) = Cert.Spec.mean0 sS sC g
  h30 : ∀ (g : Fin 64) (d : Fin 3), StableHlo.after (hostOps1 (F := Ideal)) W (Proc.devRef .tc main_v30) (ix2 g d) = Cert.Spec.mean1 sS sC g d
  h35 : ∀ (g : Fin 64) (d : Fin 5), StableHlo.after (hostOps1 (F := Ideal)) W (Proc.devRef .tc main_v35) (ix2 g d) = Cert.Spec.mean2 sS sC g d
  h50 : ∀ g : Fin 64, StableHlo.after (hostOps1 (F := Ideal)) W (Proc.devRef .tc main_v50) (ix1 g) = Cert.Spec.invstd0 sS sS2 sC g

section Stretch
variable {W : Valuation τ sig (Elt Ideal)} {sS : Fin 64 → Fin 240 → EReal} {sS2 : Fin 64 → Fin 64 → EReal}
  {sC : Fin 64 → EReal} {w : Fin 112 → EReal} {bias : Fin 64 → EReal} (H : Inputs W sS sS2 sC w bias)
include H

local notation "A" => StableHlo.after (hostOps1 (F := Ideal)) W

/-! ### The weight's three slices, the l = 1 and l = 2 ones repeated per component -/

theorem a51 (i : Fin 64) : A (Proc.devRef .tc main_v51) (ix1 i) = w ⟨i.val, by omega⟩ := by
  rw [e_main_v51 W, slice_w0, e_main_arg2 W, H.hw]
theorem a52 (i : Fin 32) : A (Proc.devRef .tc main_v52) (ix1 i) = w ⟨64 + i.val, by omega⟩ := by
  rw [e_main_v52 W, slice_w1, e_main_arg2 W, H.hw]
theorem a53 (i : Fin 16) : A (Proc.devRef .tc main_v53) (ix1 i) = w ⟨96 + i.val, by omega⟩ := by
  rw [e_main_v53 W, slice_w2, e_main_arg2 W, H.hw]
theorem a54 (u : Fin 32) (d : Fin 3) : A (Proc.devRef .tc main_v54) (ix2 u d) = w ⟨64 + u.val, by omega⟩ := by
  rw [e_main_v54 W, rep3, a52 H]
theorem a55 (c : Fin 96) : A (Proc.devRef .tc main_v55) (ix1 c) = w ⟨64 + c.val / 3, by omega⟩ := by
  rw [e_main_v55 W, flat96, a54 H]
theorem a56 (u : Fin 16) (d : Fin 5) : A (Proc.devRef .tc main_v56) (ix2 u d) = w ⟨96 + u.val, by omega⟩ := by
  rw [e_main_v56 W, rep5, a53 H]
theorem a57 (c : Fin 80) : A (Proc.devRef .tc main_v57) (ix1 c) = w ⟨96 + c.val / 5, by omega⟩ := by
  rw [e_main_v57 W, flat80, a56 H]

/-! ### The l = 1 and l = 2 means tiled along their blocks' columns -/

theorem a58 (g : Fin 64) (d : Fin 3) : A (Proc.devRef .tc main_v58) (ix4 (0 : Fin 1) g (0 : Fin 1) d) = Cert.Spec.mean1 sS sC g d := by
  rw [e_main_v58 W, lift3, H.h30]
theorem a59 (g : Fin 64) (u : Fin 32) (d : Fin 3) : A (Proc.devRef .tc main_v59) (ix4 (0 : Fin 1) g u d) = Cert.Spec.mean1 sS sC g d := by
  rw [e_main_v59 W, tile3, a58 H]
theorem a60 (g : Fin 64) (c : Fin 96) : A (Proc.devRef .tc main_v60) (ix2 g c) = Cert.Spec.mean1 sS sC g ⟨c.val % 3, by omega⟩ := by
  rw [e_main_v60 W, rows96, a59 H]
theorem a61 (g : Fin 64) (d : Fin 5) : A (Proc.devRef .tc main_v61) (ix4 (0 : Fin 1) g (0 : Fin 1) d) = Cert.Spec.mean2 sS sC g d := by
  rw [e_main_v61 W, lift5, H.h35]
theorem a62 (g : Fin 64) (u : Fin 16) (d : Fin 5) : A (Proc.devRef .tc main_v62) (ix4 (0 : Fin 1) g u d) = Cert.Spec.mean2 sS sC g d := by
  rw [e_main_v62 W, tile5, a61 H]
theorem a63 (g : Fin 64) (c : Fin 80) : A (Proc.devRef .tc main_v63) (ix2 g c) = Cert.Spec.mean2 sS sC g ⟨c.val % 5, by omega⟩ := by
  rw [e_main_v63 W, rows80, a62 H]

/-! ### The scalar block: multiplier 1/(std + eps) · w, offset bias − mean · multiplier -/

theorem a64 (g : Fin 64) : A (Proc.devRef .tc main_v64) (ix2 g (0 : Fin 1)) = Cert.Spec.invstd0 sS sS2 sC g := by
  rw [e_main_v64 W, col, H.h50]
theorem a65 (j : Fin 64) : A (Proc.devRef .tc main_v65) (ix2 (0 : Fin 1) j) = w ⟨j.val, by omega⟩ := by
  rw [e_main_v65 W, row64, a51 H]
theorem a66 (g j : Fin 64) : A (Proc.devRef .tc main_v66) (ix2 g j) = Cert.Spec.invstd0 sS sS2 sC g := by
  rw [e_main_v66 W, across64, a64 H]
theorem a67 (g j : Fin 64) : A (Proc.devRef .tc main_v67) (ix2 g j) = w ⟨j.val, by omega⟩ := by
  rw [e_main_v67 W, down64, a65 H]
theorem a68 (g j : Fin 64) : A (Proc.devRef .tc main_v68) (ix2 g j) = Cert.Spec.invstd0 sS sS2 sC g * w ⟨j.val, by omega⟩ := by
  rw [e_main_v68 W, mulf_apply, a66 H, a67 H]
theorem a69 (j : Fin 64) : A (Proc.devRef .tc main_v69) (ix2 (0 : Fin 1) j) = bias j := by
  rw [e_main_v69 W, row64, e_main_arg3 W, H.hb]
theorem a70 (g : Fin 64) : A (Proc.devRef .tc main_v70) (ix2 g (0 : Fin 1)) = Cert.Spec.mean0 sS sC g := by
  rw [e_main_v70 W, col, H.h25]
theorem a71 (g j : Fin 64) : A (Proc.devRef .tc main_v71) (ix2 g j) = Cert.Spec.mean0 sS sC g := by
  rw [e_main_v71 W, across64, a70 H]
theorem a72 (g j : Fin 64) : A (Proc.devRef .tc main_v72) (ix2 g j)
    = Cert.Spec.mean0 sS sC g * (Cert.Spec.invstd0 sS sS2 sC g * w ⟨j.val, by omega⟩) := by
  rw [e_main_v72 W, mulf_apply, a71 H, a68 H]
theorem a73 (g j : Fin 64) : A (Proc.devRef .tc main_v73) (ix2 g j) = bias j := by
  rw [e_main_v73 W, down64, a69 H]
theorem a74 (g j : Fin 64) : A (Proc.devRef .tc main_v74) (ix2 g j)
    = bias j - Cert.Spec.mean0 sS sC g * (Cert.Spec.invstd0 sS sS2 sC g * w ⟨j.val, by omega⟩) := by
  rw [e_main_v74 W, subf_apply, a73 H, a72 H]

/-! ### The l = 1 block: multiplier the weight, offset −mean · weight -/

theorem a75 (c : Fin 96) : A (Proc.devRef .tc main_v75) (ix2 (0 : Fin 1) c) = w ⟨64 + c.val / 3, by omega⟩ := by
  rw [e_main_v75 W, row96, a55 H]
theorem a76 (g : Fin 64) (c : Fin 96) : A (Proc.devRef .tc main_v76) (ix2 g c) = w ⟨64 + c.val / 3, by omega⟩ := by
  rw [e_main_v76 W, down96, a75 H]
theorem a77 (g : Fin 64) (c : Fin 96) : A (Proc.devRef .tc main_v77) (ix2 g c) = -(Cert.Spec.mean1 sS sC g ⟨c.val % 3, by omega⟩) := by
  rw [e_main_v77 W, hostNegf_at, a60 H]
theorem a78 (c : Fin 96) : A (Proc.devRef .tc main_v78) (ix2 (0 : Fin 1) c) = w ⟨64 + c.val / 3, by omega⟩ := by
  rw [e_main_v78 W, row96, a55 H]
theorem a79 (g : Fin 64) (c : Fin 96) : A (Proc.devRef .tc main_v79) (ix2 g c) = w ⟨64 + c.val / 3, by omega⟩ := by
  rw [e_main_v79 W, down96, a78 H]
theorem a80 (g : Fin 64) (c : Fin 96) : A (Proc.devRef .tc main_v80) (ix2 g c)
    = -(Cert.Spec.mean1 sS sC g ⟨c.val % 3, by omega⟩) * w ⟨64 + c.val / 3, by omega⟩ := by
  rw [e_main_v80 W, mulf_apply, a77 H, a79 H]

/-! ### The l = 2 block, the same way -/

theorem a81 (c : Fin 80) : A (Proc.devRef .tc main_v81) (ix2 (0 : Fin 1) c) = w ⟨96 + c.val / 5, by omega⟩ := by
  rw [e_main_v81 W, row80, a57 H]
theorem a82 (g : Fin 64) (c : Fin 80) : A (Proc.devRef .tc main_v82) (ix2 g c) = w ⟨96 + c.val / 5, by omega⟩ := by
  rw [e_main_v82 W, down80, a81 H]
theorem a83 (g : Fin 64) (c : Fin 80) : A (Proc.devRef .tc main_v83) (ix2 g c) = -(Cert.Spec.mean2 sS sC g ⟨c.val % 5, by omega⟩) := by
  rw [e_main_v83 W, hostNegf_at, a63 H]
theorem a84 (c : Fin 80) : A (Proc.devRef .tc main_v84) (ix2 (0 : Fin 1) c) = w ⟨96 + c.val / 5, by omega⟩ := by
  rw [e_main_v84 W, row80, a57 H]
theorem a85 (g : Fin 64) (c : Fin 80) : A (Proc.devRef .tc main_v85) (ix2 g c) = w ⟨96 + c.val / 5, by omega⟩ := by
  rw [e_main_v85 W, down80, a84 H]
theorem a86 (g : Fin 64) (c : Fin 80) : A (Proc.devRef .tc main_v86) (ix2 g c)
    = -(Cert.Spec.mean2 sS sC g ⟨c.val % 5, by omega⟩) * w ⟨96 + c.val / 5, by omega⟩ := by
  rw [e_main_v86 W, mulf_apply, a83 H, a85 H]

/-! ### The 240 multipliers and the 240 offsets -/

theorem a87 (g : Fin 64) (k : Fin 240) : A (Proc.devRef .tc main_v87) (ix2 g k) = Cert.Spec.scale sS sS2 sC w g k := by
  rw [e_main_v87 W]
  unfold Cert.Spec.scale
  by_cases h : k.val < 64
  · rw [join3_0 _ _ _ g k h, a68 H, dif_pos h]
  · by_cases h2 : k.val < 160
    · rw [join3_1 _ _ _ g k (by omega) h2, a76 H, dif_neg h, dif_pos h2]
    · rw [join3_2 _ _ _ g k (by omega), a82 H, dif_neg h, dif_neg h2]

theorem a88 (g : Fin 64) (k : Fin 240) : A (Proc.devRef .tc main_v88) (ix2 g k) = Cert.Spec.shift sS sS2 sC w bias g k := by
  rw [e_main_v88 W]
  unfold Cert.Spec.shift
  by_cases h : k.val < 64
  · rw [join3_0 _ _ _ g k h, a74 H, dif_pos h]
  · by_cases h2 : k.val < 160
    · rw [join3_1 _ _ _ g k (by omega) h2, a80 H, dif_neg h, dif_pos h2]
    · rw [join3_2 _ _ _ g k (by omega), a86 H, dif_neg h, dif_neg h2]

/-! ### Padded to 256 columns each with zeros, and joined -/

theorem a_cst11 : A (Proc.devRef .tc main_cst_11) ix0 = (0 : EReal) := by
  rw [e_main_cst_11 W, constant_apply, zero_word]
theorem a89 (g : Fin 64) (c : Fin 16) : A (Proc.devRef .tc main_v89) (ix2 g c) = (0 : EReal) := by
  rw [e_main_v89 W, fill16, a_cst11 H]
theorem a90 (g : Fin 64) (j : Fin 256) : A (Proc.devRef .tc main_v90) (ix2 g j)
    = if h : j.val < 240 then Cert.Spec.scale sS sS2 sC w g ⟨j.val, h⟩ else 0 := by
  rw [e_main_v90 W]
  by_cases h : j.val < 240
  · rw [pad_l _ _ g j h, a87 H, dif_pos h]
  · rw [pad_r _ _ g j (by omega), a89 H, dif_neg h]
theorem a91 (g : Fin 64) (j : Fin 256) : A (Proc.devRef .tc main_v91) (ix2 g j)
    = if h : j.val < 240 then Cert.Spec.shift sS sS2 sC w bias g ⟨j.val, h⟩ else 0 := by
  rw [e_main_v91 W]
  by_cases h : j.val < 240
  · rw [pad_l _ _ g j h, a88 H, dif_pos h]
  · rw [pad_r _ _ g j (by omega), a89 H, dif_neg h]

theorem a92 (g : Fin 64) (j : Fin 512) : A (Proc.devRef .tc main_v92) (ix2 g j) = Cert.Spec.table sS sS2 sC w bias g j := by
  rw [e_main_v92 W]
  unfold Cert.Spec.table
  by_cases h : j.val < 256
  · rw [halves_l _ _ g j h, a90 H]
    by_cases h1 : j.val < 240
    · rw [dif_pos h1, dif_pos h1]
    · rw [dif_neg h1, dif_neg h1, dif_pos h]
  · have h240 : ¬ j.val < 240 := by omega
    rw [halves_r _ _ g j (by omega), a91 H, dif_neg h240, dif_neg h]
    by_cases h3 : j.val < 496
    · rw [dif_pos h3, dif_pos (show j.val - 256 < 240 by omega)]
    · rw [dif_neg h3, dif_neg (show ¬ j.val - 256 < 240 by omega)]

/-! ### The table's low-precision copy and what it leaves out: at the ideal instance the copy is the table -/

theorem a93 (g : Fin 64) (j : Fin 512) : A (Proc.devRef .tc main_v93) (ix2 g j) = Cert.Spec.table sS sS2 sC w bias g j := by
  rw [e_main_v93 W, truncf_apply, a92 H]
theorem a94 (g : Fin 64) (j : Fin 512) : A (Proc.devRef .tc main_v94) (ix2 g j) = Cert.Spec.table sS sS2 sC w bias g j := by
  rw [e_main_v94 W, extf_apply, a93 H]
theorem a95 (g : Fin 64) (j : Fin 512) : A (Proc.devRef .tc main_v95) (ix2 g j)
    = Cert.Spec.table sS sS2 sC w bias g j - Cert.Spec.table sS sS2 sC w bias g j := by
  rw [e_main_v95 W, subf_apply, a92 H, a94 H]
theorem a96 (g : Fin 64) (j : Fin 512) : A (Proc.devRef .tc main_v96) (ix2 g j)
    = Cert.Spec.table sS sS2 sC w bias g j - Cert.Spec.table sS sS2 sC w bias g j := by
  rw [e_main_v96 W, truncf_apply, a95 H]

end Stretch

/-! ## The two arrays the second call reads -/

section Results
variable (W : Valuation τ sig (Elt Ideal)) (sS : Fin 64 → Fin 240 → EReal) (sS2 : Fin 64 → Fin 64 → EReal)
  (sC : Fin 64 → EReal) (w : Fin 112 → EReal) (bias : Fin 64 → EReal)
  (hw : ∀ i : Fin 112, W (Proc.devRef .tc main_arg2) (ix1 i) = w i)
  (hb : ∀ i : Fin 64, W (Proc.devRef .tc main_arg3) (ix1 i) = bias i)
  (h25 : ∀ g : Fin 64, StableHlo.after (hostOps1 (F := Ideal)) W (Proc.devRef .tc main_v25) (ix1 g) = Cert.Spec.mean0 sS sC g)
  (h30 : ∀ (g : Fin 64) (d : Fin 3), StableHlo.after (hostOps1 (F := Ideal)) W (Proc.devRef .tc main_v30) (ix2 g d) = Cert.Spec.mean1 sS sC g d)
  (h35 : ∀ (g : Fin 64) (d : Fin 5), StableHlo.after (hostOps1 (F := Ideal)) W (Proc.devRef .tc main_v35) (ix2 g d) = Cert.Spec.mean2 sS sC g d)
  (h50 : ∀ g : Fin 64, StableHlo.after (hostOps1 (F := Ideal)) W (Proc.devRef .tc main_v50) (ix1 g) = Cert.Spec.invstd0 sS sS2 sC g)
include hw hb h25 h30 h35 h50

/-- The table the second call gathers from, in its low-precision copy: at the ideal instance the table itself. -/
theorem v93_eq (g : Fin 64) (j : Fin 512) :
    StableHlo.after (hostOps1 (F := Ideal)) W (Proc.devRef .tc main_v93) (ix2 g j) = Cert.Spec.table sS sS2 sC w bias g j :=
  a93 ⟨hw, hb, h25, h30, h35, h50⟩ g j

/-- The correction term, the table less its low-precision copy. -/
theorem v96_eq (g : Fin 64) (j : Fin 512) :
    StableHlo.after (hostOps1 (F := Ideal)) W (Proc.devRef .tc main_v96) (ix2 g j)
      = Cert.Spec.table sS sS2 sC w bias g j - Cert.Spec.table sS sS2 sC w bias g j :=
  a96 ⟨hw, hb, h25, h30, h35, h50⟩ g j

end Results

end Cert.KernelIdeal.HostTable
end
-- ==== Proof.Algebra.lean ====
/- The two forms of the result agree. Under the hypothesis that every input is a real number, every statistic is a
   real number; the mean squared deviation of the scalar block from its mean is E[x²] − mean² (and is not negative, so
   the clamp at zero does nothing); and the affine form x · scale + shift is the centred, normalised form multiplied out. -/
import proofs.«402630_j9972914061338_3_alg».proof.Proof.Spec
import Mathlib.Data.EReal.Operations
import Mathlib.Analysis.Real.Sqrt
import Mathlib.Algebra.BigOperators.Ring.Finset
import Mathlib.Algebra.Order.BigOperators.Group.Finset
import Mathlib.Tactic.Ring
import Mathlib.Tactic.Positivity
import Mathlib.Tactic.NormNum

noncomputable section

namespace Cert.Algebra

open Idealize.ShloMosaic

/-! ### The coercion ℝ → EReal through finite sums, maxima and conditionals -/

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (a c : ℝ) : max ((a : ℝ) : EReal) ((c : ℝ) : EReal) = ((max a c : ℝ) : EReal) :=
  (EReal.coe_strictMono.monotone.map_max).symm

theorem coe_ite (p : Prop) [Decidable p] (a : ℝ) :
    (if p then ((a : ℝ) : EReal) else 0) = ((if p then a else 0 : ℝ) : EReal) := by
  split_ifs <;> simp

theorem coe_ite_one (p : Prop) [Decidable p] :
    (if p then (1 : EReal) else 0) = ((if p then 1 else 0 : ℝ) : EReal) := by
  split_ifs <;> simp

/-! ### The derived tables over the reals -/

section RealTables
variable (sS : Fin 64 → Fin 240 → ℝ) (sS2 : Fin 64 → Fin 64 → ℝ) (sC : Fin 64 → ℝ)

/-- The divisor: the count, at least one. -/
def cntr (g : Fin 64) : ℝ := max (sC g) 1
/-- The per-graph mean of column k. -/
def mfr (g : Fin 64) (k : Fin 240) : ℝ := sS g k * (1 / cntr sC g)
/-- Mean of the scalar block. -/
def mean0r (g : Fin 64) : ℝ := (∑ j : Fin 64, mfr sS sC g (Fin.castLE (by decide) j)) * (1 / 64)
/-- Mean of the l = 1 block, per component. -/
def mean1r (g : Fin 64) (d : Fin 3) : ℝ :=
  (∑ u : Fin 32, mfr sS sC g ⟨64 + 3 * u.val + d.val, by omega⟩) * (1 / 32)
/-- Mean of the l = 2 block, per component. -/
def mean2r (g : Fin 64) (d : Fin 5) : ℝ :=
  (∑ u : Fin 16, mfr sS sC g ⟨160 + 5 * u.val + d.val, by omega⟩) * (1 / 16)
/-- Mean of the squares of the scalar block. -/
def s2avgr (g : Fin 64) : ℝ := (∑ j : Fin 64, sS2 g j * (1 / cntr sC g)) * (1 / 64)
/-- E[x²] − mean², clamped at zero. -/
def var0r (g : Fin 64) : ℝ := max (s2avgr sS2 sC g - mean0r sS sC g * mean0r sS sC g) 0

theorem cntr_pos (g : Fin 64) : 0 < cntr sC g := lt_of_lt_of_le one_pos (le_max_right _ _)

theorem cnt_coe (g : Fin 64) :
    Cert.Spec.cnt (fun g => ((sC g : ℝ) : EReal)) g = ((cntr sC g : ℝ) : EReal) := by
  rw [Cert.Spec.cnt, cntr, ← EReal.coe_one, coe_max]

theorem mf_coe (g : Fin 64) (k : Fin 240) :
    Cert.Spec.mf (fun g k => ((sS g k : ℝ) : EReal)) (fun g => ((sC g : ℝ) : EReal)) g k
      = ((mfr sS sC g k : ℝ) : EReal) := by
  rw [Cert.Spec.mf, cnt_coe, Ideal.div_coe (ne_of_gt (cntr_pos sC g)), mfr, EReal.coe_mul]

theorem mean0_coe (g : Fin 64) :
    Cert.Spec.mean0 (fun g k => ((sS g k : ℝ) : EReal)) (fun g => ((sC g : ℝ) : EReal)) g
      = ((mean0r sS sC g : ℝ) : EReal) := by
  rw [Cert.Spec.mean0, Ideal.div_coe (by norm_num)]
  simp only [mf_coe, coe_sum]
  rw [mean0r, EReal.coe_mul]

theorem mean1_coe (g : Fin 64) (d : Fin 3) :
    Cert.Spec.mean1 (fun g k => ((sS g k : ℝ) : EReal)) (fun g => ((sC g : ℝ) : EReal)) g d
      = ((mean1r sS sC g d : ℝ) : EReal) := by
  rw [Cert.Spec.mean1, Ideal.div_coe (by norm_num)]
  simp only [mf_coe, coe_sum]
  rw [mean1r, EReal.coe_mul]

theorem mean2_coe (g : Fin 64) (d : Fin 5) :
    Cert.Spec.mean2 (fun g k => ((sS g k : ℝ) : EReal)) (fun g => ((sC g : ℝ) : EReal)) g d
      = ((mean2r sS sC g d : ℝ) : EReal) := by
  rw [Cert.Spec.mean2, Ideal.div_coe (by norm_num)]
  simp only [mf_coe, coe_sum]
  rw [mean2r, EReal.coe_mul]

theorem s2avg_coe (g : Fin 64) :
    Cert.Spec.s2avg (fun g j => ((sS2 g j : ℝ) : EReal)) (fun g => ((sC g : ℝ) : EReal)) g
      = ((s2avgr sS2 sC g : ℝ) : EReal) := by
  rw [Cert.Spec.s2avg, Ideal.div_coe (by norm_num), cnt_coe]
  simp only [Ideal.div_coe (ne_of_gt (cntr_pos sC g)), ← EReal.coe_mul, coe_sum]
  rfl

theorem var0_coe (g : Fin 64) :
    Cert.Spec.var0 (fun g k => ((sS g k : ℝ) : EReal)) (fun g j => ((sS2 g j : ℝ) : EReal))
        (fun g => ((sC g : ℝ) : EReal)) g
      = ((var0r sS sS2 sC g : ℝ) : EReal) := by
  rw [Cert.Spec.var0, s2avg_coe, mean0_coe, ← EReal.coe_mul, ← EReal.coe_sub, ← EReal.coe_zero, coe_max]
  rfl

end RealTables

/-! ### eps is a positive real -/

/-- The real number the word of eps denotes: 10995116 · 2⁻⁴⁰. -/
def epsr : ℝ := (10995116 : ℝ) * (2 : ℝ) ^ (-40 : ℤ)

theorem eps_eq : Cert.Spec.eps = ((epsr : ℝ) : EReal) := by
  simp [Cert.Spec.eps, Ideal.ofBits, Ideal.ieee, epsr]

theorem epsr_pos : 0 < epsr := by unfold epsr; positivity

theorem eps_pos : ∃ e : ℝ, 0 < e ∧ Cert.Spec.eps = (e : EReal) := ⟨epsr, epsr_pos, eps_eq⟩

/-- sqrt(v) + eps is a positive real when v is a real that is not negative. -/
theorem sqrt_add_eps_coe {v : ℝ} (hv : 0 ≤ v) :
    Ideal.sqrt ((v : ℝ) : EReal) + Cert.Spec.eps = ((Real.sqrt v + epsr : ℝ) : EReal) := by
  rw [Ideal.sqrt_coe, if_neg (not_lt.mpr hv), eps_eq, EReal.coe_add]

theorem sqrt_add_epsr_ne (v : ℝ) : Real.sqrt v + epsr ≠ 0 :=
  ne_of_gt (add_pos_of_nonneg_of_pos (Real.sqrt_nonneg v) epsr_pos)

/-! ### Scale and shift over the reals -/

section RealAffine
variable (sS : Fin 64 → Fin 240 → ℝ) (sS2 : Fin 64 → Fin 64 → ℝ) (sC : Fin 64 → ℝ)
  (wr : Fin 112 → ℝ) (br : Fin 64 → ℝ)

theorem var0r_nonneg (g : Fin 64) : 0 ≤ var0r sS sS2 sC g := le_max_right _ _

/-- 1 / (std + eps). -/
def invstd0r (g : Fin 64) : ℝ := 1 * (1 / (Real.sqrt (var0r sS sS2 sC g) + epsr))

theorem invstd0_coe (g : Fin 64) :
    Cert.Spec.invstd0 (fun g k => ((sS g k : ℝ) : EReal)) (fun g j => ((sS2 g j : ℝ) : EReal))
        (fun g => ((sC g : ℝ) : EReal)) g
      = ((invstd0r sS sS2 sC g : ℝ) : EReal) := by
  rw [Cert.Spec.invstd0, var0_coe, sqrt_add_eps_coe (var0r_nonneg sS sS2 sC g),
    Ideal.div_coe (sqrt_add_epsr_ne _), ← EReal.coe_one, ← EReal.coe_mul]
  rfl

/-- The multiplier of column k for graph g. -/
def scaler (g : Fin 64) (k : Fin 240) : ℝ :=
  if h : k.val < 64 then invstd0r sS sS2 sC g * wr ⟨k.val, by omega⟩
  else if h2 : k.val < 160 then wr ⟨64 + (k.val - 64) / 3, by omega⟩
  else wr ⟨96 + (k.val - 160) / 5, by omega⟩

/-- The offset of column k for graph g. -/
def shiftr (g : Fin 64) (k : Fin 240) : ℝ :=
  if h : k.val < 64 then br ⟨k.val, h⟩ - mean0r sS sC g * (invstd0r sS sS2 sC g * wr ⟨k.val, by omega⟩)
  else if h2 : k.val < 160 then
    (-(mean1r sS sC g ⟨(k.val - 64) % 3, Nat.mod_lt _ (by decide)⟩)) * wr ⟨64 + (k.val - 64) / 3, by omega⟩
  else (-(mean2r sS sC g ⟨(k.val - 160) % 5, Nat.mod_lt _ (by decide)⟩)) * wr ⟨96 + (k.val - 160) / 5, by omega⟩

theorem scale_coe (g : Fin 64) (k : Fin 240) :
    Cert.Spec.scale (fun g k => ((sS g k : ℝ) : EReal)) (fun g j => ((sS2 g j : ℝ) : EReal))
        (fun g => ((sC g : ℝ) : EReal)) (fun i => ((wr i : ℝ) : EReal)) g k
      = ((scaler sS sS2 sC wr g k : ℝ) : EReal) := by
  unfold Cert.Spec.scale scaler
  split_ifs
  · rw [invstd0_coe, ← EReal.coe_mul]
  · rfl
  · rfl

theorem shift_coe (g : Fin 64) (k : Fin 240) :
    Cert.Spec.shift (fun g k => ((sS g k : ℝ) : EReal)) (fun g j => ((sS2 g j : ℝ) : EReal))
        (fun g => ((sC g : ℝ) : EReal)) (fun i => ((wr i : ℝ) : EReal)) (fun i => ((br i : ℝ) : EReal)) g k
      = ((shiftr sS sS2 sC wr br g k : ℝ) : EReal) := by
  unfold Cert.Spec.shift shiftr
  split_ifs
  · rw [invstd0_coe, mean0_coe, ← EReal.coe_mul, ← EReal.coe_mul, ← EReal.coe_sub]
  · rw [mean1_coe, ← EReal.coe_neg, ← EReal.coe_mul]
  · rw [mean2_coe, ← EReal.coe_neg, ← EReal.coe_mul]

/-- Every entry of the table is a real number. -/
theorem table_coe (g : Fin 64) (j : Fin 512) :
    ∃ r : ℝ, Cert.Spec.table (fun g k => ((sS g k : ℝ) : EReal)) (fun g j => ((sS2 g j : ℝ) : EReal))
        (fun g => ((sC g : ℝ) : EReal)) (fun i => ((wr i : ℝ) : EReal)) (fun i => ((br i : ℝ) : EReal)) g j
      = (r : EReal) := by
  unfold Cert.Spec.table
  split_ifs
  · exact ⟨_, scale_coe sS sS2 sC wr g _⟩
  · exact ⟨0, rfl⟩
  · exact ⟨_, shift_coe sS sS2 sC wr br g _⟩
  · exact ⟨0, rfl⟩

end RealAffine

/-! ### The statistics over the reals -/

section Stats
variable (xr : Fin 200000 → Fin 240 → ℝ) (b : Fin 200000 → BitVec 32)

/-- Sum over the rows of graph g of column k. -/
def Sr (g : Fin 64) (k : Fin 240) : ℝ := ∑ n : Fin 200000, if b n = BitVec.ofNat 32 g.val then xr n k else 0
/-- Sum over the rows of graph g of the square of scalar column j. -/
def S2r (g : Fin 64) (j : Fin 64) : ℝ :=
  ∑ n : Fin 200000, if b n = BitVec.ofNat 32 g.val then
    xr n (Fin.castLE (by decide) j) * xr n (Fin.castLE (by decide) j) else 0
/-- The number of rows of graph g. -/
def Cr (g : Fin 64) : ℝ := ∑ n : Fin 200000, if b n = BitVec.ofNat 32 g.val then (1 : ℝ) else 0

theorem S_coe : Cert.Spec.S (fun n k => ((xr n k : ℝ) : EReal)) b = fun g k => ((Sr xr b g k : ℝ) : EReal) := by
  funext g k
  simp only [Cert.Spec.S, Sr, coe_ite, coe_sum]

theorem S2_coe : Cert.Spec.S2 (fun n k => ((xr n k : ℝ) : EReal)) b = fun g j => ((S2r xr b g j : ℝ) : EReal) := by
  funext g j
  simp only [Cert.Spec.S2, S2r, ← EReal.coe_mul, coe_ite, coe_sum]

theorem C_coe : Cert.Spec.C b = fun g => ((Cr b g : ℝ) : EReal) := by
  funext g
  simp only [Cert.Spec.C, Cr, coe_ite_one, coe_sum]

/-- The mean squared deviation of the scalar block of graph g from the mean of each row's own graph. -/
def normr (g : Fin 64) : ℝ :=
  (∑ j : Fin 64, (∑ n : Fin 200000, if b n = BitVec.ofNat 32 g.val then
      (xr n (Fin.castLE (by decide) j) - mean0r (Sr xr b) (Cr b) (Cert.Spec.gid b n))
        * (xr n (Fin.castLE (by decide) j) - mean0r (Sr xr b) (Cr b) (Cert.Spec.gid b n)) else 0)
    * (1 / cntr (Cr b) g)) * (1 / 64)

theorem norm_coe (g : Fin 64) :
    Cert.Spec.norm (fun n k => ((xr n k : ℝ) : EReal)) b g = ((normr xr b g : ℝ) : EReal) := by
  rw [Cert.Spec.norm, S_coe, C_coe, Ideal.div_coe (by norm_num), cnt_coe]
  simp only [mean0_coe, ← EReal.coe_sub, ← EReal.coe_mul, coe_ite, coe_sum,
    Ideal.div_coe (ne_of_gt (cntr_pos (Cr b) g))]
  rfl

/-- A row whose graph word is g has graph index g. -/
theorem gid_eq {n : Fin 200000} {g : Fin 64} (h : b n = BitVec.ofNat 32 g.val) : Cert.Spec.gid b n = g := by
  apply Fin.ext
  simp only [Cert.Spec.gid, h, BitVec.toNat_ofNat]
  have := g.isLt
  omega

/-- Σ (x − μ)² over the rows of a graph, column by column: S2 − 2 μ S + μ² C. -/
theorem dev_sum (g : Fin 64) (j : Fin 64) (μ : ℝ) :
    (∑ n : Fin 200000, if b n = BitVec.ofNat 32 g.val then
      (xr n (Fin.castLE (by decide) j) - μ) * (xr n (Fin.castLE (by decide) j) - μ) else 0)
    = S2r xr b g j - 2 * μ * Sr xr b g (Fin.castLE (by decide) j) + μ * μ * Cr b g := by
  simp only [S2r, Sr, Cr, Finset.mul_sum, ← Finset.sum_sub_distrib, ← Finset.sum_add_distrib]
  refine Finset.sum_congr rfl (fun n _ => ?_)
  split_ifs <;> ring

/-- In the sum over the rows of graph g, each row's own mean is the mean of g. -/
theorem dev_sum_gid (g : Fin 64) (j : Fin 64) :
    (∑ n : Fin 200000, if b n = BitVec.ofNat 32 g.val then
      (xr n (Fin.castLE (by decide) j) - mean0r (Sr xr b) (Cr b) (Cert.Spec.gid b n))
        * (xr n (Fin.castLE (by decide) j) - mean0r (Sr xr b) (Cr b) (Cert.Spec.gid b n)) else 0)
    = S2r xr b g j - 2 * mean0r (Sr xr b) (Cr b) g * Sr xr b g (Fin.castLE (by decide) j)
        + mean0r (Sr xr b) (Cr b) g * mean0r (Sr xr b) (Cr b) g * Cr b g := by
  rw [← dev_sum]
  refine Finset.sum_congr rfl (fun n _ => ?_)
  split_ifs with h
  · rw [gid_eq b h]
  · rfl

theorem normr_nonneg (g : Fin 64) : 0 ≤ normr xr b g := by
  unfold normr
  refine mul_nonneg (Finset.sum_nonneg fun j _ => mul_nonneg (Finset.sum_nonneg fun n _ => ?_) ?_) (by norm_num)
  · split_ifs
    · exact mul_self_nonneg _
    · exact le_refl _
  · exact le_of_lt (one_div_pos.mpr (cntr_pos (Cr b) g))

/-- The averaging step: with μ the mean of the B's and K / c = μ², the mean of (A − 2 μ B + K) / c is
    the mean of A / c, minus μ². -/
theorem mean_sq_dev (A B : Fin 64 → ℝ) (K ic μ : ℝ)
    (hμ : μ = (∑ j : Fin 64, B j * ic) * (1 / 64)) (hK : K * ic = μ * μ) :
    (∑ j : Fin 64, (A j - 2 * μ * B j + K) * ic) * (1 / 64) = (∑ j : Fin 64, A j * ic) * (1 / 64) - μ * μ := by
  have h1 : ∀ j, (A j - 2 * μ * B j + K) * ic = A j * ic - 2 * μ * (B j * ic) + μ * μ := fun j => by
    rw [← hK]; ring
  have h2 : (∑ j : Fin 64, B j * ic) = 64 * μ := by rw [hμ]; ring
  simp only [h1, Finset.sum_add_distrib, Finset.sum_sub_distrib, ← Finset.mul_sum, Finset.sum_const,
    Finset.card_univ, Fintype.card_fin, nsmul_eq_mul, h2]
  push_cast
  ring

/-- THE VARIANCE IDENTITY: the mean squared deviation is E[x²] − mean², clamp included. -/
theorem normr_eq_var0r (g : Fin 64) : normr xr b g = var0r (Sr xr b) (S2r xr b) (Cr b) g := by
  by_cases hne : ∃ n, b n = BitVec.ofNat 32 g.val
  · obtain ⟨n0, hn0⟩ := hne
    have hC1 : 1 ≤ Cr b g := by
      have := Finset.single_le_sum (f := fun n => if b n = BitVec.ofNat 32 g.val then (1 : ℝ) else 0)
        (fun n _ => by split_ifs <;> norm_num) (Finset.mem_univ n0)
      simp only [if_pos hn0] at this
      exact this
    have hcnt : cntr (Cr b) g = Cr b g := max_eq_left hC1
    have hK : mean0r (Sr xr b) (Cr b) g * mean0r (Sr xr b) (Cr b) g * Cr b g * (1 / cntr (Cr b) g)
        = mean0r (Sr xr b) (Cr b) g * mean0r (Sr xr b) (Cr b) g := by
      rw [hcnt, mul_assoc, mul_one_div_cancel (ne_of_gt (lt_of_lt_of_le one_pos hC1)), mul_one]
    have hid : normr xr b g
        = s2avgr (S2r xr b) (Cr b) g - mean0r (Sr xr b) (Cr b) g * mean0r (Sr xr b) (Cr b) g := by
      unfold normr
      simp only [dev_sum_gid]
      exact mean_sq_dev (fun j => S2r xr b g j) (fun j => Sr xr b g (Fin.castLE (by decide) j)) _ _ _ rfl hK
    rw [var0r, ← hid, max_eq_left (normr_nonneg xr b g)]
  · replace hne : ∀ n, ¬ b n = BitVec.ofNat 32 g.val := not_exists.mp hne
    have hS : ∀ k, Sr xr b g k = 0 := fun k => Finset.sum_eq_zero (fun n _ => if_neg (hne n))
    have hS2 : ∀ j, S2r xr b g j = 0 := fun j => Finset.sum_eq_zero (fun n _ => if_neg (hne n))
    have hn : normr xr b g = 0 := by
      unfold normr
      simp only [if_neg (hne _), Finset.sum_const_zero, zero_mul]
    have hm : mean0r (Sr xr b) (Cr b) g = 0 := by
      simp only [mean0r, mfr, hS, Finset.sum_const_zero, zero_mul]
    have hs : s2avgr (S2r xr b) (Cr b) g = 0 := by
      simp only [s2avgr, hS2, Finset.sum_const_zero, zero_mul]
    rw [hn, var0r, hm, hs]
    simp

end Stats

/-! ### The two forms agree -/

section Main
variable (xr : Fin 200000 → Fin 240 → ℝ) (b : Fin 200000 → BitVec 32) (wr : Fin 112 → ℝ) (br : Fin 64 → ℝ)

/-- The centred, normalised form and the affine form agree on real inputs. -/
theorem R_eq_G_real (n : Fin 200000) (k : Fin 240) :
    Cert.Spec.R (fun n k => ((xr n k : ℝ) : EReal)) b (fun i => ((wr i : ℝ) : EReal))
        (fun i => ((br i : ℝ) : EReal)) n k
      = Cert.Spec.G (fun n k => ((xr n k : ℝ) : EReal)) b (fun i => ((wr i : ℝ) : EReal))
        (fun i => ((br i : ℝ) : EReal)) n k := by
  rw [Cert.Spec.G, S_coe, S2_coe, C_coe, scale_coe, shift_coe, ← EReal.coe_mul, ← EReal.coe_add]
  unfold Cert.Spec.R
  rw [S_coe, C_coe]
  unfold scaler shiftr
  split_ifs with h h2
  · -- the scalar block: ((x − μ) / d) · w + bias = x · ((1 / d) · w) + (bias − μ · ((1 / d) · w))
    rw [mean0_coe, norm_coe, sqrt_add_eps_coe (normr_nonneg xr b _), ← EReal.coe_sub,
      Ideal.div_coe (sqrt_add_epsr_ne _)]
    simp only [← EReal.coe_mul, ← EReal.coe_add]
    congr 1
    rw [invstd0r, ← normr_eq_var0r]
    ring
  · -- the l = 1 block: (x − m) · w = x · w + (−m) · w
    rw [mean1_coe, ← EReal.coe_sub, ← EReal.coe_mul]
    congr 1
    ring
  · -- the l = 2 block, the same
    rw [mean2_coe, ← EReal.coe_sub, ← EReal.coe_mul]
    congr 1
    ring

end Main

/-- THE RESULT's two forms agree whenever every input is a real number. -/
theorem R_eq_G (x : Fin 200000 → Fin 240 → EReal) (b : Fin 200000 → BitVec 32) (w : Fin 112 → EReal)
    (bias : Fin 64 → EReal)
    (hx : ∀ n k, ∃ r : ℝ, x n k = (r : EReal)) (hw : ∀ i, ∃ r : ℝ, w i = (r : EReal))
    (hbias : ∀ i, ∃ r : ℝ, bias i = (r : EReal))
    (n : Fin 200000) (k : Fin 240) : Cert.Spec.R x b w bias n k = Cert.Spec.G x b w bias n k := by
  choose xr hxr using hx
  choose wr hwr using hw
  choose br hbr using hbias
  obtain rfl : x = fun n k => ((xr n k : ℝ) : EReal) := funext fun n => funext fun k => hxr n k
  obtain rfl : w = fun i => ((wr i : ℝ) : EReal) := funext hwr
  obtain rfl : bias = fun i => ((br i : ℝ) : EReal) := funext hbr
  exact R_eq_G_real xr b wr br n k

/-- Every entry of the table of scales and shifts is a real number whenever every input is. -/
theorem table_real (x : Fin 200000 → Fin 240 → EReal) (b : Fin 200000 → BitVec 32) (w : Fin 112 → EReal)
    (bias : Fin 64 → EReal)
    (hx : ∀ n k, ∃ r : ℝ, x n k = (r : EReal)) (hw : ∀ i, ∃ r : ℝ, w i = (r : EReal))
    (hbias : ∀ i, ∃ r : ℝ, bias i = (r : EReal))
    (g : Fin 64) (j : Fin 512) :
    ∃ r : ℝ, Cert.Spec.table (Cert.Spec.S x b) (Cert.Spec.S2 x b) (Cert.Spec.C b) w bias g j = (r : EReal) := by
  choose xr hxr using hx
  choose wr hwr using hw
  choose br hbr using hbias
  obtain rfl : x = fun n k => ((xr n k : ℝ) : EReal) := funext fun n => funext fun k => hxr n k
  obtain rfl : w = fun i => ((wr i : ℝ) : EReal) := funext hwr
  obtain rfl : bias = fun i => ((br i : ℝ) : EReal) := funext hbr
  rw [S_coe, S2_coe, C_coe]
  exact table_coe _ _ _ wr br g j

end Cert.Algebra

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.SumLemmas.lean ====
/- Two bookkeeping facts about finite sums used when the kernel's value is put together: a one-hot weighted sum
   over the 64 graphs picks one term, and a sum over the 200000 rows is the sum over the 2 cores, the 25 row blocks of
   a core and the 4000 rows of a block. -/
import proofs.«402630_j9972914061338_3_alg».proof.Proof.LibBlockSum
import Mathlib.Data.EReal.Basic
import Mathlib.Algebra.BigOperators.Fin

open scoped BigOperators

namespace Cert.SumLemmas

/-- A word whose signed value lies in [0, 64) equals the word of g exactly when g is its value. -/
theorem word_eq_iff (b : BitVec 32) (hb : 0 ≤ b.toInt ∧ b.toInt < 64) (g : Fin 64) :
    b = BitVec.ofNat 32 g.val ↔ g = ⟨b.toNat % 64, Nat.mod_lt _ (by decide)⟩ := by
  have hlt : b.toNat < 64 := by
    have := b.isLt
    unfold BitVec.toInt at hb
    split at hb <;> omega
  constructor
  · intro h
    apply Fin.ext
    have : b.toNat = g.val := by
      rw [h, BitVec.toNat_ofNat]
      exact Nat.mod_eq_of_lt (by have := g.isLt; omega)
    simp only [this]
    exact (Nat.mod_eq_of_lt g.isLt).symm
  · intro h
    apply BitVec.eq_of_toNat_eq
    rw [BitVec.toNat_ofNat, h]
    simp only
    rw [Nat.mod_eq_of_lt hlt, Nat.mod_eq_of_lt (by omega)]

/-- The one-hot weighted sum over the graphs is the term of the row's own graph. -/
theorem onehot_sum (b : BitVec 32) (hb : 0 ≤ b.toInt ∧ b.toInt < 64) (T : Fin 64 → EReal) :
    (∑ g : Fin 64, (if b = BitVec.ofNat 32 g.val then (1 : EReal) else 0) * T g)
      = T ⟨b.toNat % 64, Nat.mod_lt _ (by decide)⟩ := by
  rw [Finset.sum_eq_single (⟨b.toNat % 64, Nat.mod_lt _ (by decide)⟩ : Fin 64)]
  · rw [if_pos ((word_eq_iff b hb _).2 rfl), one_mul]
  · intro g _ hg
    rw [if_neg (fun h => hg ((word_eq_iff b hb g).1 h)), zero_mul]
  · intro h; exact absurd (Finset.mem_univ _) h

/-- A sum over the 200000 rows, taken core by core, block by block, row by row. -/
theorem sum_rows {β : Type*} [AddCommMonoid β] (f : ℕ → β) :
    (∑ n : Fin 200000, f n.val)
      = ∑ p : Fin 2, ∑ i : Fin 25, ∑ r : Fin 4000, f ((25 * p.val + i.val) * 4000 + r.val) := by
  rw [Cert.LibBlockSum.sum_fin_blocks f (B := 4000) (N := 50) (by norm_num)]
  rw [← Fin.sum_univ_eq_sum_range (fun s => ∑ k : Fin 4000, f (4000 * s + k.val)) 50]
  rw [Cert.LibBlockSum.sum_fin_blocks (fun s => ∑ k : Fin 4000, f (4000 * s + k.val)) (B := 25) (N := 2) (by norm_num)]
  rw [← Fin.sum_univ_eq_sum_range (fun p => ∑ i : Fin 25, ∑ k : Fin 4000, f (4000 * (25 * p + i.val) + k.val)) 2]
  refine Finset.sum_congr rfl fun p _ => Finset.sum_congr rfl fun i _ => Finset.sum_congr rfl fun r _ => ?_
  congr 1
  ring

end Cert.SumLemmas
-- ==== Proof.KIValue.lean ====
/- The idealized kernel's result, entry by entry, as the closed formula of the specification: the second kernel's
   output block read off its write-backs, the two tables it gathers from read off the host stretch, the statistics
   those are built from read off the first kernel's accumulated partial sums, and the one-hot products collapsed. -/
import proofs.«402630_j9972914061338_3_alg».proof.Proof.KIReads
import proofs.«402630_j9972914061338_3_alg».proof.Proof.KIValue0
import proofs.«402630_j9972914061338_3_alg».proof.Proof.KIValue1
import proofs.«402630_j9972914061338_3_alg».proof.Proof.KIHostStats
import proofs.«402630_j9972914061338_3_alg».proof.Proof.KIHostTable
import proofs.«402630_j9972914061338_3_alg».proof.Proof.Algebra
import proofs.«402630_j9972914061338_3_alg».proof.Proof.SumLemmas

set_option maxRecDepth 16384

noncomputable section

namespace Cert.KernelIdeal.Value

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The four launch arrays, at their literal types. -/
abbrev Xm : Vec Ideal S200000x240 .f32 := m ((c : Thread nD τ).loc main_arg0)
abbrev Bm : Vec Ideal S200000 .i32 := m ((c : Thread nD τ).loc main_arg1)
abbrev Wm : Vec Ideal S112 .f32 := m ((c : Thread nD τ).loc main_arg2)
abbrev BIm : Vec Ideal S64 .f32 := m ((c : Thread nD τ).loc main_arg3)

/-- The same as plain functions of their coordinates. -/
def xf : Fin 200000 → Fin 240 → EReal := fun n k => Xm m c (ix2 n k)
def bf : Fin 200000 → BitVec 32 := fun n => Bm m c (ix1 n)
def wf : Fin 112 → EReal := fun i => Wm m c (ix1 i)
def biasf : Fin 64 → EReal := fun i => BIm m c (ix1 i)

/-- The apply kernel reads row n's graph id at position (n / 4000, 0, n % 4000) of the reshaped index array. -/
theorem bv_read (n : Fin 200000) :
    Value1.BVa (V3 m ρ) c (ix3 ⟨n.val / 4000, by omega⟩ 0 ⟨n.val % 4000, Nat.mod_lt _ (by decide)⟩) = bf m c n := by
  show (V3 m ρ c main_v0 : S50x1x4000.Idx → Elt Ideal .i32) _ = _
  rw [V3_main_v0 m ρ c, V1_main_v0 m ρ c]
  unfold bf
  congr 2
  apply Fin.ext
  show 4000 * (n.val / 4000) + n.val % 4000 = n.val
  exact Nat.div_add_mod _ _

/-- The apply kernel's x is the launch array. -/
theorem x_read : Value1.Xa (V3 m ρ) c = Xm m c := V3_main_arg0 m ρ c

/-- THE ASSEMBLY, given the two tables: if the first table is T and the second T − T, with T real and the graph ids in range,
    the program's result at (n, k) is x · T(graph, k) + T(graph, 256 + k). -/
theorem result_of_tables (T : Fin 64 → Fin 512 → EReal) (hT : ∀ g j, ∃ r : ℝ, T g j = (r : EReal))
    (hHI : ∀ g j, Value1.HIa (V3 m ρ) c (ix2 g j) = T g j)
    (hLO : ∀ g j, Value1.LOa (V3 m ρ) c (ix2 g j) = T g j - T g j)
    (hB : ∀ i, 0 ≤ (Bm m c i).toInt ∧ (Bm m c i).toInt < 64) (n : Fin 200000) (k : Fin 240) :
    W4 m ρ c (Proc.devRef .tc main_v97) (ix2 n k)
      = xf m c n k * T (Cert.Spec.gid (bf m c) n) ⟨k.val, by omega⟩ + T (Cert.Spec.gid (bf m c) n) ⟨256 + k.val, by omega⟩ := by
  have h0 : ∀ g j, T g j - T g j = 0 := fun g j => by
    obtain ⟨r, hr⟩ := hT g j
    rw [hr, ← EReal.coe_sub, sub_self, EReal.coe_zero]
  rw [show W4 m ρ c (Proc.devRef .tc main_v97) = (dat1 (V3 m ρ) c).arrAt 4 cfg1.N from W4_arr m ρ c 4]
  rw [Value1.final1 (V3 m ρ) c n k]
  simp only [hHI, hLO, h0, mul_zero, Finset.sum_const_zero, add_zero, bv_read m ρ c n]
  rw [Cert.SumLemmas.onehot_sum (bf m c n) (hB (ix1 n)) (fun g => T g ⟨k.val, by omega⟩),
    Cert.SumLemmas.onehot_sum (bf m c n) (hB (ix1 n)) (fun g => T g ⟨256 + k.val, by omega⟩)]
  rw [x_read m ρ c]
  rfl

/-- A per-graph sum over all rows is the sum over the two cores, the 25 row blocks of each and the 4000 rows of a block,
    the graph id read at (block, 0, row) of the reshaped index array. -/
theorem block_sums (BV : Vec Ideal S50x1x4000 .i32)
    (hBV : ∀ (t : Fin 50) (r : Fin 4000), BV (ix3 t 0 r) = bf m c ⟨4000 * t.val + r.val, by omega⟩)
    (F : Fin 200000 → EReal) (g : Fin 64) :
    (∑ p : Fin 2, ∑ i : Fin 25, ∑ r : Fin 4000,
        if BV (ix3 ⟨25 * p.val + i.val, by omega⟩ 0 r) = BitVec.ofNat 32 g.val
          then F ⟨(25 * p.val + i.val) * 4000 + r.val, by omega⟩ else 0)
      = ∑ n : Fin 200000, if bf m c n = BitVec.ofNat 32 g.val then F n else 0 := by
  let f : ℕ → EReal := fun n => if h : n < 200000 then (if bf m c ⟨n, h⟩ = BitVec.ofNat 32 g.val then F ⟨n, h⟩ else 0) else 0
  have hR : (∑ n : Fin 200000, if bf m c n = BitVec.ofNat 32 g.val then F n else 0) = ∑ n : Fin 200000, f n.val :=
    Finset.sum_congr rfl fun n _ => by simp only [f, dif_pos n.isLt, Fin.eta]
  rw [hR, Cert.SumLemmas.sum_rows f]
  refine Finset.sum_congr rfl fun p _ => Finset.sum_congr rfl fun i _ => Finset.sum_congr rfl fun r _ => ?_
  have hlt : (25 * p.val + i.val) * 4000 + r.val < 200000 := by omega
  simp only [f, dif_pos hlt]
  rw [hBV ⟨25 * p.val + i.val, by omega⟩ r]
  have e : (⟨4000 * (25 * p.val + i.val) + r.val, by omega⟩ : Fin 200000) = ⟨(25 * p.val + i.val) * 4000 + r.val, hlt⟩ :=
    Fin.ext (by show 4000 * (25 * p.val + i.val) + r.val = (25 * p.val + i.val) * 4000 + r.val; omega)
  rw [e]

/-- The reduction kernel is entered with the reshaped index array: position (t, 0, r) holds row 4000·t + r's graph id. -/
theorem bv0_read (t : Fin 50) (r : Fin 4000) :
    Value0.BV (V1 m ρ) c (ix3 t 0 r) = bf m c ⟨4000 * t.val + r.val, by omega⟩ := by
  show (V1 m ρ c main_v0 : S50x1x4000.Idx → Elt Ideal .i32) _ = _
  rw [V1_main_v0 m ρ c]
  rfl

/-- … and with the launch x. -/
theorem x0_read : Value0.X (V1 m ρ) c = Xm m c := V1_main_arg0 m ρ c

/-- The first kernel's three result arrays as the host stretch finds them, at their literal types. -/
abbrev A2 : Vec Ideal S2x64x240 .f32 := W2 m ρ c (Proc.devRef .tc main_v1_0)
abbrev A3 : Vec Ideal S2x64x64 .f32 := W2 m ρ c (Proc.devRef .tc main_v1_1)
abbrev A4 : Vec Ideal S2x64x1 .f32 := W2 m ρ c (Proc.devRef .tc main_v1_2)

/-- Each is what the reduction kernel's write-backs left. -/
theorem A2_eq : A2 m ρ c = (dat0 (V1 m ρ) c).arrAt 2 cfg0.N := W2_arr m ρ c 2
theorem A3_eq : A3 m ρ c = (dat0 (V1 m ρ) c).arrAt 3 cfg0.N := W2_arr m ρ c 3
theorem A4_eq : A4 m ρ c = (dat0 (V1 m ρ) c).arrAt 4 cfg0.N := W2_arr m ρ c 4

/-- The two cores' partial sums of the rows add up to the per-graph sum. -/
theorem stats_S (g : Fin 64) (k : Fin 240) :
    A2 m ρ c (ix3 0 g k) + A2 m ρ c (ix3 1 g k) = Cert.Spec.S (xf m c) (bf m c) g k := by
  have e0 := (congrFun (A2_eq m ρ c) (ix3 0 g k)).trans (Value0.final0_2 (V1 m ρ) c 0 g k)
  have e1 := (congrFun (A2_eq m ρ c) (ix3 1 g k)).trans (Value0.final0_2 (V1 m ρ) c 1 g k)
  rw [e0, e1]
  unfold Cert.Spec.S
  rw [← block_sums m c (Value0.BV (V1 m ρ) c) (bv0_read m ρ c) (fun n => xf m c n k) g, Fin.sum_univ_two, x0_read m ρ c]
  rfl

/-- The same for the sums of squares of the scalar block. -/
theorem stats_S2 (g : Fin 64) (j : Fin 64) :
    A3 m ρ c (ix3 0 g j) + A3 m ρ c (ix3 1 g j) = Cert.Spec.S2 (xf m c) (bf m c) g j := by
  have e0 := (congrFun (A3_eq m ρ c) (ix3 0 g j)).trans (Value0.final0_3 (V1 m ρ) c 0 g j)
  have e1 := (congrFun (A3_eq m ρ c) (ix3 1 g j)).trans (Value0.final0_3 (V1 m ρ) c 1 g j)
  rw [e0, e1]
  unfold Cert.Spec.S2
  rw [← block_sums m c (Value0.BV (V1 m ρ) c) (bv0_read m ρ c)
    (fun n => xf m c n (Fin.castLE (by decide) j) * xf m c n (Fin.castLE (by decide) j)) g, Fin.sum_univ_two, x0_read m ρ c]
  rfl

/-- The same for the counts. -/
theorem stats_C (g : Fin 64) :
    A4 m ρ c (ix3 0 g 0) + A4 m ρ c (ix3 1 g 0) = Cert.Spec.C (bf m c) g := by
  have e0 := (congrFun (A4_eq m ρ c) (ix3 0 g 0)).trans (Value0.final0_4 (V1 m ρ) c 0 g)
  have e1 := (congrFun (A4_eq m ρ c) (ix3 1 g 0)).trans (Value0.final0_4 (V1 m ρ) c 1 g)
  rw [e0, e1]
  unfold Cert.Spec.C
  rw [← block_sums m c (Value0.BV (V1 m ρ) c) (bv0_read m ρ c) (fun _ => (1 : EReal)) g, Fin.sum_univ_two]

/-! ## The two tables -/

theorem sS_eq : HostStats.sS (W2 m ρ c) = Cert.Spec.S (xf m c) (bf m c) :=
  funext fun g => funext fun k => stats_S m ρ c g k
theorem sS2_eq : HostStats.sS2 (W2 m ρ c) = Cert.Spec.S2 (xf m c) (bf m c) :=
  funext fun g => funext fun j => stats_S2 m ρ c g j
theorem sC_eq : HostStats.sC (W2 m ρ c) = Cert.Spec.C (bf m c) :=
  funext fun g => stats_C m ρ c g

/-- The host stretch reads the launch weights and biases. -/
theorem w_read (i : Fin 112) : W2 m ρ c (Proc.devRef .tc main_arg2) (ix1 i) = wf m c i :=
  congrFun (W2_main_arg2 m ρ c) (ix1 i)
theorem bias_read (i : Fin 64) : W2 m ρ c (Proc.devRef .tc main_arg3) (ix1 i) = biasf m c i :=
  congrFun (W2_main_arg3 m ρ c) (ix1 i)

/-- The specification's table at the launch arrays. -/
abbrev T (g : Fin 64) (j : Fin 512) : EReal :=
  Cert.Spec.table (Cert.Spec.S (xf m c) (bf m c)) (Cert.Spec.S2 (xf m c) (bf m c)) (Cert.Spec.C (bf m c)) (wf m c) (biasf m c) g j

/-- The first table the apply kernel reads is the specification's. -/
theorem hi_eq (g : Fin 64) (j : Fin 512) : Value1.HIa (V3 m ρ) c (ix2 g j) = T m c g j := by
  have h := HostTable.v93_eq (W2 m ρ c) (HostStats.sS (W2 m ρ c)) (HostStats.sS2 (W2 m ρ c)) (HostStats.sC (W2 m ρ c))
    (wf m c) (biasf m c) (w_read m ρ c) (bias_read m ρ c) (HostStats.v25_eq (W2 m ρ c)) (HostStats.v30_eq (W2 m ρ c))
    (HostStats.v35_eq (W2 m ρ c)) (HostStats.v50_eq (W2 m ρ c)) g j
  rw [sS_eq, sS2_eq, sC_eq] at h
  exact h

/-- The second is the table less itself. -/
theorem lo_eq (g : Fin 64) (j : Fin 512) : Value1.LOa (V3 m ρ) c (ix2 g j) = T m c g j - T m c g j := by
  have h := HostTable.v96_eq (W2 m ρ c) (HostStats.sS (W2 m ρ c)) (HostStats.sS2 (W2 m ρ c)) (HostStats.sC (W2 m ρ c))
    (wf m c) (biasf m c) (w_read m ρ c) (bias_read m ρ c) (HostStats.v25_eq (W2 m ρ c)) (HostStats.v30_eq (W2 m ρ c))
    (HostStats.v35_eq (W2 m ρ c)) (HostStats.v50_eq (W2 m ρ c)) g j
  rw [sS_eq, sS2_eq, sC_eq] at h
  exact h

/-! ## The result -/

/-- THE IDEALIZED KERNEL'S RESULT at row n, column k, from finite float inputs and graph ids in [0, 64): the specification's G. -/
theorem kernel_value (hX : ∀ i, ∃ r : ℝ, Xm m c i = (r : EReal)) (hW : ∀ i, ∃ r : ℝ, Wm m c i = (r : EReal))
    (hBi : ∀ i, ∃ r : ℝ, BIm m c i = (r : EReal)) (hB : ∀ i, 0 ≤ (Bm m c i).toInt ∧ (Bm m c i).toInt < 64)
    (n : Fin 200000) (k : Fin 240) :
    W4 m ρ c (Proc.devRef .tc main_v97) (ix2 n k) = Cert.Spec.G (xf m c) (bf m c) (wf m c) (biasf m c) n k := by
  have hT : ∀ g j, ∃ r : ℝ, T m c g j = (r : EReal) :=
    Cert.Algebra.table_real (xf m c) (bf m c) (wf m c) (biasf m c) (fun n k => hX (ix2 n k)) (fun i => hW (ix1 i)) (fun i => hBi (ix1 i))
  rw [result_of_tables m ρ c (T m c) hT (hi_eq m ρ c) (lo_eq m ρ c) hB n k]
  unfold Cert.Spec.G T Cert.Spec.table
  have hk : k.val < 240 := k.isLt
  rw [dif_pos (show (⟨k.val, by omega⟩ : Fin 512).val < 240 from hk)]
  rw [dif_neg (show ¬ (⟨256 + k.val, by omega⟩ : Fin 512).val < 240 from by show ¬ 256 + k.val < 240; omega),
    dif_neg (show ¬ (⟨256 + k.val, by omega⟩ : Fin 512).val < 256 from by show ¬ 256 + k.val < 256; omega),
    dif_pos (show (⟨256 + k.val, by omega⟩ : Fin 512).val < 496 from by show 256 + k.val < 496; omega)]
  congr 2
  apply Fin.ext
  simp

end Cert.KernelIdeal.Value

end
-- ==== Proof.RefDecode.lean ====
/- Three index-driven operations read at an index, for any sizes: the segment sum of the rows of a rank-3 array
   (each row added into the row of the result that its index word names), the count (a rank-1 segment sum), and the
   row lookup (each index word, clamped, names the row of a table that is read). -/
import Idealize.ShloMosaic.Lib.ValueIdx
import Idealize.ShloMosaic.PureOps.Ideal.Laws
import Mathlib.Algebra.BigOperators.Group.Finset.Basic

noncomputable section

namespace Cert.RefValue

open Idealize.ShloMosaic Idealize.ShloMosaic.ValueIdx
open scoped BigOperators

/-! ## A segment sum: rows of an [N, M, D] array added into the row of a [G, M, D] array that the row's index word names -/

/-- The dimension numbers of such a scatter: the index word picks the first axis, the other two axes are the window. -/
abbrev segDims (G M D N : Nat) (wf : ScatterDims.WF ⟨3, ![G, M, D]⟩ ⟨2, ![N, 1]⟩ ⟨3, ![N, M, D]⟩ [1, 2] [0] [0] 1) :
    ScatterDims ⟨3, ![G, M, D]⟩ ⟨2, ![N, 1]⟩ ⟨3, ![N, M, D]⟩ where
  updateWindowDims := [1, 2]
  insertedWindowDims := [0]
  scatterDimsToOperandDims := [0]
  indexVectorDim := 1
  wf := wf

section Seg
variable {G M D N w : Nat} (wf : ScatterDims.WF ⟨3, ![G, M, D]⟩ ⟨2, ![N, 1]⟩ ⟨3, ![N, M, D]⟩ [1, 2] [0] [0] 1)
  (idx : IVec ⟨2, ![N, 1]⟩ w) (j : (⟨3, ![N, M, D]⟩ : Shape).Idx)

theorem seg_siIdx : (segDims G M D N wf).siIdx j ⟨0, Nat.one_pos⟩ = ix2 (j 0) (0 : Fin 1) := by
  funext b; refine Fin.ext ?_
  match b with
  | ⟨0, _⟩ => rfl
  | ⟨1, _⟩ => rfl

theorem seg_start0 : (segDims G M D N wf).start j idx 0 = (idx (ix2 (j 0) (0 : Fin 1))).toInt := by
  unfold ScatterDims.start
  rw [dif_pos (show (0 : Fin 3) ∈ (segDims G M D N wf).scatterDimsToOperandDims from List.mem_singleton.mpr rfl)]
  exact congrArg (fun q => (idx q).toInt) (seg_siIdx wf j)
theorem seg_start1 : (segDims G M D N wf).start j idx 1 = 0 := rfl
theorem seg_start2 : (segDims G M D N wf).start j idx 2 = 0 := rfl
theorem seg_window0 : (segDims G M D N wf).window j 0 = 0 := rfl
theorem seg_window1 : (segDims G M D N wf).window j 1 = (j 1).val := rfl
theorem seg_window2 : (segDims G M D N wf).window j 2 = (j 2).val := rfl

end Seg

section Seg2
variable {G M D N w : Nat} (wf : ScatterDims.WF ⟨3, ![G, M, D]⟩ ⟨2, ![N, 1]⟩ ⟨3, ![N, M, D]⟩ [1, 2] [0] [0] 1)
  (idx : IVec ⟨2, ![N, 1]⟩ w)

/-- An update row lands on (g, m, c) exactly when its index word, read signed, is g and its window coordinates are (m, c). -/
theorem seg_resultIdx_iff (j : (⟨3, ![N, M, D]⟩ : Shape).Idx) (g : Fin G) (m : Fin M) (c : Fin D) :
    (segDims G M D N wf).resultIdx? j idx = some (ix3 g m c)
      ↔ (idx (ix2 (j 0) (0 : Fin 1))).toInt = (g.val : Int) ∧ j 1 = m ∧ j 2 = c := by
  have h1 : (j 1).val < M := (j 1).isLt
  have h2 : (j 2).val < D := (j 2).isLt
  unfold ScatterDims.resultIdx?
  split
  · rename_i h
    have h0 := h 0
    rw [seg_start0, seg_window0] at h0
    constructor
    · intro e
      have e' := Option.some.inj e
      have e0 := congrArg (fun f => (f 0).val) e'
      have e1 := congrArg (fun f => (f 1).val) e'
      have e2 := congrArg (fun f => (f 2).val) e'
      simp only [seg_start0, seg_window0, seg_start1, seg_window1, seg_start2, seg_window2] at e0 e1 e2
      refine ⟨?_, Fin.ext ?_, Fin.ext ?_⟩
      · change ((idx (ix2 (j 0) (0 : Fin 1))).toInt + ((0 : Nat) : Int)).toNat = g.val at e0
        omega
      · change ((0 : Int) + ((j 1).val : Int)).toNat = m.val at e1
        omega
      · change ((0 : Int) + ((j 2).val : Int)).toNat = c.val at e2
        omega
    · rintro ⟨e0, e1, e2⟩
      congr 1
      funext a; refine Fin.ext ?_
      match a with
      | ⟨0, _⟩ =>
        show ((segDims G M D N wf).start j idx 0 + ((segDims G M D N wf).window j 0 : Int)).toNat = g.val
        rw [seg_start0, seg_window0, e0]; omega
      | ⟨1, _⟩ =>
        show ((0 : Int) + ((j 1).val : Int)).toNat = m.val
        rw [e1]; omega
      | ⟨2, _⟩ =>
        show ((0 : Int) + ((j 2).val : Int)).toNat = c.val
        rw [e2]; omega
  · rename_i h
    constructor
    · intro e; exact absurd e (by simp)
    · rintro ⟨e0, e1, e2⟩
      exfalso; apply h
      intro a
      match a with
      | ⟨0, _⟩ =>
        show 0 ≤ (segDims G M D N wf).start j idx 0 + ((segDims G M D N wf).window j 0 : Int)
          ∧ (segDims G M D N wf).start j idx 0 + ((segDims G M D N wf).window j 0 : Int) < (G : Int)
        rw [seg_start0, seg_window0, e0]; have := g.isLt; omega
      | ⟨1, _⟩ =>
        show 0 ≤ (0 : Int) + ((j 1).val : Int) ∧ (0 : Int) + ((j 1).val : Int) < (M : Int)
        omega
      | ⟨2, _⟩ =>
        show 0 ≤ (0 : Int) + ((j 2).val : Int) ∧ (0 : Int) + ((j 2).val : Int) < (D : Int)
        omega

/-- THE SEGMENT SUM AT (g, m, c): the operand's element plus the sum, over the rows whose index word reads g, of the
    row's element (m, c). -/
theorem seg_apply (x : (⟨3, ![G, M, D]⟩ : Shape).Idx → EReal) (upd : (⟨3, ![N, M, D]⟩ : Shape).Idx → EReal)
    (g : Fin G) (m : Fin M) (c : Fin D) :
    Ideal.hostScatterAdd (segDims G M D N wf) x idx upd (ix3 g m c)
      = x (ix3 g m c) + ∑ n : Fin N, if (idx (ix2 n (0 : Fin 1))).toInt = (g.val : Int) then upd (ix3 n m c) else 0 := by
  unfold Ideal.hostScatterAdd
  congr 1
  rw [← Finset.sum_filter]
  refine Finset.sum_bij' (fun j _ => j 0) (fun n _ => ix3 n m c) ?_ ?_ ?_ ?_ ?_
  · intro j hj
    have := (seg_resultIdx_iff wf idx j g m c).1 (Finset.mem_filter.1 hj).2
    exact Finset.mem_filter.2 ⟨Finset.mem_univ _, this.1⟩
  · intro n hn
    exact Finset.mem_filter.2 ⟨Finset.mem_univ _, (seg_resultIdx_iff wf idx (ix3 n m c) g m c).2 ⟨(Finset.mem_filter.1 hn).2, rfl, rfl⟩⟩
  · intro j hj
    have := (seg_resultIdx_iff wf idx j g m c).1 (Finset.mem_filter.1 hj).2
    have hj' : j = ix3 (j 0) m c := by rw [← this.2.1, ← this.2.2]; exact eq_ix3 j
    exact hj'.symm
  · intro n hn; rfl
  · intro j hj
    have := (seg_resultIdx_iff wf idx j g m c).1 (Finset.mem_filter.1 hj).2
    have hj' : j = ix3 (j 0) m c := by rw [← this.2.1, ← this.2.2]; exact eq_ix3 j
    exact congrArg upd hj'

end Seg2

/-! ## The count: ones added into the entry of a [G] array that each row's index word names -/

/-- The dimension numbers of the rank-1 scatter: no window axes. -/
abbrev cntDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

section Cnt
variable {G N w : Nat} (wf : ScatterDims.WF ⟨1, ![G]⟩ ⟨2, ![N, 1]⟩ ⟨1, ![N]⟩ [] [0] [0] 1)
  (idx : IVec ⟨2, ![N, 1]⟩ w)

theorem cnt_siIdx (j : (⟨1, ![N]⟩ : Shape).Idx) : (cntDims G N wf).siIdx j ⟨0, Nat.one_pos⟩ = ix2 (j 0) (0 : Fin 1) := by
  funext b; refine Fin.ext ?_
  match b with
  | ⟨0, _⟩ => rfl
  | ⟨1, _⟩ => rfl

theorem cnt_start0 (j : (⟨1, ![N]⟩ : Shape).Idx) : (cntDims G N wf).start j idx 0 = (idx (ix2 (j 0) (0 : Fin 1))).toInt := by
  unfold ScatterDims.start
  rw [dif_pos (show (0 : Fin 1) ∈ (cntDims G N wf).scatterDimsToOperandDims from List.mem_singleton.mpr rfl)]
  exact congrArg (fun q => (idx q).toInt) (cnt_siIdx wf j)
theorem cnt_window0 (j : (⟨1, ![N]⟩ : Shape).Idx) : (cntDims G N wf).window j 0 = 0 := rfl

theorem cnt_resultIdx_iff (j : (⟨1, ![N]⟩ : Shape).Idx) (g : Fin G) :
    (cntDims G N wf).resultIdx? j idx = some (ix1 g) ↔ (idx (ix2 (j 0) (0 : Fin 1))).toInt = (g.val : Int) := by
  unfold ScatterDims.resultIdx?
  split
  · rename_i h
    have h0 := h 0
    rw [cnt_start0, cnt_window0] at h0
    constructor
    · intro e
      have e0 := congrArg (fun f => (f 0).val) (Option.some.inj e)
      change ((cntDims G N wf).start j idx 0 + ((cntDims G N wf).window j 0 : Int)).toNat = g.val at e0
      rw [cnt_start0, cnt_window0] at e0
      omega
    · intro e0
      congr 1
      funext a; refine Fin.ext ?_
      obtain rfl : a = 0 := Subsingleton.elim _ _
      show ((cntDims G N wf).start j idx 0 + ((cntDims G N wf).window j 0 : Int)).toNat = g.val
      rw [cnt_start0, cnt_window0, e0]; omega
  · rename_i h
    constructor
    · intro e; exact absurd e (by simp)
    · intro e0
      exfalso; apply h
      intro a
      obtain rfl : a = 0 := Subsingleton.elim _ _
      show 0 ≤ (cntDims G N wf).start j idx 0 + ((cntDims G N wf).window j 0 : Int)
        ∧ (cntDims G N wf).start j idx 0 + ((cntDims G N wf).window j 0 : Int) < (G : Int)
      rw [cnt_start0, cnt_window0, e0]; have := g.isLt; omega

/-- THE COUNT AT g: the operand's element plus the sum of the updates of the rows whose index word reads g. -/
theorem cnt_apply (x : (⟨1, ![G]⟩ : Shape).Idx → EReal) (upd : (⟨1, ![N]⟩ : Shape).Idx → EReal) (g : Fin G) :
    Ideal.hostScatterAdd (cntDims G N wf) x idx upd (ix1 g)
      = x (ix1 g) + ∑ n : Fin N, if (idx (ix2 n (0 : Fin 1))).toInt = (g.val : Int) then upd (ix1 n) else 0 := by
  unfold Ideal.hostScatterAdd
  congr 1
  rw [← Finset.sum_filter]
  refine Finset.sum_bij' (fun j _ => j 0) (fun n _ => ix1 n) ?_ ?_ ?_ ?_ ?_
  · intro j hj
    exact Finset.mem_filter.2 ⟨Finset.mem_univ _, (cnt_resultIdx_iff wf idx j g).1 (Finset.mem_filter.1 hj).2⟩
  · intro n hn
    exact Finset.mem_filter.2 ⟨Finset.mem_univ _, (cnt_resultIdx_iff wf idx (ix1 n) g).2 (Finset.mem_filter.1 hn).2⟩
  · intro j hj; exact (eq_ix1 j).symm
  · intro n hn; rfl
  · intro j hj; exact congrArg upd (eq_ix1 j)

end Cnt

/-! ## A row lookup: row (index word, clamped) of a [G, 1, D] table, for each of N index words -/

/-- The dimension numbers of such a gather. -/
abbrev rowDims (G D N : Nat) (wf : GatherDims.WF ⟨3, ![G, 1, D]⟩ ⟨2, ![N, 1]⟩ ⟨3, ![N, 1, D]⟩ [1, 2] [0] [] [0] [] 1 ![1, 1, D]) :
    GatherDims ⟨3, ![G, 1, D]⟩ ⟨2, ![N, 1]⟩ ⟨3, ![N, 1, D]⟩ where
  offsetDims := [1, 2]
  collapsedSliceDims := [0]
  operandBatchingDims := []
  startIndicesBatchingDims := []
  startIndexMap := [0]
  indexVectorDim := 1
  sliceSizes := ![1, 1, D]
  wf := wf

/-- THE LOOKUP AT (n, 0, c): the table's row at n's index word, read signed and clamped into [0, G − 1], column c. -/
theorem row_apply {α : Type} {G D N w : Nat} (hG : 0 < G)
    (wf : GatherDims.WF ⟨3, ![G, 1, D]⟩ ⟨2, ![N, 1]⟩ ⟨3, ![N, 1, D]⟩ [1, 2] [0] [] [0] [] 1 ![1, 1, D])
    (x : (⟨3, ![G, 1, D]⟩ : Shape).Idx → α) (idx : IVec ⟨2, ![N, 1]⟩ w) (n : Fin N) (c : Fin D) :
    Host.gather (rowDims G D N wf) x idx (ix3 n (0 : Fin 1) c)
      = x (ix3 ⟨min (idx (ix2 n (0 : Fin 1))).toInt.toNat (G - 1), by omega⟩ (0 : Fin 1) c) := by
  unfold Host.gather
  congr 1
  funext a
  refine Fin.ext ?_
  have hsi : (rowDims G D N wf).siIdx (ix3 n (0 : Fin 1) c) ⟨0, Nat.one_pos⟩ = ix2 n (0 : Fin 1) := by
    funext b; refine Fin.ext ?_
    match b with
    | ⟨0, _⟩ => rfl
    | ⟨1, _⟩ => rfl
  match a with
  | ⟨0, _⟩ =>
    show (rowDims G D N wf).start (ix3 n (0 : Fin 1) c) idx 0 + (rowDims G D N wf).batchCoord (ix3 n (0 : Fin 1) c) 0
      + (rowDims G D N wf).offCoord (ix3 n (0 : Fin 1) c) 0 = min (idx (ix2 n (0 : Fin 1))).toInt.toNat (G - 1)
    have hb : (rowDims G D N wf).batchCoord (ix3 n (0 : Fin 1) c) 0 = 0 := rfl
    have ho : (rowDims G D N wf).offCoord (ix3 n (0 : Fin 1) c) 0 = 0 := rfl
    rw [hb, ho]
    unfold GatherDims.start
    rw [dif_pos (show (0 : Fin 3) ∈ (rowDims G D N wf).startIndexMap from List.mem_singleton.mpr rfl)]
    show min (idx ((rowDims G D N wf).siIdx (ix3 n (0 : Fin 1) c) ⟨0, Nat.one_pos⟩)).toInt.toNat (G - 1) + 0 + 0 = _
    rw [hsi]; rfl
  | ⟨1, _⟩ => rfl
  | ⟨2, _⟩ =>
    show (rowDims G D N wf).start (ix3 n (0 : Fin 1) c) idx 2 + (rowDims G D N wf).batchCoord (ix3 n (0 : Fin 1) c) 2
      + (rowDims G D N wf).offCoord (ix3 n (0 : Fin 1) c) 2 = c.val
    have hs : (rowDims G D N wf).start (ix3 n (0 : Fin 1) c) idx 2 = 0 := rfl
    have hb : (rowDims G D N wf).batchCoord (ix3 n (0 : Fin 1) c) 2 = 0 := rfl
    have ho : (rowDims G D N wf).offCoord (ix3 n (0 : Fin 1) c) 2 = c.val := rfl
    rw [hs, hb, ho]; omega

end Cert.RefValue

end
-- ==== Proof.RefCommon.lean ====
/- The words and the counts every block of the reference shares: small float constants as reals, an index word read
   as a signed integer, and the per-graph row count with its floor at one. -/
import proofs.«402630_j9972914061338_3_alg».proof.Proof.Gen.ReferenceIdeal.Read
import proofs.«402630_j9972914061338_3_alg».proof.Proof.Spec
import proofs.«402630_j9972914061338_3_alg».proof.Proof.RefDecode
import Idealize.ShloMosaic.Lib.ValueIdx
import Idealize.ShloMosaic.PureOps.Ideal.Laws

noncomputable section

namespace Cert.RefValue

open Idealize.ShloMosaic Idealize.ShloMosaic.ValueIdx
open scoped BigOperators

/-! ## The reference program, operation by operation -/

open Cert.ReferenceIdeal Cert.ReferenceIdeal.Read

/-- A 32-bit word reads g < 64 as a signed integer exactly when it is the word of g. -/
theorem toInt_eq_iff (v : BitVec 32) (g : Fin 64) : v.toInt = (g.val : Int) ↔ v = BitVec.ofNat 32 g.val := by
  have hg := g.isLt
  constructor
  · intro h
    apply BitVec.eq_of_toNat_eq
    rw [BitVec.toNat_ofNat]
    rw [BitVec.toInt_eq_toNat_cond] at h
    have := v.isLt
    split at h <;> omega
  · rintro rfl
    rw [BitVec.toInt_eq_toNat_cond, BitVec.toNat_ofNat]
    have : g.val % 2 ^ 32 = g.val := Nat.mod_eq_of_lt (by omega)
    rw [this, if_pos (by omega)]

theorem word_zero : Ideal.ofBits .f32 0x00000000#32 = (0 : EReal) := by
  simp [Ideal.ofBits, Ideal.ieee]
theorem word_one : Ideal.ofBits .f32 0x3F800000#32 = (1 : EReal) := by
  simp [Ideal.ofBits, Ideal.ieee]
  rw [← EReal.coe_mul]; norm_num
theorem word_64 : Ideal.ofBits .f32 0x42800000#32 = ((64 : ℝ) : EReal) := by
  simp [Ideal.ofBits, Ideal.ieee]
  rw [← EReal.coe_mul]; norm_num
theorem word_32 : Ideal.ofBits .f32 0x42000000#32 = ((32 : ℝ) : EReal) := by
  simp [Ideal.ofBits, Ideal.ieee]
  rw [← EReal.coe_mul]; norm_num
theorem word_16 : Ideal.ofBits .f32 0x41800000#32 = ((16 : ℝ) : EReal) := by
  simp [Ideal.ofBits, Ideal.ieee]
  rw [← EReal.coe_mul]; norm_num

/-- A word that reads a non-negative integer is not below zero in the signed order. -/
theorem slt_zero_of_nonneg (v : BitVec 32) (h : 0 ≤ v.toInt) : IntOp.cmpi .slt v 0#32 = 0#1 := by
  unfold IntOp.cmpi
  simp only [BitVec.slt, BitVec.toInt_zero]
  rw [decide_eq_false (by omega)]
  rfl

/-- A word that reads an integer in [0, 64), clamped into [0, 63], is its own natural-number value below 64. -/
theorem clamp_small (v : BitVec 32) (h : 0 ≤ v.toInt ∧ v.toInt < 64) : min v.toInt.toNat (64 - 1) = v.toNat % 64 := by
  obtain ⟨h0, h1⟩ := h
  rw [BitVec.toInt_eq_toNat_cond] at h0 h1
  have hlt := v.isLt
  rw [BitVec.toInt_eq_toNat_cond]
  split at h0 <;> omega

/-- The arguments over plain index types. -/
abbrev xf (X : FVec Ideal S200000x240 .f32) : Fin 200000 → Fin 240 → EReal := fun n k => X (ix2 n k)
abbrev bf (B : IVec S200000 32) : Fin 200000 → BitVec 32 := fun n => B (ix1 n)
abbrev wgt (W : FVec Ideal S112 .f32) : Fin 112 → EReal := fun i => W (ix1 i)
abbrev biasf (Bi : FVec Ideal S64 .f32) : Fin 64 → EReal := fun i => Bi (ix1 i)

section Prog
variable (X : FVec Ideal S200000x240 .f32) (B : IVec S200000 32) (W : FVec Ideal S112 .f32) (Bi : FVec Ideal S64 .f32)

/-! ### The divisor -/

theorem v3_eq (g : Fin 64) : val_main_v3 (F := Ideal) B (ix1 g) = Spec.C (bf B) g := by
  show Ideal.hostScatterAdd (cntDims 64 200000 _) (val_main_v1 (F := Ideal)) (val_main_v2 (F := Ideal) B)
    (val_main_v0 (F := Ideal)) (ix1 g) = _
  rw [cnt_apply, val_main_v1_apply, val_main_cst_0_apply]
  simp only [val_main_v2_apply, val_main_v0_apply, val_main_cst_apply, Ideal.ofBits_def, word_zero, word_one, zero_add]
  unfold Spec.C
  refine Finset.sum_congr rfl fun n _ => ?_
  have : idx_main_v2 (ix2 n (0 : Fin 1)) = ix1 n := by funext a; match a with | ⟨0, _⟩ => rfl
  rw [this]
  simp only [toInt_eq_iff]

theorem v5_eq (g : Fin 64) : val_main_v5 (F := Ideal) B (ix1 g) = Spec.cnt (Spec.C (bf B)) g := by
  rw [val_main_v5_apply, v3_eq, val_main_v4_apply, val_main_cst_1_apply]
  simp only [Ideal.ofBits_def, Ideal.maximumf_def, word_one]
  rfl

end Prog

end Cert.RefValue

end
-- ==== Proof.RefL0.lean ====
/- The scalar block of the reference (columns 0 .. 63), first half: its per-graph mean, the centred block, and the
   per-graph variance (the mean over rows and channels of the squared deviation). -/
import proofs.«402630_j9972914061338_3_alg».proof.Proof.Gen.ReferenceIdeal.Read
import proofs.«402630_j9972914061338_3_alg».proof.Proof.Spec
import proofs.«402630_j9972914061338_3_alg».proof.Proof.RefCommon
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx
open scoped BigOperators

open Cert.ReferenceIdeal Cert.ReferenceIdeal.Read

/-! ## A sum over the two last axes of a [64, 64, 1] array -/

/-- At g: the initial value plus the sum over the middle axis (the last axis has one coordinate). -/
theorem reduce12_apply (h : (⟨3, ![64, 64, 1]⟩ : Shape).ReducesTo [1, 2] ⟨1, ![64]⟩)
    (x : (⟨3, ![64, 64, 1]⟩ : Shape).Idx → EReal) (init : EReal) (g : Fin 64) :
    Ideal.hostReduceAdd h x init (ix1 g) = init + ∑ k : Fin 64, x (ix3 g k (0 : Fin 1)) := by
  unfold Ideal.hostReduceAdd
  congr 1
  have key : ∀ i : (⟨3, ![64, 64, 1]⟩ : Shape).Idx, h.drop i = ix1 g → i = ix3 g (i 1) (0 : Fin 1) := by
    intro i hd
    have h0 : (i 0).val = g.val := by
      have := congrArg (fun f => (f 0).val) hd
      rwa [Shape.ReducesTo.drop_apply_val_of_eq h i 0 0] at this
    have e0 : i 0 = g := Fin.ext h0
    have h2 : (i 2).val < 1 := (i 2).isLt
    have e2 : i 2 = (0 : Fin 1) := Fin.ext (by show (i 2).val = 0; omega)
    have e := eq_ix3 i
    rw [e0, e2] at e
    exact e
  refine Finset.sum_bij' (fun i _ => i 1) (fun k _ => ix3 g k (0 : Fin 1)) ?_ ?_ ?_ ?_ ?_
  · intro i _; exact Finset.mem_univ _
  · intro k _
    refine Finset.mem_filter.2 ⟨Finset.mem_univ _, ?_⟩
    funext b; refine Fin.ext ?_
    obtain rfl : b = 0 := Subsingleton.elim _ _
    exact Shape.ReducesTo.drop_apply_val_of_eq h _ 0 0
  · intro i hi; exact (key i (Finset.mem_filter.1 hi).2).symm
  · intro k _; rfl
  · intro i hi; exact congrArg x (key i (Finset.mem_filter.1 hi).2)

section L0
variable (X : FVec Ideal S200000x240 .f32) (B : IVec S200000 32) (W : FVec Ideal S112 .f32) (Bi : FVec Ideal S64 .f32)

/-- The scalar block as [row, channel, 1]: element (n, j, 0) is column j of row n. -/
theorem v7_eq (n : Fin 200000) (j : Fin 64) :
    val_main_v7 (F := Ideal) X (ix3 n j (0 : Fin 1)) = xf X n (Fin.castLE (by decide) j) := by
  rw [val_main_v7_apply, val_main_v6_apply]
  refine congrArg X (funext fun a => Fin.ext ?_)
  have hj := j.isLt
  match a with
  | ⟨0, _⟩ => show ((n.val * 64 + j.val) * 1 + 0) / 64 = n.val; omega
  | ⟨1, _⟩ => show ((n.val * 64 + j.val) * 1 + 0) % 64 = j.val; omega

/-- Its per-graph sums are the column sums S. -/
theorem v10_eq (g : Fin 64) (j : Fin 64) :
    val_main_v10 (F := Ideal) X B (ix3 g j (0 : Fin 1)) = Spec.S (xf X) (bf B) g (Fin.castLE (by decide) j) := by
  show Ideal.hostScatterAdd (segDims 64 64 1 200000 _) (val_main_v8 (F := Ideal)) (val_main_v9 (F := Ideal) B)
    (val_main_v7 (F := Ideal) X) (ix3 g j (0 : Fin 1)) = _
  rw [seg_apply, val_main_v8_apply, val_main_cst_2_apply]
  simp only [val_main_v9_apply, v7_eq, Ideal.ofBits_def, word_zero, zero_add]
  unfold Spec.S
  refine Finset.sum_congr rfl fun n _ => ?_
  have : idx_main_v9 (ix2 n (0 : Fin 1)) = ix1 n := by funext a; match a with | ⟨0, _⟩ => rfl
  rw [this]
  simp only [toInt_eq_iff]

/-- Divided by the count: the per-graph column means. -/
theorem v13_eq (g : Fin 64) (j : Fin 64) :
    val_main_v13 (F := Ideal) X B (ix3 g j (0 : Fin 1))
      = Spec.mf (Spec.S (xf X) (bf B)) (Spec.C (bf B)) g (Fin.castLE (by decide) j) := by
  rw [val_main_v13_apply, v10_eq, val_main_v12_apply, val_main_v11_apply]
  have : idx_main_v11 (idx_main_v12 (ix3 g j (0 : Fin 1))) = ix1 g := by
    funext a; refine Fin.ext ?_
    match a with
    | ⟨0, _⟩ => show (g.val * 1 + 0) * 1 + 0 = g.val; omega
  rw [this, v5_eq]
  rfl

/-- Averaged over the 64 channels: the block mean. -/
theorem v17_eq (g : Fin 64) :
    val_main_v17 (F := Ideal) X B (ix3 g (0 : Fin 1) (0 : Fin 1)) = Spec.mean0 (Spec.S (xf X) (bf B)) (Spec.C (bf B)) g := by
  rw [val_main_v17_apply, val_main_v15_apply, val_main_v16_apply, val_main_cst_4_apply]
  have h15 : idx_main_v15 (ix3 g (0 : Fin 1) (0 : Fin 1)) = ix2 g (0 : Fin 1) := by
    funext a; match a with | ⟨0, _⟩ => rfl | ⟨1, _⟩ => rfl
  rw [h15, val_main_v14_apply, val_main_cst_3_apply]
  have h14 : ∀ k : Fin 64, idx_main_v14 (ix2 g (0 : Fin 1)) k = ix3 g k (0 : Fin 1) := fun k => by
    funext a; match a with | ⟨0, _⟩ => rfl | ⟨1, _⟩ => rfl | ⟨2, _⟩ => rfl
  simp only [h14, v13_eq, Ideal.ofBits_def, Ideal.hostDivf_def, word_zero, word_64, zero_add]
  rfl

/-- The lookup index of row n is its graph word itself. -/
theorem v22_eq (hB : ∀ i, 0 ≤ (B i).toInt ∧ (B i).toInt < 64) (n : Fin 200000) :
    val_main_v22 (F := Ideal) B (ix1 n) = B (ix1 n) := by
  rw [val_main_v22_apply, val_main_v19_apply, val_main_v18_apply, val_main_c_apply,
    slt_zero_of_nonneg _ (hB (ix1 n)).1, select_zero]

/-- Row n looks up its own graph's block mean. -/
theorem v24_eq (hB : ∀ i, 0 ≤ (B i).toInt ∧ (B i).toInt < 64) (n : Fin 200000) :
    val_main_v24 (F := Ideal) X B (ix3 n (0 : Fin 1) (0 : Fin 1))
      = Spec.mean0 (Spec.S (xf X) (bf B)) (Spec.C (bf B)) (Spec.gid (bf B) n) := by
  rw [← v17_eq]
  show Host.gather (rowDims 64 1 200000 _) (val_main_v17 (F := Ideal) X B) (val_main_v23 (F := Ideal) B)
    (ix3 n (0 : Fin 1) (0 : Fin 1)) = _
  rw [row_apply (by decide)]
  refine congrArg (val_main_v17 (F := Ideal) X B) (funext fun a => Fin.ext ?_)
  match a with
  | ⟨0, _⟩ =>
    show min (val_main_v23 (F := Ideal) B (ix2 n (0 : Fin 1))).toInt.toNat (64 - 1) = (B (ix1 n)).toNat % 64
    have : idx_main_v23 (ix2 n (0 : Fin 1)) = ix1 n := by funext a; match a with | ⟨0, _⟩ => rfl
    rw [val_main_v23_apply, this, v22_eq B hB, clamp_small _ (hB (ix1 n))]
  | ⟨1, _⟩ => rfl
  | ⟨2, _⟩ => rfl

/-- The centred scalar block. -/
theorem v26_eq (hB : ∀ i, 0 ≤ (B i).toInt ∧ (B i).toInt < 64) (n : Fin 200000) (j : Fin 64) :
    val_main_v26 (F := Ideal) X B (ix3 n j (0 : Fin 1))
      = xf X n (Fin.castLE (by decide) j) - Spec.mean0 (Spec.S (xf X) (bf B)) (Spec.C (bf B)) (Spec.gid (bf B) n) := by
  rw [val_main_v26_apply, v7_eq, val_main_v25_apply]
  have : idx_main_v25 (ix3 n j (0 : Fin 1)) = ix3 n (0 : Fin 1) (0 : Fin 1) := by
    funext a; match a with | ⟨0, _⟩ => rfl | ⟨1, _⟩ => rfl | ⟨2, _⟩ => rfl
  rw [this, v24_eq X B hB]
  rfl

/-- The per-graph sums of its squares, over the count. -/
theorem v33_eq (hB : ∀ i, 0 ≤ (B i).toInt ∧ (B i).toInt < 64) (g : Fin 64) (j : Fin 64) :
    val_main_v33 (F := Ideal) X B (ix3 g j (0 : Fin 1))
      = Ideal.div (∑ n : Fin 200000, if bf B n = BitVec.ofNat 32 g.val then
            (xf X n (Fin.castLE (by decide) j) - Spec.mean0 (Spec.S (xf X) (bf B)) (Spec.C (bf B)) (Spec.gid (bf B) n))
              * (xf X n (Fin.castLE (by decide) j) - Spec.mean0 (Spec.S (xf X) (bf B)) (Spec.C (bf B)) (Spec.gid (bf B) n))
          else 0)
        (Spec.cnt (Spec.C (bf B)) g) := by
  rw [val_main_v33_apply, val_main_v32_apply, val_main_v31_apply]
  have : idx_main_v31 (idx_main_v32 (ix3 g j (0 : Fin 1))) = ix1 g := by
    funext a; refine Fin.ext ?_
    match a with
    | ⟨0, _⟩ => show (g.val * 1 + 0) * 1 + 0 = g.val; omega
  rw [this, v5_eq]
  have h30 : val_main_v30 (F := Ideal) X B (ix3 g j (0 : Fin 1))
      = ∑ n : Fin 200000, if bf B n = BitVec.ofNat 32 g.val then
            (xf X n (Fin.castLE (by decide) j) - Spec.mean0 (Spec.S (xf X) (bf B)) (Spec.C (bf B)) (Spec.gid (bf B) n))
              * (xf X n (Fin.castLE (by decide) j) - Spec.mean0 (Spec.S (xf X) (bf B)) (Spec.C (bf B)) (Spec.gid (bf B) n))
          else 0 := by
    show Ideal.hostScatterAdd (segDims 64 64 1 200000 _) (val_main_v28 (F := Ideal)) (val_main_v29 (F := Ideal) B)
      (val_main_v27 (F := Ideal) X B) (ix3 g j (0 : Fin 1)) = _
    rw [seg_apply, val_main_v28_apply, val_main_cst_6_apply]
    simp only [val_main_v29_apply, val_main_v27_apply, v26_eq X B hB, Ideal.ofBits_def, Ideal.mulf_def, word_zero, zero_add]
    refine Finset.sum_congr rfl fun n _ => ?_
    have : idx_main_v29 (ix2 n (0 : Fin 1)) = ix1 n := by funext a; match a with | ⟨0, _⟩ => rfl
    rw [this]
    simp only [toInt_eq_iff]
  rw [h30]
  rfl

/-- Averaged over the 64 channels: the variance of the scalar block. -/
theorem v37_eq (hB : ∀ i, 0 ≤ (B i).toInt ∧ (B i).toInt < 64) (g : Fin 64) :
    val_main_v37 (F := Ideal) X B (ix3 g (0 : Fin 1) (0 : Fin 1)) = Spec.norm (xf X) (bf B) g := by
  rw [val_main_v37_apply, val_main_v35_apply, val_main_v36_apply, val_main_cst_8_apply]
  have h35 : idx_main_v35 (ix3 g (0 : Fin 1) (0 : Fin 1)) = ix1 g := by
    funext a; match a with | ⟨0, _⟩ => rfl
  rw [h35]
  have h34 : val_main_v34 (F := Ideal) X B (ix1 g)
      = val_main_cst_7 (F := Ideal) (Shape.Idx.first Facts₀.h_S_) + ∑ k : Fin 64, val_main_v33 (F := Ideal) X B (ix3 g k (0 : Fin 1)) :=
    reduce12_apply Facts₀.reducesTo_S64x64x1_S64_d1_2 (val_main_v33 (F := Ideal) X B) _ g
  rw [h34, val_main_cst_7_apply]
  simp only [v33_eq X B hB, Ideal.ofBits_def, Ideal.hostDivf_def, word_zero, word_64, zero_add]
  rfl

end L0

end Cert.RefValue

end
-- ==== Proof.RefL1.lean ====
/- The l = 1 block of the reference (columns 64 .. 159, read as 32 multiplicities of 3 components): each feature
   minus its graph's block mean, times the weight of its multiplicity. -/
import proofs.«402630_j9972914061338_3_alg».proof.Proof.Gen.ReferenceIdeal.Read
import proofs.«402630_j9972914061338_3_alg».proof.Proof.Spec
import proofs.«402630_j9972914061338_3_alg».proof.Proof.RefCommon
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx
open scoped BigOperators

open Cert.ReferenceIdeal Cert.ReferenceIdeal.Read

section L1
variable (X : FVec Ideal S200000x240 .f32) (B : IVec S200000 32) (W : FVec Ideal S112 .f32)

/-- Column 64 + 3u + d of the features is a column. -/
theorem col1_lt (u : Fin 32) (d : Fin 3) : 64 + 3 * u.val + d.val < 240 := by
  have := u.isLt; have := d.isLt; omega

/-- The l = 1 block as [row, multiplicity, component]: element (n, u, d) is column 64 + 3u + d of row n. -/
theorem v59_eq (n : Fin 200000) (u : Fin 32) (d : Fin 3) :
    val_main_v59 (F := Ideal) X (ix3 n u d) = xf X n ⟨64 + 3 * u.val + d.val, col1_lt u d⟩ := by
  rw [val_main_v59_apply, val_main_v58_apply]
  refine congrArg X (funext fun a => Fin.ext ?_)
  have hu := u.isLt; have hd := d.isLt
  match a with
  | ⟨0, _⟩ => show ((n.val * 32 + u.val) * 3 + d.val) / 96 = n.val; omega
  | ⟨1, _⟩ => show 64 + ((n.val * 32 + u.val) * 3 + d.val) % 96 = 64 + 3 * u.val + d.val; omega

/-- Its per-graph sums are the column sums S. -/
theorem v62_eq (g : Fin 64) (u : Fin 32) (d : Fin 3) :
    val_main_v62 (F := Ideal) X B (ix3 g u d) = Spec.S (xf X) (bf B) g ⟨64 + 3 * u.val + d.val, col1_lt u d⟩ := by
  show Ideal.hostScatterAdd (segDims 64 32 3 200000 _) (val_main_v60 (F := Ideal)) (val_main_v61 (F := Ideal) B)
    (val_main_v59 (F := Ideal) X) (ix3 g u d) = _
  rw [seg_apply, val_main_v60_apply, val_main_cst_12_apply]
  simp only [val_main_v61_apply, v59_eq, Ideal.ofBits_def, word_zero, zero_add]
  unfold Spec.S
  refine Finset.sum_congr rfl fun n _ => ?_
  have : idx_main_v61 (ix2 n (0 : Fin 1)) = ix1 n := by funext a; match a with | ⟨0, _⟩ => rfl
  rw [this]
  simp only [toInt_eq_iff]

/-- Divided by the count: the per-graph column means. -/
theorem v65_eq (g : Fin 64) (u : Fin 32) (d : Fin 3) :
    val_main_v65 (F := Ideal) X B (ix3 g u d)
      = Spec.mf (Spec.S (xf X) (bf B)) (Spec.C (bf B)) g ⟨64 + 3 * u.val + d.val, col1_lt u d⟩ := by
  rw [val_main_v65_apply, v62_eq, val_main_v64_apply, val_main_v63_apply]
  have : idx_main_v63 (idx_main_v64 (ix3 g u d)) = ix1 g := by
    funext a; refine Fin.ext ?_
    match a with
    | ⟨0, _⟩ => show (g.val * 1 + 0) * 1 + 0 = g.val; omega
  rw [this, v5_eq]
  rfl

/-- Averaged over the 32 multiplicities: the block mean, per component. -/
theorem v69_eq (g : Fin 64) (d : Fin 3) :
    val_main_v69 (F := Ideal) X B (ix3 g (0 : Fin 1) d) = Spec.mean1 (Spec.S (xf X) (bf B)) (Spec.C (bf B)) g d := by
  rw [val_main_v69_apply, val_main_v67_apply, val_main_v68_apply, val_main_cst_14_apply]
  have h67 : idx_main_v67 (ix3 g (0 : Fin 1) d) = ix2 g d := by
    funext a; match a with | ⟨0, _⟩ => rfl | ⟨1, _⟩ => rfl
  rw [h67, val_main_v66_apply, val_main_cst_13_apply]
  have h66 : ∀ k : Fin 32, idx_main_v66 (ix2 g d) k = ix3 g k d := fun k => by
    funext a; match a with | ⟨0, _⟩ => rfl | ⟨1, _⟩ => rfl | ⟨2, _⟩ => rfl
  simp only [h66, v65_eq, Ideal.ofBits_def, Ideal.hostDivf_def, word_zero, word_32, zero_add]
  rfl

/-- The lookup index of row n is its graph word itself: the program adds 64 only to a negative word. -/
theorem v74_eq (hB : ∀ i, 0 ≤ (B i).toInt ∧ (B i).toInt < 64) (n : Fin 200000) :
    val_main_v74 (F := Ideal) B (ix1 n) = B (ix1 n) := by
  rw [val_main_v74_apply, val_main_v71_apply, val_main_v70_apply, val_main_c_15_apply,
    slt_zero_of_nonneg _ (hB (ix1 n)).1, select_zero]

/-- Row n looks up its own graph's block mean. -/
theorem v76_eq (hB : ∀ i, 0 ≤ (B i).toInt ∧ (B i).toInt < 64) (n : Fin 200000) (d : Fin 3) :
    val_main_v76 (F := Ideal) X B (ix3 n (0 : Fin 1) d)
      = Spec.mean1 (Spec.S (xf X) (bf B)) (Spec.C (bf B)) (Spec.gid (bf B) n) d := by
  rw [← v69_eq]
  show Host.gather (rowDims 64 3 200000 _) (val_main_v69 (F := Ideal) X B) (val_main_v75 (F := Ideal) B)
    (ix3 n (0 : Fin 1) d) = _
  rw [row_apply (by decide)]
  refine congrArg (val_main_v69 (F := Ideal) X B) (funext fun a => Fin.ext ?_)
  match a with
  | ⟨0, _⟩ =>
    show min (val_main_v75 (F := Ideal) B (ix2 n (0 : Fin 1))).toInt.toNat (64 - 1) = (B (ix1 n)).toNat % 64
    have : idx_main_v75 (ix2 n (0 : Fin 1)) = ix1 n := by funext a; match a with | ⟨0, _⟩ => rfl
    rw [val_main_v75_apply, this, v74_eq B hB, clamp_small _ (hB (ix1 n))]
  | ⟨1, _⟩ => rfl
  | ⟨2, _⟩ => rfl

/-- THE l = 1 BLOCK AT (n, j): the centred feature times the weight of its multiplicity. -/
theorem v83_eq (hB : ∀ i, 0 ≤ (B i).toInt ∧ (B i).toInt < 64) (n : Fin 200000) (j : Fin 96) :
    val_main_v83 (F := Ideal) X B W (ix2 n j)
      = (xf X n ⟨64 + j.val, by have := j.isLt; omega⟩
          - Spec.mean1 (Spec.S (xf X) (bf B)) (Spec.C (bf B)) (Spec.gid (bf B) n) ⟨j.val % 3, Nat.mod_lt _ (by decide)⟩)
        * wgt W ⟨64 + j.val / 3, by have := j.isLt; omega⟩ := by
  have hj := j.isLt
  rw [val_main_v83_apply]
  have hi : idx_main_v83 (ix2 n j) = ix3 n (⟨j.val / 3, by omega⟩ : Fin 32) (⟨j.val % 3, Nat.mod_lt _ (by decide)⟩ : Fin 3) := by
    funext a; refine Fin.ext ?_
    match a with
    | ⟨0, _⟩ => show (n.val * 96 + j.val) / 96 = n.val; omega
    | ⟨1, _⟩ => show (n.val * 96 + j.val) / 3 % 32 = j.val / 3; omega
    | ⟨2, _⟩ => show (n.val * 96 + j.val) % 3 = j.val % 3; omega
  rw [hi, val_main_v82_apply, val_main_v78_apply, v59_eq, val_main_v77_apply, val_main_v81_apply, val_main_v80_apply,
    val_main_v79_apply]
  have h77 : idx_main_v77 (ix3 n (⟨j.val / 3, by omega⟩ : Fin 32) (⟨j.val % 3, Nat.mod_lt _ (by decide)⟩ : Fin 3))
      = ix3 n (0 : Fin 1) (⟨j.val % 3, Nat.mod_lt _ (by decide)⟩ : Fin 3) := by
    funext a; match a with | ⟨0, _⟩ => rfl | ⟨1, _⟩ => rfl | ⟨2, _⟩ => rfl
  have h81 : idx_main_v79 (idx_main_v80 (idx_main_v81
      (ix3 n (⟨j.val / 3, by omega⟩ : Fin 32) (⟨j.val % 3, Nat.mod_lt _ (by decide)⟩ : Fin 3))))
      = ix1 (⟨64 + j.val / 3, by omega⟩ : Fin 112) := by
    funext a; match a with | ⟨0, _⟩ => rfl
  rw [h77, h81, v76_eq X B hB]
  have hc : (⟨64 + 3 * (j.val / 3) + j.val % 3, col1_lt ⟨j.val / 3, by omega⟩ ⟨j.val % 3, Nat.mod_lt _ (by decide)⟩⟩ : Fin 240)
      = ⟨64 + j.val, by omega⟩ := Fin.ext (by show 64 + 3 * (j.val / 3) + j.val % 3 = 64 + j.val; omega)
  rw [hc]
  rfl

end L1

end Cert.RefValue

end
-- ==== Proof.RefL2.lean ====
/- The l = 2 block of the reference (columns 160 .. 239, read as 16 multiplicities of 5 components): each feature
   minus its graph's block mean, times the weight of its multiplicity. -/
import proofs.«402630_j9972914061338_3_alg».proof.Proof.Gen.ReferenceIdeal.Read
import proofs.«402630_j9972914061338_3_alg».proof.Proof.Spec
import proofs.«402630_j9972914061338_3_alg».proof.Proof.RefCommon
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx
open scoped BigOperators

open Cert.ReferenceIdeal Cert.ReferenceIdeal.Read

section L2
variable (X : FVec Ideal S200000x240 .f32) (B : IVec S200000 32) (W : FVec Ideal S112 .f32)

/-- Column 160 + 5u + d of the features is a column. -/
theorem col2_lt (u : Fin 16) (d : Fin 5) : 160 + 5 * u.val + d.val < 240 := by
  have := u.isLt; have := d.isLt; omega

/-- The l = 2 block as [row, multiplicity, component]: element (n, u, d) is column 160 + 5u + d of row n. -/
theorem v85_eq (n : Fin 200000) (u : Fin 16) (d : Fin 5) :
    val_main_v85 (F := Ideal) X (ix3 n u d) = xf X n ⟨160 + 5 * u.val + d.val, col2_lt u d⟩ := by
  rw [val_main_v85_apply, val_main_v84_apply]
  refine congrArg X (funext fun a => Fin.ext ?_)
  have hu := u.isLt; have hd := d.isLt
  match a with
  | ⟨0, _⟩ => show ((n.val * 16 + u.val) * 5 + d.val) / 80 = n.val; omega
  | ⟨1, _⟩ => show 160 + ((n.val * 16 + u.val) * 5 + d.val) % 80 = 160 + 5 * u.val + d.val; omega

/-- Its per-graph sums are the column sums S. -/
theorem v88_eq (g : Fin 64) (u : Fin 16) (d : Fin 5) :
    val_main_v88 (F := Ideal) X B (ix3 g u d) = Spec.S (xf X) (bf B) g ⟨160 + 5 * u.val + d.val, col2_lt u d⟩ := by
  show Ideal.hostScatterAdd (segDims 64 16 5 200000 _) (val_main_v86 (F := Ideal)) (val_main_v87 (F := Ideal) B)
    (val_main_v85 (F := Ideal) X) (ix3 g u d) = _
  rw [seg_apply, val_main_v86_apply, val_main_cst_17_apply]
  simp only [val_main_v87_apply, v85_eq, Ideal.ofBits_def, word_zero, zero_add]
  unfold Spec.S
  refine Finset.sum_congr rfl fun n _ => ?_
  have : idx_main_v87 (ix2 n (0 : Fin 1)) = ix1 n := by funext a; match a with | ⟨0, _⟩ => rfl
  rw [this]
  simp only [toInt_eq_iff]

/-- Divided by the count: the per-graph column means. -/
theorem v91_eq (g : Fin 64) (u : Fin 16) (d : Fin 5) :
    val_main_v91 (F := Ideal) X B (ix3 g u d)
      = Spec.mf (Spec.S (xf X) (bf B)) (Spec.C (bf B)) g ⟨160 + 5 * u.val + d.val, col2_lt u d⟩ := by
  rw [val_main_v91_apply, v88_eq, val_main_v90_apply, val_main_v89_apply]
  have : idx_main_v89 (idx_main_v90 (ix3 g u d)) = ix1 g := by
    funext a; refine Fin.ext ?_
    match a with
    | ⟨0, _⟩ => show (g.val * 1 + 0) * 1 + 0 = g.val; omega
  rw [this, v5_eq]
  rfl

/-- Averaged over the 16 multiplicities: the block mean, per component. -/
theorem v95_eq (g : Fin 64) (d : Fin 5) :
    val_main_v95 (F := Ideal) X B (ix3 g (0 : Fin 1) d) = Spec.mean2 (Spec.S (xf X) (bf B)) (Spec.C (bf B)) g d := by
  rw [val_main_v95_apply, val_main_v93_apply, val_main_v94_apply, val_main_cst_19_apply]
  have h93 : idx_main_v93 (ix3 g (0 : Fin 1) d) = ix2 g d := by
    funext a; match a with | ⟨0, _⟩ => rfl | ⟨1, _⟩ => rfl
  rw [h93, val_main_v92_apply, val_main_cst_18_apply]
  have h92 : ∀ k : Fin 16, idx_main_v92 (ix2 g d) k = ix3 g k d := fun k => by
    funext a; match a with | ⟨0, _⟩ => rfl | ⟨1, _⟩ => rfl | ⟨2, _⟩ => rfl
  simp only [h92, v91_eq, Ideal.ofBits_def, Ideal.hostDivf_def, word_zero, word_16, zero_add]
  rfl

/-- The lookup index of row n is its graph word itself: the program adds 64 only to a negative word. -/
theorem v100_eq (hB : ∀ i, 0 ≤ (B i).toInt ∧ (B i).toInt < 64) (n : Fin 200000) :
    val_main_v100 (F := Ideal) B (ix1 n) = B (ix1 n) := by
  rw [val_main_v100_apply, val_main_v97_apply, val_main_v96_apply, val_main_c_20_apply,
    slt_zero_of_nonneg _ (hB (ix1 n)).1, select_zero]

/-- Row n looks up its own graph's block mean. -/
theorem v102_eq (hB : ∀ i, 0 ≤ (B i).toInt ∧ (B i).toInt < 64) (n : Fin 200000) (d : Fin 5) :
    val_main_v102 (F := Ideal) X B (ix3 n (0 : Fin 1) d)
      = Spec.mean2 (Spec.S (xf X) (bf B)) (Spec.C (bf B)) (Spec.gid (bf B) n) d := by
  rw [← v95_eq]
  show Host.gather (rowDims 64 5 200000 _) (val_main_v95 (F := Ideal) X B) (val_main_v101 (F := Ideal) B)
    (ix3 n (0 : Fin 1) d) = _
  rw [row_apply (by decide)]
  refine congrArg (val_main_v95 (F := Ideal) X B) (funext fun a => Fin.ext ?_)
  match a with
  | ⟨0, _⟩ =>
    show min (val_main_v101 (F := Ideal) B (ix2 n (0 : Fin 1))).toInt.toNat (64 - 1) = (B (ix1 n)).toNat % 64
    have : idx_main_v101 (ix2 n (0 : Fin 1)) = ix1 n := by funext a; match a with | ⟨0, _⟩ => rfl
    rw [val_main_v101_apply, this, v100_eq B hB, clamp_small _ (hB (ix1 n))]
  | ⟨1, _⟩ => rfl
  | ⟨2, _⟩ => rfl

/-- THE l = 2 BLOCK AT (n, j): the centred feature times the weight of its multiplicity. -/
theorem v109_eq (hB : ∀ i, 0 ≤ (B i).toInt ∧ (B i).toInt < 64) (n : Fin 200000) (j : Fin 80) :
    val_main_v109 (F := Ideal) X B W (ix2 n j)
      = (xf X n ⟨160 + j.val, by have := j.isLt; omega⟩
          - Spec.mean2 (Spec.S (xf X) (bf B)) (Spec.C (bf B)) (Spec.gid (bf B) n) ⟨j.val % 5, Nat.mod_lt _ (by decide)⟩)
        * wgt W ⟨96 + j.val / 5, by have := j.isLt; omega⟩ := by
  have hj := j.isLt
  rw [val_main_v109_apply]
  have hi : idx_main_v109 (ix2 n j) = ix3 n (⟨j.val / 5, by omega⟩ : Fin 16) (⟨j.val % 5, Nat.mod_lt _ (by decide)⟩ : Fin 5) := by
    funext a; refine Fin.ext ?_
    match a with
    | ⟨0, _⟩ => show (n.val * 80 + j.val) / 80 = n.val; omega
    | ⟨1, _⟩ => show (n.val * 80 + j.val) / 5 % 16 = j.val / 5; omega
    | ⟨2, _⟩ => show (n.val * 80 + j.val) % 5 = j.val % 5; omega
  rw [hi, val_main_v108_apply, val_main_v104_apply, v85_eq, val_main_v103_apply, val_main_v107_apply, val_main_v106_apply,
    val_main_v105_apply]
  have h103 : idx_main_v103 (ix3 n (⟨j.val / 5, by omega⟩ : Fin 16) (⟨j.val % 5, Nat.mod_lt _ (by decide)⟩ : Fin 5))
      = ix3 n (0 : Fin 1) (⟨j.val % 5, Nat.mod_lt _ (by decide)⟩ : Fin 5) := by
    funext a; match a with | ⟨0, _⟩ => rfl | ⟨1, _⟩ => rfl | ⟨2, _⟩ => rfl
  have h107 : idx_main_v105 (idx_main_v106 (idx_main_v107
      (ix3 n (⟨j.val / 5, by omega⟩ : Fin 16) (⟨j.val % 5, Nat.mod_lt _ (by decide)⟩ : Fin 5))))
      = ix1 (⟨96 + j.val / 5, by omega⟩ : Fin 112) := by
    funext a; match a with | ⟨0, _⟩ => rfl
  rw [h103, h107, v102_eq X B hB]
  have hc : (⟨160 + 5 * (j.val / 5) + j.val % 5, col2_lt ⟨j.val / 5, by omega⟩ ⟨j.val % 5, Nat.mod_lt _ (by decide)⟩⟩ : Fin 240)
      = ⟨160 + j.val, by omega⟩ := Fin.ext (by show 160 + 5 * (j.val / 5) + j.val % 5 = 160 + j.val; omega)
  rw [hc]
  rfl

end L2

end Cert.RefValue

end
-- ==== Proof.RefValue.lean ====
/- The reference program's value, index by index: the scalar block normalised by its graph's standard deviation,
   weighted and shifted; the l = 1 and l = 2 blocks centred and weighted; the three side by side. -/
import proofs.«402630_j9972914061338_3_alg».proof.Proof.Gen.ReferenceIdeal.Read
import proofs.«402630_j9972914061338_3_alg».proof.Proof.Spec
import proofs.«402630_j9972914061338_3_alg».proof.Proof.RefL0
import proofs.«402630_j9972914061338_3_alg».proof.Proof.RefL1
import proofs.«402630_j9972914061338_3_alg».proof.Proof.RefL2
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx
open scoped BigOperators

open Cert.ReferenceIdeal Cert.ReferenceIdeal.Read

section L0b
variable (X : FVec Ideal S200000x240 .f32) (B : IVec S200000 32) (W : FVec Ideal S112 .f32) (Bi : FVec Ideal S64 .f32)

/-- The second lookup index of row n is its graph word too. -/
theorem v43_eq (hB : ∀ i, 0 ≤ (B i).toInt ∧ (B i).toInt < 64) (n : Fin 200000) :
    val_main_v43 (F := Ideal) B (ix1 n) = B (ix1 n) := by
  rw [val_main_v43_apply, val_main_v40_apply, val_main_v39_apply, val_main_c_9_apply,
    slt_zero_of_nonneg _ (hB (ix1 n)).1, select_zero]

/-- Row n looks up its own graph's standard deviation. -/
theorem v45_eq (hB : ∀ i, 0 ≤ (B i).toInt ∧ (B i).toInt < 64) (n : Fin 200000) :
    val_main_v45 (F := Ideal) X B (ix3 n (0 : Fin 1) (0 : Fin 1))
      = Ideal.sqrt (Spec.norm (xf X) (bf B) (Spec.gid (bf B) n)) := by
  rw [← v37_eq X B hB]
  show Host.gather (rowDims 64 1 200000 _) (val_main_v38 (F := Ideal) X B) (val_main_v44 (F := Ideal) B)
    (ix3 n (0 : Fin 1) (0 : Fin 1)) = _
  rw [row_apply (by decide), val_main_v38_apply, Ideal.hostUnary_sqrt_def]
  refine congrArg (fun q => Ideal.sqrt (val_main_v37 (F := Ideal) X B q)) (funext fun a => Fin.ext ?_)
  match a with
  | ⟨0, _⟩ =>
    show min (val_main_v44 (F := Ideal) B (ix2 n (0 : Fin 1))).toInt.toNat (64 - 1) = (B (ix1 n)).toNat % 64
    have : idx_main_v44 (ix2 n (0 : Fin 1)) = ix1 n := by funext a; match a with | ⟨0, _⟩ => rfl
    rw [val_main_v44_apply, this, v43_eq B hB, clamp_small _ (hB (ix1 n))]
  | ⟨1, _⟩ => rfl
  | ⟨2, _⟩ => rfl

/-- THE SCALAR BLOCK AT (n, j): the centred feature over (standard deviation + eps), times the channel's weight, plus
    its bias. -/
theorem v57_eq (hB : ∀ i, 0 ≤ (B i).toInt ∧ (B i).toInt < 64) (n : Fin 200000) (j : Fin 64) :
    val_main_v57 (F := Ideal) X B W Bi (ix2 n j)
      = Ideal.div (xf X n (Fin.castLE (by decide) j) - Spec.mean0 (Spec.S (xf X) (bf B)) (Spec.C (bf B)) (Spec.gid (bf B) n))
            (Ideal.sqrt (Spec.norm (xf X) (bf B) (Spec.gid (bf B) n)) + Spec.eps)
          * wgt W (Fin.castLE (by decide) j) + biasf Bi j := by
  have hj := j.isLt
  rw [val_main_v57_apply]
  have hi : idx_main_v57 (ix2 n j) = ix3 n j (0 : Fin 1) := by
    funext a; refine Fin.ext ?_
    match a with
    | ⟨0, _⟩ => show (n.val * 64 + j.val) / 64 = n.val; omega
    | ⟨1, _⟩ => show (n.val * 64 + j.val) / 1 % 64 = j.val; omega
    | ⟨2, _⟩ => rfl
  have h48 : idx_main_v48 (ix3 n j (0 : Fin 1)) = ix3 n (0 : Fin 1) (0 : Fin 1) := by
    funext a; match a with | ⟨0, _⟩ => rfl | ⟨1, _⟩ => rfl | ⟨2, _⟩ => rfl
  have h52 : idx_main_v50 (idx_main_v51 (idx_main_v52 (ix3 n j (0 : Fin 1)))) = ix1 (Fin.castLE (by decide) j : Fin 112) := by
    funext a; match a with | ⟨0, _⟩ => rfl
  have h55 : idx_main_v54 (idx_main_v55 (ix3 n j (0 : Fin 1))) = ix1 j := by
    funext a; match a with | ⟨0, _⟩ => rfl
  rw [hi, val_main_v56_apply, val_main_v53_apply, val_main_v49_apply, v26_eq X B hB, val_main_v48_apply, h48,
    val_main_v47_apply, v45_eq X B hB, val_main_v46_apply, val_main_cst_11_apply, val_main_v52_apply, val_main_v51_apply,
    val_main_v50_apply, h52, val_main_v55_apply, val_main_v54_apply, h55]
  rfl

end L0b

/-! ## The three blocks side by side -/

/-- THE REFERENCE'S VALUE at (n, k): the block that column k falls in, at its own column. -/
theorem ref_value (X : FVec Ideal Cert.ReferenceIdeal.S200000x240 .f32) (B : IVec Cert.ReferenceIdeal.S200000 32)
    (W : FVec Ideal Cert.ReferenceIdeal.S112 .f32) (Bi : FVec Ideal Cert.ReferenceIdeal.S64 .f32)
    (hB : ∀ i, 0 ≤ (B i).toInt ∧ (B i).toInt < 64) (n : Fin 200000) (k : Fin 240) :
    Cert.ReferenceIdeal.Read.val_main_v110 (F := Ideal) X B W Bi (ValueIdx.ix2 n k)
      = Cert.Spec.R (fun n k => X (ValueIdx.ix2 n k)) (fun n => B (ValueIdx.ix1 n)) (fun i => W (ValueIdx.ix1 i))
          (fun i => Bi (ValueIdx.ix1 i)) n k := by
  have hk := k.isLt
  unfold val_main_v110
  show _ = Spec.R (xf X) (bf B) (wgt W) (biasf Bi) n k
  unfold Spec.R
  by_cases h : k.val < 64
  · rw [dif_pos h]
    refine (concatenate_apply_piece _ _ _ (ix2 n k) 0 (by show 0 < 3; omega) S200000x64 (val_main_v57 (F := Ideal) X B W Bi) rfl rfl
      0 rfl (ix2 n (⟨k.val, h⟩ : Fin 64)) ?_ ?_).trans ?_
    · intro b hb
      match b with
      | ⟨0, _⟩ => rfl
      | ⟨1, _⟩ => exact absurd rfl hb
    · show 0 + k.val = k.val; omega
    · rw [v57_eq X B W Bi hB]; rfl
  · rw [dif_neg h]
    by_cases h2 : k.val < 160
    · rw [dif_pos h2]
      refine (concatenate_apply_piece _ _ _ (ix2 n k) 1 (by show 1 < 3; omega) S200000x96 (val_main_v83 (F := Ideal) X B W) rfl rfl
        64 rfl (ix2 n (⟨k.val - 64, by omega⟩ : Fin 96)) ?_ ?_).trans ?_
      · intro b hb
        match b with
        | ⟨0, _⟩ => rfl
        | ⟨1, _⟩ => exact absurd rfl hb
      · show 64 + (k.val - 64) = k.val; omega
      · rw [v83_eq X B W hB]
        have hc : (⟨64 + (k.val - 64), by omega⟩ : Fin 240) = k := Fin.ext (by show 64 + (k.val - 64) = k.val; omega)
        rw [hc]
    · rw [dif_neg h2]
      refine (concatenate_apply_piece _ _ _ (ix2 n k) 2 (by show 2 < 3; omega) S200000x80 (val_main_v109 (F := Ideal) X B W) rfl rfl
        160 rfl (ix2 n (⟨k.val - 160, by omega⟩ : Fin 80)) ?_ ?_).trans ?_
      · intro b hb
        match b with
        | ⟨0, _⟩ => rfl
        | ⟨1, _⟩ => exact absurd rfl hb
      · show 160 + (k.val - 160) = k.val; omega
      · rw [v109_eq X B W hB]
        have hc : (⟨160 + (k.val - 160), by omega⟩ : Fin 240) = k := Fin.ext (by show 160 + (k.val - 160) = k.val; omega)
        rw [hc]

end Cert.RefValue

end
-- ==== Proof.PreFacts.lean ====
import proofs.«402630_j9972914061338_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

/-!
  The precondition read back. The predicate says: every entry of the three float arrays has absolute value below
  +∞, and every word of the integer array lies in [0, 64) as a signed number; each claim is an "all" over its array
  (a reduction by "and" from 1) and the four are joined by "and". Holding everywhere (the one result is 1) it gives,
  entry by entry: each float entry is a real number (neither infinity), and each integer entry reads, signed, in [0, 64).
-/

noncomputable section

namespace Cert.PreFacts

open Idealize.ShloMosaic

/-- The rank-0 shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max(x, −x) is strictly below +∞ is a real: at either infinity the maximum is +∞. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- A 32-bit word that is ≥ 0 and < 64 in the signed order has its signed value in [0, 64). -/
theorem range_of_cmp (w : BitVec 32) (h0 : IntOp.cmpi .sge w 0#32 = 1#1) (h1 : IntOp.cmpi .slt w 64#32 = 1#1) :
    0 ≤ w.toInt ∧ w.toInt < 64 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have s : (64#32 : BitVec 32).toInt = 64 := by decide
  rw [z] at h0
  rw [s] at h1
  exact ⟨h0, h1⟩

/-- THE PRECONDITION DECODED: all three float arrays are real everywhere, and every integer entry is in [0, 64). -/
theorem of_pre [Cert.Pre_finite_inputs.Facts] (X : FVec Ideal Cert.Pre_finite_inputs.S200000x240 .f32)
    (B : IVec Cert.Pre_finite_inputs.S200000 32) (W : FVec Ideal Cert.Pre_finite_inputs.S112 .f32)
    (Bi : FVec Ideal Cert.Pre_finite_inputs.S64 .f32)
    (h : Cert.Pre_finite_inputs.fn (F := Ideal) X B W Bi = fun _ => 1#1) :
    (∀ i, ∃ r : ℝ, X i = (r : EReal)) ∧ (∀ i, ∃ r : ℝ, W i = (r : EReal)) ∧ (∀ i, ∃ r : ℝ, Bi i = (r : EReal)) ∧
      (∀ i, 0 ≤ (B i).toInt ∧ (B i).toInt < 64) := by
  have e := congrFun h ValueIdx.ix0
  dsimp only [Cert.Pre_finite_inputs.fn, Cert.Pre_finite_inputs.fn_part1] at e
  -- the four conjuncts, outermost "and" first
  obtain ⟨e123, eB⟩ := IntOp.andi_eq_one.1 e
  obtain ⟨e12, e3⟩ := IntOp.andi_eq_one.1 e123
  obtain ⟨e1, e2⟩ := IntOp.andi_eq_one.1 e12
  refine ⟨fun i => ?_, fun i => ?_, fun i => ?_, fun i => ?_⟩
  · exact real_of_abs_lt (X i) (Host.reduce_andi_all _ _ _ _ _ e1 i)
  · exact real_of_abs_lt (W i) (Host.reduce_andi_all _ _ _ _ _ e2 i)
  · exact real_of_abs_lt (Bi i) (Host.reduce_andi_all _ _ _ _ _ e3 i)
  · obtain ⟨h0, h1⟩ := IntOp.andi_eq_one.1 (Host.reduce_andi_all _ _ _ _ _ eB i)
    exact range_of_cmp (B i) h0 h1

end Cert.PreFacts

end
-- ==== Proof.lean ====
/- The certificate of a per-graph normalisation layer over three blocks of columns (64 scalars, 32 × 3 and 16 × 5
   components): a kernel program of two pallas_calls — a reduction of one-hot(graph) · x, one-hot · x² and the one-hot's row
   sums over 50 row blocks on a 2 × 25 grid, then host arithmetic on 64-row tables, then an apply pass x · scale + shift
   whose per-row scale and shift are gathered by a one-hot product from a table split into a low-precision copy and a
   correction — against the plain reference (segment sums, per-graph means, centring, the scalar block divided by
   sqrt(mean squared deviation) + eps, weights and biases).

   The three frames: each kernel program's run through its two regions and the host operations between them
   (the same text read at the word level and at the extended reals), and the reference's own run.
   No operation was rewritten by the idealization, so there is nothing to preserve.
   The value claim, under finite float inputs and graph ids in [0, 64): at the extended reals the correction table is
   T − T = 0 for a finite table T, a one-hot product over the 64 graphs picks the row's own graph, the two cores' partial
   sums add up to the per-graph sums, and E[x²] − mean² is the mean squared deviation (clamping it at 0 changes
   nothing); so both programs compute x · scale(graph) + shift(graph). -/
import proofs.«402630_j9972914061338_3_alg».proof.Defs
import proofs.«402630_j9972914061338_3_alg».proof.Proof.Gen.Kernel
import proofs.«402630_j9972914061338_3_alg».proof.Proof.Gen.KernelIdeal
import proofs.«402630_j9972914061338_3_alg».proof.Proof.Gen.ReferenceIdeal
import proofs.«402630_j9972914061338_3_alg».proof.Proof.Gen.ReferenceIdeal.Run
import proofs.«402630_j9972914061338_3_alg».proof.Proof.Gen.ReferenceIdeal.Read
import proofs.«402630_j9972914061338_3_alg».proof.Proof.Gen.Pre_finite_inputs
import proofs.«402630_j9972914061338_3_alg».proof.Proof.KRun
import proofs.«402630_j9972914061338_3_alg».proof.Proof.KIRun
import proofs.«402630_j9972914061338_3_alg».proof.Proof.KIValue
import proofs.«402630_j9972914061338_3_alg».proof.Proof.RefValue
import proofs.«402630_j9972914061338_3_alg».proof.Proof.Algebra
import proofs.«402630_j9972914061338_3_alg».proof.Proof.PreFacts
import Idealize.ShloMosaic.Adequacy
import Idealize.ShloMosaic.Init

noncomputable section

namespace Cert.Proof

open Idealize.ShloMosaic Idealize.ShloMosaic.TcCoe Idealize.SL.Sem
open Idealize.ShloMosaic.ValueIdx

/-- The word-level kernel program runs to the end and leaves its arguments alone. -/
theorem frame_k : Cert.frame_Kernel := fun m ρ _ => Cert.Kernel.Hand.frame m ρ

/-- So does the same program read at the extended reals. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with x · scale(graph) + shift(graph) in their result array. -/
theorem algebraic : Cert.algebraic_KernelIdeal_ReferenceIdeal := by
  intro m ρ m' ρ' hpre hagree
  have hp := fun c => Cert.PreFacts.of_pre _ _ _ _ (hpre c)
  refine ⟨fun c => (fun i => Cert.Spec.G (Cert.KernelIdeal.Value.xf m c) (Cert.KernelIdeal.Value.bf m c)
      (Cert.KernelIdeal.Value.wf m c) (Cert.KernelIdeal.Value.biasf m c) (i 0) (i 1)), ?_, ?_⟩
  · refine (θ_run Cert.KernelIdeal.defs _ _).mono (fun r h c => ⟨?_, ?_, ?_, ?_, ?_⟩)
      (Cert.KernelIdeal.Hand.run_main (F := Ideal) m ρ)
    · refine (h c _ (Cert.KernelIdeal.Hand.mem_uc Cert.KernelIdeal.main_v97 (by decide))).trans ?_
      funext i
      obtain ⟨n, k, rfl⟩ : ∃ (n : Fin 200000) (k : Fin 240), i = ix2 n k := ⟨i 0, i 1, eq_ix2 i⟩
      exact Cert.KernelIdeal.Value.kernel_value m ρ c (hp c).1 (hp c).2.1 (hp c).2.2.1 (hp c).2.2.2 n k
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v110_eq, (hagree c).1, (hagree c).2.1, (hagree c).2.2.1, (hagree c).2.2.2]
    funext i
    obtain ⟨n, k, rfl⟩ : ∃ (n : Fin 200000) (k : Fin 240), i = ix2 n k := ⟨i 0, i 1, eq_ix2 i⟩
    exact (Cert.RefValue.ref_value _ _ _ _ (hp c).2.2.2 n k).trans
      (Cert.Algebra.R_eq_G _ _ _ _ (fun n k => (hp c).1 (ix2 n k)) (fun j => (hp c).2.1 (ix1 j)) (fun j => (hp c).2.2.1 (ix1 j)) n k)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
